-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000x1024 : Shape := ⟨2, ![6000, 1024]⟩
abbrev S1x15 : Shape := ⟨2, ![1, 15]⟩
abbrev S14x64 : Shape := ⟨2, ![14, 64]⟩
abbrev S1200 : Shape := ⟨1, ![1200]⟩
abbrev S4800 : Shape := ⟨1, ![4800]⟩
abbrev S_ : Shape := ⟨0, ![]⟩

class Facts : Prop where
  bcast_S_S6000x1024 : S_.BroadcastsInDim S6000x1024 (![] : Fin 0 → Fin S6000x1024.rank)
  reducesTo_S6000x1024_S_d0_1 : S6000x1024.ReducesTo [0, 1] S_
  h_S_ : 0 < S_.numel
  bcast_S_S1x15 : S_.BroadcastsInDim S1x15 (![] : Fin 0 → Fin S1x15.rank)
  reducesTo_S1x15_S_d0_1 : S1x15.ReducesTo [0, 1] S_
  bcast_S_S1200 : S_.BroadcastsInDim S1200 (![] : Fin 0 → Fin S1200.rank)
  reducesTo_S1200_S_d0 : S1200.ReducesTo [0] S_
  bcast_S_S4800 : S_.BroadcastsInDim S4800 (![] : Fin 0 → Fin S4800.rank)
  reducesTo_S4800_S_d0 : S4800.ReducesTo [0] S_

variable [Facts]

def fn_part1 {F : FTy → Type} [FloatOps F] (main_arg4 : IVec S4800 32) (main_v15 : IVec S_ 1) (main_c_5 : IVec S_ 32) : IVec S_ 1 :=
  let main_v16 : IVec S4800 32 := broadcastInDim S4800 ![] bcast_S_S4800 main_c_5
  let main_v17 : IVec S4800 1 := cmpi .sge main_arg4 main_v16
  let main_c_6 : IVec S_ 32 := constantI S_ 32 6000#32
  let main_v18 : IVec S4800 32 := broadcastInDim S4800 ![] bcast_S_S4800 main_c_6
  let main_v19 : IVec S4800 1 := cmpi .slt main_arg4 main_v18
  let main_v20 : IVec S4800 1 := andi main_v17 main_v19
  let main_c_7 : IVec S_ 1 := constantI S_ 1 1#1
  let main_v21 : IVec S_ 1 := (fun x v => Host.reduce IntOp.andi x v reducesTo_S4800_S_d0 h_S_) main_v20 main_c_7
  let main_v22 : IVec S_ 1 := andi main_v15 main_v21
  main_v22

def fn {F : FTy → Type} [FloatOps F] (main_arg0 : FVec F S6000x1024 .f32) (main_arg1 : FVec F S1x15 .f32) (main_arg2 : IVec S14x64 32) (main_arg3 : IVec S1200 32) (main_arg4 : IVec S4800 32) : IVec S_ 1 :=
  let main_v0 : FVec F S6000x1024 .f32 := Host.absf main_arg0
  let main_cst : FVec F S_ .f32 := constant S_ .f32 0x7F800000#32
  let main_v1 : FVec F S6000x1024 .f32 := broadcastInDim S6000x1024 ![] bcast_S_S6000x1024 main_cst
  let main_v2 : IVec S6000x1024 1 := cmpf .olt main_v0 main_v1
  let main_c : IVec S_ 1 := constantI S_ 1 1#1
  let main_v3 : IVec S_ 1 := (fun x v => Host.reduce IntOp.andi x v reducesTo_S6000x1024_S_d0_1 h_S_) main_v2 main_c
  let main_v4 : FVec F S1x15 .f32 := Host.absf main_arg1
  let main_cst_0 : FVec F S_ .f32 := constant S_ .f32 0x7F800000#32
  let main_v5 : FVec F S1x15 .f32 := broadcastInDim S1x15 ![] bcast_S_S1x15 main_cst_0
  let main_v6 : IVec S1x15 1 := cmpf .olt main_v4 main_v5
  let main_c_1 : IVec S_ 1 := constantI S_ 1 1#1
  let main_v7 : IVec S_ 1 := (fun x v => Host.reduce IntOp.andi x v reducesTo_S1x15_S_d0_1 h_S_) main_v6 main_c_1
  let main_v8 : IVec S_ 1 := andi main_v3 main_v7
  let main_c_2 : IVec S_ 32 := constantI S_ 32 0#32
  let main_v9 : IVec S1200 32 := broadcastInDim S1200 ![] bcast_S_S1200 main_c_2
  let main_v10 : IVec S1200 1 := cmpi .sge main_arg3 main_v9
  let main_c_3 : IVec S_ 32 := constantI S_ 32 6000#32
  let main_v11 : IVec S1200 32 := broadcastInDim S1200 ![] bcast_S_S1200 main_c_3
  let main_v12 : IVec S1200 1 := cmpi .slt main_arg3 main_v11
  let main_v13 : IVec S1200 1 := andi main_v10 main_v12
  let main_c_4 : IVec S_ 1 := constantI S_ 1 1#1
  let main_v14 : IVec S_ 1 := (fun x v => Host.reduce IntOp.andi x v reducesTo_S1200_S_d0 h_S_) main_v13 main_c_4
  let main_v15 : IVec S_ 1 := andi main_v8 main_v14
  let main_c_5 : IVec S_ 32 := constantI S_ 32 0#32
  fn_part1 (F := F) main_arg4 main_v15 main_c_5
-- ==== Kernel.lean ====
abbrev S6000x1024 : Shape := ⟨2, ![6000, 1024]⟩
abbrev S1x15 : Shape := ⟨2, ![1, 15]⟩
abbrev S14x64 : Shape := ⟨2, ![14, 64]⟩
abbrev S1200 : Shape := ⟨1, ![1200]⟩
abbrev S4800 : Shape := ⟨1, ![4800]⟩
abbrev S_ : Shape := ⟨0, ![]⟩
abbrev S16x1024 : Shape := ⟨2, ![16, 1024]⟩
abbrev S14 : Shape := ⟨1, ![14]⟩
abbrev S1x14 : Shape := ⟨2, ![1, 14]⟩
abbrev S14x1 : Shape := ⟨2, ![14, 1]⟩
abbrev S14x64x1 : Shape := ⟨3, ![14, 64, 1]⟩
abbrev S14x64x2 : Shape := ⟨3, ![14, 64, 2]⟩
abbrev S1024x19200 : Shape := ⟨2, ![1024, 19200]⟩
abbrev S1024x640 : Shape := ⟨2, ![1024, 640]⟩
abbrev S40x1024 : Shape := ⟨2, ![40, 1024]⟩
abbrev S1 : Shape := ⟨1, ![1]⟩
abbrev S1x1024 : Shape := ⟨2, ![1, 1024]⟩
abbrev S1024 : Shape := ⟨1, ![1024]⟩
abbrev S1x16x1024 : Shape := ⟨3, ![1, 16, 1024]⟩
abbrev S40x1x1024 : Shape := ⟨3, ![40, 1, 1024]⟩
abbrev S40x16x1024 : Shape := ⟨3, ![40, 16, 1024]⟩
abbrev S40x16 : Shape := ⟨2, ![40, 16]⟩
abbrev S40x16x1 : Shape := ⟨3, ![40, 16, 1]⟩
abbrev S640x1024 : Shape := ⟨2, ![640, 1024]⟩
abbrev S1024x76800 : Shape := ⟨2, ![1024, 76800]⟩
abbrev S1024x96000 : Shape := ⟨2, ![1024, 96000]⟩
abbrev S120x1024 : Shape := ⟨2, ![120, 1024]⟩
abbrev S1024x1920 : Shape := ⟨2, ![1024, 1920]⟩
abbrev S120x1x1024 : Shape := ⟨3, ![120, 1, 1024]⟩
abbrev S120x16x1024 : Shape := ⟨3, ![120, 16, 1024]⟩
abbrev S120x16 : Shape := ⟨2, ![120, 16]⟩
abbrev S120x16x1 : Shape := ⟨3, ![120, 16, 1]⟩
abbrev S1920x1024 : Shape := ⟨2, ![1920, 1024]⟩

abbrev nBuf : Space → Nat
  | .hbm => 60
  | .vmem => 18
  | .smem => 2
  | _ => 0

abbrev bufTy : (tb : Table) → Fin (tcTables nBuf tb) → BufTy
  | .hbm, ⟨0, _⟩ => ⟨S6000x1024, .f32⟩
  | .hbm, ⟨1, _⟩ => ⟨S1x15, .f32⟩
  | .hbm, ⟨2, _⟩ => ⟨S14x64, .i32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S14, .i32⟩
  | .hbm, ⟨8, _⟩ => ⟨S_, .i32⟩
  | .hbm, ⟨9, _⟩ => ⟨S14, .i32⟩
  | .hbm, ⟨10, _⟩ => ⟨S14, .i32⟩
  | .hbm, ⟨11, _⟩ => ⟨S1x14, .f32⟩
  | .hbm, ⟨12, _⟩ => ⟨S14, .f32⟩
  | .hbm, ⟨13, _⟩ => ⟨S14x1, .f32⟩
  | .hbm, ⟨14, _⟩ => ⟨S14x64, .f32⟩
  | .hbm, ⟨15, _⟩ => ⟨S14x1, .i32⟩
  | .hbm, ⟨16, _⟩ => ⟨S_, .i32⟩
  | .hbm, ⟨17, _⟩ => ⟨S14x1, .i32⟩
  | .hbm, ⟨18, _⟩ => ⟨S14x1, .i1⟩
  | .hbm, ⟨19, _⟩ => ⟨S_, .i32⟩
  | .hbm, ⟨20, _⟩ => ⟨S14x1, .i32⟩
  | .hbm, ⟨21, _⟩ => ⟨S14x1, .i32⟩
  | .hbm, ⟨22, _⟩ => ⟨S14x1, .i32⟩
  | .hbm, ⟨23, _⟩ => ⟨S_, .i32⟩
  | .hbm, ⟨24, _⟩ => ⟨S14x64, .i32⟩
  | .hbm, ⟨25, _⟩ => ⟨S14x64, .i1⟩
  | .hbm, ⟨26, _⟩ => ⟨S_, .i32⟩
  | .hbm, ⟨27, _⟩ => ⟨S14x64, .i32⟩
  | .hbm, ⟨28, _⟩ => ⟨S14x64, .i32⟩
  | .hbm, ⟨29, _⟩ => ⟨S14x64, .i32⟩
  | .hbm, ⟨30, _⟩ => ⟨S14x64, .i32⟩
  | .hbm, ⟨31, _⟩ => ⟨S14x64x1, .i32⟩
  | .hbm, ⟨32, _⟩ => ⟨S14x64x1, .i32⟩
  | .hbm, ⟨33, _⟩ => ⟨S14x64x2, .i32⟩
  | .hbm, ⟨34, _⟩ => ⟨S_, .f32⟩
  | .hbm, ⟨35, _⟩ => ⟨S14x64, .f32⟩
  | .hbm, ⟨36, _⟩ => ⟨S16x1024, .f32⟩
  | .hbm, ⟨37, _⟩ => ⟨S14x1, .i32⟩
  | .hbm, ⟨38, _⟩ => ⟨S_, .i32⟩
  | .hbm, ⟨39, _⟩ => ⟨S14x1, .i32⟩
  | .hbm, ⟨40, _⟩ => ⟨S14x1, .i1⟩
  | .hbm, ⟨41, _⟩ => ⟨S_, .i32⟩
  | .hbm, ⟨42, _⟩ => ⟨S14x1, .i32⟩
  | .hbm, ⟨43, _⟩ => ⟨S14x1, .i32⟩
  | .hbm, ⟨44, _⟩ => ⟨S14x1, .i32⟩
  | .hbm, ⟨45, _⟩ => ⟨S_, .i32⟩
  | .hbm, ⟨46, _⟩ => ⟨S14x64, .i32⟩
  | .hbm, ⟨47, _⟩ => ⟨S14x64, .i1⟩
  | .hbm, ⟨48, _⟩ => ⟨S_, .i32⟩
  | .hbm, ⟨49, _⟩ => ⟨S14x64, .i32⟩
  | .hbm, ⟨50, _⟩ => ⟨S14x64, .i32⟩
  | .hbm, ⟨51, _⟩ => ⟨S14x64, .i32⟩
  | .hbm, ⟨52, _⟩ => ⟨S14x64, .i32⟩
  | .hbm, ⟨53, _⟩ => ⟨S14x64x1, .i32⟩
  | .hbm, ⟨54, _⟩ => ⟨S14x64x1, .i32⟩
  | .hbm, ⟨55, _⟩ => ⟨S14x64x2, .i32⟩
  | .hbm, ⟨56, _⟩ => ⟨S16x1024, .f32⟩
  | .hbm, ⟨57, _⟩ => ⟨S1024x19200, .f32⟩
  | .hbm, ⟨58, _⟩ => ⟨S1024x76800, .f32⟩
  | .hbm, ⟨59, _⟩ => ⟨S1024x96000, .f32⟩
  | .local _ .vmem, ⟨0, _⟩ => ⟨S16x1024, .f32⟩
  | .local _ .vmem, ⟨1, _⟩ => ⟨S16x1024, .f32⟩
  | .local _ .vmem, ⟨2, _⟩ => ⟨S1024x640, .f32⟩
  | .local _ .vmem, ⟨3, _⟩ => ⟨S1024x640, .f32⟩
  | .local _ .vmem, ⟨4, _⟩ => ⟨S6000x1024, .f32⟩
  | .local _ .vmem, ⟨5, _⟩ => ⟨S40x1024, .f32⟩
  | .local _ .vmem, ⟨6, _⟩ => ⟨S16x1024, .f32⟩
  | .local _ .vmem, ⟨7, _⟩ => ⟨S16x1024, .f32⟩
  | .local _ .vmem, ⟨8, _⟩ => ⟨S1024x640, .f32⟩
  | .local _ .vmem, ⟨9, _⟩ => ⟨S1024x640, .f32⟩
  | .local _ .vmem, ⟨10, _⟩ => ⟨S6000x1024, .f32⟩
  | .local _ .vmem, ⟨11, _⟩ => ⟨S40x1024, .f32⟩
  | .local _ .vmem, ⟨12, _⟩ => ⟨S120x1024, .f32⟩
  | .local _ .vmem, ⟨13, _⟩ => ⟨S120x1024, .f32⟩
  | .local _ .vmem, ⟨14, _⟩ => ⟨S16x1024, .f32⟩
  | .local _ .vmem, ⟨15, _⟩ => ⟨S16x1024, .f32⟩
  | .local _ .vmem, ⟨16, _⟩ => ⟨S1024x1920, .f32⟩
  | .local _ .vmem, ⟨17, _⟩ => ⟨S1024x1920, .f32⟩
  | .local _ .smem, ⟨0, _⟩ => ⟨S1200, .i32⟩
  | .local _ .smem, ⟨1, _⟩ => ⟨S4800, .i32⟩
  | _, _ => ⟨S6000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 5
abbrev cc1_sem1_0 : DmaSem sig := 6
abbrev cc1_sem2_0 : DmaSem sig := 7
abbrev cc1_sem2_1 : DmaSem sig := 8
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![30], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c40_i32 : BitVec 32 := 40#32
  let v3 : BitVec 32 := Scalar.muli arg0 c40_i32
  let c0_i32_1 : BitVec 32 := 0#32
  let v4 : BitVec 32 := Scalar.addi v3 c0_i32_1
  let v5 : Index := Scalar.indexCast v4
  ![v5.toNat]
def k0_off2 (v6 : BitVec 32) : Fin 2 → Nat :=
  let v7 : Index := Scalar.indexCast v6
  let c0 : Index := 0#32
  ![v7.toNat, 0]

def k0_chk1 (v6 : BitVec 32) : Prop :=
  (∀ a, (k0_off2 v6) a + S1x1024.size a ≤ S6000x1024.size a)
instance k0_chk1.dec : ∀ (v6 : BitVec 32), Decidable (k0_chk1 v6) := fun v6 => decidable_of_iff' _ (Iff.of_eq (k0_chk1.eq_1 v6))
theorem k0_off2_inb : ∀ (v6 : BitVec 32) (k0_hw1 : k0_chk1 v6), ∀ a, (k0_off2 v6) a + S1x1024.size a ≤ S6000x1024.size a := fun v6 k0_hw1 => k0_hw1

def k0_off3 (i : grid0.Coords) : Fin 1 → Nat :=
  let arg0 : BitVec 32 := BitVec.ofNat 32 (i 0).val
  let c40_i32 : BitVec 32 := 40#32
  let v3 : BitVec 32 := Scalar.muli arg0 c40_i32
  let c1_i32 : BitVec 32 := 1#32
  let v13 : BitVec 32 := Scalar.addi v3 c1_i32
  let v14 : Index := Scalar.indexCast v13
  ![v14.toNat]
def k0_off4 (v15 : BitVec 32) : Fin 2 → Nat :=
  let v16 : Index := Scalar.indexCast v15
  let c0_4 : Index := 0#32
  ![v16.toNat, 0]

def k0_chk2 (v15 : BitVec 32) : Prop :=
  (∀ a, (k0_off4 v15) a + S1x1024.size a ≤ S6000x1024.size a)
instance k0_chk2.dec : ∀ (v15 : BitVec 32), Decidable (k0_chk2 v15) := fun v15 => decidable_of_iff' _ (Iff.of_eq (k0_chk2.eq_1 v15))
theorem k0_off4_inb : ∀ (v15 : BitVec 32) (k0_hw2 : k0_chk2 v15), ∀ a, (k0_off4 v15) a + S1x1024.size a ≤ S6000x1024.size a := fun v15 k0_hw2 => k0_hw2

def k0_off5 (i : grid0.Coords) : Fin 1 → Nat :=
  let arg0 : BitVec 32 := BitVec.ofNat 32 (i 0).val
  let c40_i32 : BitVec 32 := 40#32
  let v3 : BitVec 32 := Scalar.muli arg0 c40_i32
  let c2_i32 : BitVec 32 := 2#32
  let v22 : BitVec 32 := Scalar.addi v3 c2_i32
  let v23 : Index := Scalar.indexCast v22
  ![v23.toNat]
def k0_off6 (v24 : BitVec 32) : Fin 2 → Nat :=
  let v25 : Index := Scalar.indexCast v24
  let c0_6 : Index := 0#32
  ![v25.toNat, 0]

def k0_chk3 (v24 : BitVec 32) : Prop :=
  (∀ a, (k0_off6 v24) a + S1x1024.size a ≤ S6000x1024.size a)
instance k0_chk3.dec : ∀ (v24 : BitVec 32), Decidable (k0_chk3 v24) := fun v24 => decidable_of_iff' _ (Iff.of_eq (k0_chk3.eq_1 v24))
theorem k0_off6_inb : ∀ (v24 : BitVec 32) (k0_hw3 : k0_chk3 v24), ∀ a, (k0_off6 v24) a + S1x1024.size a ≤ S6000x1024.size a := fun v24 k0_hw3 => k0_hw3

def k0_off7 (i : grid0.Coords) : Fin 1 → Nat :=
  let arg0 : BitVec 32 := BitVec.ofNat 32 (i 0).val
  let c40_i32 : BitVec 32 := 40#32
  let v3 : BitVec 32 := Scalar.muli arg0 c40_i32
  let c3_i32 : BitVec 32 := 3#32
  let v31 : BitVec 32 := Scalar.addi v3 c3_i32
  let v32 : Index := Scalar.indexCast v31
  ![v32.toNat]
def k0_off8 (v33 : BitVec 32) : Fin 2 → Nat :=
  let v34 : Index := Scalar.indexCast v33
  let c0_8 : Index := 0#32
  ![v34.toNat, 0]

def k0_chk4 (v33 : BitVec 32) : Prop :=
  (∀ a, (k0_off8 v33) a + S1x1024.size a ≤ S6000x1024.size a)
instance k0_chk4.dec : ∀ (v33 : BitVec 32), Decidable (k0_chk4 v33) := fun v33 => decidable_of_iff' _ (Iff.of_eq (k0_chk4.eq_1 v33))
theorem k0_off8_inb : ∀ (v33 : BitVec 32) (k0_hw4 : k0_chk4 v33), ∀ a, (k0_off8 v33) a + S1x1024.size a ≤ S6000x1024.size a := fun v33 k0_hw4 => k0_hw4

def k0_off9 (i : grid0.Coords) : Fin 1 → Nat :=
  let arg0 : BitVec 32 := BitVec.ofNat 32 (i 0).val
  let c40_i32 : BitVec 32 := 40#32
  let v3 : BitVec 32 := Scalar.muli arg0 c40_i32
  let c4_i32 : BitVec 32 := 4#32
  let v40 : BitVec 32 := Scalar.addi v3 c4_i32
  let v41 : Index := Scalar.indexCast v40
  ![v41.toNat]
def k0_off10 (v42 : BitVec 32) : Fin 2 → Nat :=
  let v43 : Index := Scalar.indexCast v42
  let c0_10 : Index := 0#32
  ![v43.toNat, 0]

def k0_chk5 (v42 : BitVec 32) : Prop :=
  (∀ a, (k0_off10 v42) a + S1x1024.size a ≤ S6000x1024.size a)
instance k0_chk5.dec : ∀ (v42 : BitVec 32), Decidable (k0_chk5 v42) := fun v42 => decidable_of_iff' _ (Iff.of_eq (k0_chk5.eq_1 v42))
theorem k0_off10_inb : ∀ (v42 : BitVec 32) (k0_hw5 : k0_chk5 v42), ∀ a, (k0_off10 v42) a + S1x1024.size a ≤ S6000x1024.size a := fun v42 k0_hw5 => k0_hw5

def k0_off11 (i : grid0.Coords) : Fin 1 → Nat :=
  let arg0 : BitVec 32 := BitVec.ofNat 32 (i 0).val
  let c40_i32 : BitVec 32 := 40#32
  let v3 : BitVec 32 := Scalar.muli arg0 c40_i32
  let c5_i32 : BitVec 32 := 5#32
  let v49 : BitVec 32 := Scalar.addi v3 c5_i32
  let v50 : Index := Scalar.indexCast v49
  ![v50.toNat]
def k0_off12 (v51 : BitVec 32) : Fin 2 → Nat :=
  let v52 : Index := Scalar.indexCast v51
  let c0_12 : Index := 0#32
  ![v52.toNat, 0]

def k0_chk6 (v51 : BitVec 32) : Prop :=
  (∀ a, (k0_off12 v51) a + S1x1024.size a ≤ S6000x1024.size a)
instance k0_chk6.dec : ∀ (v51 : BitVec 32), Decidable (k0_chk6 v51) := fun v51 => decidable_of_iff' _ (Iff.of_eq (k0_chk6.eq_1 v51))
theorem k0_off12_inb : ∀ (v51 : BitVec 32) (k0_hw6 : k0_chk6 v51), ∀ a, (k0_off12 v51) a + S1x1024.size a ≤ S6000x1024.size a := fun v51 k0_hw6 => k0_hw6

def k0_off13 (i : grid0.Coords) : Fin 1 → Nat :=
  let arg0 : BitVec 32 := BitVec.ofNat 32 (i 0).val
  let c40_i32 : BitVec 32 := 40#32
  let v3 : BitVec 32 := Scalar.muli arg0 c40_i32
  let c6_i32 : BitVec 32 := 6#32
  let v58 : BitVec 32 := Scalar.addi v3 c6_i32
  let v59 : Index := Scalar.indexCast v58
  ![v59.toNat]
def k0_off14 (v60 : BitVec 32) : Fin 2 → Nat :=
  let v61 : Index := Scalar.indexCast v60
  let c0_14 : Index := 0#32
  ![v61.toNat, 0]

def k0_chk7 (v60 : BitVec 32) : Prop :=
  (∀ a, (k0_off14 v60) a + S1x1024.size a ≤ S6000x1024.size a)
instance k0_chk7.dec : ∀ (v60 : BitVec 32), Decidable (k0_chk7 v60) := fun v60 => decidable_of_iff' _ (Iff.of_eq (k0_chk7.eq_1 v60))
theorem k0_off14_inb : ∀ (v60 : BitVec 32) (k0_hw7 : k0_chk7 v60), ∀ a, (k0_off14 v60) a + S1x1024.size a ≤ S6000x1024.size a := fun v60 k0_hw7 => k0_hw7

def k0_off15 (i : grid0.Coords) : Fin 1 → Nat :=
  let arg0 : BitVec 32 := BitVec.ofNat 32 (i 0).val
  let c40_i32 : BitVec 32 := 40#32
  let v3 : BitVec 32 := Scalar.muli arg0 c40_i32
  let c7_i32 : BitVec 32 := 7#32
  let v67 : BitVec 32 := Scalar.addi v3 c7_i32
  let v68 : Index := Scalar.indexCast v67
  ![v68.toNat]
def k0_off16 (v69 : BitVec 32) : Fin 2 → Nat :=
  let v70 : Index := Scalar.indexCast v69
  let c0_16 : Index := 0#32
  ![v70.toNat, 0]

def k0_chk8 (v69 : BitVec 32) : Prop :=
  (∀ a, (k0_off16 v69) a + S1x1024.size a ≤ S6000x1024.size a)
instance k0_chk8.dec : ∀ (v69 : BitVec 32), Decidable (k0_chk8 v69) := fun v69 => decidable_of_iff' _ (Iff.of_eq (k0_chk8.eq_1 v69))
theorem k0_off16_inb : ∀ (v69 : BitVec 32) (k0_hw8 : k0_chk8 v69), ∀ a, (k0_off16 v69) a + S1x1024.size a ≤ S6000x1024.size a := fun v69 k0_hw8 => k0_hw8

def k0_off17 (i : grid0.Coords) : Fin 1 → Nat :=
  let arg0 : BitVec 32 := BitVec.ofNat 32 (i 0).val
  let c40_i32 : BitVec 32 := 40#32
  let v3 : BitVec 32 := Scalar.muli arg0 c40_i32
  let c8_i32 : BitVec 32 := 8#32
  let v76 : BitVec 32 := Scalar.addi v3 c8_i32
  let v77 : Index := Scalar.indexCast v76
  ![v77.toNat]
def k0_off18 (v78 : BitVec 32) : Fin 2 → Nat :=
  let v79 : Index := Scalar.indexCast v78
  let c0_18 : Index := 0#32
  ![v79.toNat, 0]

def k0_chk9 (v78 : BitVec 32) : Prop :=
  (∀ a, (k0_off18 v78) a + S1x1024.size a ≤ S6000x1024.size a)
instance k0_chk9.dec : ∀ (v78 : BitVec 32), Decidable (k0_chk9 v78) := fun v78 => decidable_of_iff' _ (Iff.of_eq (k0_chk9.eq_1 v78))
theorem k0_off18_inb : ∀ (v78 : BitVec 32) (k0_hw9 : k0_chk9 v78), ∀ a, (k0_off18 v78) a + S1x1024.size a ≤ S6000x1024.size a := fun v78 k0_hw9 => k0_hw9

def k0_off19 (i : grid0.Coords) : Fin 1 → Nat :=
  let arg0 : BitVec 32 := BitVec.ofNat 32 (i 0).val
  let c40_i32 : BitVec 32 := 40#32
  let v3 : BitVec 32 := Scalar.muli arg0 c40_i32
  let c9_i32 : BitVec 32 := 9#32
  let v85 : BitVec 32 := Scalar.addi v3 c9_i32
  let v86 : Index := Scalar.indexCast v85
  ![v86.toNat]
def k0_off20 (v87 : BitVec 32) : Fin 2 → Nat :=
  let v88 : Index := Scalar.indexCast v87
  let c0_20 : Index := 0#32
  ![v88.toNat, 0]

def k0_chk10 (v87 : BitVec 32) : Prop :=
  (∀ a, (k0_off20 v87) a + S1x1024.size a ≤ S6000x1024.size a)
instance k0_chk10.dec : ∀ (v87 : BitVec 32), Decidable (k0_chk10 v87) := fun v87 => decidable_of_iff' _ (Iff.of_eq (k0_chk10.eq_1 v87))
theorem k0_off20_inb : ∀ (v87 : BitVec 32) (k0_hw10 : k0_chk10 v87), ∀ a, (k0_off20 v87) a + S1x1024.size a ≤ S6000x1024.size a := fun v87 k0_hw10 => k0_hw10

def k0_off21 (i : grid0.Coords) : Fin 1 → Nat :=
  let arg0 : BitVec 32 := BitVec.ofNat 32 (i 0).val
  let c40_i32 : BitVec 32 := 40#32
  let v3 : BitVec 32 := Scalar.muli arg0 c40_i32
  let c10_i32 : BitVec 32 := 10#32
  let v94 : BitVec 32 := Scalar.addi v3 c10_i32
  let v95 : Index := Scalar.indexCast v94
  ![v95.toNat]
def k0_off22 (v96 : BitVec 32) : Fin 2 → Nat :=
  let v97 : Index := Scalar.indexCast v96
  let c0_22 : Index := 0#32
  ![v97.toNat, 0]

def k0_chk11 (v96 : BitVec 32) : Prop :=
  (∀ a, (k0_off22 v96) a + S1x1024.size a ≤ S6000x1024.size a)
instance k0_chk11.dec : ∀ (v96 : BitVec 32), Decidable (k0_chk11 v96) := fun v96 => decidable_of_iff' _ (Iff.of_eq (k0_chk11.eq_1 v96))
theorem k0_off22_inb : ∀ (v96 : BitVec 32) (k0_hw11 : k0_chk11 v96), ∀ a, (k0_off22 v96) a + S1x1024.size a ≤ S6000x1024.size a := fun v96 k0_hw11 => k0_hw11

def k0_off23 (i : grid0.Coords) : Fin 1 → Nat :=
  let arg0 : BitVec 32 := BitVec.ofNat 32 (i 0).val
  let c40_i32 : BitVec 32 := 40#32
  let v3 : BitVec 32 := Scalar.muli arg0 c40_i32
  let c11_i32 : BitVec 32 := 11#32
  let v103 : BitVec 32 := Scalar.addi v3 c11_i32
  let v104 : Index := Scalar.indexCast v103
  ![v104.toNat]
def k0_off24 (v105 : BitVec 32) : Fin 2 → Nat :=
  let v106 : Index := Scalar.indexCast v105
  let c0_24 : Index := 0#32
  ![v106.toNat, 0]

def k0_chk12 (v105 : BitVec 32) : Prop :=
  (∀ a, (k0_off24 v105) a + S1x1024.size a ≤ S6000x1024.size a)
instance k0_chk12.dec : ∀ (v105 : BitVec 32), Decidable (k0_chk12 v105) := fun v105 => decidable_of_iff' _ (Iff.of_eq (k0_chk12.eq_1 v105))
theorem k0_off24_inb : ∀ (v105 : BitVec 32) (k0_hw12 : k0_chk12 v105), ∀ a, (k0_off24 v105) a + S1x1024.size a ≤ S6000x1024.size a := fun v105 k0_hw12 => k0_hw12

def k0_off25 (i : grid0.Coords) : Fin 1 → Nat :=
  let arg0 : BitVec 32 := BitVec.ofNat 32 (i 0).val
  let c40_i32 : BitVec 32 := 40#32
  let v3 : BitVec 32 := Scalar.muli arg0 c40_i32
  let c12_i32 : BitVec 32 := 12#32
  let v112 : BitVec 32 := Scalar.addi v3 c12_i32
  let v113 : Index := Scalar.indexCast v112
  ![v113.toNat]
def k0_off26 (v114 : BitVec 32) : Fin 2 → Nat :=
  let v115 : Index := Scalar.indexCast v114
  let c0_26 : Index := 0#32
  ![v115.toNat, 0]

def k0_chk13 (v114 : BitVec 32) : Prop :=
  (∀ a, (k0_off26 v114) a + S1x1024.size a ≤ S6000x1024.size a)
instance k0_chk13.dec : ∀ (v114 : BitVec 32), Decidable (k0_chk13 v114) := fun v114 => decidable_of_iff' _ (Iff.of_eq (k0_chk13.eq_1 v114))
theorem k0_off26_inb : ∀ (v114 : BitVec 32) (k0_hw13 : k0_chk13 v114), ∀ a, (k0_off26 v114) a + S1x1024.size a ≤ S6000x1024.size a := fun v114 k0_hw13 => k0_hw13

def k0_off27 (i : grid0.Coords) : Fin 1 → Nat :=
  let arg0 : BitVec 32 := BitVec.ofNat 32 (i 0).val
  let c40_i32 : BitVec 32 := 40#32
  let v3 : BitVec 32 := Scalar.muli arg0 c40_i32
  let c13_i32 : BitVec 32 := 13#32
  let v121 : BitVec 32 := Scalar.addi v3 c13_i32
  let v122 : Index := Scalar.indexCast v121
  ![v122.toNat]
def k0_off28 (v123 : BitVec 32) : Fin 2 → Nat :=
  let v124 : Index := Scalar.indexCast v123
  let c0_28 : Index := 0#32
  ![v124.toNat, 0]

def k0_chk14 (v123 : BitVec 32) : Prop :=
  (∀ a, (k0_off28 v123) a + S1x1024.size a ≤ S6000x1024.size a)
instance k0_chk14.dec : ∀ (v123 : BitVec 32), Decidable (k0_chk14 v123) := fun v123 => decidable_of_iff' _ (Iff.of_eq (k0_chk14.eq_1 v123))
theorem k0_off28_inb : ∀ (v123 : BitVec 32) (k0_hw14 : k0_chk14 v123), ∀ a, (k0_off28 v123) a + S1x1024.size a ≤ S6000x1024.size a := fun v123 k0_hw14 => k0_hw14

def k0_off29 (i : grid0.Coords) : Fin 1 → Nat :=
  let arg0 : BitVec 32 := BitVec.ofNat 32 (i 0).val
  let c40_i32 : BitVec 32 := 40#32
  let v3 : BitVec 32 := Scalar.muli arg0 c40_i32
  let c14_i32 : BitVec 32 := 14#32
  let v130 : BitVec 32 := Scalar.addi v3 c14_i32
  let v131 : Index := Scalar.indexCast v130
  ![v131.toNat]
def k0_off30 (v132 : BitVec 32) : Fin 2 → Nat :=
  let v133 : Index := Scalar.indexCast v132
  let c0_30 : Index := 0#32
  ![v133.toNat, 0]

def k0_chk15 (v132 : BitVec 32) : Prop :=
  (∀ a, (k0_off30 v132) a + S1x1024.size a ≤ S6000x1024.size a)
instance k0_chk15.dec : ∀ (v132 : BitVec 32), Decidable (k0_chk15 v132) := fun v132 => decidable_of_iff' _ (Iff.of_eq (k0_chk15.eq_1 v132))
theorem k0_off30_inb : ∀ (v132 : BitVec 32) (k0_hw15 : k0_chk15 v132), ∀ a, (k0_off30 v132) a + S1x1024.size a ≤ S6000x1024.size a := fun v132 k0_hw15 => k0_hw15

def k0_off31 (i : grid0.Coords) : Fin 1 → Nat :=
  let arg0 : BitVec 32 := BitVec.ofNat 32 (i 0).val
  let c40_i32 : BitVec 32 := 40#32
  let v3 : BitVec 32 := Scalar.muli arg0 c40_i32
  let c15_i32 : BitVec 32 := 15#32
  let v139 : BitVec 32 := Scalar.addi v3 c15_i32
  let v140 : Index := Scalar.indexCast v139
  ![v140.toNat]
def k0_off32 (v141 : BitVec 32) : Fin 2 → Nat :=
  let v142 : Index := Scalar.indexCast v141
  let c0_32 : Index := 0#32
  ![v142.toNat, 0]

def k0_chk16 (v141 : BitVec 32) : Prop :=
  (∀ a, (k0_off32 v141) a + S1x1024.size a ≤ S6000x1024.size a)
instance k0_chk16.dec : ∀ (v141 : BitVec 32), Decidable (k0_chk16 v141) := fun v141 => decidable_of_iff' _ (Iff.of_eq (k0_chk16.eq_1 v141))
theorem k0_off32_inb : ∀ (v141 : BitVec 32) (k0_hw16 : k0_chk16 v141), ∀ a, (k0_off32 v141) a + S1x1024.size a ≤ S6000x1024.size a := fun v141 k0_hw16 => k0_hw16

def k0_off33 (i : grid0.Coords) : Fin 1 → Nat :=
  let arg0 : BitVec 32 := BitVec.ofNat 32 (i 0).val
  let c40_i32 : BitVec 32 := 40#32
  let v3 : BitVec 32 := Scalar.muli arg0 c40_i32
  let c16_i32 : BitVec 32 := 16#32
  let v148 : BitVec 32 := Scalar.addi v3 c16_i32
  let v149 : Index := Scalar.indexCast v148
  ![v149.toNat]
def k0_off34 (v150 : BitVec 32) : Fin 2 → Nat :=
  let v151 : Index := Scalar.indexCast v150
  let c0_34 : Index := 0#32
  ![v151.toNat, 0]

def k0_chk17 (v150 : BitVec 32) : Prop :=
  (∀ a, (k0_off34 v150) a + S1x1024.size a ≤ S6000x1024.size a)
instance k0_chk17.dec : ∀ (v150 : BitVec 32), Decidable (k0_chk17 v150) := fun v150 => decidable_of_iff' _ (Iff.of_eq (k0_chk17.eq_1 v150))
theorem k0_off34_inb : ∀ (v150 : BitVec 32) (k0_hw17 : k0_chk17 v150), ∀ a, (k0_off34 v150) a + S1x1024.size a ≤ S6000x1024.size a := fun v150 k0_hw17 => k0_hw17

def k0_off35 (i : grid0.Coords) : Fin 1 → Nat :=
  let arg0 : BitVec 32 := BitVec.ofNat 32 (i 0).val
  let c40_i32 : BitVec 32 := 40#32
  let v3 : BitVec 32 := Scalar.muli arg0 c40_i32
  let c17_i32 : BitVec 32 := 17#32
  let v157 : BitVec 32 := Scalar.addi v3 c17_i32
  let v158 : Index := Scalar.indexCast v157
  ![v158.toNat]
def k0_off36 (v159 : BitVec 32) : Fin 2 → Nat :=
  let v160 : Index := Scalar.indexCast v159
  let c0_36 : Index := 0#32
  ![v160.toNat, 0]

def k0_chk18 (v159 : BitVec 32) : Prop :=
  (∀ a, (k0_off36 v159) a + S1x1024.size a ≤ S6000x1024.size a)
instance k0_chk18.dec : ∀ (v159 : BitVec 32), Decidable (k0_chk18 v159) := fun v159 => decidable_of_iff' _ (Iff.of_eq (k0_chk18.eq_1 v159))
theorem k0_off36_inb : ∀ (v159 : BitVec 32) (k0_hw18 : k0_chk18 v159), ∀ a, (k0_off36 v159) a + S1x1024.size a ≤ S6000x1024.size a := fun v159 k0_hw18 => k0_hw18

def k0_off37 (i : grid0.Coords) : Fin 1 → Nat :=
  let arg0 : BitVec 32 := BitVec.ofNat 32 (i 0).val
  let c40_i32 : BitVec 32 := 40#32
  let v3 : BitVec 32 := Scalar.muli arg0 c40_i32
  let c18_i32 : BitVec 32 := 18#32
  let v166 : BitVec 32 := Scalar.addi v3 c18_i32
  let v167 : Index := Scalar.indexCast v166
  ![v167.toNat]
def k0_off38 (v168 : BitVec 32) : Fin 2 → Nat :=
  let v169 : Index := Scalar.indexCast v168
  let c0_38 : Index := 0#32
  ![v169.toNat, 0]

def k0_chk19 (v168 : BitVec 32) : Prop :=
  (∀ a, (k0_off38 v168) a + S1x1024.size a ≤ S6000x1024.size a)
instance k0_chk19.dec : ∀ (v168 : BitVec 32), Decidable (k0_chk19 v168) := fun v168 => decidable_of_iff' _ (Iff.of_eq (k0_chk19.eq_1 v168))
theorem k0_off38_inb : ∀ (v168 : BitVec 32) (k0_hw19 : k0_chk19 v168), ∀ a, (k0_off38 v168) a + S1x1024.size a ≤ S6000x1024.size a := fun v168 k0_hw19 => k0_hw19

def k0_off39 (i : grid0.Coords) : Fin 1 → Nat :=
  let arg0 : BitVec 32 := BitVec.ofNat 32 (i 0).val
  let c40_i32 : BitVec 32 := 40#32
  let v3 : BitVec 32 := Scalar.muli arg0 c40_i32
  let c19_i32 : BitVec 32 := 19#32
  let v175 : BitVec 32 := Scalar.addi v3 c19_i32
  let v176 : Index := Scalar.indexCast v175
  ![v176.toNat]
def k0_off40 (v177 : BitVec 32) : Fin 2 → Nat :=
  let v178 : Index := Scalar.indexCast v177
  let c0_40 : Index := 0#32
  ![v178.toNat, 0]

def k0_chk20 (v177 : BitVec 32) : Prop :=
  (∀ a, (k0_off40 v177) a + S1x1024.size a ≤ S6000x1024.size a)
instance k0_chk20.dec : ∀ (v177 : BitVec 32), Decidable (k0_chk20 v177) := fun v177 => decidable_of_iff' _ (Iff.of_eq (k0_chk20.eq_1 v177))
theorem k0_off40_inb : ∀ (v177 : BitVec 32) (k0_hw20 : k0_chk20 v177), ∀ a, (k0_off40 v177) a + S1x1024.size a ≤ S6000x1024.size a := fun v177 k0_hw20 => k0_hw20

def k0_off41 (i : grid0.Coords) : Fin 1 → Nat :=
  let arg0 : BitVec 32 := BitVec.ofNat 32 (i 0).val
  let c40_i32 : BitVec 32 := 40#32
  let v3 : BitVec 32 := Scalar.muli arg0 c40_i32
  let c20_i32 : BitVec 32 := 20#32
  let v184 : BitVec 32 := Scalar.addi v3 c20_i32
  let v185 : Index := Scalar.indexCast v184
  ![v185.toNat]
def k0_off42 (v186 : BitVec 32) : Fin 2 → Nat :=
  let v187 : Index := Scalar.indexCast v186
  let c0_42 : Index := 0#32
  ![v187.toNat, 0]

def k0_chk21 (v186 : BitVec 32) : Prop :=
  (∀ a, (k0_off42 v186) a + S1x1024.size a ≤ S6000x1024.size a)
instance k0_chk21.dec : ∀ (v186 : BitVec 32), Decidable (k0_chk21 v186) := fun v186 => decidable_of_iff' _ (Iff.of_eq (k0_chk21.eq_1 v186))
theorem k0_off42_inb : ∀ (v186 : BitVec 32) (k0_hw21 : k0_chk21 v186), ∀ a, (k0_off42 v186) a + S1x1024.size a ≤ S6000x1024.size a := fun v186 k0_hw21 => k0_hw21

def k0_off43 (i : grid0.Coords) : Fin 1 → Nat :=
  let arg0 : BitVec 32 := BitVec.ofNat 32 (i 0).val
  let c40_i32 : BitVec 32 := 40#32
  let v3 : BitVec 32 := Scalar.muli arg0 c40_i32
  let c21_i32 : BitVec 32 := 21#32
  let v193 : BitVec 32 := Scalar.addi v3 c21_i32
  let v194 : Index := Scalar.indexCast v193
  ![v194.toNat]
def k0_off44 (v195 : BitVec 32) : Fin 2 → Nat :=
  let v196 : Index := Scalar.indexCast v195
  let c0_44 : Index := 0#32
  ![v196.toNat, 0]

def k0_chk22 (v195 : BitVec 32) : Prop :=
  (∀ a, (k0_off44 v195) a + S1x1024.size a ≤ S6000x1024.size a)
instance k0_chk22.dec : ∀ (v195 : BitVec 32), Decidable (k0_chk22 v195) := fun v195 => decidable_of_iff' _ (Iff.of_eq (k0_chk22.eq_1 v195))
theorem k0_off44_inb : ∀ (v195 : BitVec 32) (k0_hw22 : k0_chk22 v195), ∀ a, (k0_off44 v195) a + S1x1024.size a ≤ S6000x1024.size a := fun v195 k0_hw22 => k0_hw22

def k0_off45 (i : grid0.Coords) : Fin 1 → Nat :=
  let arg0 : BitVec 32 := BitVec.ofNat 32 (i 0).val
  let c40_i32 : BitVec 32 := 40#32
  let v3 : BitVec 32 := Scalar.muli arg0 c40_i32
  let c22_i32 : BitVec 32 := 22#32
  let v202 : BitVec 32 := Scalar.addi v3 c22_i32
  let v203 : Index := Scalar.indexCast v202
  ![v203.toNat]
def k0_off46 (v204 : BitVec 32) : Fin 2 → Nat :=
  let v205 : Index := Scalar.indexCast v204
  let c0_46 : Index := 0#32
  ![v205.toNat, 0]

def k0_chk23 (v204 : BitVec 32) : Prop :=
  (∀ a, (k0_off46 v204) a + S1x1024.size a ≤ S6000x1024.size a)
instance k0_chk23.dec : ∀ (v204 : BitVec 32), Decidable (k0_chk23 v204) := fun v204 => decidable_of_iff' _ (Iff.of_eq (k0_chk23.eq_1 v204))
theorem k0_off46_inb : ∀ (v204 : BitVec 32) (k0_hw23 : k0_chk23 v204), ∀ a, (k0_off46 v204) a + S1x1024.size a ≤ S6000x1024.size a := fun v204 k0_hw23 => k0_hw23

def k0_off47 (i : grid0.Coords) : Fin 1 → Nat :=
  let arg0 : BitVec 32 := BitVec.ofNat 32 (i 0).val
  let c40_i32 : BitVec 32 := 40#32
  let v3 : BitVec 32 := Scalar.muli arg0 c40_i32
  let c23_i32 : BitVec 32 := 23#32
  let v211 : BitVec 32 := Scalar.addi v3 c23_i32
  let v212 : Index := Scalar.indexCast v211
  ![v212.toNat]
def k0_off48 (v213 : BitVec 32) : Fin 2 → Nat :=
  let v214 : Index := Scalar.indexCast v213
  let c0_48 : Index := 0#32
  ![v214.toNat, 0]

def k0_chk24 (v213 : BitVec 32) : Prop :=
  (∀ a, (k0_off48 v213) a + S1x1024.size a ≤ S6000x1024.size a)
instance k0_chk24.dec : ∀ (v213 : BitVec 32), Decidable (k0_chk24 v213) := fun v213 => decidable_of_iff' _ (Iff.of_eq (k0_chk24.eq_1 v213))
theorem k0_off48_inb : ∀ (v213 : BitVec 32) (k0_hw24 : k0_chk24 v213), ∀ a, (k0_off48 v213) a + S1x1024.size a ≤ S6000x1024.size a := fun v213 k0_hw24 => k0_hw24

def k0_off49 (i : grid0.Coords) : Fin 1 → Nat :=
  let arg0 : BitVec 32 := BitVec.ofNat 32 (i 0).val
  let c40_i32 : BitVec 32 := 40#32
  let v3 : BitVec 32 := Scalar.muli arg0 c40_i32
  let c24_i32 : BitVec 32 := 24#32
  let v220 : BitVec 32 := Scalar.addi v3 c24_i32
  let v221 : Index := Scalar.indexCast v220
  ![v221.toNat]
def k0_off50 (v222 : BitVec 32) : Fin 2 → Nat :=
  let v223 : Index := Scalar.indexCast v222
  let c0_50 : Index := 0#32
  ![v223.toNat, 0]

def k0_chk25 (v222 : BitVec 32) : Prop :=
  (∀ a, (k0_off50 v222) a + S1x1024.size a ≤ S6000x1024.size a)
instance k0_chk25.dec : ∀ (v222 : BitVec 32), Decidable (k0_chk25 v222) := fun v222 => decidable_of_iff' _ (Iff.of_eq (k0_chk25.eq_1 v222))
theorem k0_off50_inb : ∀ (v222 : BitVec 32) (k0_hw25 : k0_chk25 v222), ∀ a, (k0_off50 v222) a + S1x1024.size a ≤ S6000x1024.size a := fun v222 k0_hw25 => k0_hw25

def k0_off51 (i : grid0.Coords) : Fin 1 → Nat :=
  let arg0 : BitVec 32 := BitVec.ofNat 32 (i 0).val
  let c40_i32 : BitVec 32 := 40#32
  let v3 : BitVec 32 := Scalar.muli arg0 c40_i32
  let c25_i32 : BitVec 32 := 25#32
  let v229 : BitVec 32 := Scalar.addi v3 c25_i32
  let v230 : Index := Scalar.indexCast v229
  ![v230.toNat]
def k0_off52 (v231 : BitVec 32) : Fin 2 → Nat :=
  let v232 : Index := Scalar.indexCast v231
  let c0_52 : Index := 0#32
  ![v232.toNat, 0]

def k0_chk26 (v231 : BitVec 32) : Prop :=
  (∀ a, (k0_off52 v231) a + S1x1024.size a ≤ S6000x1024.size a)
instance k0_chk26.dec : ∀ (v231 : BitVec 32), Decidable (k0_chk26 v231) := fun v231 => decidable_of_iff' _ (Iff.of_eq (k0_chk26.eq_1 v231))
theorem k0_off52_inb : ∀ (v231 : BitVec 32) (k0_hw26 : k0_chk26 v231), ∀ a, (k0_off52 v231) a + S1x1024.size a ≤ S6000x1024.size a := fun v231 k0_hw26 => k0_hw26

def k0_off53 (i : grid0.Coords) : Fin 1 → Nat :=
  let arg0 : BitVec 32 := BitVec.ofNat 32 (i 0).val
  let c40_i32 : BitVec 32 := 40#32
  let v3 : BitVec 32 := Scalar.muli arg0 c40_i32
  let c26_i32 : BitVec 32 := 26#32
  let v238 : BitVec 32 := Scalar.addi v3 c26_i32
  let v239 : Index := Scalar.indexCast v238
  ![v239.toNat]
def k0_off54 (v240 : BitVec 32) : Fin 2 → Nat :=
  let v241 : Index := Scalar.indexCast v240
  let c0_54 : Index := 0#32
  ![v241.toNat, 0]

def k0_chk27 (v240 : BitVec 32) : Prop :=
  (∀ a, (k0_off54 v240) a + S1x1024.size a ≤ S6000x1024.size a)
instance k0_chk27.dec : ∀ (v240 : BitVec 32), Decidable (k0_chk27 v240) := fun v240 => decidable_of_iff' _ (Iff.of_eq (k0_chk27.eq_1 v240))
theorem k0_off54_inb : ∀ (v240 : BitVec 32) (k0_hw27 : k0_chk27 v240), ∀ a, (k0_off54 v240) a + S1x1024.size a ≤ S6000x1024.size a := fun v240 k0_hw27 => k0_hw27

def k0_off55 (i : grid0.Coords) : Fin 1 → Nat :=
  let arg0 : BitVec 32 := BitVec.ofNat 32 (i 0).val
  let c40_i32 : BitVec 32 := 40#32
  let v3 : BitVec 32 := Scalar.muli arg0 c40_i32
  let c27_i32 : BitVec 32 := 27#32
  let v247 : BitVec 32 := Scalar.addi v3 c27_i32
  let v248 : Index := Scalar.indexCast v247
  ![v248.toNat]
def k0_off56 (v249 : BitVec 32) : Fin 2 → Nat :=
  let v250 : Index := Scalar.indexCast v249
  let c0_56 : Index := 0#32
  ![v250.toNat, 0]

def k0_chk28 (v249 : BitVec 32) : Prop :=
  (∀ a, (k0_off56 v249) a + S1x1024.size a ≤ S6000x1024.size a)
instance k0_chk28.dec : ∀ (v249 : BitVec 32), Decidable (k0_chk28 v249) := fun v249 => decidable_of_iff' _ (Iff.of_eq (k0_chk28.eq_1 v249))
theorem k0_off56_inb : ∀ (v249 : BitVec 32) (k0_hw28 : k0_chk28 v249), ∀ a, (k0_off56 v249) a + S1x1024.size a ≤ S6000x1024.size a := fun v249 k0_hw28 => k0_hw28

def k0_off57 (i : grid0.Coords) : Fin 1 → Nat :=
  let arg0 : BitVec 32 := BitVec.ofNat 32 (i 0).val
  let c40_i32 : BitVec 32 := 40#32
  let v3 : BitVec 32 := Scalar.muli arg0 c40_i32
  let c28_i32 : BitVec 32 := 28#32
  let v256 : BitVec 32 := Scalar.addi v3 c28_i32
  let v257 : Index := Scalar.indexCast v256
  ![v257.toNat]
def k0_off58 (v258 : BitVec 32) : Fin 2 → Nat :=
  let v259 : Index := Scalar.indexCast v258
  let c0_58 : Index := 0#32
  ![v259.toNat, 0]

def k0_chk29 (v258 : BitVec 32) : Prop :=
  (∀ a, (k0_off58 v258) a + S1x1024.size a ≤ S6000x1024.size a)
instance k0_chk29.dec : ∀ (v258 : BitVec 32), Decidable (k0_chk29 v258) := fun v258 => decidable_of_iff' _ (Iff.of_eq (k0_chk29.eq_1 v258))
theorem k0_off58_inb : ∀ (v258 : BitVec 32) (k0_hw29 : k0_chk29 v258), ∀ a, (k0_off58 v258) a + S1x1024.size a ≤ S6000x1024.size a := fun v258 k0_hw29 => k0_hw29

def k0_off59 (i : grid0.Coords) : Fin 1 → Nat :=
  let arg0 : BitVec 32 := BitVec.ofNat 32 (i 0).val
  let c40_i32 : BitVec 32 := 40#32
  let v3 : BitVec 32 := Scalar.muli arg0 c40_i32
  let c29_i32 : BitVec 32 := 29#32
  let v265 : BitVec 32 := Scalar.addi v3 c29_i32
  let v266 : Index := Scalar.indexCast v265
  ![v266.toNat]
def k0_off60 (v267 : BitVec 32) : Fin 2 → Nat :=
  let v268 : Index := Scalar.indexCast v267
  let c0_60 : Index := 0#32
  ![v268.toNat, 0]

def k0_chk30 (v267 : BitVec 32) : Prop :=
  (∀ a, (k0_off60 v267) a + S1x1024.size a ≤ S6000x1024.size a)
instance k0_chk30.dec : ∀ (v267 : BitVec 32), Decidable (k0_chk30 v267) := fun v267 => decidable_of_iff' _ (Iff.of_eq (k0_chk30.eq_1 v267))
theorem k0_off60_inb : ∀ (v267 : BitVec 32) (k0_hw30 : k0_chk30 v267), ∀ a, (k0_off60 v267) a + S1x1024.size a ≤ S6000x1024.size a := fun v267 k0_hw30 => k0_hw30

def k0_off61 (i : grid0.Coords) : Fin 1 → Nat :=
  let arg0 : BitVec 32 := BitVec.ofNat 32 (i 0).val
  let c40_i32 : BitVec 32 := 40#32
  let v3 : BitVec 32 := Scalar.muli arg0 c40_i32
  let c30_i32 : BitVec 32 := 30#32
  let v274 : BitVec 32 := Scalar.addi v3 c30_i32
  let v275 : Index := Scalar.indexCast v274
  ![v275.toNat]
def k0_off62 (v276 : BitVec 32) : Fin 2 → Nat :=
  let v277 : Index := Scalar.indexCast v276
  let c0_62 : Index := 0#32
  ![v277.toNat, 0]

def k0_chk31 (v276 : BitVec 32) : Prop :=
  (∀ a, (k0_off62 v276) a + S1x1024.size a ≤ S6000x1024.size a)
instance k0_chk31.dec : ∀ (v276 : BitVec 32), Decidable (k0_chk31 v276) := fun v276 => decidable_of_iff' _ (Iff.of_eq (k0_chk31.eq_1 v276))
theorem k0_off62_inb : ∀ (v276 : BitVec 32) (k0_hw31 : k0_chk31 v276), ∀ a, (k0_off62 v276) a + S1x1024.size a ≤ S6000x1024.size a := fun v276 k0_hw31 => k0_hw31

def k0_off63 (i : grid0.Coords) : Fin 1 → Nat :=
  let arg0 : BitVec 32 := BitVec.ofNat 32 (i 0).val
  let c40_i32 : BitVec 32 := 40#32
  let v3 : BitVec 32 := Scalar.muli arg0 c40_i32
  let c31_i32 : BitVec 32 := 31#32
  let v283 : BitVec 32 := Scalar.addi v3 c31_i32
  let v284 : Index := Scalar.indexCast v283
  ![v284.toNat]
def k0_off64 (v285 : BitVec 32) : Fin 2 → Nat :=
  let v286 : Index := Scalar.indexCast v285
  let c0_64 : Index := 0#32
  ![v286.toNat, 0]

def k0_chk32 (v285 : BitVec 32) : Prop :=
  (∀ a, (k0_off64 v285) a + S1x1024.size a ≤ S6000x1024.size a)
instance k0_chk32.dec : ∀ (v285 : BitVec 32), Decidable (k0_chk32 v285) := fun v285 => decidable_of_iff' _ (Iff.of_eq (k0_chk32.eq_1 v285))
theorem k0_off64_inb : ∀ (v285 : BitVec 32) (k0_hw32 : k0_chk32 v285), ∀ a, (k0_off64 v285) a + S1x1024.size a ≤ S6000x1024.size a := fun v285 k0_hw32 => k0_hw32

def k0_off65 (i : grid0.Coords) : Fin 1 → Nat :=
  let arg0 : BitVec 32 := BitVec.ofNat 32 (i 0).val
  let c40_i32 : BitVec 32 := 40#32
  let v3 : BitVec 32 := Scalar.muli arg0 c40_i32
  let c32_i32 : BitVec 32 := 32#32
  let v292 : BitVec 32 := Scalar.addi v3 c32_i32
  let v293 : Index := Scalar.indexCast v292
  ![v293.toNat]
def k0_off66 (v294 : BitVec 32) : Fin 2 → Nat :=
  let v295 : Index := Scalar.indexCast v294
  let c0_66 : Index := 0#32
  ![v295.toNat, 0]

def k0_chk33 (v294 : BitVec 32) : Prop :=
  (∀ a, (k0_off66 v294) a + S1x1024.size a ≤ S6000x1024.size a)
instance k0_chk33.dec : ∀ (v294 : BitVec 32), Decidable (k0_chk33 v294) := fun v294 => decidable_of_iff' _ (Iff.of_eq (k0_chk33.eq_1 v294))
theorem k0_off66_inb : ∀ (v294 : BitVec 32) (k0_hw33 : k0_chk33 v294), ∀ a, (k0_off66 v294) a + S1x1024.size a ≤ S6000x1024.size a := fun v294 k0_hw33 => k0_hw33

def k0_off67 (i : grid0.Coords) : Fin 1 → Nat :=
  let arg0 : BitVec 32 := BitVec.ofNat 32 (i 0).val
  let c40_i32 : BitVec 32 := 40#32
  let v3 : BitVec 32 := Scalar.muli arg0 c40_i32
  let c33_i32 : BitVec 32 := 33#32
  let v301 : BitVec 32 := Scalar.addi v3 c33_i32
  let v302 : Index := Scalar.indexCast v301
  ![v302.toNat]
def k0_off68 (v303 : BitVec 32) : Fin 2 → Nat :=
  let v304 : Index := Scalar.indexCast v303
  let c0_68 : Index := 0#32
  ![v304.toNat, 0]

def k0_chk34 (v303 : BitVec 32) : Prop :=
  (∀ a, (k0_off68 v303) a + S1x1024.size a ≤ S6000x1024.size a)
instance k0_chk34.dec : ∀ (v303 : BitVec 32), Decidable (k0_chk34 v303) := fun v303 => decidable_of_iff' _ (Iff.of_eq (k0_chk34.eq_1 v303))
theorem k0_off68_inb : ∀ (v303 : BitVec 32) (k0_hw34 : k0_chk34 v303), ∀ a, (k0_off68 v303) a + S1x1024.size a ≤ S6000x1024.size a := fun v303 k0_hw34 => k0_hw34

def k0_off69 (i : grid0.Coords) : Fin 1 → Nat :=
  let arg0 : BitVec 32 := BitVec.ofNat 32 (i 0).val
  let c40_i32 : BitVec 32 := 40#32
  let v3 : BitVec 32 := Scalar.muli arg0 c40_i32
  let c34_i32 : BitVec 32 := 34#32
  let v310 : BitVec 32 := Scalar.addi v3 c34_i32
  let v311 : Index := Scalar.indexCast v310
  ![v311.toNat]
def k0_off70 (v312 : BitVec 32) : Fin 2 → Nat :=
  let v313 : Index := Scalar.indexCast v312
  let c0_70 : Index := 0#32
  ![v313.toNat, 0]

def k0_chk35 (v312 : BitVec 32) : Prop :=
  (∀ a, (k0_off70 v312) a + S1x1024.size a ≤ S6000x1024.size a)
instance k0_chk35.dec : ∀ (v312 : BitVec 32), Decidable (k0_chk35 v312) := fun v312 => decidable_of_iff' _ (Iff.of_eq (k0_chk35.eq_1 v312))
theorem k0_off70_inb : ∀ (v312 : BitVec 32) (k0_hw35 : k0_chk35 v312), ∀ a, (k0_off70 v312) a + S1x1024.size a ≤ S6000x1024.size a := fun v312 k0_hw35 => k0_hw35

def k0_off71 (i : grid0.Coords) : Fin 1 → Nat :=
  let arg0 : BitVec 32 := BitVec.ofNat 32 (i 0).val
  let c40_i32 : BitVec 32 := 40#32
  let v3 : BitVec 32 := Scalar.muli arg0 c40_i32
  let c35_i32 : BitVec 32 := 35#32
  let v319 : BitVec 32 := Scalar.addi v3 c35_i32
  let v320 : Index := Scalar.indexCast v319
  ![v320.toNat]
def k0_off72 (v321 : BitVec 32) : Fin 2 → Nat :=
  let v322 : Index := Scalar.indexCast v321
  let c0_72 : Index := 0#32
  ![v322.toNat, 0]

def k0_chk36 (v321 : BitVec 32) : Prop :=
  (∀ a, (k0_off72 v321) a + S1x1024.size a ≤ S6000x1024.size a)
instance k0_chk36.dec : ∀ (v321 : BitVec 32), Decidable (k0_chk36 v321) := fun v321 => decidable_of_iff' _ (Iff.of_eq (k0_chk36.eq_1 v321))
theorem k0_off72_inb : ∀ (v321 : BitVec 32) (k0_hw36 : k0_chk36 v321), ∀ a, (k0_off72 v321) a + S1x1024.size a ≤ S6000x1024.size a := fun v321 k0_hw36 => k0_hw36

def k0_off73 (i : grid0.Coords) : Fin 1 → Nat :=
  let arg0 : BitVec 32 := BitVec.ofNat 32 (i 0).val
  let c40_i32 : BitVec 32 := 40#32
  let v3 : BitVec 32 := Scalar.muli arg0 c40_i32
  let c36_i32 : BitVec 32 := 36#32
  let v328 : BitVec 32 := Scalar.addi v3 c36_i32
  let v329 : Index := Scalar.indexCast v328
  ![v329.toNat]
def k0_off74 (v330 : BitVec 32) : Fin 2 → Nat :=
  let v331 : Index := Scalar.indexCast v330
  let c0_74 : Index := 0#32
  ![v331.toNat, 0]

def k0_chk37 (v330 : BitVec 32) : Prop :=
  (∀ a, (k0_off74 v330) a + S1x1024.size a ≤ S6000x1024.size a)
instance k0_chk37.dec : ∀ (v330 : BitVec 32), Decidable (k0_chk37 v330) := fun v330 => decidable_of_iff' _ (Iff.of_eq (k0_chk37.eq_1 v330))
theorem k0_off74_inb : ∀ (v330 : BitVec 32) (k0_hw37 : k0_chk37 v330), ∀ a, (k0_off74 v330) a + S1x1024.size a ≤ S6000x1024.size a := fun v330 k0_hw37 => k0_hw37

def k0_off75 (i : grid0.Coords) : Fin 1 → Nat :=
  let arg0 : BitVec 32 := BitVec.ofNat 32 (i 0).val
  let c40_i32 : BitVec 32 := 40#32
  let v3 : BitVec 32 := Scalar.muli arg0 c40_i32
  let c37_i32 : BitVec 32 := 37#32
  let v337 : BitVec 32 := Scalar.addi v3 c37_i32
  let v338 : Index := Scalar.indexCast v337
  ![v338.toNat]
def k0_off76 (v339 : BitVec 32) : Fin 2 → Nat :=
  let v340 : Index := Scalar.indexCast v339
  let c0_76 : Index := 0#32
  ![v340.toNat, 0]

def k0_chk38 (v339 : BitVec 32) : Prop :=
  (∀ a, (k0_off76 v339) a + S1x1024.size a ≤ S6000x1024.size a)
instance k0_chk38.dec : ∀ (v339 : BitVec 32), Decidable (k0_chk38 v339) := fun v339 => decidable_of_iff' _ (Iff.of_eq (k0_chk38.eq_1 v339))
theorem k0_off76_inb : ∀ (v339 : BitVec 32) (k0_hw38 : k0_chk38 v339), ∀ a, (k0_off76 v339) a + S1x1024.size a ≤ S6000x1024.size a := fun v339 k0_hw38 => k0_hw38

def k0_off77 (i : grid0.Coords) : Fin 1 → Nat :=
  let arg0 : BitVec 32 := BitVec.ofNat 32 (i 0).val
  let c40_i32 : BitVec 32 := 40#32
  let v3 : BitVec 32 := Scalar.muli arg0 c40_i32
  let c38_i32 : BitVec 32 := 38#32
  let v346 : BitVec 32 := Scalar.addi v3 c38_i32
  let v347 : Index := Scalar.indexCast v346
  ![v347.toNat]
def k0_off78 (v348 : BitVec 32) : Fin 2 → Nat :=
  let v349 : Index := Scalar.indexCast v348
  let c0_78 : Index := 0#32
  ![v349.toNat, 0]

def k0_chk39 (v348 : BitVec 32) : Prop :=
  (∀ a, (k0_off78 v348) a + S1x1024.size a ≤ S6000x1024.size a)
instance k0_chk39.dec : ∀ (v348 : BitVec 32), Decidable (k0_chk39 v348) := fun v348 => decidable_of_iff' _ (Iff.of_eq (k0_chk39.eq_1 v348))
theorem k0_off78_inb : ∀ (v348 : BitVec 32) (k0_hw39 : k0_chk39 v348), ∀ a, (k0_off78 v348) a + S1x1024.size a ≤ S6000x1024.size a := fun v348 k0_hw39 => k0_hw39

def k0_off79 (i : grid0.Coords) : Fin 1 → Nat :=
  let arg0 : BitVec 32 := BitVec.ofNat 32 (i 0).val
  let c40_i32 : BitVec 32 := 40#32
  let v3 : BitVec 32 := Scalar.muli arg0 c40_i32
  let c39_i32 : BitVec 32 := 39#32
  let v355 : BitVec 32 := Scalar.addi v3 c39_i32
  let v356 : Index := Scalar.indexCast v355
  ![v356.toNat]
def k0_off80 (v357 : BitVec 32) : Fin 2 → Nat :=
  let v358 : Index := Scalar.indexCast v357
  let c0_80 : Index := 0#32
  ![v358.toNat, 0]

def k0_chk40 (v357 : BitVec 32) : Prop :=
  (∀ a, (k0_off80 v357) a + S1x1024.size a ≤ S6000x1024.size a)
instance k0_chk40.dec : ∀ (v357 : BitVec 32), Decidable (k0_chk40 v357) := fun v357 => decidable_of_iff' _ (Iff.of_eq (k0_chk40.eq_1 v357))
theorem k0_off80_inb : ∀ (v357 : BitVec 32) (k0_hw40 : k0_chk40 v357), ∀ a, (k0_off80 v357) a + S1x1024.size a ≤ S6000x1024.size a := fun v357 k0_hw40 => k0_hw40

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![120], ![false]⟩

abbrev pre1 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c40_i32 : BitVec 32 := 40#32
  let v3 : BitVec 32 := Scalar.muli arg0 c40_i32
  let c0_i32_1 : BitVec 32 := 0#32
  let v4 : BitVec 32 := Scalar.addi v3 c0_i32_1
  let v5 : Index := Scalar.indexCast v4
  ![v5.toNat]
def k1_off2 (v6 : BitVec 32) : Fin 2 → Nat :=
  let v7 : Index := Scalar.indexCast v6
  let c0 : Index := 0#32
  ![v7.toNat, 0]

def k1_chk1 (v6 : BitVec 32) : Prop :=
  (∀ a, (k1_off2 v6) a + S1x1024.size a ≤ S6000x1024.size a)
instance k1_chk1.dec : ∀ (v6 : BitVec 32), Decidable (k1_chk1 v6) := fun v6 => decidable_of_iff' _ (Iff.of_eq (k1_chk1.eq_1 v6))
theorem k1_off2_inb : ∀ (v6 : BitVec 32) (k1_hw1 : k1_chk1 v6), ∀ a, (k1_off2 v6) a + S1x1024.size a ≤ S6000x1024.size a := fun v6 k1_hw1 => k1_hw1

def k1_off3 (i : grid1.Coords) : Fin 1 → Nat :=
  let arg0 : BitVec 32 := BitVec.ofNat 32 (i 0).val
  let c40_i32 : BitVec 32 := 40#32
  let v3 : BitVec 32 := Scalar.muli arg0 c40_i32
  let c1_i32 : BitVec 32 := 1#32
  let v13 : BitVec 32 := Scalar.addi v3 c1_i32
  let v14 : Index := Scalar.indexCast v13
  ![v14.toNat]
def k1_off4 (v15 : BitVec 32) : Fin 2 → Nat :=
  let v16 : Index := Scalar.indexCast v15
  let c0_4 : Index := 0#32
  ![v16.toNat, 0]

def k1_chk2 (v15 : BitVec 32) : Prop :=
  (∀ a, (k1_off4 v15) a + S1x1024.size a ≤ S6000x1024.size a)
instance k1_chk2.dec : ∀ (v15 : BitVec 32), Decidable (k1_chk2 v15) := fun v15 => decidable_of_iff' _ (Iff.of_eq (k1_chk2.eq_1 v15))
theorem k1_off4_inb : ∀ (v15 : BitVec 32) (k1_hw2 : k1_chk2 v15), ∀ a, (k1_off4 v15) a + S1x1024.size a ≤ S6000x1024.size a := fun v15 k1_hw2 => k1_hw2

def k1_off5 (i : grid1.Coords) : Fin 1 → Nat :=
  let arg0 : BitVec 32 := BitVec.ofNat 32 (i 0).val
  let c40_i32 : BitVec 32 := 40#32
  let v3 : BitVec 32 := Scalar.muli arg0 c40_i32
  let c2_i32 : BitVec 32 := 2#32
  let v22 : BitVec 32 := Scalar.addi v3 c2_i32
  let v23 : Index := Scalar.indexCast v22
  ![v23.toNat]
def k1_off6 (v24 : BitVec 32) : Fin 2 → Nat :=
  let v25 : Index := Scalar.indexCast v24
  let c0_6 : Index := 0#32
  ![v25.toNat, 0]

def k1_chk3 (v24 : BitVec 32) : Prop :=
  (∀ a, (k1_off6 v24) a + S1x1024.size a ≤ S6000x1024.size a)
instance k1_chk3.dec : ∀ (v24 : BitVec 32), Decidable (k1_chk3 v24) := fun v24 => decidable_of_iff' _ (Iff.of_eq (k1_chk3.eq_1 v24))
theorem k1_off6_inb : ∀ (v24 : BitVec 32) (k1_hw3 : k1_chk3 v24), ∀ a, (k1_off6 v24) a + S1x1024.size a ≤ S6000x1024.size a := fun v24 k1_hw3 => k1_hw3

def k1_off7 (i : grid1.Coords) : Fin 1 → Nat :=
  let arg0 : BitVec 32 := BitVec.ofNat 32 (i 0).val
  let c40_i32 : BitVec 32 := 40#32
  let v3 : BitVec 32 := Scalar.muli arg0 c40_i32
  let c3_i32 : BitVec 32 := 3#32
  let v31 : BitVec 32 := Scalar.addi v3 c3_i32
  let v32 : Index := Scalar.indexCast v31
  ![v32.toNat]
def k1_off8 (v33 : BitVec 32) : Fin 2 → Nat :=
  let v34 : Index := Scalar.indexCast v33
  let c0_8 : Index := 0#32
  ![v34.toNat, 0]

def k1_chk4 (v33 : BitVec 32) : Prop :=
  (∀ a, (k1_off8 v33) a + S1x1024.size a ≤ S6000x1024.size a)
instance k1_chk4.dec : ∀ (v33 : BitVec 32), Decidable (k1_chk4 v33) := fun v33 => decidable_of_iff' _ (Iff.of_eq (k1_chk4.eq_1 v33))
theorem k1_off8_inb : ∀ (v33 : BitVec 32) (k1_hw4 : k1_chk4 v33), ∀ a, (k1_off8 v33) a + S1x1024.size a ≤ S6000x1024.size a := fun v33 k1_hw4 => k1_hw4

def k1_off9 (i : grid1.Coords) : Fin 1 → Nat :=
  let arg0 : BitVec 32 := BitVec.ofNat 32 (i 0).val
  let c40_i32 : BitVec 32 := 40#32
  let v3 : BitVec 32 := Scalar.muli arg0 c40_i32
  let c4_i32 : BitVec 32 := 4#32
  let v40 : BitVec 32 := Scalar.addi v3 c4_i32
  let v41 : Index := Scalar.indexCast v40
  ![v41.toNat]
def k1_off10 (v42 : BitVec 32) : Fin 2 → Nat :=
  let v43 : Index := Scalar.indexCast v42
  let c0_10 : Index := 0#32
  ![v43.toNat, 0]

def k1_chk5 (v42 : BitVec 32) : Prop :=
  (∀ a, (k1_off10 v42) a + S1x1024.size a ≤ S6000x1024.size a)
instance k1_chk5.dec : ∀ (v42 : BitVec 32), Decidable (k1_chk5 v42) := fun v42 => decidable_of_iff' _ (Iff.of_eq (k1_chk5.eq_1 v42))
theorem k1_off10_inb : ∀ (v42 : BitVec 32) (k1_hw5 : k1_chk5 v42), ∀ a, (k1_off10 v42) a + S1x1024.size a ≤ S6000x1024.size a := fun v42 k1_hw5 => k1_hw5

def k1_off11 (i : grid1.Coords) : Fin 1 → Nat :=
  let arg0 : BitVec 32 := BitVec.ofNat 32 (i 0).val
  let c40_i32 : BitVec 32 := 40#32
  let v3 : BitVec 32 := Scalar.muli arg0 c40_i32
  let c5_i32 : BitVec 32 := 5#32
  let v49 : BitVec 32 := Scalar.addi v3 c5_i32
  let v50 : Index := Scalar.indexCast v49
  ![v50.toNat]
def k1_off12 (v51 : BitVec 32) : Fin 2 → Nat :=
  let v52 : Index := Scalar.indexCast v51
  let c0_12 : Index := 0#32
  ![v52.toNat, 0]

def k1_chk6 (v51 : BitVec 32) : Prop :=
  (∀ a, (k1_off12 v51) a + S1x1024.size a ≤ S6000x1024.size a)
instance k1_chk6.dec : ∀ (v51 : BitVec 32), Decidable (k1_chk6 v51) := fun v51 => decidable_of_iff' _ (Iff.of_eq (k1_chk6.eq_1 v51))
theorem k1_off12_inb : ∀ (v51 : BitVec 32) (k1_hw6 : k1_chk6 v51), ∀ a, (k1_off12 v51) a + S1x1024.size a ≤ S6000x1024.size a := fun v51 k1_hw6 => k1_hw6

def k1_off13 (i : grid1.Coords) : Fin 1 → Nat :=
  let arg0 : BitVec 32 := BitVec.ofNat 32 (i 0).val
  let c40_i32 : BitVec 32 := 40#32
  let v3 : BitVec 32 := Scalar.muli arg0 c40_i32
  let c6_i32 : BitVec 32 := 6#32
  let v58 : BitVec 32 := Scalar.addi v3 c6_i32
  let v59 : Index := Scalar.indexCast v58
  ![v59.toNat]
def k1_off14 (v60 : BitVec 32) : Fin 2 → Nat :=
  let v61 : Index := Scalar.indexCast v60
  let c0_14 : Index := 0#32
  ![v61.toNat, 0]

def k1_chk7 (v60 : BitVec 32) : Prop :=
  (∀ a, (k1_off14 v60) a + S1x1024.size a ≤ S6000x1024.size a)
instance k1_chk7.dec : ∀ (v60 : BitVec 32), Decidable (k1_chk7 v60) := fun v60 => decidable_of_iff' _ (Iff.of_eq (k1_chk7.eq_1 v60))
theorem k1_off14_inb : ∀ (v60 : BitVec 32) (k1_hw7 : k1_chk7 v60), ∀ a, (k1_off14 v60) a + S1x1024.size a ≤ S6000x1024.size a := fun v60 k1_hw7 => k1_hw7

def k1_off15 (i : grid1.Coords) : Fin 1 → Nat :=
  let arg0 : BitVec 32 := BitVec.ofNat 32 (i 0).val
  let c40_i32 : BitVec 32 := 40#32
  let v3 : BitVec 32 := Scalar.muli arg0 c40_i32
  let c7_i32 : BitVec 32 := 7#32
  let v67 : BitVec 32 := Scalar.addi v3 c7_i32
  let v68 : Index := Scalar.indexCast v67
  ![v68.toNat]
def k1_off16 (v69 : BitVec 32) : Fin 2 → Nat :=
  let v70 : Index := Scalar.indexCast v69
  let c0_16 : Index := 0#32
  ![v70.toNat, 0]

def k1_chk8 (v69 : BitVec 32) : Prop :=
  (∀ a, (k1_off16 v69) a + S1x1024.size a ≤ S6000x1024.size a)
instance k1_chk8.dec : ∀ (v69 : BitVec 32), Decidable (k1_chk8 v69) := fun v69 => decidable_of_iff' _ (Iff.of_eq (k1_chk8.eq_1 v69))
theorem k1_off16_inb : ∀ (v69 : BitVec 32) (k1_hw8 : k1_chk8 v69), ∀ a, (k1_off16 v69) a + S1x1024.size a ≤ S6000x1024.size a := fun v69 k1_hw8 => k1_hw8

def k1_off17 (i : grid1.Coords) : Fin 1 → Nat :=
  let arg0 : BitVec 32 := BitVec.ofNat 32 (i 0).val
  let c40_i32 : BitVec 32 := 40#32
  let v3 : BitVec 32 := Scalar.muli arg0 c40_i32
  let c8_i32 : BitVec 32 := 8#32
  let v76 : BitVec 32 := Scalar.addi v3 c8_i32
  let v77 : Index := Scalar.indexCast v76
  ![v77.toNat]
def k1_off18 (v78 : BitVec 32) : Fin 2 → Nat :=
  let v79 : Index := Scalar.indexCast v78
  let c0_18 : Index := 0#32
  ![v79.toNat, 0]

def k1_chk9 (v78 : BitVec 32) : Prop :=
  (∀ a, (k1_off18 v78) a + S1x1024.size a ≤ S6000x1024.size a)
instance k1_chk9.dec : ∀ (v78 : BitVec 32), Decidable (k1_chk9 v78) := fun v78 => decidable_of_iff' _ (Iff.of_eq (k1_chk9.eq_1 v78))
theorem k1_off18_inb : ∀ (v78 : BitVec 32) (k1_hw9 : k1_chk9 v78), ∀ a, (k1_off18 v78) a + S1x1024.size a ≤ S6000x1024.size a := fun v78 k1_hw9 => k1_hw9

def k1_off19 (i : grid1.Coords) : Fin 1 → Nat :=
  let arg0 : BitVec 32 := BitVec.ofNat 32 (i 0).val
  let c40_i32 : BitVec 32 := 40#32
  let v3 : BitVec 32 := Scalar.muli arg0 c40_i32
  let c9_i32 : BitVec 32 := 9#32
  let v85 : BitVec 32 := Scalar.addi v3 c9_i32
  let v86 : Index := Scalar.indexCast v85
  ![v86.toNat]
def k1_off20 (v87 : BitVec 32) : Fin 2 → Nat :=
  let v88 : Index := Scalar.indexCast v87
  let c0_20 : Index := 0#32
  ![v88.toNat, 0]

def k1_chk10 (v87 : BitVec 32) : Prop :=
  (∀ a, (k1_off20 v87) a + S1x1024.size a ≤ S6000x1024.size a)
instance k1_chk10.dec : ∀ (v87 : BitVec 32), Decidable (k1_chk10 v87) := fun v87 => decidable_of_iff' _ (Iff.of_eq (k1_chk10.eq_1 v87))
theorem k1_off20_inb : ∀ (v87 : BitVec 32) (k1_hw10 : k1_chk10 v87), ∀ a, (k1_off20 v87) a + S1x1024.size a ≤ S6000x1024.size a := fun v87 k1_hw10 => k1_hw10

def k1_off21 (i : grid1.Coords) : Fin 1 → Nat :=
  let arg0 : BitVec 32 := BitVec.ofNat 32 (i 0).val
  let c40_i32 : BitVec 32 := 40#32
  let v3 : BitVec 32 := Scalar.muli arg0 c40_i32
  let c10_i32 : BitVec 32 := 10#32
  let v94 : BitVec 32 := Scalar.addi v3 c10_i32
  let v95 : Index := Scalar.indexCast v94
  ![v95.toNat]
def k1_off22 (v96 : BitVec 32) : Fin 2 → Nat :=
  let v97 : Index := Scalar.indexCast v96
  let c0_22 : Index := 0#32
  ![v97.toNat, 0]

def k1_chk11 (v96 : BitVec 32) : Prop :=
  (∀ a, (k1_off22 v96) a + S1x1024.size a ≤ S6000x1024.size a)
instance k1_chk11.dec : ∀ (v96 : BitVec 32), Decidable (k1_chk11 v96) := fun v96 => decidable_of_iff' _ (Iff.of_eq (k1_chk11.eq_1 v96))
theorem k1_off22_inb : ∀ (v96 : BitVec 32) (k1_hw11 : k1_chk11 v96), ∀ a, (k1_off22 v96) a + S1x1024.size a ≤ S6000x1024.size a := fun v96 k1_hw11 => k1_hw11

def k1_off23 (i : grid1.Coords) : Fin 1 → Nat :=
  let arg0 : BitVec 32 := BitVec.ofNat 32 (i 0).val
  let c40_i32 : BitVec 32 := 40#32
  let v3 : BitVec 32 := Scalar.muli arg0 c40_i32
  let c11_i32 : BitVec 32 := 11#32
  let v103 : BitVec 32 := Scalar.addi v3 c11_i32
  let v104 : Index := Scalar.indexCast v103
  ![v104.toNat]
def k1_off24 (v105 : BitVec 32) : Fin 2 → Nat :=
  let v106 : Index := Scalar.indexCast v105
  let c0_24 : Index := 0#32
  ![v106.toNat, 0]

def k1_chk12 (v105 : BitVec 32) : Prop :=
  (∀ a, (k1_off24 v105) a + S1x1024.size a ≤ S6000x1024.size a)
instance k1_chk12.dec : ∀ (v105 : BitVec 32), Decidable (k1_chk12 v105) := fun v105 => decidable_of_iff' _ (Iff.of_eq (k1_chk12.eq_1 v105))
theorem k1_off24_inb : ∀ (v105 : BitVec 32) (k1_hw12 : k1_chk12 v105), ∀ a, (k1_off24 v105) a + S1x1024.size a ≤ S6000x1024.size a := fun v105 k1_hw12 => k1_hw12

def k1_off25 (i : grid1.Coords) : Fin 1 → Nat :=
  let arg0 : BitVec 32 := BitVec.ofNat 32 (i 0).val
  let c40_i32 : BitVec 32 := 40#32
  let v3 : BitVec 32 := Scalar.muli arg0 c40_i32
  let c12_i32 : BitVec 32 := 12#32
  let v112 : BitVec 32 := Scalar.addi v3 c12_i32
  let v113 : Index := Scalar.indexCast v112
  ![v113.toNat]
def k1_off26 (v114 : BitVec 32) : Fin 2 → Nat :=
  let v115 : Index := Scalar.indexCast v114
  let c0_26 : Index := 0#32
  ![v115.toNat, 0]

def k1_chk13 (v114 : BitVec 32) : Prop :=
  (∀ a, (k1_off26 v114) a + S1x1024.size a ≤ S6000x1024.size a)
instance k1_chk13.dec : ∀ (v114 : BitVec 32), Decidable (k1_chk13 v114) := fun v114 => decidable_of_iff' _ (Iff.of_eq (k1_chk13.eq_1 v114))
theorem k1_off26_inb : ∀ (v114 : BitVec 32) (k1_hw13 : k1_chk13 v114), ∀ a, (k1_off26 v114) a + S1x1024.size a ≤ S6000x1024.size a := fun v114 k1_hw13 => k1_hw13

def k1_off27 (i : grid1.Coords) : Fin 1 → Nat :=
  let arg0 : BitVec 32 := BitVec.ofNat 32 (i 0).val
  let c40_i32 : BitVec 32 := 40#32
  let v3 : BitVec 32 := Scalar.muli arg0 c40_i32
  let c13_i32 : BitVec 32 := 13#32
  let v121 : BitVec 32 := Scalar.addi v3 c13_i32
  let v122 : Index := Scalar.indexCast v121
  ![v122.toNat]
def k1_off28 (v123 : BitVec 32) : Fin 2 → Nat :=
  let v124 : Index := Scalar.indexCast v123
  let c0_28 : Index := 0#32
  ![v124.toNat, 0]

def k1_chk14 (v123 : BitVec 32) : Prop :=
  (∀ a, (k1_off28 v123) a + S1x1024.size a ≤ S6000x1024.size a)
instance k1_chk14.dec : ∀ (v123 : BitVec 32), Decidable (k1_chk14 v123) := fun v123 => decidable_of_iff' _ (Iff.of_eq (k1_chk14.eq_1 v123))
theorem k1_off28_inb : ∀ (v123 : BitVec 32) (k1_hw14 : k1_chk14 v123), ∀ a, (k1_off28 v123) a + S1x1024.size a ≤ S6000x1024.size a := fun v123 k1_hw14 => k1_hw14

def k1_off29 (i : grid1.Coords) : Fin 1 → Nat :=
  let arg0 : BitVec 32 := BitVec.ofNat 32 (i 0).val
  let c40_i32 : BitVec 32 := 40#32
  let v3 : BitVec 32 := Scalar.muli arg0 c40_i32
  let c14_i32 : BitVec 32 := 14#32
  let v130 : BitVec 32 := Scalar.addi v3 c14_i32
  let v131 : Index := Scalar.indexCast v130
  ![v131.toNat]
def k1_off30 (v132 : BitVec 32) : Fin 2 → Nat :=
  let v133 : Index := Scalar.indexCast v132
  let c0_30 : Index := 0#32
  ![v133.toNat, 0]

def k1_chk15 (v132 : BitVec 32) : Prop :=
  (∀ a, (k1_off30 v132) a + S1x1024.size a ≤ S6000x1024.size a)
instance k1_chk15.dec : ∀ (v132 : BitVec 32), Decidable (k1_chk15 v132) := fun v132 => decidable_of_iff' _ (Iff.of_eq (k1_chk15.eq_1 v132))
theorem k1_off30_inb : ∀ (v132 : BitVec 32) (k1_hw15 : k1_chk15 v132), ∀ a, (k1_off30 v132) a + S1x1024.size a ≤ S6000x1024.size a := fun v132 k1_hw15 => k1_hw15

def k1_off31 (i : grid1.Coords) : Fin 1 → Nat :=
  let arg0 : BitVec 32 := BitVec.ofNat 32 (i 0).val
  let c40_i32 : BitVec 32 := 40#32
  let v3 : BitVec 32 := Scalar.muli arg0 c40_i32
  let c15_i32 : BitVec 32 := 15#32
  let v139 : BitVec 32 := Scalar.addi v3 c15_i32
  let v140 : Index := Scalar.indexCast v139
  ![v140.toNat]
def k1_off32 (v141 : BitVec 32) : Fin 2 → Nat :=
  let v142 : Index := Scalar.indexCast v141
  let c0_32 : Index := 0#32
  ![v142.toNat, 0]

def k1_chk16 (v141 : BitVec 32) : Prop :=
  (∀ a, (k1_off32 v141) a + S1x1024.size a ≤ S6000x1024.size a)
instance k1_chk16.dec : ∀ (v141 : BitVec 32), Decidable (k1_chk16 v141) := fun v141 => decidable_of_iff' _ (Iff.of_eq (k1_chk16.eq_1 v141))
theorem k1_off32_inb : ∀ (v141 : BitVec 32) (k1_hw16 : k1_chk16 v141), ∀ a, (k1_off32 v141) a + S1x1024.size a ≤ S6000x1024.size a := fun v141 k1_hw16 => k1_hw16

def k1_off33 (i : grid1.Coords) : Fin 1 → Nat :=
  let arg0 : BitVec 32 := BitVec.ofNat 32 (i 0).val
  let c40_i32 : BitVec 32 := 40#32
  let v3 : BitVec 32 := Scalar.muli arg0 c40_i32
  let c16_i32 : BitVec 32 := 16#32
  let v148 : BitVec 32 := Scalar.addi v3 c16_i32
  let v149 : Index := Scalar.indexCast v148
  ![v149.toNat]
def k1_off34 (v150 : BitVec 32) : Fin 2 → Nat :=
  let v151 : Index := Scalar.indexCast v150
  let c0_34 : Index := 0#32
  ![v151.toNat, 0]

def k1_chk17 (v150 : BitVec 32) : Prop :=
  (∀ a, (k1_off34 v150) a + S1x1024.size a ≤ S6000x1024.size a)
instance k1_chk17.dec : ∀ (v150 : BitVec 32), Decidable (k1_chk17 v150) := fun v150 => decidable_of_iff' _ (Iff.of_eq (k1_chk17.eq_1 v150))
theorem k1_off34_inb : ∀ (v150 : BitVec 32) (k1_hw17 : k1_chk17 v150), ∀ a, (k1_off34 v150) a + S1x1024.size a ≤ S6000x1024.size a := fun v150 k1_hw17 => k1_hw17

def k1_off35 (i : grid1.Coords) : Fin 1 → Nat :=
  let arg0 : BitVec 32 := BitVec.ofNat 32 (i 0).val
  let c40_i32 : BitVec 32 := 40#32
  let v3 : BitVec 32 := Scalar.muli arg0 c40_i32
  let c17_i32 : BitVec 32 := 17#32
  let v157 : BitVec 32 := Scalar.addi v3 c17_i32
  let v158 : Index := Scalar.indexCast v157
  ![v158.toNat]
def k1_off36 (v159 : BitVec 32) : Fin 2 → Nat :=
  let v160 : Index := Scalar.indexCast v159
  let c0_36 : Index := 0#32
  ![v160.toNat, 0]

def k1_chk18 (v159 : BitVec 32) : Prop :=
  (∀ a, (k1_off36 v159) a + S1x1024.size a ≤ S6000x1024.size a)
instance k1_chk18.dec : ∀ (v159 : BitVec 32), Decidable (k1_chk18 v159) := fun v159 => decidable_of_iff' _ (Iff.of_eq (k1_chk18.eq_1 v159))
theorem k1_off36_inb : ∀ (v159 : BitVec 32) (k1_hw18 : k1_chk18 v159), ∀ a, (k1_off36 v159) a + S1x1024.size a ≤ S6000x1024.size a := fun v159 k1_hw18 => k1_hw18

def k1_off37 (i : grid1.Coords) : Fin 1 → Nat :=
  let arg0 : BitVec 32 := BitVec.ofNat 32 (i 0).val
  let c40_i32 : BitVec 32 := 40#32
  let v3 : BitVec 32 := Scalar.muli arg0 c40_i32
  let c18_i32 : BitVec 32 := 18#32
  let v166 : BitVec 32 := Scalar.addi v3 c18_i32
  let v167 : Index := Scalar.indexCast v166
  ![v167.toNat]
def k1_off38 (v168 : BitVec 32) : Fin 2 → Nat :=
  let v169 : Index := Scalar.indexCast v168
  let c0_38 : Index := 0#32
  ![v169.toNat, 0]

def k1_chk19 (v168 : BitVec 32) : Prop :=
  (∀ a, (k1_off38 v168) a + S1x1024.size a ≤ S6000x1024.size a)
instance k1_chk19.dec : ∀ (v168 : BitVec 32), Decidable (k1_chk19 v168) := fun v168 => decidable_of_iff' _ (Iff.of_eq (k1_chk19.eq_1 v168))
theorem k1_off38_inb : ∀ (v168 : BitVec 32) (k1_hw19 : k1_chk19 v168), ∀ a, (k1_off38 v168) a + S1x1024.size a ≤ S6000x1024.size a := fun v168 k1_hw19 => k1_hw19

def k1_off39 (i : grid1.Coords) : Fin 1 → Nat :=
  let arg0 : BitVec 32 := BitVec.ofNat 32 (i 0).val
  let c40_i32 : BitVec 32 := 40#32
  let v3 : BitVec 32 := Scalar.muli arg0 c40_i32
  let c19_i32 : BitVec 32 := 19#32
  let v175 : BitVec 32 := Scalar.addi v3 c19_i32
  let v176 : Index := Scalar.indexCast v175
  ![v176.toNat]
def k1_off40 (v177 : BitVec 32) : Fin 2 → Nat :=
  let v178 : Index := Scalar.indexCast v177
  let c0_40 : Index := 0#32
  ![v178.toNat, 0]

def k1_chk20 (v177 : BitVec 32) : Prop :=
  (∀ a, (k1_off40 v177) a + S1x1024.size a ≤ S6000x1024.size a)
instance k1_chk20.dec : ∀ (v177 : BitVec 32), Decidable (k1_chk20 v177) := fun v177 => decidable_of_iff' _ (Iff.of_eq (k1_chk20.eq_1 v177))
theorem k1_off40_inb : ∀ (v177 : BitVec 32) (k1_hw20 : k1_chk20 v177), ∀ a, (k1_off40 v177) a + S1x1024.size a ≤ S6000x1024.size a := fun v177 k1_hw20 => k1_hw20

def k1_off41 (i : grid1.Coords) : Fin 1 → Nat :=
  let arg0 : BitVec 32 := BitVec.ofNat 32 (i 0).val
  let c40_i32 : BitVec 32 := 40#32
  let v3 : BitVec 32 := Scalar.muli arg0 c40_i32
  let c20_i32 : BitVec 32 := 20#32
  let v184 : BitVec 32 := Scalar.addi v3 c20_i32
  let v185 : Index := Scalar.indexCast v184
  ![v185.toNat]
def k1_off42 (v186 : BitVec 32) : Fin 2 → Nat :=
  let v187 : Index := Scalar.indexCast v186
  let c0_42 : Index := 0#32
  ![v187.toNat, 0]

def k1_chk21 (v186 : BitVec 32) : Prop :=
  (∀ a, (k1_off42 v186) a + S1x1024.size a ≤ S6000x1024.size a)
instance k1_chk21.dec : ∀ (v186 : BitVec 32), Decidable (k1_chk21 v186) := fun v186 => decidable_of_iff' _ (Iff.of_eq (k1_chk21.eq_1 v186))
theorem k1_off42_inb : ∀ (v186 : BitVec 32) (k1_hw21 : k1_chk21 v186), ∀ a, (k1_off42 v186) a + S1x1024.size a ≤ S6000x1024.size a := fun v186 k1_hw21 => k1_hw21

def k1_off43 (i : grid1.Coords) : Fin 1 → Nat :=
  let arg0 : BitVec 32 := BitVec.ofNat 32 (i 0).val
  let c40_i32 : BitVec 32 := 40#32
  let v3 : BitVec 32 := Scalar.muli arg0 c40_i32
  let c21_i32 : BitVec 32 := 21#32
  let v193 : BitVec 32 := Scalar.addi v3 c21_i32
  let v194 : Index := Scalar.indexCast v193
  ![v194.toNat]
def k1_off44 (v195 : BitVec 32) : Fin 2 → Nat :=
  let v196 : Index := Scalar.indexCast v195
  let c0_44 : Index := 0#32
  ![v196.toNat, 0]

def k1_chk22 (v195 : BitVec 32) : Prop :=
  (∀ a, (k1_off44 v195) a + S1x1024.size a ≤ S6000x1024.size a)
instance k1_chk22.dec : ∀ (v195 : BitVec 32), Decidable (k1_chk22 v195) := fun v195 => decidable_of_iff' _ (Iff.of_eq (k1_chk22.eq_1 v195))
theorem k1_off44_inb : ∀ (v195 : BitVec 32) (k1_hw22 : k1_chk22 v195), ∀ a, (k1_off44 v195) a + S1x1024.size a ≤ S6000x1024.size a := fun v195 k1_hw22 => k1_hw22

def k1_off45 (i : grid1.Coords) : Fin 1 → Nat :=
  let arg0 : BitVec 32 := BitVec.ofNat 32 (i 0).val
  let c40_i32 : BitVec 32 := 40#32
  let v3 : BitVec 32 := Scalar.muli arg0 c40_i32
  let c22_i32 : BitVec 32 := 22#32
  let v202 : BitVec 32 := Scalar.addi v3 c22_i32
  let v203 : Index := Scalar.indexCast v202
  ![v203.toNat]
def k1_off46 (v204 : BitVec 32) : Fin 2 → Nat :=
  let v205 : Index := Scalar.indexCast v204
  let c0_46 : Index := 0#32
  ![v205.toNat, 0]

def k1_chk23 (v204 : BitVec 32) : Prop :=
  (∀ a, (k1_off46 v204) a + S1x1024.size a ≤ S6000x1024.size a)
instance k1_chk23.dec : ∀ (v204 : BitVec 32), Decidable (k1_chk23 v204) := fun v204 => decidable_of_iff' _ (Iff.of_eq (k1_chk23.eq_1 v204))
theorem k1_off46_inb : ∀ (v204 : BitVec 32) (k1_hw23 : k1_chk23 v204), ∀ a, (k1_off46 v204) a + S1x1024.size a ≤ S6000x1024.size a := fun v204 k1_hw23 => k1_hw23

def k1_off47 (i : grid1.Coords) : Fin 1 → Nat :=
  let arg0 : BitVec 32 := BitVec.ofNat 32 (i 0).val
  let c40_i32 : BitVec 32 := 40#32
  let v3 : BitVec 32 := Scalar.muli arg0 c40_i32
  let c23_i32 : BitVec 32 := 23#32
  let v211 : BitVec 32 := Scalar.addi v3 c23_i32
  let v212 : Index := Scalar.indexCast v211
  ![v212.toNat]
def k1_off48 (v213 : BitVec 32) : Fin 2 → Nat :=
  let v214 : Index := Scalar.indexCast v213
  let c0_48 : Index := 0#32
  ![v214.toNat, 0]

def k1_chk24 (v213 : BitVec 32) : Prop :=
  (∀ a, (k1_off48 v213) a + S1x1024.size a ≤ S6000x1024.size a)
instance k1_chk24.dec : ∀ (v213 : BitVec 32), Decidable (k1_chk24 v213) := fun v213 => decidable_of_iff' _ (Iff.of_eq (k1_chk24.eq_1 v213))
theorem k1_off48_inb : ∀ (v213 : BitVec 32) (k1_hw24 : k1_chk24 v213), ∀ a, (k1_off48 v213) a + S1x1024.size a ≤ S6000x1024.size a := fun v213 k1_hw24 => k1_hw24

def k1_off49 (i : grid1.Coords) : Fin 1 → Nat :=
  let arg0 : BitVec 32 := BitVec.ofNat 32 (i 0).val
  let c40_i32 : BitVec 32 := 40#32
  let v3 : BitVec 32 := Scalar.muli arg0 c40_i32
  let c24_i32 : BitVec 32 := 24#32
  let v220 : BitVec 32 := Scalar.addi v3 c24_i32
  let v221 : Index := Scalar.indexCast v220
  ![v221.toNat]
def k1_off50 (v222 : BitVec 32) : Fin 2 → Nat :=
  let v223 : Index := Scalar.indexCast v222
  let c0_50 : Index := 0#32
  ![v223.toNat, 0]

def k1_chk25 (v222 : BitVec 32) : Prop :=
  (∀ a, (k1_off50 v222) a + S1x1024.size a ≤ S6000x1024.size a)
instance k1_chk25.dec : ∀ (v222 : BitVec 32), Decidable (k1_chk25 v222) := fun v222 => decidable_of_iff' _ (Iff.of_eq (k1_chk25.eq_1 v222))
theorem k1_off50_inb : ∀ (v222 : BitVec 32) (k1_hw25 : k1_chk25 v222), ∀ a, (k1_off50 v222) a + S1x1024.size a ≤ S6000x1024.size a := fun v222 k1_hw25 => k1_hw25

def k1_off51 (i : grid1.Coords) : Fin 1 → Nat :=
  let arg0 : BitVec 32 := BitVec.ofNat 32 (i 0).val
  let c40_i32 : BitVec 32 := 40#32
  let v3 : BitVec 32 := Scalar.muli arg0 c40_i32
  let c25_i32 : BitVec 32 := 25#32
  let v229 : BitVec 32 := Scalar.addi v3 c25_i32
  let v230 : Index := Scalar.indexCast v229
  ![v230.toNat]
def k1_off52 (v231 : BitVec 32) : Fin 2 → Nat :=
  let v232 : Index := Scalar.indexCast v231
  let c0_52 : Index := 0#32
  ![v232.toNat, 0]

def k1_chk26 (v231 : BitVec 32) : Prop :=
  (∀ a, (k1_off52 v231) a + S1x1024.size a ≤ S6000x1024.size a)
instance k1_chk26.dec : ∀ (v231 : BitVec 32), Decidable (k1_chk26 v231) := fun v231 => decidable_of_iff' _ (Iff.of_eq (k1_chk26.eq_1 v231))
theorem k1_off52_inb : ∀ (v231 : BitVec 32) (k1_hw26 : k1_chk26 v231), ∀ a, (k1_off52 v231) a + S1x1024.size a ≤ S6000x1024.size a := fun v231 k1_hw26 => k1_hw26

def k1_off53 (i : grid1.Coords) : Fin 1 → Nat :=
  let arg0 : BitVec 32 := BitVec.ofNat 32 (i 0).val
  let c40_i32 : BitVec 32 := 40#32
  let v3 : BitVec 32 := Scalar.muli arg0 c40_i32
  let c26_i32 : BitVec 32 := 26#32
  let v238 : BitVec 32 := Scalar.addi v3 c26_i32
  let v239 : Index := Scalar.indexCast v238
  ![v239.toNat]
def k1_off54 (v240 : BitVec 32) : Fin 2 → Nat :=
  let v241 : Index := Scalar.indexCast v240
  let c0_54 : Index := 0#32
  ![v241.toNat, 0]

def k1_chk27 (v240 : BitVec 32) : Prop :=
  (∀ a, (k1_off54 v240) a + S1x1024.size a ≤ S6000x1024.size a)
instance k1_chk27.dec : ∀ (v240 : BitVec 32), Decidable (k1_chk27 v240) := fun v240 => decidable_of_iff' _ (Iff.of_eq (k1_chk27.eq_1 v240))
theorem k1_off54_inb : ∀ (v240 : BitVec 32) (k1_hw27 : k1_chk27 v240), ∀ a, (k1_off54 v240) a + S1x1024.size a ≤ S6000x1024.size a := fun v240 k1_hw27 => k1_hw27

def k1_off55 (i : grid1.Coords) : Fin 1 → Nat :=
  let arg0 : BitVec 32 := BitVec.ofNat 32 (i 0).val
  let c40_i32 : BitVec 32 := 40#32
  let v3 : BitVec 32 := Scalar.muli arg0 c40_i32
  let c27_i32 : BitVec 32 := 27#32
  let v247 : BitVec 32 := Scalar.addi v3 c27_i32
  let v248 : Index := Scalar.indexCast v247
  ![v248.toNat]
def k1_off56 (v249 : BitVec 32) : Fin 2 → Nat :=
  let v250 : Index := Scalar.indexCast v249
  let c0_56 : Index := 0#32
  ![v250.toNat, 0]

def k1_chk28 (v249 : BitVec 32) : Prop :=
  (∀ a, (k1_off56 v249) a + S1x1024.size a ≤ S6000x1024.size a)
instance k1_chk28.dec : ∀ (v249 : BitVec 32), Decidable (k1_chk28 v249) := fun v249 => decidable_of_iff' _ (Iff.of_eq (k1_chk28.eq_1 v249))
theorem k1_off56_inb : ∀ (v249 : BitVec 32) (k1_hw28 : k1_chk28 v249), ∀ a, (k1_off56 v249) a + S1x1024.size a ≤ S6000x1024.size a := fun v249 k1_hw28 => k1_hw28

def k1_off57 (i : grid1.Coords) : Fin 1 → Nat :=
  let arg0 : BitVec 32 := BitVec.ofNat 32 (i 0).val
  let c40_i32 : BitVec 32 := 40#32
  let v3 : BitVec 32 := Scalar.muli arg0 c40_i32
  let c28_i32 : BitVec 32 := 28#32
  let v256 : BitVec 32 := Scalar.addi v3 c28_i32
  let v257 : Index := Scalar.indexCast v256
  ![v257.toNat]
def k1_off58 (v258 : BitVec 32) : Fin 2 → Nat :=
  let v259 : Index := Scalar.indexCast v258
  let c0_58 : Index := 0#32
  ![v259.toNat, 0]

def k1_chk29 (v258 : BitVec 32) : Prop :=
  (∀ a, (k1_off58 v258) a + S1x1024.size a ≤ S6000x1024.size a)
instance k1_chk29.dec : ∀ (v258 : BitVec 32), Decidable (k1_chk29 v258) := fun v258 => decidable_of_iff' _ (Iff.of_eq (k1_chk29.eq_1 v258))
theorem k1_off58_inb : ∀ (v258 : BitVec 32) (k1_hw29 : k1_chk29 v258), ∀ a, (k1_off58 v258) a + S1x1024.size a ≤ S6000x1024.size a := fun v258 k1_hw29 => k1_hw29

def k1_off59 (i : grid1.Coords) : Fin 1 → Nat :=
  let arg0 : BitVec 32 := BitVec.ofNat 32 (i 0).val
  let c40_i32 : BitVec 32 := 40#32
  let v3 : BitVec 32 := Scalar.muli arg0 c40_i32
  let c29_i32 : BitVec 32 := 29#32
  let v265 : BitVec 32 := Scalar.addi v3 c29_i32
  let v266 : Index := Scalar.indexCast v265
  ![v266.toNat]
def k1_off60 (v267 : BitVec 32) : Fin 2 → Nat :=
  let v268 : Index := Scalar.indexCast v267
  let c0_60 : Index := 0#32
  ![v268.toNat, 0]

def k1_chk30 (v267 : BitVec 32) : Prop :=
  (∀ a, (k1_off60 v267) a + S1x1024.size a ≤ S6000x1024.size a)
instance k1_chk30.dec : ∀ (v267 : BitVec 32), Decidable (k1_chk30 v267) := fun v267 => decidable_of_iff' _ (Iff.of_eq (k1_chk30.eq_1 v267))
theorem k1_off60_inb : ∀ (v267 : BitVec 32) (k1_hw30 : k1_chk30 v267), ∀ a, (k1_off60 v267) a + S1x1024.size a ≤ S6000x1024.size a := fun v267 k1_hw30 => k1_hw30

def k1_off61 (i : grid1.Coords) : Fin 1 → Nat :=
  let arg0 : BitVec 32 := BitVec.ofNat 32 (i 0).val
  let c40_i32 : BitVec 32 := 40#32
  let v3 : BitVec 32 := Scalar.muli arg0 c40_i32
  let c30_i32 : BitVec 32 := 30#32
  let v274 : BitVec 32 := Scalar.addi v3 c30_i32
  let v275 : Index := Scalar.indexCast v274
  ![v275.toNat]
def k1_off62 (v276 : BitVec 32) : Fin 2 → Nat :=
  let v277 : Index := Scalar.indexCast v276
  let c0_62 : Index := 0#32
  ![v277.toNat, 0]

def k1_chk31 (v276 : BitVec 32) : Prop :=
  (∀ a, (k1_off62 v276) a + S1x1024.size a ≤ S6000x1024.size a)
instance k1_chk31.dec : ∀ (v276 : BitVec 32), Decidable (k1_chk31 v276) := fun v276 => decidable_of_iff' _ (Iff.of_eq (k1_chk31.eq_1 v276))
theorem k1_off62_inb : ∀ (v276 : BitVec 32) (k1_hw31 : k1_chk31 v276), ∀ a, (k1_off62 v276) a + S1x1024.size a ≤ S6000x1024.size a := fun v276 k1_hw31 => k1_hw31

def k1_off63 (i : grid1.Coords) : Fin 1 → Nat :=
  let arg0 : BitVec 32 := BitVec.ofNat 32 (i 0).val
  let c40_i32 : BitVec 32 := 40#32
  let v3 : BitVec 32 := Scalar.muli arg0 c40_i32
  let c31_i32 : BitVec 32 := 31#32
  let v283 : BitVec 32 := Scalar.addi v3 c31_i32
  let v284 : Index := Scalar.indexCast v283
  ![v284.toNat]
def k1_off64 (v285 : BitVec 32) : Fin 2 → Nat :=
  let v286 : Index := Scalar.indexCast v285
  let c0_64 : Index := 0#32
  ![v286.toNat, 0]

def k1_chk32 (v285 : BitVec 32) : Prop :=
  (∀ a, (k1_off64 v285) a + S1x1024.size a ≤ S6000x1024.size a)
instance k1_chk32.dec : ∀ (v285 : BitVec 32), Decidable (k1_chk32 v285) := fun v285 => decidable_of_iff' _ (Iff.of_eq (k1_chk32.eq_1 v285))
theorem k1_off64_inb : ∀ (v285 : BitVec 32) (k1_hw32 : k1_chk32 v285), ∀ a, (k1_off64 v285) a + S1x1024.size a ≤ S6000x1024.size a := fun v285 k1_hw32 => k1_hw32

def k1_off65 (i : grid1.Coords) : Fin 1 → Nat :=
  let arg0 : BitVec 32 := BitVec.ofNat 32 (i 0).val
  let c40_i32 : BitVec 32 := 40#32
  let v3 : BitVec 32 := Scalar.muli arg0 c40_i32
  let c32_i32 : BitVec 32 := 32#32
  let v292 : BitVec 32 := Scalar.addi v3 c32_i32
  let v293 : Index := Scalar.indexCast v292
  ![v293.toNat]
def k1_off66 (v294 : BitVec 32) : Fin 2 → Nat :=
  let v295 : Index := Scalar.indexCast v294
  let c0_66 : Index := 0#32
  ![v295.toNat, 0]

def k1_chk33 (v294 : BitVec 32) : Prop :=
  (∀ a, (k1_off66 v294) a + S1x1024.size a ≤ S6000x1024.size a)
instance k1_chk33.dec : ∀ (v294 : BitVec 32), Decidable (k1_chk33 v294) := fun v294 => decidable_of_iff' _ (Iff.of_eq (k1_chk33.eq_1 v294))
theorem k1_off66_inb : ∀ (v294 : BitVec 32) (k1_hw33 : k1_chk33 v294), ∀ a, (k1_off66 v294) a + S1x1024.size a ≤ S6000x1024.size a := fun v294 k1_hw33 => k1_hw33

def k1_off67 (i : grid1.Coords) : Fin 1 → Nat :=
  let arg0 : BitVec 32 := BitVec.ofNat 32 (i 0).val
  let c40_i32 : BitVec 32 := 40#32
  let v3 : BitVec 32 := Scalar.muli arg0 c40_i32
  let c33_i32 : BitVec 32 := 33#32
  let v301 : BitVec 32 := Scalar.addi v3 c33_i32
  let v302 : Index := Scalar.indexCast v301
  ![v302.toNat]
def k1_off68 (v303 : BitVec 32) : Fin 2 → Nat :=
  let v304 : Index := Scalar.indexCast v303
  let c0_68 : Index := 0#32
  ![v304.toNat, 0]

def k1_chk34 (v303 : BitVec 32) : Prop :=
  (∀ a, (k1_off68 v303) a + S1x1024.size a ≤ S6000x1024.size a)
instance k1_chk34.dec : ∀ (v303 : BitVec 32), Decidable (k1_chk34 v303) := fun v303 => decidable_of_iff' _ (Iff.of_eq (k1_chk34.eq_1 v303))
theorem k1_off68_inb : ∀ (v303 : BitVec 32) (k1_hw34 : k1_chk34 v303), ∀ a, (k1_off68 v303) a + S1x1024.size a ≤ S6000x1024.size a := fun v303 k1_hw34 => k1_hw34

def k1_off69 (i : grid1.Coords) : Fin 1 → Nat :=
  let arg0 : BitVec 32 := BitVec.ofNat 32 (i 0).val
  let c40_i32 : BitVec 32 := 40#32
  let v3 : BitVec 32 := Scalar.muli arg0 c40_i32
  let c34_i32 : BitVec 32 := 34#32
  let v310 : BitVec 32 := Scalar.addi v3 c34_i32
  let v311 : Index := Scalar.indexCast v310
  ![v311.toNat]
def k1_off70 (v312 : BitVec 32) : Fin 2 → Nat :=
  let v313 : Index := Scalar.indexCast v312
  let c0_70 : Index := 0#32
  ![v313.toNat, 0]

def k1_chk35 (v312 : BitVec 32) : Prop :=
  (∀ a, (k1_off70 v312) a + S1x1024.size a ≤ S6000x1024.size a)
instance k1_chk35.dec : ∀ (v312 : BitVec 32), Decidable (k1_chk35 v312) := fun v312 => decidable_of_iff' _ (Iff.of_eq (k1_chk35.eq_1 v312))
theorem k1_off70_inb : ∀ (v312 : BitVec 32) (k1_hw35 : k1_chk35 v312), ∀ a, (k1_off70 v312) a + S1x1024.size a ≤ S6000x1024.size a := fun v312 k1_hw35 => k1_hw35

def k1_off71 (i : grid1.Coords) : Fin 1 → Nat :=
  let arg0 : BitVec 32 := BitVec.ofNat 32 (i 0).val
  let c40_i32 : BitVec 32 := 40#32
  let v3 : BitVec 32 := Scalar.muli arg0 c40_i32
  let c35_i32 : BitVec 32 := 35#32
  let v319 : BitVec 32 := Scalar.addi v3 c35_i32
  let v320 : Index := Scalar.indexCast v319
  ![v320.toNat]
def k1_off72 (v321 : BitVec 32) : Fin 2 → Nat :=
  let v322 : Index := Scalar.indexCast v321
  let c0_72 : Index := 0#32
  ![v322.toNat, 0]

def k1_chk36 (v321 : BitVec 32) : Prop :=
  (∀ a, (k1_off72 v321) a + S1x1024.size a ≤ S6000x1024.size a)
instance k1_chk36.dec : ∀ (v321 : BitVec 32), Decidable (k1_chk36 v321) := fun v321 => decidable_of_iff' _ (Iff.of_eq (k1_chk36.eq_1 v321))
theorem k1_off72_inb : ∀ (v321 : BitVec 32) (k1_hw36 : k1_chk36 v321), ∀ a, (k1_off72 v321) a + S1x1024.size a ≤ S6000x1024.size a := fun v321 k1_hw36 => k1_hw36

def k1_off73 (i : grid1.Coords) : Fin 1 → Nat :=
  let arg0 : BitVec 32 := BitVec.ofNat 32 (i 0).val
  let c40_i32 : BitVec 32 := 40#32
  let v3 : BitVec 32 := Scalar.muli arg0 c40_i32
  let c36_i32 : BitVec 32 := 36#32
  let v328 : BitVec 32 := Scalar.addi v3 c36_i32
  let v329 : Index := Scalar.indexCast v328
  ![v329.toNat]
def k1_off74 (v330 : BitVec 32) : Fin 2 → Nat :=
  let v331 : Index := Scalar.indexCast v330
  let c0_74 : Index := 0#32
  ![v331.toNat, 0]

def k1_chk37 (v330 : BitVec 32) : Prop :=
  (∀ a, (k1_off74 v330) a + S1x1024.size a ≤ S6000x1024.size a)
instance k1_chk37.dec : ∀ (v330 : BitVec 32), Decidable (k1_chk37 v330) := fun v330 => decidable_of_iff' _ (Iff.of_eq (k1_chk37.eq_1 v330))
theorem k1_off74_inb : ∀ (v330 : BitVec 32) (k1_hw37 : k1_chk37 v330), ∀ a, (k1_off74 v330) a + S1x1024.size a ≤ S6000x1024.size a := fun v330 k1_hw37 => k1_hw37

def k1_off75 (i : grid1.Coords) : Fin 1 → Nat :=
  let arg0 : BitVec 32 := BitVec.ofNat 32 (i 0).val
  let c40_i32 : BitVec 32 := 40#32
  let v3 : BitVec 32 := Scalar.muli arg0 c40_i32
  let c37_i32 : BitVec 32 := 37#32
  let v337 : BitVec 32 := Scalar.addi v3 c37_i32
  let v338 : Index := Scalar.indexCast v337
  ![v338.toNat]
def k1_off76 (v339 : BitVec 32) : Fin 2 → Nat :=
  let v340 : Index := Scalar.indexCast v339
  let c0_76 : Index := 0#32
  ![v340.toNat, 0]

def k1_chk38 (v339 : BitVec 32) : Prop :=
  (∀ a, (k1_off76 v339) a + S1x1024.size a ≤ S6000x1024.size a)
instance k1_chk38.dec : ∀ (v339 : BitVec 32), Decidable (k1_chk38 v339) := fun v339 => decidable_of_iff' _ (Iff.of_eq (k1_chk38.eq_1 v339))
theorem k1_off76_inb : ∀ (v339 : BitVec 32) (k1_hw38 : k1_chk38 v339), ∀ a, (k1_off76 v339) a + S1x1024.size a ≤ S6000x1024.size a := fun v339 k1_hw38 => k1_hw38

def k1_off77 (i : grid1.Coords) : Fin 1 → Nat :=
  let arg0 : BitVec 32 := BitVec.ofNat 32 (i 0).val
  let c40_i32 : BitVec 32 := 40#32
  let v3 : BitVec 32 := Scalar.muli arg0 c40_i32
  let c38_i32 : BitVec 32 := 38#32
  let v346 : BitVec 32 := Scalar.addi v3 c38_i32
  let v347 : Index := Scalar.indexCast v346
  ![v347.toNat]
def k1_off78 (v348 : BitVec 32) : Fin 2 → Nat :=
  let v349 : Index := Scalar.indexCast v348
  let c0_78 : Index := 0#32
  ![v349.toNat, 0]

def k1_chk39 (v348 : BitVec 32) : Prop :=
  (∀ a, (k1_off78 v348) a + S1x1024.size a ≤ S6000x1024.size a)
instance k1_chk39.dec : ∀ (v348 : BitVec 32), Decidable (k1_chk39 v348) := fun v348 => decidable_of_iff' _ (Iff.of_eq (k1_chk39.eq_1 v348))
theorem k1_off78_inb : ∀ (v348 : BitVec 32) (k1_hw39 : k1_chk39 v348), ∀ a, (k1_off78 v348) a + S1x1024.size a ≤ S6000x1024.size a := fun v348 k1_hw39 => k1_hw39

def k1_off79 (i : grid1.Coords) : Fin 1 → Nat :=
  let arg0 : BitVec 32 := BitVec.ofNat 32 (i 0).val
  let c40_i32 : BitVec 32 := 40#32
  let v3 : BitVec 32 := Scalar.muli arg0 c40_i32
  let c39_i32 : BitVec 32 := 39#32
  let v355 : BitVec 32 := Scalar.addi v3 c39_i32
  let v356 : Index := Scalar.indexCast v355
  ![v356.toNat]
def k1_off80 (v357 : BitVec 32) : Fin 2 → Nat :=
  let v358 : Index := Scalar.indexCast v357
  let c0_80 : Index := 0#32
  ![v358.toNat, 0]

def k1_chk40 (v357 : BitVec 32) : Prop :=
  (∀ a, (k1_off80 v357) a + S1x1024.size a ≤ S6000x1024.size a)
instance k1_chk40.dec : ∀ (v357 : BitVec 32), Decidable (k1_chk40 v357) := fun v357 => decidable_of_iff' _ (Iff.of_eq (k1_chk40.eq_1 v357))
theorem k1_off80_inb : ∀ (v357 : BitVec 32) (k1_hw40 : k1_chk40 v357), ∀ a, (k1_off80 v357) a + S1x1024.size a ≤ S6000x1024.size a := fun v357 k1_hw40 => k1_hw40

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S120x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1920 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S16x1024 : S_.BroadcastsInDim S16x1024 (![] : Fin 0 → Fin S16x1024.rank)
  bcast_S_S14 : S_.BroadcastsInDim S14 (![] : Fin 0 → Fin S14.rank)
  slices_S1x15_S1x14_0_0 : S1x15.Slices ![0, 0] S1x14
  shapeCasts_S1x14_S14 : S1x14.ShapeCasts S14
  bcast_S14_S14x1_0 : S14.BroadcastsInDim S14x1 (![0] : Fin 1 → Fin S14x1.rank)
  bcast_S14x1_S14x64_0_1 : S14x1.BroadcastsInDim S14x64 (![0, 1] : Fin 2 → Fin S14x64.rank)
  bcast_S_S14x1 : S_.BroadcastsInDim S14x1 (![] : Fin 0 → Fin S14x1.rank)
  bcast_S_S14x64 : S_.BroadcastsInDim S14x64 (![] : Fin 0 → Fin S14x64.rank)
  bcast_S14x64_S14x64x1_0_1 : S14x64.BroadcastsInDim S14x64x1 (![0, 1] : Fin 2 → Fin S14x64x1.rank)
  concatenates_S14x64x1_S14x64x1_S14x64x2_d2 : Shape.Concatenates [S14x64x1, S14x64x1] S14x64x2 2
  numel1_S1 : S1.numel = 1
  h_S1x1024 : 0 < S1x1024.numel
  shapeCasts_S1x1024_S1024 : S1x1024.ShapeCasts S1024
  inb_S40x1024_S1x1024_0_0 : ∀ a, (![0, 0] : Fin 2 → Nat) a + S1x1024.size a ≤ S40x1024.size a
  shapeCasts_S1024_S1x1024 : S1024.ShapeCasts S1x1024
  inb_S40x1024_S1x1024_1_0 : ∀ a, (![1, 0] : Fin 2 → Nat) a + S1x1024.size a ≤ S40x1024.size a
  inb_S40x1024_S1x1024_2_0 : ∀ a, (![2, 0] : Fin 2 → Nat) a + S1x1024.size a ≤ S40x1024.size a
  inb_S40x1024_S1x1024_3_0 : ∀ a, (![3, 0] : Fin 2 → Nat) a + S1x1024.size a ≤ S40x1024.size a
  inb_S40x1024_S1x1024_4_0 : ∀ a, (![4, 0] : Fin 2 → Nat) a + S1x1024.size a ≤ S40x1024.size a
  inb_S40x1024_S1x1024_5_0 : ∀ a, (![5, 0] : Fin 2 → Nat) a + S1x1024.size a ≤ S40x1024.size a
  inb_S40x1024_S1x1024_6_0 : ∀ a, (![6, 0] : Fin 2 → Nat) a + S1x1024.size a ≤ S40x1024.size a
  inb_S40x1024_S1x1024_7_0 : ∀ a, (![7, 0] : Fin 2 → Nat) a + S1x1024.size a ≤ S40x1024.size a
  inb_S40x1024_S1x1024_8_0 : ∀ a, (![8, 0] : Fin 2 → Nat) a + S1x1024.size a ≤ S40x1024.size a
  inb_S40x1024_S1x1024_9_0 : ∀ a, (![9, 0] : Fin 2 → Nat) a + S1x1024.size a ≤ S40x1024.size a
  inb_S40x1024_S1x1024_10_0 : ∀ a, (![10, 0] : Fin 2 → Nat) a + S1x1024.size a ≤ S40x1024.size a
  inb_S40x1024_S1x1024_11_0 : ∀ a, (![11, 0] : Fin 2 → Nat) a + S1x1024.size a ≤ S40x1024.size a
  inb_S40x1024_S1x1024_12_0 : ∀ a, (![12, 0] : Fin 2 → Nat) a + S1x1024.size a ≤ S40x1024.size a
  inb_S40x1024_S1x1024_13_0 : ∀ a, (![13, 0] : Fin 2 → Nat) a + S1x1024.size a ≤ S40x1024.size a
  inb_S40x1024_S1x1024_14_0 : ∀ a, (![14, 0] : Fin 2 → Nat) a + S1x1024.size a ≤ S40x1024.size a
  inb_S40x1024_S1x1024_15_0 : ∀ a, (![15, 0] : Fin 2 → Nat) a + S1x1024.size a ≤ S40x1024.size a
  inb_S40x1024_S1x1024_16_0 : ∀ a, (![16, 0] : Fin 2 → Nat) a + S1x1024.size a ≤ S40x1024.size a
  inb_S40x1024_S1x1024_17_0 : ∀ a, (![17, 0] : Fin 2 → Nat) a + S1x1024.size a ≤ S40x1024.size a
  inb_S40x1024_S1x1024_18_0 : ∀ a, (![18, 0] : Fin 2 → Nat) a + S1x1024.size a ≤ S40x1024.size a
  inb_S40x1024_S1x1024_19_0 : ∀ a, (![19, 0] : Fin 2 → Nat) a + S1x1024.size a ≤ S40x1024.size a
  inb_S40x1024_S1x1024_20_0 : ∀ a, (![20, 0] : Fin 2 → Nat) a + S1x1024.size a ≤ S40x1024.size a
  inb_S40x1024_S1x1024_21_0 : ∀ a, (![21, 0] : Fin 2 → Nat) a + S1x1024.size a ≤ S40x1024.size a
  inb_S40x1024_S1x1024_22_0 : ∀ a, (![22, 0] : Fin 2 → Nat) a + S1x1024.size a ≤ S40x1024.size a
  inb_S40x1024_S1x1024_23_0 : ∀ a, (![23, 0] : Fin 2 → Nat) a + S1x1024.size a ≤ S40x1024.size a
  inb_S40x1024_S1x1024_24_0 : ∀ a, (![24, 0] : Fin 2 → Nat) a + S1x1024.size a ≤ S40x1024.size a
  inb_S40x1024_S1x1024_25_0 : ∀ a, (![25, 0] : Fin 2 → Nat) a + S1x1024.size a ≤ S40x1024.size a
  inb_S40x1024_S1x1024_26_0 : ∀ a, (![26, 0] : Fin 2 → Nat) a + S1x1024.size a ≤ S40x1024.size a
  inb_S40x1024_S1x1024_27_0 : ∀ a, (![27, 0] : Fin 2 → Nat) a + S1x1024.size a ≤ S40x1024.size a
  inb_S40x1024_S1x1024_28_0 : ∀ a, (![28, 0] : Fin 2 → Nat) a + S1x1024.size a ≤ S40x1024.size a
  inb_S40x1024_S1x1024_29_0 : ∀ a, (![29, 0] : Fin 2 → Nat) a + S1x1024.size a ≤ S40x1024.size a
  inb_S40x1024_S1x1024_30_0 : ∀ a, (![30, 0] : Fin 2 → Nat) a + S1x1024.size a ≤ S40x1024.size a
  inb_S40x1024_S1x1024_31_0 : ∀ a, (![31, 0] : Fin 2 → Nat) a + S1x1024.size a ≤ S40x1024.size a
  inb_S40x1024_S1x1024_32_0 : ∀ a, (![32, 0] : Fin 2 → Nat) a + S1x1024.size a ≤ S40x1024.size a
  inb_S40x1024_S1x1024_33_0 : ∀ a, (![33, 0] : Fin 2 → Nat) a + S1x1024.size a ≤ S40x1024.size a
  inb_S40x1024_S1x1024_34_0 : ∀ a, (![34, 0] : Fin 2 → Nat) a + S1x1024.size a ≤ S40x1024.size a
  inb_S40x1024_S1x1024_35_0 : ∀ a, (![35, 0] : Fin 2 → Nat) a + S1x1024.size a ≤ S40x1024.size a
  inb_S40x1024_S1x1024_36_0 : ∀ a, (![36, 0] : Fin 2 → Nat) a + S1x1024.size a ≤ S40x1024.size a
  inb_S40x1024_S1x1024_37_0 : ∀ a, (![37, 0] : Fin 2 → Nat) a + S1x1024.size a ≤ S40x1024.size a
  inb_S40x1024_S1x1024_38_0 : ∀ a, (![38, 0] : Fin 2 → Nat) a + S1x1024.size a ≤ S40x1024.size a
  inb_S40x1024_S1x1024_39_0 : ∀ a, (![39, 0] : Fin 2 → Nat) a + S1x1024.size a ≤ S40x1024.size a
  inb_S40x1024_S40x1024_0_0 : ∀ a, (![0, 0] : Fin 2 → Nat) a + S40x1024.size a ≤ S40x1024.size a
  h_S40x1024 : 0 < S40x1024.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S16x1024_S1x16x1024 : S16x1024.ShapeCasts S1x16x1024
  shapeCasts_S40x1024_S40x1x1024 : S40x1024.ShapeCasts S40x1x1024
  broadcasts_S1x16x1024_S40x16x1024 : S1x16x1024.Broadcasts S40x16x1024
  broadcasts_S40x1x1024_S40x16x1024 : S40x1x1024.Broadcasts S40x16x1024
  reduces_S40x16x1024_S40x16 : S40x16x1024.Reduces [2] S40x16
  shapeCasts_S40x16_S40x16x1 : S40x16.ShapeCasts S40x16x1
  broadcasts_S40x16x1_S40x16x1024 : S40x16x1.Broadcasts S40x16x1024
  shapeCasts_S40x16x1024_S640x1024 : S40x16x1024.ShapeCasts S640x1024
  transposes_S640x1024_p1_0_S1024x640 : S640x1024.Transposes [1, 0] S1024x640
  inb_S1024x640_S1024x640_0_0 : ∀ a, (![0, 0] : Fin 2 → Nat) a + S1024x640.size a ≤ S1024x640.size a
  h_S1024x640 : 0 < S1024x640.numel
  inb_S120x1024_S120x1024_0_0 : ∀ a, (![0, 0] : Fin 2 → Nat) a + S120x1024.size a ≤ S120x1024.size a
  h_S120x1024 : 0 < S120x1024.numel
  shapeCasts_S120x1024_S120x1x1024 : S120x1024.ShapeCasts S120x1x1024
  broadcasts_S1x16x1024_S120x16x1024 : S1x16x1024.Broadcasts S120x16x1024
  broadcasts_S120x1x1024_S120x16x1024 : S120x1x1024.Broadcasts S120x16x1024
  reduces_S120x16x1024_S120x16 : S120x16x1024.Reduces [2] S120x16
  shapeCasts_S120x16_S120x16x1 : S120x16.ShapeCasts S120x16x1
  broadcasts_S120x16x1_S120x16x1024 : S120x16x1.Broadcasts S120x16x1024
  shapeCasts_S120x16x1024_S1920x1024 : S120x16x1024.ShapeCasts S1920x1024
  transposes_S1920x1024_p1_0_S1024x1920 : S1920x1024.Transposes [1, 0] S1024x1920
  inb_S1024x1920_S1024x1920_0_0 : ∀ a, (![0, 0] : Fin 2 → Nat) a + S1024x1920.size a ≤ S1024x1920.size a
  h_S1024x1920 : 0 < S1024x1920.numel
  scatter_S16x1024_S14x64x2_S14x64_n_01_01_2_wf : ScatterDims.WF S16x1024 S14x64x2 S14x64 [] [0, 1] [0, 1] 2
  hcc0_scratch2 : 4 + S_.numel ≤ 16
  hcc1_scratch2 : 9 + S_.numel ≤ 16
  hrank0 : 0 < grid0.rank
  k0_off1_inb : ∀ i : grid0.Coords, ∀ a, (k0_off1 i) a + S1.size a ≤ S1200.size a
  k0_off3_inb : ∀ i : grid0.Coords, ∀ a, (k0_off3 i) a + S1.size a ≤ S1200.size a
  k0_off5_inb : ∀ i : grid0.Coords, ∀ a, (k0_off5 i) a + S1.size a ≤ S1200.size a
  k0_off7_inb : ∀ i : grid0.Coords, ∀ a, (k0_off7 i) a + S1.size a ≤ S1200.size a
  k0_off9_inb : ∀ i : grid0.Coords, ∀ a, (k0_off9 i) a + S1.size a ≤ S1200.size a
  k0_off11_inb : ∀ i : grid0.Coords, ∀ a, (k0_off11 i) a + S1.size a ≤ S1200.size a
  k0_off13_inb : ∀ i : grid0.Coords, ∀ a, (k0_off13 i) a + S1.size a ≤ S1200.size a
  k0_off15_inb : ∀ i : grid0.Coords, ∀ a, (k0_off15 i) a + S1.size a ≤ S1200.size a
  k0_off17_inb : ∀ i : grid0.Coords, ∀ a, (k0_off17 i) a + S1.size a ≤ S1200.size a
  k0_off19_inb : ∀ i : grid0.Coords, ∀ a, (k0_off19 i) a + S1.size a ≤ S1200.size a
  k0_off21_inb : ∀ i : grid0.Coords, ∀ a, (k0_off21 i) a + S1.size a ≤ S1200.size a
  k0_off23_inb : ∀ i : grid0.Coords, ∀ a, (k0_off23 i) a + S1.size a ≤ S1200.size a
  k0_off25_inb : ∀ i : grid0.Coords, ∀ a, (k0_off25 i) a + S1.size a ≤ S1200.size a
  k0_off27_inb : ∀ i : grid0.Coords, ∀ a, (k0_off27 i) a + S1.size a ≤ S1200.size a
  k0_off29_inb : ∀ i : grid0.Coords, ∀ a, (k0_off29 i) a + S1.size a ≤ S1200.size a
  k0_off31_inb : ∀ i : grid0.Coords, ∀ a, (k0_off31 i) a + S1.size a ≤ S1200.size a
  k0_off33_inb : ∀ i : grid0.Coords, ∀ a, (k0_off33 i) a + S1.size a ≤ S1200.size a
  k0_off35_inb : ∀ i : grid0.Coords, ∀ a, (k0_off35 i) a + S1.size a ≤ S1200.size a
  k0_off37_inb : ∀ i : grid0.Coords, ∀ a, (k0_off37 i) a + S1.size a ≤ S1200.size a
  k0_off39_inb : ∀ i : grid0.Coords, ∀ a, (k0_off39 i) a + S1.size a ≤ S1200.size a
  k0_off41_inb : ∀ i : grid0.Coords, ∀ a, (k0_off41 i) a + S1.size a ≤ S1200.size a
  k0_off43_inb : ∀ i : grid0.Coords, ∀ a, (k0_off43 i) a + S1.size a ≤ S1200.size a
  k0_off45_inb : ∀ i : grid0.Coords, ∀ a, (k0_off45 i) a + S1.size a ≤ S1200.size a
  k0_off47_inb : ∀ i : grid0.Coords, ∀ a, (k0_off47 i) a + S1.size a ≤ S1200.size a
  k0_off49_inb : ∀ i : grid0.Coords, ∀ a, (k0_off49 i) a + S1.size a ≤ S1200.size a
  k0_off51_inb : ∀ i : grid0.Coords, ∀ a, (k0_off51 i) a + S1.size a ≤ S1200.size a
  k0_off53_inb : ∀ i : grid0.Coords, ∀ a, (k0_off53 i) a + S1.size a ≤ S1200.size a
  k0_off55_inb : ∀ i : grid0.Coords, ∀ a, (k0_off55 i) a + S1.size a ≤ S1200.size a
  k0_off57_inb : ∀ i : grid0.Coords, ∀ a, (k0_off57 i) a + S1.size a ≤ S1200.size a
  k0_off59_inb : ∀ i : grid0.Coords, ∀ a, (k0_off59 i) a + S1.size a ≤ S1200.size a
  k0_off61_inb : ∀ i : grid0.Coords, ∀ a, (k0_off61 i) a + S1.size a ≤ S1200.size a
  k0_off63_inb : ∀ i : grid0.Coords, ∀ a, (k0_off63 i) a + S1.size a ≤ S1200.size a
  k0_off65_inb : ∀ i : grid0.Coords, ∀ a, (k0_off65 i) a + S1.size a ≤ S1200.size a
  k0_off67_inb : ∀ i : grid0.Coords, ∀ a, (k0_off67 i) a + S1.size a ≤ S1200.size a
  k0_off69_inb : ∀ i : grid0.Coords, ∀ a, (k0_off69 i) a + S1.size a ≤ S1200.size a
  k0_off71_inb : ∀ i : grid0.Coords, ∀ a, (k0_off71 i) a + S1.size a ≤ S1200.size a
  k0_off73_inb : ∀ i : grid0.Coords, ∀ a, (k0_off73 i) a + S1.size a ≤ S1200.size a
  k0_off75_inb : ∀ i : grid0.Coords, ∀ a, (k0_off75 i) a + S1.size a ≤ S1200.size a
  k0_off77_inb : ∀ i : grid0.Coords, ∀ a, (k0_off77 i) a + S1.size a ≤ S1200.size a
  k0_off79_inb : ∀ i : grid0.Coords, ∀ a, (k0_off79 i) a + S1.size a ≤ S1200.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S16x1024.size a ≤ S16x1024.size a
  hwx0_0 : ∀ i : grid0.Coords, EltTy.bits .f32 = 32 ∨ (Rect.block (s := S16x1024) S16x1024.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S16x1024.size a ≤ S16x1024.size a
  hwx0_1 : ∀ i : grid0.Coords, EltTy.bits .f32 = 32 ∨ (Rect.block (s := S16x1024) S16x1024.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1024x640.size a ≤ S1024x19200.size a
  hwx0_2 : ∀ i : grid0.Coords, EltTy.bits .f32 = 32 ∨ (Rect.block (s := S1024x19200) S1024x640.size (cc0_transform_3 i) (hinb0_2 i)).WholeWords (EltTy.packing .f32)
  hrank1 : 0 < grid1.rank
  k1_off1_inb : ∀ i : grid1.Coords, ∀ a, (k1_off1 i) a + S1.size a ≤ S4800.size a
  k1_off3_inb : ∀ i : grid1.Coords, ∀ a, (k1_off3 i) a + S1.size a ≤ S4800.size a
  k1_off5_inb : ∀ i : grid1.Coords, ∀ a, (k1_off5 i) a + S1.size a ≤ S4800.size a
  k1_off7_inb : ∀ i : grid1.Coords, ∀ a, (k1_off7 i) a + S1.size a ≤ S4800.size a
  k1_off9_inb : ∀ i : grid1.Coords, ∀ a, (k1_off9 i) a + S1.size a ≤ S4800.size a
  k1_off11_inb : ∀ i : grid1.Coords, ∀ a, (k1_off11 i) a + S1.size a ≤ S4800.size a
  k1_off13_inb : ∀ i : grid1.Coords, ∀ a, (k1_off13 i) a + S1.size a ≤ S4800.size a
  k1_off15_inb : ∀ i : grid1.Coords, ∀ a, (k1_off15 i) a + S1.size a ≤ S4800.size a
  k1_off17_inb : ∀ i : grid1.Coords, ∀ a, (k1_off17 i) a + S1.size a ≤ S4800.size a
  k1_off19_inb : ∀ i : grid1.Coords, ∀ a, (k1_off19 i) a + S1.size a ≤ S4800.size a
  k1_off21_inb : ∀ i : grid1.Coords, ∀ a, (k1_off21 i) a + S1.size a ≤ S4800.size a
  k1_off23_inb : ∀ i : grid1.Coords, ∀ a, (k1_off23 i) a + S1.size a ≤ S4800.size a
  k1_off25_inb : ∀ i : grid1.Coords, ∀ a, (k1_off25 i) a + S1.size a ≤ S4800.size a
  k1_off27_inb : ∀ i : grid1.Coords, ∀ a, (k1_off27 i) a + S1.size a ≤ S4800.size a
  k1_off29_inb : ∀ i : grid1.Coords, ∀ a, (k1_off29 i) a + S1.size a ≤ S4800.size a
  k1_off31_inb : ∀ i : grid1.Coords, ∀ a, (k1_off31 i) a + S1.size a ≤ S4800.size a
  k1_off33_inb : ∀ i : grid1.Coords, ∀ a, (k1_off33 i) a + S1.size a ≤ S4800.size a
  k1_off35_inb : ∀ i : grid1.Coords, ∀ a, (k1_off35 i) a + S1.size a ≤ S4800.size a
  k1_off37_inb : ∀ i : grid1.Coords, ∀ a, (k1_off37 i) a + S1.size a ≤ S4800.size a
  k1_off39_inb : ∀ i : grid1.Coords, ∀ a, (k1_off39 i) a + S1.size a ≤ S4800.size a
  k1_off41_inb : ∀ i : grid1.Coords, ∀ a, (k1_off41 i) a + S1.size a ≤ S4800.size a
  k1_off43_inb : ∀ i : grid1.Coords, ∀ a, (k1_off43 i) a + S1.size a ≤ S4800.size a
  k1_off45_inb : ∀ i : grid1.Coords, ∀ a, (k1_off45 i) a + S1.size a ≤ S4800.size a
  k1_off47_inb : ∀ i : grid1.Coords, ∀ a, (k1_off47 i) a + S1.size a ≤ S4800.size a
  k1_off49_inb : ∀ i : grid1.Coords, ∀ a, (k1_off49 i) a + S1.size a ≤ S4800.size a
  k1_off51_inb : ∀ i : grid1.Coords, ∀ a, (k1_off51 i) a + S1.size a ≤ S4800.size a
  k1_off53_inb : ∀ i : grid1.Coords, ∀ a, (k1_off53 i) a + S1.size a ≤ S4800.size a
  k1_off55_inb : ∀ i : grid1.Coords, ∀ a, (k1_off55 i) a + S1.size a ≤ S4800.size a
  k1_off57_inb : ∀ i : grid1.Coords, ∀ a, (k1_off57 i) a + S1.size a ≤ S4800.size a
  k1_off59_inb : ∀ i : grid1.Coords, ∀ a, (k1_off59 i) a + S1.size a ≤ S4800.size a
  k1_off61_inb : ∀ i : grid1.Coords, ∀ a, (k1_off61 i) a + S1.size a ≤ S4800.size a
  k1_off63_inb : ∀ i : grid1.Coords, ∀ a, (k1_off63 i) a + S1.size a ≤ S4800.size a
  k1_off65_inb : ∀ i : grid1.Coords, ∀ a, (k1_off65 i) a + S1.size a ≤ S4800.size a
  k1_off67_inb : ∀ i : grid1.Coords, ∀ a, (k1_off67 i) a + S1.size a ≤ S4800.size a
  k1_off69_inb : ∀ i : grid1.Coords, ∀ a, (k1_off69 i) a + S1.size a ≤ S4800.size a
  k1_off71_inb : ∀ i : grid1.Coords, ∀ a, (k1_off71 i) a + S1.size a ≤ S4800.size a
  k1_off73_inb : ∀ i : grid1.Coords, ∀ a, (k1_off73 i) a + S1.size a ≤ S4800.size a
  k1_off75_inb : ∀ i : grid1.Coords, ∀ a, (k1_off75 i) a + S1.size a ≤ S4800.size a
  k1_off77_inb : ∀ i : grid1.Coords, ∀ a, (k1_off77 i) a + S1.size a ≤ S4800.size a
  k1_off79_inb : ∀ i : grid1.Coords, ∀ a, (k1_off79 i) a + S1.size a ≤ S4800.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S16x1024.size a ≤ S16x1024.size a
  hwx1_0 : ∀ i : grid1.Coords, EltTy.bits .f32 = 32 ∨ (Rect.block (s := S16x1024) S16x1024.size (cc1_transform_1 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S16x1024.size a ≤ S16x1024.size a
  hwx1_1 : ∀ i : grid1.Coords, EltTy.bits .f32 = 32 ∨ (Rect.block (s := S16x1024) S16x1024.size (cc1_transform_2 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S1024x640.size a ≤ S1024x76800.size a
  hwx1_2 : ∀ i : grid1.Coords, EltTy.bits .f32 = 32 ∨ (Rect.block (s := S1024x76800) S1024x640.size (cc1_transform_3 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S120x1024.size a ≤ S6000x1024.size a
  hwx2_0 : ∀ i : grid2.Coords, EltTy.bits .f32 = 32 ∨ (Rect.block (s := S6000x1024) S120x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1024.size a ≤ S16x1024.size a
  hwx2_1 : ∀ i : grid2.Coords, EltTy.bits .f32 = 32 ∨ (Rect.block (s := S16x1024) S16x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1024.size a ≤ S16x1024.size a
  hwx2_2 : ∀ i : grid2.Coords, EltTy.bits .f32 = 32 ∨ (Rect.block (s := S16x1024) S16x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1920.size a ≤ S1024x96000.size a
  hwx2_3 : ∀ i : grid2.Coords, EltTy.bits .f32 = 32 ∨ (Rect.block (s := S1024x96000) S1024x1920.size (cc2_transform_3 i) (hinb2_3 i)).WholeWords (EltTy.packing .f32)

variable [Facts₀]

abbrev cc0_scratch2 : DmaSems sig S_ := SemArray.consecutive 4 S_ hcc0_scratch2
abbrev cc1_scratch2 : DmaSems sig S_ := SemArray.consecutive 9 S_ hcc1_scratch2
def scatter_S16x1024_S14x64x2_S14x64_n_01_01_2 : ScatterDims S16x1024 S14x64x2 S14x64 where
  updateWindowDims := []
  insertedWindowDims := [0, 1]
  scatterDimsToOperandDims := [0, 1]
  indexVectorDim := 2
  wf := scatter_S16x1024_S14x64x2_S14x64_n_01_01_2_wf

abbrev spec0_0 : Pipeline.WinSpec sig grid0.rank :=
  Pipeline.WinSpec.ofSpec (Memref.whole main_v25) S16x1024.size reads0_0 false true 1 stage0_0 sem0_0 nbuf0_0 hstage0_0

abbrev spec0_1 : Pipeline.WinSpec sig grid0.rank :=
  Pipeline.WinSpec.ofSpec (Memref.whole main_v41) S16x1024.size reads0_1 false true 1 stage0_1 sem0_1 nbuf0_1 hstage0_1

abbrev spec0_2 : Pipeline.WinSpec sig grid0.rank :=
  Pipeline.WinSpec.ofSpec (Memref.whole main_v42) S1024x640.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev spec1_0 : Pipeline.WinSpec sig grid1.rank :=
  Pipeline.WinSpec.ofSpec (Memref.whole main_v25) S16x1024.size reads1_0 false true 1 stage1_0 sem1_0 nbuf1_0 hstage1_0

abbrev spec1_1 : Pipeline.WinSpec sig grid1.rank :=
  Pipeline.WinSpec.ofSpec (Memref.whole main_v41) S16x1024.size reads1_1 false true 1 stage1_1 sem1_1 nbuf1_1 hstage1_1

abbrev spec1_2 : Pipeline.WinSpec sig grid1.rank :=
  Pipeline.WinSpec.ofSpec (Memref.whole main_v43) S1024x640.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_1 | 1 => cc1_transform_2 | 2 => cc1_transform_3 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev win2_0 : Pipeline.Window sig grid2 :=
  Pipeline.Window.ofSpec (Memref.whole main_arg0) S120x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S16x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S16x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1024x1920.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  harr0 : ∀ w, (spec0 w).arr.IsWhole
  harr1 : ∀ w, (spec1 w).arr.IsWhole

variable [Facts]
-- ==== ReferenceIdeal.lean ====
abbrev S6000x1024 : Shape := ⟨2, ![6000, 1024]⟩
abbrev S1x15 : Shape := ⟨2, ![1, 15]⟩
abbrev S14x64 : Shape := ⟨2, ![14, 64]⟩
abbrev S1200 : Shape := ⟨1, ![1200]⟩
abbrev S4800 : Shape := ⟨1, ![4800]⟩
abbrev S6000x1x1024 : Shape := ⟨3, ![6000, 1, 1024]⟩
abbrev S6000x16x1024 : Shape := ⟨3, ![6000, 16, 1024]⟩
abbrev S14 : Shape := ⟨1, ![14]⟩
abbrev S_ : Shape := ⟨0, ![]⟩
abbrev S1x14 : Shape := ⟨2, ![1, 14]⟩
abbrev S14x1 : Shape := ⟨2, ![14, 1]⟩
abbrev S14x64x1 : Shape := ⟨3, ![14, 64, 1]⟩
abbrev S14x64x2 : Shape := ⟨3, ![14, 64, 2]⟩
abbrev S6000x14x64 : Shape := ⟨3, ![6000, 14, 64]⟩
abbrev S6000x16 : Shape := ⟨2, ![6000, 16]⟩
abbrev S6000x16x1 : Shape := ⟨3, ![6000, 16, 1]⟩
abbrev S1200x1 : Shape := ⟨2, ![1200, 1]⟩
abbrev S1200x16x1024 : Shape := ⟨3, ![1200, 16, 1024]⟩
abbrev S19200x1024 : Shape := ⟨2, ![19200, 1024]⟩
abbrev S1024x19200 : Shape := ⟨2, ![1024, 19200]⟩
abbrev S4800x1 : Shape := ⟨2, ![4800, 1]⟩
abbrev S4800x16x1024 : Shape := ⟨3, ![4800, 16, 1024]⟩
abbrev S76800x1024 : Shape := ⟨2, ![76800, 1024]⟩
abbrev S1024x76800 : Shape := ⟨2, ![1024, 76800]⟩
abbrev S96000x1024 : Shape := ⟨2, ![96000, 1024]⟩
abbrev S1024x96000 : Shape := ⟨2, ![1024, 96000]⟩

abbrev nBuf : Space → Nat
  | .hbm => 70
  | .vmem => 0
  | .smem => 0
  | _ => 0

abbrev bufTy : (tb : Table) → Fin (tcTables nBuf tb) → BufTy
  | .hbm, ⟨0, _⟩ => ⟨S6000x1024, .f32⟩
  | .hbm, ⟨1, _⟩ => ⟨S1x15, .f32⟩
  | .hbm, ⟨2, _⟩ => ⟨S14x64, .i32⟩
  | .hbm, ⟨3, _⟩ => ⟨S1200, .i32⟩
  | .hbm, ⟨4, _⟩ => ⟨S4800, .i32⟩
  | .hbm, ⟨5, _⟩ => ⟨S6000x1x1024, .f32⟩
  | .hbm, ⟨6, _⟩ => ⟨S6000x16x1024, .f32⟩
  | .hbm, ⟨7, _⟩ => ⟨S14, .i32⟩
  | .hbm, ⟨8, _⟩ => ⟨S_, .i32⟩
  | .hbm, ⟨9, _⟩ => ⟨S14, .i32⟩
  | .hbm, ⟨10, _⟩ => ⟨S14, .i32⟩
  | .hbm, ⟨11, _⟩ => ⟨S1x14, .f32⟩
  | .hbm, ⟨12, _⟩ => ⟨S14, .f32⟩
  | .hbm, ⟨13, _⟩ => ⟨S14x1, .f32⟩
  | .hbm, ⟨14, _⟩ => ⟨S14x64, .f32⟩
  | .hbm, ⟨15, _⟩ => ⟨S14x1, .i32⟩
  | .hbm, ⟨16, _⟩ => ⟨S_, .i32⟩
  | .hbm, ⟨17, _⟩ => ⟨S14x1, .i32⟩
  | .hbm, ⟨18, _⟩ => ⟨S14x1, .i1⟩
  | .hbm, ⟨19, _⟩ => ⟨S_, .i32⟩
  | .hbm, ⟨20, _⟩ => ⟨S14x1, .i32⟩
  | .hbm, ⟨21, _⟩ => ⟨S14x1, .i32⟩
  | .hbm, ⟨22, _⟩ => ⟨S14x1, .i32⟩
  | .hbm, ⟨23, _⟩ => ⟨S_, .i32⟩
  | .hbm, ⟨24, _⟩ => ⟨S14x64, .i32⟩
  | .hbm, ⟨25, _⟩ => ⟨S14x64, .i1⟩
  | .hbm, ⟨26, _⟩ => ⟨S_, .i32⟩
  | .hbm, ⟨27, _⟩ => ⟨S14x64, .i32⟩
  | .hbm, ⟨28, _⟩ => ⟨S14x64, .i32⟩
  | .hbm, ⟨29, _⟩ => ⟨S14x64, .i32⟩
  | .hbm, ⟨30, _⟩ => ⟨S14x64, .i32⟩
  | .hbm, ⟨31, _⟩ => ⟨S14x64x1, .i32⟩
  | .hbm, ⟨32, _⟩ => ⟨S14x64x1, .i32⟩
  | .hbm, ⟨33, _⟩ => ⟨S14x64x2, .i32⟩
  | .hbm, ⟨34, _⟩ => ⟨S6000x14x64, .f32⟩
  | .hbm, ⟨35, _⟩ => ⟨S6000x16x1024, .f32⟩
  | .hbm, ⟨36, _⟩ => ⟨S6000x16x1024, .f32⟩
  | .hbm, ⟨37, _⟩ => ⟨S_, .f32⟩
  | .hbm, ⟨38, _⟩ => ⟨S6000x16, .f32⟩
  | .hbm, ⟨39, _⟩ => ⟨S6000x16x1, .f32⟩
  | .hbm, ⟨40, _⟩ => ⟨S6000x16x1, .f32⟩
  | .hbm, ⟨41, _⟩ => ⟨S_, .f32⟩
  | .hbm, ⟨42, _⟩ => ⟨S6000x16x1, .f32⟩
  | .hbm, ⟨43, _⟩ => ⟨S6000x16x1, .f32⟩
  | .hbm, ⟨44, _⟩ => ⟨S6000x16x1024, .f32⟩
  | .hbm, ⟨45, _⟩ => ⟨S6000x16x1024, .f32⟩
  | .hbm, ⟨46, _⟩ => ⟨S_, .i32⟩
  | .hbm, ⟨47, _⟩ => ⟨S1200, .i32⟩
  | .hbm, ⟨48, _⟩ => ⟨S1200, .i1⟩
  | .hbm, ⟨49, _⟩ => ⟨S_, .i32⟩
  | .hbm, ⟨50, _⟩ => ⟨S1200, .i32⟩
  | .hbm, ⟨51, _⟩ => ⟨S1200, .i32⟩
  | .hbm, ⟨52, _⟩ => ⟨S1200, .i32⟩
  | .hbm, ⟨53, _⟩ => ⟨S1200x1, .i32⟩
  | .hbm, ⟨54, _⟩ => ⟨S1200x16x1024, .f32⟩
  | .hbm, ⟨55, _⟩ => ⟨S19200x1024, .f32⟩
  | .hbm, ⟨56, _⟩ => ⟨S1024x19200, .f32⟩
  | .hbm, ⟨57, _⟩ => ⟨S_, .i32⟩
  | .hbm, ⟨58, _⟩ => ⟨S4800, .i32⟩
  | .hbm, ⟨59, _⟩ => ⟨S4800, .i1⟩
  | .hbm, ⟨60, _⟩ => ⟨S_, .i32⟩
  | .hbm, ⟨61, _⟩ => ⟨S4800, .i32⟩
  | .hbm, ⟨62, _⟩ => ⟨S4800, .i32⟩
  | .hbm, ⟨63, _⟩ => ⟨S4800, .i32⟩
  | .hbm, ⟨64, _⟩ => ⟨S4800x1, .i32⟩
  | .hbm, ⟨65, _⟩ => ⟨S4800x16x1024, .f32⟩
  | .hbm, ⟨66, _⟩ => ⟨S76800x1024, .f32⟩
  | .hbm, ⟨67, _⟩ => ⟨S1024x76800, .f32⟩
  | .hbm, ⟨68, _⟩ => ⟨S96000x1024, .f32⟩
  | .hbm, ⟨69, _⟩ => ⟨S1024x96000, .f32⟩
  | _, _ => ⟨S6000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  bcast_S6000x1024_S6000x1x1024_0_2 : S6000x1024.BroadcastsInDim S6000x1x1024 (![0, 2] : Fin 2 → Fin S6000x1x1024.rank)
  bcast_S6000x1x1024_S6000x16x1024_0_1_2 : S6000x1x1024.BroadcastsInDim S6000x16x1024 (![0, 1, 2] : Fin 3 → Fin S6000x16x1024.rank)
  bcast_S_S14 : S_.BroadcastsInDim S14 (![] : Fin 0 → Fin S14.rank)
  slices_S1x15_S1x14_0_0 : S1x15.Slices ![0, 0] S1x14
  shapeCasts_S1x14_S14 : S1x14.ShapeCasts S14
  bcast_S14_S14x1_0 : S14.BroadcastsInDim S14x1 (![0] : Fin 1 → Fin S14x1.rank)
  bcast_S14x1_S14x64_0_1 : S14x1.BroadcastsInDim S14x64 (![0, 1] : Fin 2 → Fin S14x64.rank)
  bcast_S_S14x1 : S_.BroadcastsInDim S14x1 (![] : Fin 0 → Fin S14x1.rank)
  bcast_S_S14x64 : S_.BroadcastsInDim S14x64 (![] : Fin 0 → Fin S14x64.rank)
  bcast_S14x64_S14x64x1_0_1 : S14x64.BroadcastsInDim S14x64x1 (![0, 1] : Fin 2 → Fin S14x64x1.rank)
  concatenates_S14x64x1_S14x64x1_S14x64x2_d2 : Shape.Concatenates [S14x64x1, S14x64x1] S14x64x2 2
  bcast_S14x64_S6000x14x64_1_2 : S14x64.BroadcastsInDim S6000x14x64 (![1, 2] : Fin 2 → Fin S6000x14x64.rank)
  reducesTo_S6000x16x1024_S6000x16_d2 : S6000x16x1024.ReducesTo [2] S6000x16
  h_S_ : 0 < S_.numel
  bcast_S6000x16_S6000x16x1_0_1 : S6000x16.BroadcastsInDim S6000x16x1 (![0, 1] : Fin 2 → Fin S6000x16x1.rank)
  bcast_S_S6000x16x1 : S_.BroadcastsInDim S6000x16x1 (![] : Fin 0 → Fin S6000x16x1.rank)
  bcast_S6000x16x1_S6000x16x1024_0_1_2 : S6000x16x1.BroadcastsInDim S6000x16x1024 (![0, 1, 2] : Fin 3 → Fin S6000x16x1024.rank)
  bcast_S_S1200 : S_.BroadcastsInDim S1200 (![] : Fin 0 → Fin S1200.rank)
  bcast_S1200_S1200x1_0 : S1200.BroadcastsInDim S1200x1 (![0] : Fin 1 → Fin S1200x1.rank)
  shapeCasts_S1200x16x1024_S19200x1024 : S1200x16x1024.ShapeCasts S19200x1024
  transposes_S19200x1024_S1024x19200_1_0 : S19200x1024.Transposes [1, 0] S1024x19200
  bcast_S_S4800 : S_.BroadcastsInDim S4800 (![] : Fin 0 → Fin S4800.rank)
  bcast_S4800_S4800x1_0 : S4800.BroadcastsInDim S4800x1 (![0] : Fin 1 → Fin S4800x1.rank)
  shapeCasts_S4800x16x1024_S76800x1024 : S4800x16x1024.ShapeCasts S76800x1024
  transposes_S76800x1024_S1024x76800_1_0 : S76800x1024.Transposes [1, 0] S1024x76800
  shapeCasts_S6000x16x1024_S96000x1024 : S6000x16x1024.ShapeCasts S96000x1024
  transposes_S96000x1024_S1024x96000_1_0 : S96000x1024.Transposes [1, 0] S1024x96000
  scatter_S6000x16x1024_S14x64x2_S6000x14x64_0_12_12_2_wf : ScatterDims.WF S6000x16x1024 S14x64x2 S6000x14x64 [0] [1, 2] [1, 2] 2
  gather_S6000x16x1024_S1200x1_S1200x16x1024_12_0_n_n_0_1_1161024_wf : GatherDims.WF S6000x16x1024 S1200x1 S1200x16x1024 [1, 2] [0] [] [0] [] 1 ![1, 16, 1024]
  gather_S6000x16x1024_S4800x1_S4800x16x1024_12_0_n_n_0_1_1161024_wf : GatherDims.WF S6000x16x1024 S4800x1 S4800x16x1024 [1, 2] [0] [] [0] [] 1 ![1, 16, 1024]

variable [Facts₀]

def scatter_S6000x16x1024_S14x64x2_S6000x14x64_0_12_12_2 : ScatterDims S6000x16x1024 S14x64x2 S6000x14x64 where
  updateWindowDims := [0]
  insertedWindowDims := [1, 2]
  scatterDimsToOperandDims := [1, 2]
  indexVectorDim := 2
  wf := scatter_S6000x16x1024_S14x64x2_S6000x14x64_0_12_12_2_wf
def gather_S6000x16x1024_S1200x1_S1200x16x1024_12_0_n_n_0_1_1161024 : GatherDims S6000x16x1024 S1200x1 S1200x16x1024 where
  offsetDims := [1, 2]
  collapsedSliceDims := [0]
  operandBatchingDims := []
  startIndicesBatchingDims := []
  startIndexMap := [0]
  indexVectorDim := 1
  sliceSizes := ![1, 16, 1024]
  wf := gather_S6000x16x1024_S1200x1_S1200x16x1024_12_0_n_n_0_1_1161024_wf
def gather_S6000x16x1024_S4800x1_S4800x16x1024_12_0_n_n_0_1_1161024 : GatherDims S6000x16x1024 S4800x1 S4800x16x1024 where
  offsetDims := [1, 2]
  collapsedSliceDims := [0]
  operandBatchingDims := []
  startIndicesBatchingDims := []
  startIndexMap := [0]
  indexVectorDim := 1
  sliceSizes := ![1, 16, 1024]
  wf := gather_S6000x16x1024_S4800x1_S4800x16x1024_12_0_n_n_0_1_1161024_wf

class Facts : Prop extends Facts₀ where

variable [Facts]
-- ==== Proof.K.Common.lean ====
import proofs.«403142_j86199993631438_1_alg».proof.Proof.Gen.Kernel.Launch
import proofs.«403142_j86199993631438_1_alg».proof.Proof.Gen.Kernel.Skeleton
import proofs.«403142_j86199993631438_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Regions
import proofs.«403142_j86199993631438_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the three bodies and the regions are stated over

The two gathering kernels copy the whole attribute table from HBM into a scratch at the first grid point only, and at
every point read forty class ids from the prefetched table, fetch the rows they name from that scratch and embed them.
Everything here is stated for any float instance. -/

/-- The gathering body's one branch: "this is the first grid point" (the table copy runs there). -/
abbrev cond0 (i : grid0.Coords) : Prop := (Scalar.cmpi .ne (Scalar.extui (Scalar.cmpi .eq (BitVec.ofNat 32 (i 0).val) 0#32)) 0#32) = 1#1
abbrev cond1 (i : grid1.Coords) : Prop := (Scalar.cmpi .ne (Scalar.extui (Scalar.cmpi .eq (BitVec.ofNat 32 (i 0).val) 0#32)) 0#32) = 1#1

/-- The branch is taken exactly at point 0. -/
theorem hcond0 : ∀ t : Fin grid0.N, cond0 (grid0.coords t) ↔ t.val = 0 :=
  (by decide +kernel : ∀ t : Fin grid0.N, cond0 (grid0.coords t) ↔ t.val = 0)
theorem hcond1 : ∀ t : Fin grid1.N, cond1 (grid1.coords t) ↔ t.val = 0 :=
  (by decide +kernel : ∀ t : Fin grid1.N, cond1 (grid1.coords t) ↔ t.val = 0)

/-- A memref's buffer on core `c`: its contents type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
/-- The attribute table, left in HBM: the operand both gathering kernels copy from. -/
abbrev hbM : Memref sig .tc .hbm S6000x1024 .f32 := Memref.whole main_arg0
/-- What the copy delivers: the HBM array's contents, element for element. -/
abbrev delivered (c : Dev nD) (fh : HbBuf (F := F) c hbM) : Vec F S6000x1024 .f32 := ReadAs.same.apply (View.read (Elt F) hbM.view fh)

/-- Every word of the class-id table, read through any one-word rectangle, names a row of the 6000-row table: what the
    forty in-range side conditions of a gathering body ask, at once. -/
abbrev RowOk0 (arg1 : Memref sig .tc .smem S1200 .i32) (harg1 : arg1.IsWhole) (x1 : Vec F S1200 .i32) : Prop :=
  ∀ (o : Fin 1 → Nat) (ho : ∀ a, o a + S1.size a ≤ S1200.size a) (a : Fin 2),
    (![(Scalar.indexCast (arg1.view.readAt (Elt F) (Rect.unit (s := S1200) o S1.size ho).toLoadRect (harg1.unread x1) (Shape.Idx.first (numel1_S1.symm ▸ Nat.one_pos)))).toNat, 0] : Fin 2 → Nat) a + S1x1024.size a ≤ S6000x1024.size a
abbrev RowOk1 (arg1 : Memref sig .tc .smem S4800 .i32) (harg1 : arg1.IsWhole) (x1 : Vec F S4800 .i32) : Prop :=
  ∀ (o : Fin 1 → Nat) (ho : ∀ a, o a + S1.size a ≤ S4800.size a) (a : Fin 2),
    (![(Scalar.indexCast (arg1.view.readAt (Elt F) (Rect.unit (s := S4800) o S1.size ho).toLoadRect (harg1.unread x1) (Shape.Idx.first (numel1_S1.symm ▸ Nat.one_pos)))).toNat, 0] : Fin 2 → Nat) a + S1x1024.size a ≤ S6000x1024.size a

end Cert.Kernel.Hand

end
-- ==== Proof.K.Body0.lean ====
import proofs.«403142_j86199993631438_1_alg».proof.Proof.K.Common
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering kernel's body, run once per case

The body has one branch. At the first grid point it copies the attribute table from HBM into its big scratch and waits
for the copy (case A); at every other point the scratch still holds the table (case B). Either way it then reads forty
class ids from the prefetched table, copies the forty rows they name into the small scratch, reads that scratch back
whole with the mask and the overlay, and stores the embedded, normalised and transposed block into the output window.
Each run is stated for any memrefs and any contents; the pieces the output buffer ends with are what the run finds. -/

set_option maxHeartbeats 4000000 in
/-- Case A (the first point): the big scratch at anything, the copy's semaphore at zero, the HBM table at `fh`; after the
    body the big scratch holds what the copy delivered. -/
noncomputable def runA (c : Dev nD) (i : grid0.Coords) (hc : cond0 i)
    (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole)
    (x1 : Vec F S1200 .i32) (hrow : RowOk0 arg1 harg1 x1)
    (x3 : Vec F S16x1024 .f32) (x4 : Vec F S16x1024 .f32) (fh : HbBuf (F := F) c hbM) :
    { L : List (View.Piece (Elt F) S1024x640 .f32) //
      ∀ (W : Waits sig Unit) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ semVal ((c : Thread nD τ), SemLoc.dma 4) 0 ∗ hbPt c hbM fh ∗ owes (c : Thread nD τ) 0 W
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare (delivered c fh) ∗ (∃ d, owns (c : Thread nD τ) arg7 fullShare d)
                ∗ semVal ((c : Thread nD τ), SemLoc.dma 4) 0 ∗ hbPt c hbM fh ∗ (∃ W', owes (c : Thread nD τ) 0 W')) -∗ K ⟨⟩))
          ⊢ wp frame (wpE (defs₀ (F := F)) Variants.none c none) Set.univ (cc0__embed_kernel_gather i arg1 harg1 hbM (Memref.isWhole_whole _) arg3 harg3 arg4 harg4 arg5 harg5 arg6 harg6 arg7 harg7 cc0_scratch2) K } := by
  refine ⟨?_, fun W K => ?run⟩
  case run =>
    simp only [cc0__embed_kernel_gather_eq_skeleton]; unfold cc0__embed_kernel_gather_skel
    unfold owns
    iintro ⟨⟨%f1, %hf1, H1⟩, ⟨%f3, %hf3, H3⟩, ⟨%f4, %hf4, H4⟩, ⟨%d5, %f5, -, H5⟩, ⟨%d6, %f6, -, H6⟩, ⟨%d7, %f7, -, H7⟩, Hq, Hh, HW, Hk⟩
    obtain rfl := harg1.eq_unread hf1; obtain rfl := harg3.eq_unread hf3; obtain rfl := harg4.eq_unread hf4
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; swap; · iexact H6
      ipureintro
      exact View.read_writes_whole _ _ _
    isplitl [H7]
    · iexists _, _; isplitr; swap; · iexact H7
      ipureintro; rfl
    isplitl [Hq]; · iexact Hq
    isplitl [Hh]; · iexact Hh
    iexists _; iexact HW

set_option maxHeartbeats 4000000 in
/-- Case B (every later point): the big scratch holds the table `x6` and keeps it. -/
noncomputable def runB (c : Dev nD) (i : grid0.Coords) (hc : ¬ cond0 i)
    (arg1 : Memref sig .tc .smem S1200 .i32) (harg1 : arg1.IsWhole) (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_)
    (x1 : Vec F S1200 .i32) (hrow : RowOk0 arg1 harg1 x1)
    (x3 : Vec F S16x1024 .f32) (x4 : Vec F S16x1024 .f32) (x6 : Vec F S6000x1024 .f32) :
    { L : List (View.Piece (Elt F) S1024x640 .f32) //
      ∀ (E : Set ℕ) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ owns (c : Thread nD τ) arg6 fullShare x6 ∗ (∃ d, owns (c : Thread nD τ) arg7 fullShare d)
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare x6 ∗ (∃ d, owns (c : Thread nD τ) arg7 fullShare d)) -∗ K ⟨⟩))
          ⊢ wp frame (wpE (defs₀ (F := F)) Variants.none c none) E (cc0__embed_kernel_gather i arg1 harg1 arg2 harg2 arg3 harg3 arg4 harg4 arg5 harg5 arg6 harg6 arg7 harg7 arg8) K } := by
  refine ⟨?_, fun E K => ?run⟩
  case run =>
    simp only [cc0__embed_kernel_gather_eq_skeleton]; unfold cc0__embed_kernel_gather_skel
    unfold owns
    iintro ⟨⟨%f1, %hf1, H1⟩, ⟨%f3, %hf3, H3⟩, ⟨%f4, %hf4, H4⟩, ⟨%d5, %f5, -, H5⟩, ⟨%f6, %hf6, H6⟩, ⟨%d7, %f7, -, H7⟩, Hk⟩
    obtain rfl := harg1.eq_unread hf1; obtain rfl := harg3.eq_unread hf3; obtain rfl := harg4.eq_unread hf4; obtain rfl := harg6.eq_unread hf6
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _, _; isplitr; swap; · iexact H7
    ipureintro; rfl

end Cert.Kernel.Hand

end
-- ==== Proof.K.Dat0.lean ====
import proofs.«403142_j86199993631438_1_alg».proof.Proof.K.Body0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering region: proof data

The region is entered with its arrays at `V` (the mask, the overlay, the output), the class-id table and the HBM attribute
table at `V` too; `a` is the table contents the configuration is pinned at. Between points the invariant holds the id
table, the HBM table, the copy's semaphore at zero, the big scratch — at anything before the first point, at what the
copy delivered after it —, the small scratch at anything, and the other regions' scoped buffers. -/

variable (a : (pcfg0 (F := F)).Adm)
variable (V : (c : Dev nD) → (b : Ref sig .tc) → Buf (Elt F) ((c : Thread nD τ).loc b))

/-- The class-id table as the region finds it. -/
abbrev tbl0 (c : Dev nD) : Vec F S1200 .i32 := V c main_arg3
/-- The HBM attribute table as the region finds it, and what the copy of it delivers. -/
abbrev hb0 (c : Dev nD) : HbBuf (F := F) c hbM := V c main_arg0
abbrev attr0 (c : Dev nD) : Vec F S6000x1024 .f32 := delivered c (hb0 V c)

/-- The body's memref arguments, as the pipeline passes them at point `t`. -/
abbrev tblM0 : Memref sig .tc .smem S1200 .i32 := Memref.whole main_arg3
abbrev ms0_0 (t : Fin (cfg0 a).N) : Memref sig .tc .vmem S16x1024 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S16x1024 .f32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S1024x640 .f32 := spec0_2.stage ((cfg0 a).slots t 2)
abbrev hs0_2 (t : Fin (cfg0 a).N) : (ms0_2 a t).IsWhole := hstage0_2 (((cfg0 a).slots t 2).cast nbuf0_2)
abbrev scA0 : Memref sig .tc .vmem S6000x1024 .f32 := Memref.whole cc0_scratch0
abbrev scB0 : Memref sig .tc .vmem S40x1024 .f32 := Memref.whole cc0_scratch1

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- One staging buffer of the output window, through which its contents are stated. -/
abbrev VO0 : View sig .tc .vmem S1024x640 .f32 := (Memref.whole cc0_stg2_0 : Memref sig .tc .vmem S1024x640 .f32).view

/-- What the first point leaves in the output block: its pieces read back over junk. -/
def out0A (c : Dev nD) (i : grid0.Coords) (hc : cond0 i) (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S1200 .i32) (hrow : RowOk0 arg1 harg1 x1)
    (x3 x4 : Vec F S16x1024 .f32) (fh : HbBuf (F := F) c hbM) : Vec F S1024x640 .f32 :=
  VO0.read (Elt F) (VO0.writes (Elt F) VO0.junk (runA c i hc arg1 harg1 arg3 harg3 arg4 harg4 arg5 harg5 arg6 harg6 arg7 harg7 x1 hrow x3 x4 fh).1)

/-- The first point's pieces tile the output block (one whole-block store). -/
theorem cover0A (c : Dev nD) (i : grid0.Coords) (hc : cond0 i) (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S1200 .i32) (hrow : RowOk0 arg1 harg1 x1)
    (x3 x4 : Vec F S16x1024 .f32) (fh : HbBuf (F := F) c hbM) (y : S1024x640.Idx) :
    ∃ pc ∈ (runA c i hc arg1 harg1 arg3 harg3 arg4 harg4 arg5 harg5 arg6 harg6 arg7 harg7 x1 hrow x3 x4 fh).1, y ∈ pc.1.set :=
  View.cover_of_tiledL _ S1024x640.size (by sl_kernel_rfl) y

/-- What a later point leaves in the output block. -/
def out0B (c : Dev nD) (i : grid0.Coords) (hc : ¬ cond0 i) (arg1 : Memref sig .tc .smem S1200 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S1200 .i32) (hrow : RowOk0 arg1 harg1 x1)
    (x3 x4 : Vec F S16x1024 .f32) (x6 : Vec F S6000x1024 .f32) : Vec F S1024x640 .f32 :=
  VO0.read (Elt F) (VO0.writes (Elt F) VO0.junk (runB c i hc arg1 harg1 arg2 harg2 arg3 harg3 arg4 harg4 arg5 harg5 arg6 harg6 arg7 harg7 arg8 x1 hrow x3 x4 x6).1)

theorem cover0B (c : Dev nD) (i : grid0.Coords) (hc : ¬ cond0 i) (arg1 : Memref sig .tc .smem S1200 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S1200 .i32) (hrow : RowOk0 arg1 harg1 x1)
    (x3 x4 : Vec F S16x1024 .f32) (x6 : Vec F S6000x1024 .f32) (y : S1024x640.Idx) :
    ∃ pc ∈ (runB c i hc arg1 harg1 arg2 harg2 arg3 harg3 arg4 harg4 arg5 harg5 arg6 harg6 arg7 harg7 arg8 x1 hrow x3 x4 x6).1, y ∈ pc.1.set :=
  View.cover_of_tiledL _ S1024x640.size (by sl_kernel_rfl) y

/-- What the output block holds after the body at point `t`: the first point's case or the later points'. -/
def out0At (hH : ∀ c, RowOk0 (F := F) tblM0 (Memref.isWhole_whole _) (tbl0 V c)) (c : Dev nD) (t : Fin (cfg0 a).N) : Vec F S1024x640 .f32 :=
  if h : t.val = 0 then
    out0A c (grid0.coords t) ((hcond0 t).mpr h) tblM0 (Memref.isWhole_whole _) (ms0_0 a t) (hs0_0 a t) (ms0_1 a t) (hs0_1 a t) (ms0_2 a t) (hs0_2 a t)
      scA0 (Memref.isWhole_whole _) scB0 (Memref.isWhole_whole _) (tbl0 V c) (hH c) (iblk0 a V c 0 t) (iblk0 a V c 1 t) (hb0 V c)
  else
    out0B c (grid0.coords t) (fun hc => h ((hcond0 t).mp hc)) tblM0 (Memref.isWhole_whole _) hbM (Memref.isWhole_whole _) (ms0_0 a t) (hs0_0 a t) (ms0_1 a t) (hs0_1 a t) (ms0_2 a t) (hs0_2 a t)
      scA0 (Memref.isWhole_whole _) scB0 (Memref.isWhole_whole _) cc0_scratch2 (tbl0 V c) (hH c) (iblk0 a V c 0 t) (iblk0 a V c 1 t) (attr0 V c)

/-- The scoped buffers of the other two regions, at anything: what this region carries untouched. -/
def rest0 (c : Dev nD) : sProp 𝕄 :=
  iprop((∃ f, (c : Thread nD τ).loc cc1_stg0_0 ↦{fullShare} f) ∗ (∃ f, (c : Thread nD τ).loc cc1_stg1_0 ↦{fullShare} f)
    ∗ (∃ f, (c : Thread nD τ).loc cc1_stg2_0 ↦{fullShare} f) ∗ (∃ f, (c : Thread nD τ).loc cc1_stg2_1 ↦{fullShare} f)
    ∗ (∃ f, (c : Thread nD τ).loc cc1_scratch0 ↦{fullShare} f) ∗ (∃ f, (c : Thread nD τ).loc cc1_scratch1 ↦{fullShare} f)
    ∗ (∃ f, (c : Thread nD τ).loc cc2_stg0_0 ↦{fullShare} f) ∗ (∃ f, (c : Thread nD τ).loc cc2_stg0_1 ↦{fullShare} f)
    ∗ (∃ f, (c : Thread nD τ).loc cc2_stg1_0 ↦{fullShare} f) ∗ (∃ f, (c : Thread nD τ).loc cc2_stg2_0 ↦{fullShare} f)
    ∗ (∃ f, (c : Thread nD τ).loc cc2_stg3_0 ↦{fullShare} f) ∗ ∃ f, (c : Thread nD τ).loc cc2_stg3_1 ↦{fullShare} f)

/-- The big scratch before point `n`: at anything before the first, at the delivered table afterwards. -/
def scr0 (c : Dev nD) : ℕ → sProp 𝕄
  | 0 => iprop(∃ d, owns (c : Thread nD τ) scA0 fullShare d)
  | _ + 1 => owns (c : Thread nD τ) scA0 fullShare (attr0 V c)

/-- The invariant before point `t`. -/
def Φ0 (c : Dev nD) (t : Fin ((cfg0 a).N + 1)) : sProp 𝕄 :=
  iprop(owns (c : Thread nD τ) tblM0 fullShare (tbl0 V c) ∗ hbPt c hbM (hb0 V c) ∗ semVal ((c : Thread nD τ), SemLoc.dma 4) 0
    ∗ scr0 V c t.val ∗ (∃ d, owns (c : Thread nD τ) scB0 fullShare d) ∗ rest0 c)

/-- The proof data on core `c`. -/
def dat0 (hH : ∀ c, RowOk0 (F := F) tblM0 (Memref.isWhole_whole _) (tbl0 V c)) (c : Dev nD) :
    Dat τ (Elt F) Unit ℕ (Pipeline.UD sig nD τ) ℕ (cfg0 a) c where
  A w := V c (Pipeline.arrRef spec0 w)
  after w t := match w with
    | ⟨0, _⟩ => iblk0 a V c 0 t
    | ⟨1, _⟩ => iblk0 a V c 1 t
    | ⟨2, _⟩ => out0At a V hH c t
  Φ t := Φ0 a V c t
  q _ := fullShare
  owed _ := 0

end Cert.Kernel.Hand

end
-- ==== Proof.K.Obl0.lean ====
import proofs.«403142_j86199993631438_1_alg».proof.Proof.K.Dat0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering region: the body obligation

At every point the inputs' staging buffers hold the mask and the overlay (fetched once, kept since); the case is decided
by whether the point is the first; the run of that case applies, and what it leaves is the next point's invariant. -/

variable (a : (pcfg0 (F := F)).Adm)
variable (V : (c : Dev nD) → (b : Ref sig .tc) → Buf (Elt F) ((c : Thread nD τ).loc b))
variable (hH : ∀ c, RowOk0 (F := F) tblM0 (Memref.isWhole_whole _) (tbl0 V c))

theorem dat0_A (c : Dev nD) (w : Fin (cfg0 a).W) : (dat0 a V hH c).A w = V c (Pipeline.arrRef spec0 w) := by dsimp only [dat0]
theorem after0_0 (c : Dev nD) (t : Fin (cfg0 a).N) : (dat0 a V hH c).after 0 t = iblk0 a V c 0 t := by dsimp only [dat0]; rfl
theorem after0_1 (c : Dev nD) (t : Fin (cfg0 a).N) : (dat0 a V hH c).after 1 t = iblk0 a V c 1 t := by dsimp only [dat0]; rfl
theorem after0_2 (c : Dev nD) (t : Fin (cfg0 a).N) : (dat0 a V hH c).after 2 t = out0At a V hH c t := by dsimp only [dat0]; rfl

/-- The mask's staging buffer holds the mask at every point, fetched there or not. -/
theorem before0_0 (c : Dev nD) (t : Fin (cfg0 a).N) (d) : (dat0 a V hH c).before 0 t d = iblk0 a V c 0 t :=
  ((dat0 a V hH c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
/-- The overlay's likewise. -/
theorem before0_1 (c : Dev nD) (t : Fin (cfg0 a).N) (d) : (dat0 a V hH c).before 1 t d = iblk0 a V c 1 t :=
  ((dat0 a V hH c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)

/-- What the body is called with at point `t`, the windows one by one, -/
def bodyPre0 (c : Dev nD) (t : Fin (cfg0 a).N) : sProp 𝕄 :=
  iprop((dat0 a V hH c).Φ t.castSucc ∗ (dat0 a V hH c).owesAt () t.castSucc
    ∗ (∃ d, owns (c : Thread nD τ) (ms0_0 a t) fullShare ((dat0 a V hH c).before 0 t d))
    ∗ (∃ d, owns (c : Thread nD τ) (ms0_1 a t) fullShare ((dat0 a V hH c).before 1 t d))
    ∗ (∃ d, owns (c : Thread nD τ) (ms0_2 a t) fullShare ((dat0 a V hH c).before 2 t d)))
/-- and what it returns. -/
def bodyPost0 (c : Dev nD) (t : Fin (cfg0 a).N) : sProp 𝕄 :=
  iprop((dat0 a V hH c).Φ t.succ ∗ (dat0 a V hH c).owesAt () t.succ
    ∗ owns (c : Thread nD τ) (ms0_0 a t) fullShare ((dat0 a V hH c).after 0 t)
    ∗ owns (c : Thread nD τ) (ms0_1 a t) fullShare ((dat0 a V hH c).after 1 t)
    ∗ owns (c : Thread nD τ) (ms0_2 a t) fullShare ((dat0 a V hH c).after 2 t))

set_option maxHeartbeats 1600000 in
theorem sound_body0 (c : Dev nD) (t : Fin (cfg0 a).N) :
    bodyPre0 a V hH c t ⊢ wp frame (wpE (defs₀ (F := F)) Variants.none c none) Set.univ
      (cc0__embed_kernel_gather (grid0.coords t) tblM0 (Memref.isWhole_whole _) hbM (Memref.isWhole_whole _) (ms0_0 a t) (hs0_0 a t) (ms0_1 a t) (hs0_1 a t) (ms0_2 a t) (hs0_2 a t) scA0 (Memref.isWhole_whole _) scB0 (Memref.isWhole_whole _) cc0_scratch2) (fun _ => bodyPost0 a V hH c t) := by
  unfold bodyPre0 bodyPost0
  simp only [before0_0, before0_1]
  rw [after0_0, after0_1, after0_2]
  rw [show (dat0 a V hH c).Φ t.castSucc = Φ0 a V c t.castSucc from rfl, show (dat0 a V hH c).Φ t.succ = Φ0 a V c t.succ from rfl]
  unfold Φ0 Dat.owesAt Pipeline.owesWithin
  rw [show (dat0 a V hH c).owed t.castSucc = 0 from rfl, show (dat0 a V hH c).owed t.succ = 0 from rfl]
  have hs' : scr0 V c t.succ.val = owns (c : Thread nD τ) scA0 fullShare (attr0 V c) := by rw [Fin.val_succ]; rfl
  rw [hs']
  by_cases h : t.val = 0
  · have hs : scr0 V c t.castSucc.val = iprop(∃ d, owns (c : Thread nD τ) scA0 fullShare d) := by rw [Fin.coe_castSucc, h]; rfl
    rw [hs]
    iintro ⟨⟨Ht, Hh, Hq, Hs, Hb, Hr⟩, ⟨%W, %hW, HO⟩, ⟨%d0, H0⟩, ⟨%d1, H1⟩, ⟨%d2, H2⟩⟩
    iapply ((runA c (grid0.coords t) ((hcond0 t).mpr h) tblM0 (Memref.isWhole_whole _) (ms0_0 a t) (hs0_0 a t) (ms0_1 a t) (hs0_1 a t) (ms0_2 a t) (hs0_2 a t)
      scA0 (Memref.isWhole_whole _) scB0 (Memref.isWhole_whole _) (tbl0 V c) (hH c) (iblk0 a V c 0 t) (iblk0 a V c 1 t) (hb0 V c)).2 W _)
    isplitl [Ht]; · iexact Ht
    isplitl [H0]; · iexact H0
    isplitl [H1]; · iexact H1
    isplitl [H2]; · iexists _; iexact H2
    isplitl [Hs]; · iexact Hs
    isplitl [Hb]; · iexact Hb
    isplitl [Hq]; · iexact Hq
    isplitl [Hh]; · iexact Hh
    isplitl [HO]; · iexact HO
    iintro ⟨Ht, H0, H1, ⟨%f, H2⟩, Hs, Hb, Hq, Hh, ⟨%W', HO⟩⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]
    · iexists W'; isplitr; · ipureintro; exact fun _ _ => Or.inl trivial
      iexact HO
    isplitl [H0]; · iexact H0
    isplitl [H1]; · iexact H1
    unfold owns; iexists _; isplitr
    swap; · iexact H2
    ipureintro
    unfold out0At; rw [dif_pos h]
    exact View.read_writes_of_cover _ _ _ _ _ (cover0A c _ _ _ _ _ _ _ _ _ _ _ _ _ _ _ _ _ _ _)
  · obtain ⟨n, hn⟩ : ∃ n, t.val = n + 1 := Nat.exists_eq_succ_of_ne_zero h
    have hs : scr0 V c t.castSucc.val = owns (c : Thread nD τ) scA0 fullShare (attr0 V c) := by rw [Fin.coe_castSucc, hn]; rfl
    rw [hs]
    iintro ⟨⟨Ht, Hh, Hq, Hs, Hb, Hr⟩, HO, ⟨%d0, H0⟩, ⟨%d1, H1⟩, ⟨%d2, H2⟩⟩
    iapply ((runB c (grid0.coords t) (fun hc => h ((hcond0 t).mp hc)) tblM0 (Memref.isWhole_whole _) hbM (Memref.isWhole_whole _) (ms0_0 a t) (hs0_0 a t) (ms0_1 a t) (hs0_1 a t) (ms0_2 a t) (hs0_2 a t) scA0 (Memref.isWhole_whole _) scB0 (Memref.isWhole_whole _) cc0_scratch2 (tbl0 V c) (hH c) (iblk0 a V c 0 t) (iblk0 a V c 1 t) (attr0 V c)).2 Set.univ _)
    isplitl [Ht]; · iexact Ht
    isplitl [H0]; · iexact H0
    isplitl [H1]; · iexact H1
    isplitl [H2]; · iexists _; iexact H2
    isplitl [Hs]; · iexact Hs
    isplitl [Hb]; · iexact Hb
    iintro ⟨Ht, H0, H1, ⟨%f, H2⟩, Hs, Hb⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]; · iexact HO
    isplitl [H0]; · iexact H0
    isplitl [H1]; · iexact H1
    unfold owns; iexists _; isplitr
    swap; · iexact H2
    ipureintro
    unfold out0At; rw [dif_neg h]
    exact View.read_writes_of_cover _ _ _ _ _ (cover0B c _ _ _ _ _ _ _ _ _ _ _ _ _ _ _ _ _ _ _ _ _ _)

/-- The library's body obligation, at every point. -/
theorem body_obligation0 (c : Dev nD) : BodyObligation (dat0 (F := F) a V hH c) (defs₀ (F := F)) Variants.none () Set.univ := fun t => by
  rw [bigSep_W0, bigSep_W0]
  exact sound_body0 a V hH c t

end Cert.Kernel.Hand

end
-- ==== Proof.K.Body1.lean ====
import proofs.«403142_j86199993631438_1_alg».proof.Proof.K.Common
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering kernel's body, run once per case

The body has one branch. At the first grid point it copies the attribute table from HBM into its big scratch and waits
for the copy (case A); at every other point the scratch still holds the table (case B). Either way it then reads forty
class ids from the prefetched table, copies the forty rows they name into the small scratch, reads that scratch back
whole with the mask and the overlay, and stores the embedded, normalised and transposed block into the output window.
Each run is stated for any memrefs and any contents; the pieces the output buffer ends with are what the run finds. -/

set_option maxHeartbeats 4000000 in
/-- Case A (the first point): the big scratch at anything, the copy's semaphore at zero, the HBM table at `fh`; after the
    body the big scratch holds what the copy delivered. -/
noncomputable def runA1 (c : Dev nD) (i : grid1.Coords) (hc : cond1 i)
    (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole)
    (x1 : Vec F S4800 .i32) (hrow : RowOk1 arg1 harg1 x1)
    (x3 : Vec F S16x1024 .f32) (x4 : Vec F S16x1024 .f32) (fh : HbBuf (F := F) c hbM) :
    { L : List (View.Piece (Elt F) S1024x640 .f32) //
      ∀ (W : Waits sig Unit) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ semVal ((c : Thread nD τ), SemLoc.dma 9) 0 ∗ hbPt c hbM fh ∗ owes (c : Thread nD τ) 0 W
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare (delivered c fh) ∗ (∃ d, owns (c : Thread nD τ) arg7 fullShare d)
                ∗ semVal ((c : Thread nD τ), SemLoc.dma 9) 0 ∗ hbPt c hbM fh ∗ (∃ W', owes (c : Thread nD τ) 0 W')) -∗ K ⟨⟩))
          ⊢ wp frame (wpE (defs₀ (F := F)) Variants.none c none) Set.univ (cc1__embed_kernel_gather i arg1 harg1 hbM (Memref.isWhole_whole _) arg3 harg3 arg4 harg4 arg5 harg5 arg6 harg6 arg7 harg7 cc1_scratch2) K } := by
  refine ⟨?_, fun W K => ?run⟩
  case run =>
    simp only [cc1__embed_kernel_gather_eq_skeleton]; unfold cc1__embed_kernel_gather_skel
    unfold owns
    iintro ⟨⟨%f1, %hf1, H1⟩, ⟨%f3, %hf3, H3⟩, ⟨%f4, %hf4, H4⟩, ⟨%d5, %f5, -, H5⟩, ⟨%d6, %f6, -, H6⟩, ⟨%d7, %f7, -, H7⟩, Hq, Hh, HW, Hk⟩
    obtain rfl := harg1.eq_unread hf1; obtain rfl := harg3.eq_unread hf3; obtain rfl := harg4.eq_unread hf4
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; swap; · iexact H6
      ipureintro
      exact View.read_writes_whole _ _ _
    isplitl [H7]
    · iexists _, _; isplitr; swap; · iexact H7
      ipureintro; rfl
    isplitl [Hq]; · iexact Hq
    isplitl [Hh]; · iexact Hh
    iexists _; iexact HW

set_option maxHeartbeats 4000000 in
/-- Case B (every later point): the big scratch holds the table `x6` and keeps it. -/
noncomputable def runB1 (c : Dev nD) (i : grid1.Coords) (hc : ¬ cond1 i)
    (arg1 : Memref sig .tc .smem S4800 .i32) (harg1 : arg1.IsWhole) (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_)
    (x1 : Vec F S4800 .i32) (hrow : RowOk1 arg1 harg1 x1)
    (x3 : Vec F S16x1024 .f32) (x4 : Vec F S16x1024 .f32) (x6 : Vec F S6000x1024 .f32) :
    { L : List (View.Piece (Elt F) S1024x640 .f32) //
      ∀ (E : Set ℕ) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ owns (c : Thread nD τ) arg6 fullShare x6 ∗ (∃ d, owns (c : Thread nD τ) arg7 fullShare d)
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare x6 ∗ (∃ d, owns (c : Thread nD τ) arg7 fullShare d)) -∗ K ⟨⟩))
          ⊢ wp frame (wpE (defs₀ (F := F)) Variants.none c none) E (cc1__embed_kernel_gather i arg1 harg1 arg2 harg2 arg3 harg3 arg4 harg4 arg5 harg5 arg6 harg6 arg7 harg7 arg8) K } := by
  refine ⟨?_, fun E K => ?run⟩
  case run =>
    simp only [cc1__embed_kernel_gather_eq_skeleton]; unfold cc1__embed_kernel_gather_skel
    unfold owns
    iintro ⟨⟨%f1, %hf1, H1⟩, ⟨%f3, %hf3, H3⟩, ⟨%f4, %hf4, H4⟩, ⟨%d5, %f5, -, H5⟩, ⟨%f6, %hf6, H6⟩, ⟨%d7, %f7, -, H7⟩, Hk⟩
    obtain rfl := harg1.eq_unread hf1; obtain rfl := harg3.eq_unread hf3; obtain rfl := harg4.eq_unread hf4; obtain rfl := harg6.eq_unread hf6
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _, _; isplitr; swap; · iexact H7
    ipureintro; rfl

end Cert.Kernel.Hand

end
-- ==== Proof.K.Dat1.lean ====
import proofs.«403142_j86199993631438_1_alg».proof.Proof.K.Body1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering region: proof data

The region is entered with its arrays at `V` (the mask, the overlay, the output), the class-id table and the HBM attribute
table at `V` too; `a` is the table contents the configuration is pinned at. Between points the invariant holds the id
table, the HBM table, the copy's semaphore at zero, the big scratch — at anything before the first point, at what the
copy delivered after it —, the small scratch at anything, and the other regions' scoped buffers. -/

variable (a : (pcfg1 (F := F)).Adm)
variable (V : (c : Dev nD) → (b : Ref sig .tc) → Buf (Elt F) ((c : Thread nD τ).loc b))

/-- The class-id table as the region finds it. -/
abbrev tbl1 (c : Dev nD) : Vec F S4800 .i32 := V c main_arg4
/-- The HBM attribute table as the region finds it, and what the copy of it delivers. -/
abbrev hb1 (c : Dev nD) : HbBuf (F := F) c hbM := V c main_arg0
abbrev attr1 (c : Dev nD) : Vec F S6000x1024 .f32 := delivered c (hb1 V c)

/-- The body's memref arguments, as the pipeline passes them at point `t`. -/
abbrev tblM1 : Memref sig .tc .smem S4800 .i32 := Memref.whole main_arg4
abbrev ms1_0 (t : Fin (cfg1 a).N) : Memref sig .tc .vmem S16x1024 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S16x1024 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1024x640 .f32 := spec1_2.stage ((cfg1 a).slots t 2)
abbrev hs1_2 (t : Fin (cfg1 a).N) : (ms1_2 a t).IsWhole := hstage1_2 (((cfg1 a).slots t 2).cast nbuf1_2)
abbrev scA1 : Memref sig .tc .vmem S6000x1024 .f32 := Memref.whole cc1_scratch0
abbrev scB1 : Memref sig .tc .vmem S40x1024 .f32 := Memref.whole cc1_scratch1

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- One staging buffer of the output window, through which its contents are stated. -/
abbrev VO1 : View sig .tc .vmem S1024x640 .f32 := (Memref.whole cc1_stg2_0 : Memref sig .tc .vmem S1024x640 .f32).view

/-- What the first point leaves in the output block: its pieces read back over junk. -/
def out1A (c : Dev nD) (i : grid1.Coords) (hc : cond1 i) (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S4800 .i32) (hrow : RowOk1 arg1 harg1 x1)
    (x3 x4 : Vec F S16x1024 .f32) (fh : HbBuf (F := F) c hbM) : Vec F S1024x640 .f32 :=
  VO1.read (Elt F) (VO1.writes (Elt F) VO1.junk (runA1 c i hc arg1 harg1 arg3 harg3 arg4 harg4 arg5 harg5 arg6 harg6 arg7 harg7 x1 hrow x3 x4 fh).1)

/-- The first point's pieces tile the output block (one whole-block store). -/
theorem cover1A (c : Dev nD) (i : grid1.Coords) (hc : cond1 i) (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S4800 .i32) (hrow : RowOk1 arg1 harg1 x1)
    (x3 x4 : Vec F S16x1024 .f32) (fh : HbBuf (F := F) c hbM) (y : S1024x640.Idx) :
    ∃ pc ∈ (runA1 c i hc arg1 harg1 arg3 harg3 arg4 harg4 arg5 harg5 arg6 harg6 arg7 harg7 x1 hrow x3 x4 fh).1, y ∈ pc.1.set :=
  View.cover_of_tiledL _ S1024x640.size (by sl_kernel_rfl) y

/-- What a later point leaves in the output block. -/
def out1B (c : Dev nD) (i : grid1.Coords) (hc : ¬ cond1 i) (arg1 : Memref sig .tc .smem S4800 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S4800 .i32) (hrow : RowOk1 arg1 harg1 x1)
    (x3 x4 : Vec F S16x1024 .f32) (x6 : Vec F S6000x1024 .f32) : Vec F S1024x640 .f32 :=
  VO1.read (Elt F) (VO1.writes (Elt F) VO1.junk (runB1 c i hc arg1 harg1 arg2 harg2 arg3 harg3 arg4 harg4 arg5 harg5 arg6 harg6 arg7 harg7 arg8 x1 hrow x3 x4 x6).1)

theorem cover1B (c : Dev nD) (i : grid1.Coords) (hc : ¬ cond1 i) (arg1 : Memref sig .tc .smem S4800 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S4800 .i32) (hrow : RowOk1 arg1 harg1 x1)
    (x3 x4 : Vec F S16x1024 .f32) (x6 : Vec F S6000x1024 .f32) (y : S1024x640.Idx) :
    ∃ pc ∈ (runB1 c i hc arg1 harg1 arg2 harg2 arg3 harg3 arg4 harg4 arg5 harg5 arg6 harg6 arg7 harg7 arg8 x1 hrow x3 x4 x6).1, y ∈ pc.1.set :=
  View.cover_of_tiledL _ S1024x640.size (by sl_kernel_rfl) y

/-- What the output block holds after the body at point `t`: the first point's case or the later points'. -/
def out1At (hH : ∀ c, RowOk1 (F := F) tblM1 (Memref.isWhole_whole _) (tbl1 V c)) (c : Dev nD) (t : Fin (cfg1 a).N) : Vec F S1024x640 .f32 :=
  if h : t.val = 0 then
    out1A c (grid1.coords t) ((hcond1 t).mpr h) tblM1 (Memref.isWhole_whole _) (ms1_0 a t) (hs1_0 a t) (ms1_1 a t) (hs1_1 a t) (ms1_2 a t) (hs1_2 a t)
      scA1 (Memref.isWhole_whole _) scB1 (Memref.isWhole_whole _) (tbl1 V c) (hH c) (iblk1 a V c 0 t) (iblk1 a V c 1 t) (hb1 V c)
  else
    out1B c (grid1.coords t) (fun hc => h ((hcond1 t).mp hc)) tblM1 (Memref.isWhole_whole _) hbM (Memref.isWhole_whole _) (ms1_0 a t) (hs1_0 a t) (ms1_1 a t) (hs1_1 a t) (ms1_2 a t) (hs1_2 a t)
      scA1 (Memref.isWhole_whole _) scB1 (Memref.isWhole_whole _) cc1_scratch2 (tbl1 V c) (hH c) (iblk1 a V c 0 t) (iblk1 a V c 1 t) (attr1 V c)

/-- The scoped buffers of the other two regions, at anything: what this region carries untouched. -/
def rest1 (c : Dev nD) : sProp 𝕄 :=
  iprop((∃ f, (c : Thread nD τ).loc cc0_stg0_0 ↦{fullShare} f) ∗ (∃ f, (c : Thread nD τ).loc cc0_stg1_0 ↦{fullShare} f)
    ∗ (∃ f, (c : Thread nD τ).loc cc0_stg2_0 ↦{fullShare} f) ∗ (∃ f, (c : Thread nD τ).loc cc0_stg2_1 ↦{fullShare} f)
    ∗ (∃ f, (c : Thread nD τ).loc cc0_scratch0 ↦{fullShare} f) ∗ (∃ f, (c : Thread nD τ).loc cc0_scratch1 ↦{fullShare} f)
    ∗ (∃ f, (c : Thread nD τ).loc cc2_stg0_0 ↦{fullShare} f) ∗ (∃ f, (c : Thread nD τ).loc cc2_stg0_1 ↦{fullShare} f)
    ∗ (∃ f, (c : Thread nD τ).loc cc2_stg1_0 ↦{fullShare} f) ∗ (∃ f, (c : Thread nD τ).loc cc2_stg2_0 ↦{fullShare} f)
    ∗ (∃ f, (c : Thread nD τ).loc cc2_stg3_0 ↦{fullShare} f) ∗ ∃ f, (c : Thread nD τ).loc cc2_stg3_1 ↦{fullShare} f)

/-- The big scratch before point `n`: at anything before the first, at the delivered table afterwards. -/
def scr1 (c : Dev nD) : ℕ → sProp 𝕄
  | 0 => iprop(∃ d, owns (c : Thread nD τ) scA1 fullShare d)
  | _ + 1 => owns (c : Thread nD τ) scA1 fullShare (attr1 V c)

/-- The invariant before point `t`. -/
def Φ1 (c : Dev nD) (t : Fin ((cfg1 a).N + 1)) : sProp 𝕄 :=
  iprop(owns (c : Thread nD τ) tblM1 fullShare (tbl1 V c) ∗ hbPt c hbM (hb1 V c) ∗ semVal ((c : Thread nD τ), SemLoc.dma 9) 0
    ∗ scr1 V c t.val ∗ (∃ d, owns (c : Thread nD τ) scB1 fullShare d) ∗ rest1 c)

/-- The proof data on core `c`. -/
def dat1 (hH : ∀ c, RowOk1 (F := F) tblM1 (Memref.isWhole_whole _) (tbl1 V c)) (c : Dev nD) :
    Dat τ (Elt F) Unit ℕ (Pipeline.UD sig nD τ) ℕ (cfg1 a) c where
  A w := V c (Pipeline.arrRef spec1 w)
  after w t := match w with
    | ⟨0, _⟩ => iblk1 a V c 0 t
    | ⟨1, _⟩ => iblk1 a V c 1 t
    | ⟨2, _⟩ => out1At a V hH c t
  Φ t := Φ1 a V c t
  q _ := fullShare
  owed _ := 0

end Cert.Kernel.Hand

end
-- ==== Proof.K.Obl1.lean ====
import proofs.«403142_j86199993631438_1_alg».proof.Proof.K.Dat1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering region: the body obligation

At every point the inputs' staging buffers hold the mask and the overlay (fetched once, kept since); the case is decided
by whether the point is the first; the run of that case applies, and what it leaves is the next point's invariant. -/

variable (a : (pcfg1 (F := F)).Adm)
variable (V : (c : Dev nD) → (b : Ref sig .tc) → Buf (Elt F) ((c : Thread nD τ).loc b))
variable (hH : ∀ c, RowOk1 (F := F) tblM1 (Memref.isWhole_whole _) (tbl1 V c))

theorem dat1_A (c : Dev nD) (w : Fin (cfg1 a).W) : (dat1 a V hH c).A w = V c (Pipeline.arrRef spec1 w) := by dsimp only [dat1]
theorem after1_0 (c : Dev nD) (t : Fin (cfg1 a).N) : (dat1 a V hH c).after 0 t = iblk1 a V c 0 t := by dsimp only [dat1]; rfl
theorem after1_1 (c : Dev nD) (t : Fin (cfg1 a).N) : (dat1 a V hH c).after 1 t = iblk1 a V c 1 t := by dsimp only [dat1]; rfl
theorem after1_2 (c : Dev nD) (t : Fin (cfg1 a).N) : (dat1 a V hH c).after 2 t = out1At a V hH c t := by dsimp only [dat1]; rfl

/-- The mask's staging buffer holds the mask at every point, fetched there or not. -/
theorem before1_0 (c : Dev nD) (t : Fin (cfg1 a).N) (d) : (dat1 a V hH c).before 0 t d = iblk1 a V c 0 t :=
  ((dat1 a V hH c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
/-- The overlay's likewise. -/
theorem before1_1 (c : Dev nD) (t : Fin (cfg1 a).N) (d) : (dat1 a V hH c).before 1 t d = iblk1 a V c 1 t :=
  ((dat1 a V hH c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)

/-- What the body is called with at point `t`, the windows one by one, -/
def bodyPre1 (c : Dev nD) (t : Fin (cfg1 a).N) : sProp 𝕄 :=
  iprop((dat1 a V hH c).Φ t.castSucc ∗ (dat1 a V hH c).owesAt () t.castSucc
    ∗ (∃ d, owns (c : Thread nD τ) (ms1_0 a t) fullShare ((dat1 a V hH c).before 0 t d))
    ∗ (∃ d, owns (c : Thread nD τ) (ms1_1 a t) fullShare ((dat1 a V hH c).before 1 t d))
    ∗ (∃ d, owns (c : Thread nD τ) (ms1_2 a t) fullShare ((dat1 a V hH c).before 2 t d)))
/-- and what it returns. -/
def bodyPost1 (c : Dev nD) (t : Fin (cfg1 a).N) : sProp 𝕄 :=
  iprop((dat1 a V hH c).Φ t.succ ∗ (dat1 a V hH c).owesAt () t.succ
    ∗ owns (c : Thread nD τ) (ms1_0 a t) fullShare ((dat1 a V hH c).after 0 t)
    ∗ owns (c : Thread nD τ) (ms1_1 a t) fullShare ((dat1 a V hH c).after 1 t)
    ∗ owns (c : Thread nD τ) (ms1_2 a t) fullShare ((dat1 a V hH c).after 2 t))

set_option maxHeartbeats 1600000 in
theorem sound_body1 (c : Dev nD) (t : Fin (cfg1 a).N) :
    bodyPre1 a V hH c t ⊢ wp frame (wpE (defs₀ (F := F)) Variants.none c none) Set.univ
      (cc1__embed_kernel_gather (grid1.coords t) tblM1 (Memref.isWhole_whole _) hbM (Memref.isWhole_whole _) (ms1_0 a t) (hs1_0 a t) (ms1_1 a t) (hs1_1 a t) (ms1_2 a t) (hs1_2 a t) scA1 (Memref.isWhole_whole _) scB1 (Memref.isWhole_whole _) cc1_scratch2) (fun _ => bodyPost1 a V hH c t) := by
  unfold bodyPre1 bodyPost1
  simp only [before1_0, before1_1]
  rw [after1_0, after1_1, after1_2]
  rw [show (dat1 a V hH c).Φ t.castSucc = Φ1 a V c t.castSucc from rfl, show (dat1 a V hH c).Φ t.succ = Φ1 a V c t.succ from rfl]
  unfold Φ1 Dat.owesAt Pipeline.owesWithin
  rw [show (dat1 a V hH c).owed t.castSucc = 0 from rfl, show (dat1 a V hH c).owed t.succ = 0 from rfl]
  have hs' : scr1 V c t.succ.val = owns (c : Thread nD τ) scA1 fullShare (attr1 V c) := by rw [Fin.val_succ]; rfl
  rw [hs']
  by_cases h : t.val = 0
  · have hs : scr1 V c t.castSucc.val = iprop(∃ d, owns (c : Thread nD τ) scA1 fullShare d) := by rw [Fin.coe_castSucc, h]; rfl
    rw [hs]
    iintro ⟨⟨Ht, Hh, Hq, Hs, Hb, Hr⟩, ⟨%W, %hW, HO⟩, ⟨%d0, H0⟩, ⟨%d1, H1⟩, ⟨%d2, H2⟩⟩
    iapply ((runA1 c (grid1.coords t) ((hcond1 t).mpr h) tblM1 (Memref.isWhole_whole _) (ms1_0 a t) (hs1_0 a t) (ms1_1 a t) (hs1_1 a t) (ms1_2 a t) (hs1_2 a t)
      scA1 (Memref.isWhole_whole _) scB1 (Memref.isWhole_whole _) (tbl1 V c) (hH c) (iblk1 a V c 0 t) (iblk1 a V c 1 t) (hb1 V c)).2 W _)
    isplitl [Ht]; · iexact Ht
    isplitl [H0]; · iexact H0
    isplitl [H1]; · iexact H1
    isplitl [H2]; · iexists _; iexact H2
    isplitl [Hs]; · iexact Hs
    isplitl [Hb]; · iexact Hb
    isplitl [Hq]; · iexact Hq
    isplitl [Hh]; · iexact Hh
    isplitl [HO]; · iexact HO
    iintro ⟨Ht, H0, H1, ⟨%f, H2⟩, Hs, Hb, Hq, Hh, ⟨%W', HO⟩⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]
    · iexists W'; isplitr; · ipureintro; exact fun _ _ => Or.inl trivial
      iexact HO
    isplitl [H0]; · iexact H0
    isplitl [H1]; · iexact H1
    unfold owns; iexists _; isplitr
    swap; · iexact H2
    ipureintro
    unfold out1At; rw [dif_pos h]
    exact View.read_writes_of_cover _ _ _ _ _ (cover1A c _ _ _ _ _ _ _ _ _ _ _ _ _ _ _ _ _ _ _)
  · obtain ⟨n, hn⟩ : ∃ n, t.val = n + 1 := Nat.exists_eq_succ_of_ne_zero h
    have hs : scr1 V c t.castSucc.val = owns (c : Thread nD τ) scA1 fullShare (attr1 V c) := by rw [Fin.coe_castSucc, hn]; rfl
    rw [hs]
    iintro ⟨⟨Ht, Hh, Hq, Hs, Hb, Hr⟩, HO, ⟨%d0, H0⟩, ⟨%d1, H1⟩, ⟨%d2, H2⟩⟩
    iapply ((runB1 c (grid1.coords t) (fun hc => h ((hcond1 t).mp hc)) tblM1 (Memref.isWhole_whole _) hbM (Memref.isWhole_whole _) (ms1_0 a t) (hs1_0 a t) (ms1_1 a t) (hs1_1 a t) (ms1_2 a t) (hs1_2 a t) scA1 (Memref.isWhole_whole _) scB1 (Memref.isWhole_whole _) cc1_scratch2 (tbl1 V c) (hH c) (iblk1 a V c 0 t) (iblk1 a V c 1 t) (attr1 V c)).2 Set.univ _)
    isplitl [Ht]; · iexact Ht
    isplitl [H0]; · iexact H0
    isplitl [H1]; · iexact H1
    isplitl [H2]; · iexists _; iexact H2
    isplitl [Hs]; · iexact Hs
    isplitl [Hb]; · iexact Hb
    iintro ⟨Ht, H0, H1, ⟨%f, H2⟩, Hs, Hb⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]; · iexact HO
    isplitl [H0]; · iexact H0
    isplitl [H1]; · iexact H1
    unfold owns; iexists _; isplitr
    swap; · iexact H2
    ipureintro
    unfold out1At; rw [dif_neg h]
    exact View.read_writes_of_cover _ _ _ _ _ (cover1B c _ _ _ _ _ _ _ _ _ _ _ _ _ _ _ _ _ _ _ _ _ _)

/-- The library's body obligation, at every point. -/
theorem body_obligation1 (c : Dev nD) : BodyObligation (dat1 (F := F) a V hH c) (defs₀ (F := F)) Variants.none () Set.univ := fun t => by
  rw [bigSep_W1, bigSep_W1]
  exact sound_body1 a V hH c t

end Cert.Kernel.Hand

end
-- ==== Proof.K.Dat2.lean ====
import proofs.«403142_j86199993631438_1_alg».proof.Proof.K.Common
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The third kernel's body, its proof data and its body obligation

The body reads its three input blocks whole (a block of the attribute table, the mask, the overlay), reads the output
block, and stores one whole block: the embedded, normalised and transposed rows. -/

/-- Window `w`'s block at point `t`, read off its array as the region finds it. -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

set_option maxHeartbeats 4000000 in
/-- The body run once, on any whole memrefs: the inputs at `x0`, `x1`, `x2` and the output at anything; afterwards the
    inputs are as they were and the output buffer is its old contents overwritten by the pieces the run finds. -/
noncomputable def run2 (c : Dev nD) (i : grid2.Coords) (arg1 : Memref sig .tc .vmem S120x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1920 .f32) (harg4 : arg4.IsWhole)
    (x0 : Vec F S120x1024 .f32) (x1 x2 : Vec F S16x1024 .f32) :
    { L : List (View.Piece (Elt F) S1024x1920 .f32) // ∀ (E : Set ℕ) (K : PUnit → sProp 𝕄), iprop(owns c arg1 fullShare x0 ∗ owns c arg2 fullShare x1 ∗ owns c arg3 fullShare x2 ∗ (∃ d, owns c arg4 fullShare d) ∗ (iprop(owns c arg1 fullShare x0 ∗ owns c arg2 fullShare x1 ∗ owns c arg3 fullShare x2 ∗ (∃ f, arg4.view.loc (c : Thread nD τ) ↦[arg4.view.set]{fullShare} arg4.view.writes (Elt F) f L)) -∗ K ⟨⟩)) ⊢ wp frame (wpE (defs₀ (F := F)) Variants.none c none) E (cc2__embed_kernel_contig i arg1 harg1 arg2 harg2 arg3 harg3 arg4 harg4) K } := by
  refine ⟨?_, fun E K => ?run⟩
  case run =>
    simp only [cc2__embed_kernel_contig_eq_skeleton]; unfold cc2__embed_kernel_contig_skel
    unfold owns
    iintro ⟨⟨%f1, %hf1, H1⟩, ⟨%f2, %hf2, H2⟩, ⟨%f3, %hf3, H3⟩, ⟨%d4, %f4, -, H4⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

/-- What the body leaves in the output block: the payload, in closed form. -/
def out2 (x0 : Vec F S120x1024 .f32) (x1 x2 : Vec F S16x1024 .f32) : Vec F S1024x1920 .f32 := k2_pay1 x0 x1 x2

/-- The two-axis zero offsets, as the constant function. -/
theorem zeros2' : (![0, 0] : Fin 2 → ℕ) = fun _ => 0 := by
  funext a; fin_cases a <;> rfl

/-- A load through a whole memref's full rectangle at zero offsets, the memref held at the contents that read `X`,
    reads `X`. -/
theorem readAt_full_unread {sp : Space} {S : Shape} {e : EltTy} {m : Memref sig .tc sp S e} (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  subst ho
  rw [View.readAt_eq_ld, h.read_unread]
  funext x
  show X ((Rect.whole S).emb x) = X x
  rw [Rect.emb_whole_apply]

/-- One store through the full rectangle at zero offsets reads back, over any buffer, as its payload. -/
theorem read_writes_full {sp : Space} {S : Shape} {e : EltTy} (v : View sig .tc sp S e) (f : v.ty.Contents (Elt F))
    {off : Fin S.rank → Nat} (ho : off = fun _ => 0) (inb : ∀ a, off a + S.size a ≤ S.size a) (w : S.Idx → Elt F e) :
    v.read (Elt F) (v.writes (Elt F) f [(⟨Rect.unit off S.size inb, w⟩ : View.Piece (Elt F) S e)]) = w := by
  subst ho
  exact View.read_writes_whole v f w

/-- The run's pieces — the one whole-block store — read back over any buffer as the closed form. -/
theorem run2_read (c : Dev nD) (i : grid2.Coords) (arg1 : Memref sig .tc .vmem S120x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1920 .f32) (harg4 : arg4.IsWhole)
    (x0 : Vec F S120x1024 .f32) (x1 x2 : Vec F S16x1024 .f32) (f : arg4.view.ty.Contents (Elt F)) :
    arg4.view.read (Elt F) (arg4.view.writes (Elt F) f (run2 c i arg1 harg1 arg2 harg2 arg3 harg3 arg4 harg4 x0 x1 x2).1) = out2 x0 x1 x2 := by
  unfold run2
  refine (read_writes_full (S := S1024x1920) arg4.view f zeros2' inb_S1024x1920_S1024x1920_0_0 _).trans ?_
  unfold out2
  rw [readAt_full_unread (S := S120x1024) harg1 x0 zeros2' inb_S120x1024_S120x1024_0_0,
    readAt_full_unread (S := S16x1024) harg2 x1 zeros2' inb_S16x1024_S16x1024_0_0,
    readAt_full_unread (S := S16x1024) harg3 x2 zeros2' inb_S16x1024_S16x1024_0_0]

/-! ## The proof data -/

/-- The proof data of the third pipeline on core `c`, over the region-entry contents `V`: the arrays as the region
    finds them; after the body at point `t` each input's buffer at its block and the output's at the closed form of
    the three input blocks; the invariant the scoped rest and the generator register, untouched; nothing owed; full
    shares. -/
def dat2 (V : (c : Dev nD) → (b : Ref sig .tc) → Buf (Elt F) ((c : Thread nD τ).loc b)) (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA (U := Pipeline.UD sig nD τ) spec2 c
  q _ := fullShare
  owed _ := 0

/-- The proof data's arrays are the region-entry contents. -/
theorem dat2_A (V : (c : Dev nD) → (b : Ref sig .tc) → Buf (Elt F) ((c : Thread nD τ).loc b)) (c : Dev nD) (w : Fin cfg2.W) : (dat2 V c).A w = V c (Pipeline.arrRef spec2 w) := by
  dsimp only [dat2]

/-- What the body leaves, window by window. -/
theorem after2_0 (V : (c : Dev nD) → (b : Ref sig .tc) → Buf (Elt F) ((c : Thread nD τ).loc b)) (c : Dev nD) (t : Fin cfg2.N) : (dat2 V c).after 0 t = iblk2 V c 0 t := by dsimp only [dat2]
theorem after2_1 (V : (c : Dev nD) → (b : Ref sig .tc) → Buf (Elt F) ((c : Thread nD τ).loc b)) (c : Dev nD) (t : Fin cfg2.N) : (dat2 V c).after 1 t = iblk2 V c 1 t := by dsimp only [dat2]
theorem after2_2 (V : (c : Dev nD) → (b : Ref sig .tc) → Buf (Elt F) ((c : Thread nD τ).loc b)) (c : Dev nD) (t : Fin cfg2.N) : (dat2 V c).after 2 t = iblk2 V c 2 t := by dsimp only [dat2]
theorem after2_3 (V : (c : Dev nD) → (b : Ref sig .tc) → Buf (Elt F) ((c : Thread nD τ).loc b)) (c : Dev nD) (t : Fin cfg2.N) : (dat2 V c).after 3 t = out2 (iblk2 V c 0 t) (iblk2 V c 1 t) (iblk2 V c 2 t) := by dsimp only [dat2]

/-- Each input's current staging buffer holds its block at every point, fetched there or not: unfetched, the block
    index has not moved, and the body left the block in place. -/
theorem before2_0 (V : (c : Dev nD) → (b : Ref sig .tc) → Buf (Elt F) ((c : Thread nD τ).loc b)) (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [dat2_A]; try rfl) t d).trans
    (by unfold Dat.fetched Dat.blockOf iblk2; rw [dat2_A]; try rfl)
theorem before2_1 (V : (c : Dev nD) → (b : Ref sig .tc) → Buf (Elt F) ((c : Thread nD τ).loc b)) (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [dat2_A]; try rfl) t d).trans
    (by unfold Dat.fetched Dat.blockOf iblk2; rw [dat2_A]; try rfl)
theorem before2_2 (V : (c : Dev nD) → (b : Ref sig .tc) → Buf (Elt F) ((c : Thread nD τ).loc b)) (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [dat2_A]; try rfl) t d).trans
    (by unfold Dat.fetched Dat.blockOf iblk2; rw [dat2_A]; try rfl)

/-! ## The body obligation, at a generic point -/

/-- What the body is called with at point `t`, the windows one by one, -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' memrefs hold their blocks, so the run applies; the invariant and the core's
    `owes` pass through unread; the output's pieces read back as the closed form. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply ((run2 c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%f, H3⟩⟩
  isplitl [HΦ]; · iexact HΦ
  isplitl [Ho]; · iexact Ho
  isplitl [H0]; · iexact H0
  isplitl [H1]; · iexact H1
  isplitl [H2]; · iexact H2
  unfold owns
  iexists _; isplitr
  swap; · iexact H3
  ipureintro
  exact run2_read c _ _ _ _ _ _ _ _ _ _ _ _ f

/-- The library's body obligation, at every point. -/
theorem body_obligation2 (V : (c : Dev nD) → (b : Ref sig .tc) → Buf (Elt F) ((c : Thread nD τ).loc b)) (c : Dev nD) : BodyObligation (dat2 (F := F) V c) (defs₀ (F := F)) Variants.none () Set.univ := fun t => by
  rw [bigSep_W2, bigSep_W2]
  exact sound_body2 V c t

end Cert.Kernel.Hand

end
-- ==== Proof.K.PDats.lean ====
import proofs.«403142_j86199993631438_1_alg».proof.Proof.K.Obl0
import proofs.«403142_j86199993631438_1_alg».proof.Proof.K.Obl1
import proofs.«403142_j86199993631438_1_alg».proof.Proof.K.Dat2
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The three regions' proof data as one family

Region 0 is entered with the buffers as the host operations left them; region 1 with region 0's output array added;
region 2 with region 1's. What each region leaves in its output array is what the pipeline library computes from that
region's proof data (its blocks folded over the grid). -/

variable (m : (ℓ : Loc nD τ sig) → Buf (Elt F) ℓ)

/-- The tables the two gathering pipelines are pinned at: the class-id arrays as launched (one device). -/
def adm : (p : Fin 3) → (pcfgs (F := F) p).Adm
  | ⟨0, _⟩ => ⟨fun | ⟨0, _⟩ => m (((0 : Dev nD) : Thread nD τ).loc main_arg3), trivial⟩
  | ⟨1, _⟩ => ⟨fun | ⟨0, _⟩ => m (((0 : Dev nD) : Thread nD τ).loc main_arg4), trivial⟩
  | ⟨2, _⟩ => cfg2.toPCfg_adm

/-- Region 0's entry contents, read at the TensorCore's references. -/
abbrev Vr1 : (c : Dev nD) → (b : Ref sig .tc) → Buf (Elt F) ((c : Thread nD τ).loc b) := fun c b => Gen.V1 m c b

/-- What region 0 assumes of the class ids, at the contents it finds them. -/
abbrev Ids0 : Prop := ∀ c, RowOk0 (F := F) tblM0 (Memref.isWhole_whole _) (tbl0 (Vr1 m) c)

section
variable (h0 : Ids0 m)

/-- What region 0 leaves in its output array. -/
def o0 (c : Dev nD) : Buf (Elt F) ((c : Thread nD τ).loc main_v42) := (dat0 (adm m 0) (Vr1 m) h0 c).arrAt 2 (cfg0 (adm m 0)).N
def outsA : Gen.Outs (F := F) := fun _ r c => if h : r = main_v42 then h ▸ o0 m h0 c else m ((c : Thread nD τ).loc r)
/-- Region 1's entry contents. -/
abbrev Vr2 : (c : Dev nD) → (b : Ref sig .tc) → Buf (Elt F) ((c : Thread nD τ).loc b) := fun c b => Gen.V2 m (outsA m h0) c b
/-- What region 1 assumes of its class ids. -/
abbrev Ids1 : Prop := ∀ c, RowOk1 (F := F) tblM1 (Memref.isWhole_whole _) (tbl1 (Vr2 m h0) c)
end

/-- Both gathering regions' class ids name rows of the table. -/
structure IdsOk : Prop where
  h0 : Ids0 m
  h1 : Ids1 m h0

variable (hH : IdsOk m)

/-- What region 1 leaves in its output array. -/
def o1 (c : Dev nD) : Buf (Elt F) ((c : Thread nD τ).loc main_v43) := (dat1 (adm m 1) (Vr2 m hH.h0) hH.h1 c).arrAt 2 (cfg1 (adm m 1)).N
def outsB : Gen.Outs (F := F) := fun _ r c =>
  if h : r = main_v42 then h ▸ o0 m hH.h0 c else if h : r = main_v43 then h ▸ o1 m hH c else m ((c : Thread nD τ).loc r)
/-- Region 2's entry contents. -/
abbrev Vr3 : (c : Dev nD) → (b : Ref sig .tc) → Buf (Elt F) ((c : Thread nD τ).loc b) := fun c b => Gen.V3 m (outsB m hH) c b
/-- What region 2 leaves in its output array. -/
def o2 (c : Dev nD) : Buf (Elt F) ((c : Thread nD τ).loc main_v44) := (dat2 (Vr3 m hH) c).arrAt 3 cfg2.N
/-- What the three regions leave, as the unknowns the conditional frame is stated over. -/
def outs : Gen.Outs (F := F) := fun _ r c =>
  if h : r = main_v42 then h ▸ o0 m hH.h0 c else if h : r = main_v43 then h ▸ o1 m hH c
  else if h : r = main_v44 then h ▸ o2 m hH c else m ((c : Thread nD τ).loc r)

theorem outs_v42 (J : ℕ) (c : Dev nD) : outs m hH J main_v42 c = o0 m hH.h0 c := by unfold outs; rw [dif_pos rfl]
theorem outs_v43 (J : ℕ) (c : Dev nD) : outs m hH J main_v43 c = o1 m hH c := by
  unfold outs; rw [dif_neg (by decide), dif_pos rfl]
theorem outs_v44 (J : ℕ) (c : Dev nD) : outs m hH J main_v44 c = o2 m hH c := by
  unfold outs; rw [dif_neg (by decide), dif_neg (by decide), dif_pos rfl]
theorem outsA_v42 (J : ℕ) (c : Dev nD) : outsA m hH.h0 J main_v42 c = o0 m hH.h0 c := by unfold outsA; rw [dif_pos rfl]
theorem outsB_v42 (J : ℕ) (c : Dev nD) : outsB m hH J main_v42 c = o0 m hH.h0 c := by unfold outsB; rw [dif_pos rfl]
theorem outsB_v43 (J : ℕ) (c : Dev nD) : outsB m hH J main_v43 c = o1 m hH c := by
  unfold outsB; rw [dif_neg (by decide), dif_pos rfl]

/-- The valuations the conditional frame is stated over are the regions' entry contents. -/
theorem V2_outs (c : Dev nD) : Gen.V2 m (outs m hH) c = Gen.V2 m (outsA m hH.h0) c := by
  unfold Gen.V2; rw [outs_v42 m hH, outsA_v42 m hH]
theorem V3_outs (c : Dev nD) : Gen.V3 m (outs m hH) c = Gen.V3 m (outsB m hH) c := by
  unfold Gen.V3 Gen.V2; rw [outs_v42 m hH, outs_v43 m hH, outsB_v42 m hH, outsB_v43 m hH]
theorem V2_outsB (c : Dev nD) : Gen.V2 m (outsB m hH) c = Gen.V2 m (outsA m hH.h0) c := by
  unfold Gen.V2; rw [outsB_v42 m hH, outsA_v42 m hH]

/-- Every pipeline's proof data, each at its region's entry contents: a literal match, so that the pinned
    configuration at a numeral reduces to the printed one. -/
def pdats : (p : Fin 3) → (c : Dev nD) → Dat τ (Elt F) Unit ℕ (Pipeline.UD sig nD τ) ℕ (Pipeline.pin (pcfgs (F := F)) (adm m) p) c
  | ⟨0, _⟩ => fun c => dat0 (adm m 0) (Vr1 m) hH.h0 c
  | ⟨1, _⟩ => fun c => dat1 (adm m 1) (Vr2 m hH.h0) hH.h1 c
  | ⟨2, _⟩ => fun c => dat2 (Vr3 m hH) c

end Cert.Kernel.Hand

end
-- ==== Proof.K.LaunchKit.lean ====
import proofs.«403142_j86199993631438_1_alg».proof.Proof.K.Common
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch of the three-region program, with everything that does not depend on the regions fixed

The program's conditional frame holds for any user algebra, level assignment, launch dues and rest states. Here they are
chosen once: no core owes another anything (no level is assigned, nothing is due at launch), the launch element is the
pipeline library's beside no counter, and between two items a core holds, beside its unscoped buffers, its generator
register at some state and the fact that it owes nothing. What remains to give is, per region, its segment record entered
from and left at these thread states. -/

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers between items: the generator register at some state and the core owing nothing. -/
abbrev Rr (c : Dev nD) : sProp 𝕄 := iprop((∃ r, prngReg c r) ∗ ∃ W, owes (c : Thread nD τ) (0 : CellTallies nD τ sig Unit) W)
/-- The same rest at each of the four boundaries between items. -/
abbrev Er : Fin 4 → Dev nD → sProp 𝕄 := fun _ c => Rr c

/-- The launch element: the pipeline library's at the staging cells and the pipelines' transfers; no counter. -/
abbrev u₀ (a : (p : Fin 3) → (pcfgs (F := F) p).Adm) : Pipeline.UD sig nD τ :=
  (initOf (Pipeline.cells (Pipeline.pin (pcfgs (F := F)) a) (cellOf_inj a)) (Pipeline.launchToks (Pipeline.pin (pcfgs (F := F)) a) (cellOf_inj a)), 1)

/-- The launch element gives the library its half; the other half and the ghost resources are nothing. -/
theorem hu₀ (a : (p : Fin 3) → (pcfgs (F := F) p).Adm) :
    (ownU (u₀ a) : sProp 𝕄) ⊢ |={Set.univ}=> iprop(BI.own ((embL : Emb (URounds (GSem nD τ sig) Unit) 𝕄) (initOf (Pipeline.cells (Pipeline.pin (pcfgs (F := F)) a) (cellOf_inj a)) (Pipeline.launchToks (Pipeline.pin (pcfgs (F := F)) a) (cellOf_inj a)))) ∗ bigSep Finset.univ fun _ : Dev nD => (iprop(emp) : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals each core makes the rest at the first boundary: the register at its launch state, nothing owed. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (Er (F := F) 0) : sProp 𝕄) := by
  refine Pipeline.initEach L lv fun c => ?_
  iintro ⟨⟨-, HO, -, Hp, -⟩, -⟩
  imodintro
  isplitl [Hp]; · iexists _; iexact Hp
  iexists ∅; iexact HO

/-- The rest at the last boundary says the core owes nothing. -/
theorem hE3 (c : Dev nD) : Er (F := F) 3 c ⊢ (iprop(∃ W, owes (c : Thread nD τ) (0 : CellTallies nD τ sig Unit) W) : sProp 𝕄) := by
  iintro ⟨-, HO⟩; iexact HO

/-- THE FRAME, GIVEN THE REGIONS' RECORDS over the fixed algebra and rest: every weakly fair execution of @main from memory
    `m` with zero counters terminates and every final memory holds each argument as launched. -/
theorem frame_kit (m : (ℓ : Loc nD τ sig) → Buf (Elt F) ℓ) (ρ : Dev nD → PrngReg) (outs : Gen.Outs (F := F)) (a : (p : Fin 3) → (pcfgs (F := F) p).Adm)
    (pdats : (p : Fin 3) → (c : Dev nD) → Dat τ (Elt F) Unit ℕ (Pipeline.UD sig nD τ) ℕ (Pipeline.pin (pcfgs (F := F)) a p) c)
    (R0 : Pipeline.RegionSeg (pcfgs (F := F)) a pdats () defs₀ 𝒱₀ L lv 0)
    (hpre0 : ∀ c : Dev nD, iprop(StableHlo.held (c : Thread nD τ) (Pipeline.ucRefs τ sig) (Gen.V1 m c) ∗ Rr c) ⊢ R0.pre c)
    (hpost0 : ∀ c : Dev nD, R0.post c ⊢ iprop(StableHlo.held (c : Thread nD τ) (Pipeline.ucRefs τ sig) (Gen.V2 m outs c) ∗ Rr c))
    (R1 : Pipeline.RegionSeg (pcfgs (F := F)) a pdats () defs₀ 𝒱₀ L lv 1)
    (hpre1 : ∀ c : Dev nD, iprop(StableHlo.held (c : Thread nD τ) (Pipeline.ucRefs τ sig) (Gen.V2 m outs c) ∗ Rr c) ⊢ R1.pre c)
    (hpost1 : ∀ c : Dev nD, R1.post c ⊢ iprop(StableHlo.held (c : Thread nD τ) (Pipeline.ucRefs τ sig) (Gen.V3 m outs c) ∗ Rr c))
    (R2 : Pipeline.RegionSeg (pcfgs (F := F)) a pdats () defs₀ 𝒱₀ L lv 2)
    (hpre2 : ∀ c : Dev nD, iprop(StableHlo.held (c : Thread nD τ) (Pipeline.ucRefs τ sig) (Gen.V3 m outs c) ∗ Rr c) ⊢ R2.pre c)
    (hpost2 : ∀ c : Dev nD, R2.post c ⊢ iprop(StableHlo.held (c : Thread nD τ) (Pipeline.ucRefs τ sig) (Gen.V4 m outs c) ∗ Rr c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond (F := F) m (EP := embL) (ι := ()) (𝒱₀ := 𝒱₀) (L := L) (lv := lv) (hL := fun _ _ => rfl) ρ outs a pdats
    (O₀ := 0) (G := fun _ => iprop(emp)) (u₀ := u₀ a) (hu₀ := hu₀ a) (E := Er) (hE0 := hE0 ρ) (hE3 := hE3)
    R0 hpre0 hpost0 R1 hpre1 hpost1 R2 hpre2 hpost2

end Cert.Kernel.Hand

end
-- ==== Proof.K.Reg0.lean ====
import proofs.«403142_j86199993631438_1_alg».proof.Proof.K.PDats
import proofs.«403142_j86199993631438_1_alg».proof.Proof.K.LaunchKit
import Idealize.ShloMosaic.Lib.Pipeline.RegionsLoop
import proofs.«403142_j86199993631438_1_alg».proof.Proof.K.Obl0
import proofs.«403142_j86199993631438_1_alg».proof.Proof.K.Obl1
import proofs.«403142_j86199993631438_1_alg».proof.Proof.K.Dat2
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering region as a segment

The region is entered with every unscoped buffer held at the contents the host operations left, beside the generator
register and the core owing nothing. Its three windows' arrays go to the pipeline; the class-id table goes in as the
prefetched table; the HBM attribute table and the copy's semaphore go into the invariant; everything else bypasses the
region. At the end the output array holds what the pipeline computed and every other buffer what it held. -/

variable (m : (ℓ : Loc nD τ sig) → Buf (Elt F) ℓ) (hH : IdsOk m)

/-- The copy's one DMA semaphore. -/
abbrev osem0 : Fin 1 → SemLoc sig := fun _ => SemLoc.dma 4

theorem ownSemFacts0 : Pipeline.OwnSemFacts spec0 osem0 := by decide

/-- The copy's cell at zero is all of the kernel's own cells at zero. -/
theorem ownSems0_0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0) := by
  rw [Pipeline.ownSems0_eq_of_list c osem0 [0] (by decide) (by decide)]; rfl

/-- The HBM attribute table, among the references that are neither a window's array nor the prefetched table. -/
def H0 : Finset (Ref sig .tc) := {main_arg0}
theorem H0_sub : H0 ⊆ Pipeline.restRefsP sig pre0 spec0 := by decide

/-- The class-id table the configuration is pinned at is the table as the region finds it (one device; no host
    operation writes it). -/
theorem admTbl0_eq (c : Dev nD) : (adm m 0).1 = fun k => Vr1 m c (pre0.ref k) := by
  obtain rfl : c = 0 := Subsingleton.elim _ _
  funext k
  match k with
  | ⟨0, _⟩ => exact (Gen.V1_of m 0 main_arg3 (by decide)).symm

/-- Holding the prefetched table at the pinned contents is owning the class-id table at what the region finds. -/
theorem prefHeld0_eq (c : Dev nD) :
    (Pipeline.prefHeld pre0 c (fun _ => fullShare) (adm m 0).1 : sProp 𝕄) = owns (c : Thread nD τ) tblM0 fullShare (tbl0 (Vr1 m) c) := by
  rw [admTbl0_eq m c, owns_whole]
  unfold Pipeline.prefHeld
  rw [show (Finset.univ : Finset (Fin pre0.K)) = {0} from rfl, BI.bigSep_singleton]
  rfl

/-- The unscoped buffers that are no window's array: the class-id table, the HBM attribute table, and the others. -/
theorem rest0_split (c : Dev nD) :
    (Pipeline.unscopedRest (Ix := Unit) (Name := ℕ) (U := Pipeline.UD sig nD τ) (Lvl := ℕ) spec0 c (Vr1 m c) : sProp 𝕄)
      = iprop(Pipeline.prefHeld pre0 c (fun _ => fullShare) (adm m 0).1 ∗ hbPt c hbM (hb0 (Vr1 m) c)
          ∗ bigSep (Pipeline.restRefsP sig pre0 spec0 \ H0) fun b => ((c : Thread nD τ).loc b) ↦{fullShare} Vr1 m c b) := by
  rw [Pipeline.unscopedRest_split preFacts0 c (Vr1 m c), admTbl0_eq m c]
  unfold Pipeline.unscopedRestP
  rw [BI.bigSep_sdiff_split H0_sub]
  unfold H0
  rw [BI.bigSep_singleton]
  rfl

/-- What the region leaves in each window's array is what the exit valuation holds there. -/
private theorem exitArr0 (c : Dev nD) : ∀ w : Fin 3,
    (pdats m hH 0 c).arrAt w (cfg0 (adm m 0)).N = Gen.V2 m (outs m hH) c (Pipeline.arrRef spec0 w)
  | ⟨0, _⟩ => ((dat0 (adm m 0) (Vr1 m) hH.h0 c).arrAt_in 0 rfl _).trans
      ((dat0_A (adm m 0) (Vr1 m) hH.h0 c 0).trans (Gen.V2_of m (outs m hH) c (Pipeline.arrRef spec0 0) (by decide)).symm)
  | ⟨1, _⟩ => ((dat0 (adm m 0) (Vr1 m) hH.h0 c).arrAt_in 1 rfl _).trans
      ((dat0_A (adm m 0) (Vr1 m) hH.h0 c 1).trans (Gen.V2_of m (outs m hH) c (Pipeline.arrRef spec0 1) (by decide)).symm)
  | ⟨2, _⟩ => by
    show (dat0 (adm m 0) (Vr1 m) hH.h0 c).arrAt 2 (cfg0 (adm m 0)).N
      = Function.update (Gen.V1 m c) (Proc.devRef .tc main_v42) (outs m hH 2 main_v42 c) (Proc.devRef .tc main_v42)
    rw [Function.update_self, outs_v42]
    rfl

/-- Every buffer that is no window's array is left as found. -/
private theorem exitRest0 (c : Dev nD) (b : Ref sig .tc) (hb : b ∉ Finset.univ.image (Pipeline.arrRef spec0)) :
    Gen.V2 m (outs m hH) c b = Vr1 m c b :=
  Gen.V2_of m (outs m hH) c b fun h => hb (by
    rw [List.mem_singleton] at h; subst h
    exact Finset.mem_image.mpr ⟨2, Finset.mem_univ _, rfl⟩)

set_option backward.isDefEq.respectTransparency.types false in
/-- REGION 0 over the thread state. -/
def reg0 : Pipeline.RegionSeg (pcfgs (F := F)) (adm m) (pdats m hH) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (F := F) (adm m 0) (Vr1 m) hH.h0 c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m hH) c) ∗ Rr c)
  X c := iprop(hbPt c hbM (hb0 (Vr1 m) c) ∗ semVal ((c : Thread nD τ), SemLoc.dma 4) 0)
  Y c := iprop(hbPt c hbM (hb0 (Vr1 m) c) ∗ owns (c : Thread nD τ) tblM0 fullShare (tbl0 (Vr1 m) c))
  Z c := iprop((∃ r, prngReg c r) ∗ bigSep (Pipeline.restRefsP sig pre0 spec0 \ H0) fun b => ((c : Thread nD τ).loc b) ↦{fullShare} Vr1 m c b)
  hentry c := by
    have hsplit := Pipeline.arrays_of_unscopedBufs (p := 0) (pcfgs (F := F)) (adm m) (pdats m hH) (launch0 (F := F)).win (launch0 (F := F)).arr_whole c
      ((pdats m hH 0 c).share_full fun _ => rfl) (Vr1 m c) fun _ => rfl
    rw [Pipeline.unscopedBufs_held] at hsplit
    rw [ownSems0_0_eq]
    iintro ⟨⟨Hub, Hp, HO⟩, Hos, -⟩
    ihave H := hsplit $$ Hub
    icases H with ⟨Ha, Hrest⟩
    ihave H' := (Entails.of_eq (rest0_split m c)) $$ Hrest
    icases H' with ⟨Htbl, Hhb, HR⟩
    imodintro
    isplitl [Ha]; · iexact Ha
    isplitl [Htbl]; · iexact Htbl
    isplitl [HO]
    · unfold Pipeline.Dat.owesAt Pipeline.owesWithin
      icases HO with ⟨%W, HO⟩; iexists W; isplitr; · ipureintro; exact fun _ _ => Or.inl trivial
      iexact HO
    isplitl [Hhb Hos]
    · isplitl [Hhb]; · iexact Hhb
      iexact Hos
    isplitl [Hp]; · iexact Hp
    iexact HR
  hin c := by
    show iprop((hbPt c hbM (hb0 (Vr1 m) c) ∗ semVal ((c : Thread nD τ), SemLoc.dma 4) 0)
        ∗ Pipeline.prefHeld pre0 c (fun _ => fullShare) (adm m 0).1
        ∗ Pipeline.scopedRest (Ix := Unit) (Name := ℕ) (U := Pipeline.UD sig nD τ) (Lvl := ℕ) (Val := Elt F) spec0 c)
      ⊢ Φ0 (adm m 0) (Vr1 m) c 0
    rw [scopedRest0_eq, prefHeld0_eq]
    unfold Φ0
    rw [show scr0 (Vr1 m) c ((0 : Fin ((cfg0 (adm m 0)).N + 1)).val) = iprop(∃ d, owns (c : Thread nD τ) scA0 fullShare d) from rfl]
    simp only [owns_whole (c : Thread nD τ) cc0_scratch0, owns_whole (c : Thread nD τ) cc0_scratch1]
    unfold rest0
    iintro ⟨⟨Hhb, Hsem⟩, Htbl, HA, HB, Hrest⟩
    isplitl [Htbl]; · iexact Htbl
    isplitl [Hhb]; · iexact Hhb
    isplitl [Hsem]; · iexact Hsem
    isplitl [HA]; · iexact HA
    isplitl [HB]; · iexact HB
    iexact Hrest
  hout c := by
    show Φ0 (adm m 0) (Vr1 m) c (Fin.last (cfg0 (adm m 0)).N)
      ⊢ iprop((hbPt c hbM (hb0 (Vr1 m) c) ∗ owns (c : Thread nD τ) tblM0 fullShare (tbl0 (Vr1 m) c))
        ∗ Pipeline.ownSems0 (Ix := Unit) (Name := ℕ) (U := Pipeline.UD sig nD τ) (Lvl := ℕ) (Val := Elt F) (τ := τ) osem0 c
        ∗ Pipeline.scopedRest (Ix := Unit) (Name := ℕ) (U := Pipeline.UD sig nD τ) (Lvl := ℕ) (Val := Elt F) spec0 c)
    rw [scopedRest0_eq, ownSems0_0_eq]
    unfold Φ0
    rw [show scr0 (Vr1 m) c (Fin.last (cfg0 (adm m 0)).N).val = owns (c : Thread nD τ) scA0 fullShare (attr0 (Vr1 m) c) from rfl]
    simp only [owns_whole (c : Thread nD τ) cc0_scratch0, owns_whole (c : Thread nD τ) cc0_scratch1]
    unfold rest0
    iintro ⟨Htbl, Hhb, Hsem, HA, HB, Hrest⟩
    isplitl [Hhb Htbl]
    · isplitl [Hhb]; · iexact Hhb
      iexact Htbl
    isplitl [Hsem]; · iexact Hsem
    isplitl [HA]; · iexists _; iexact HA
    isplitl [HB]; · iexact HB
    iexact Hrest
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hH) ((pdats m hH 0 c).share_full fun _ => rfl)
      (Vr1 m c) (fun b => Gen.V2 m (outs m hH) c b) ((pdats m hH 0 c).arrAt · (cfg0 (adm m 0)).N) (exitArr0 m hH c) (exitRest0 m hH c)
    rw [Pipeline.unscopedBufs_held] at hjoin
    iintro ⟨Ha, HO, ⟨Hhb, Htbl⟩, Hp, HR⟩
    ihave Hrest := (Entails.of_eq (rest0_split m c).symm) $$ [Htbl Hhb HR]
    · rw [prefHeld0_eq]
      isplitl [Htbl]; · iexact Htbl
      isplitl [Hhb]; · iexact Hhb
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread states the region is entered from and left at, as the launch states them. -/
theorem reg0_pre (c : Dev nD) :
    (reg0 m hH).pre c = iprop(StableHlo.held (c : Thread nD τ) (Pipeline.ucRefs τ sig) (Gen.V1 m c) ∗ Rr c) := by unfold reg0; rfl
theorem reg0_post (c : Dev nD) :
    (reg0 m hH).post c = iprop(StableHlo.held (c : Thread nD τ) (Pipeline.ucRefs τ sig) (Gen.V2 m (outs m hH) c) ∗ Rr c) := by unfold reg0; rfl

end Cert.Kernel.Hand

end
-- ==== Proof.K.Reg1.lean ====
import proofs.«403142_j86199993631438_1_alg».proof.Proof.K.PDats
import proofs.«403142_j86199993631438_1_alg».proof.Proof.K.LaunchKit
import Idealize.ShloMosaic.Lib.Pipeline.RegionsLoop
import proofs.«403142_j86199993631438_1_alg».proof.Proof.K.Obl1
import proofs.«403142_j86199993631438_1_alg».proof.Proof.K.Obl1
import proofs.«403142_j86199993631438_1_alg».proof.Proof.K.Dat2
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering region as a segment

The region is entered with every unscoped buffer held at the contents the first region left, beside the generator
register and the core owing nothing. Its three windows' arrays go to the pipeline; the class-id table goes in as the
prefetched table; the HBM attribute table and the copy's semaphore go into the invariant; everything else bypasses the
region. At the end the output array holds what the pipeline computed and every other buffer what it held. -/

variable (m : (ℓ : Loc nD τ sig) → Buf (Elt F) ℓ) (hH : IdsOk m)

/-- The copy's one DMA semaphore. -/
abbrev osem1 : Fin 1 → SemLoc sig := fun _ => SemLoc.dma 9

theorem ownSemFacts1 : Pipeline.OwnSemFacts spec1 osem1 := by decide

/-- The copy's cell at zero is all of the kernel's own cells at zero. -/
theorem ownSems0_1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 9) 0) := by
  rw [Pipeline.ownSems0_eq_of_list c osem1 [0] (by decide) (by decide)]; rfl

/-- The HBM attribute table, among the references that are neither a window's array nor the prefetched table. -/
def H1 : Finset (Ref sig .tc) := {main_arg0}
theorem H1_sub : H1 ⊆ Pipeline.restRefsP sig pre1 spec1 := by decide

/-- The class-id table the configuration is pinned at is the table as the region finds it (one device; neither a
    host operation nor the first region writes it). -/
theorem admTbl1_eq (c : Dev nD) : (adm m 1).1 = fun k => Vr2 m hH.h0 c (pre1.ref k) := by
  obtain rfl : c = 0 := Subsingleton.elim _ _
  funext k
  match k with
  | ⟨0, _⟩ => exact ((Gen.V2_of m (outsA m hH.h0) 0 main_arg4 (by decide)).trans (Gen.V1_of m 0 main_arg4 (by decide))).symm

/-- Holding the prefetched table at the pinned contents is owning the class-id table at what the region finds. -/
theorem prefHeld1_eq (c : Dev nD) :
    (Pipeline.prefHeld pre1 c (fun _ => fullShare) (adm m 1).1 : sProp 𝕄) = owns (c : Thread nD τ) tblM1 fullShare (tbl1 (Vr2 m hH.h0) c) := by
  rw [admTbl1_eq m hH c, owns_whole]
  unfold Pipeline.prefHeld
  rw [show (Finset.univ : Finset (Fin pre1.K)) = {0} from rfl, BI.bigSep_singleton]
  rfl

/-- The unscoped buffers that are no window's array: the class-id table, the HBM attribute table, and the others. -/
theorem rest1_split (c : Dev nD) :
    (Pipeline.unscopedRest (Ix := Unit) (Name := ℕ) (U := Pipeline.UD sig nD τ) (Lvl := ℕ) spec1 c (Vr2 m hH.h0 c) : sProp 𝕄)
      = iprop(Pipeline.prefHeld pre1 c (fun _ => fullShare) (adm m 1).1 ∗ hbPt c hbM (hb1 (Vr2 m hH.h0) c)
          ∗ bigSep (Pipeline.restRefsP sig pre1 spec1 \ H1) fun b => ((c : Thread nD τ).loc b) ↦{fullShare} Vr2 m hH.h0 c b) := by
  rw [Pipeline.unscopedRest_split preFacts1 c (Vr2 m hH.h0 c), admTbl1_eq m hH c]
  unfold Pipeline.unscopedRestP
  rw [BI.bigSep_sdiff_split H1_sub]
  unfold H1
  rw [BI.bigSep_singleton]
  rfl

/-- What the region leaves in each window's array is what the exit valuation holds there. -/
private theorem exitArr1 (c : Dev nD) : ∀ w : Fin 3,
    (pdats m hH 1 c).arrAt w (cfg1 (adm m 1)).N = Gen.V3 m (outs m hH) c (Pipeline.arrRef spec1 w)
  | ⟨0, _⟩ => ((dat1 (adm m 1) (Vr2 m hH.h0) hH.h1 c).arrAt_in 0 rfl _).trans
      ((dat1_A (adm m 1) (Vr2 m hH.h0) hH.h1 c 0).trans ((Gen.V3_of m (outs m hH) c (Pipeline.arrRef spec1 0) (by decide)).trans (congrFun (V2_outs m hH c) _)).symm)
  | ⟨1, _⟩ => ((dat1 (adm m 1) (Vr2 m hH.h0) hH.h1 c).arrAt_in 1 rfl _).trans
      ((dat1_A (adm m 1) (Vr2 m hH.h0) hH.h1 c 1).trans ((Gen.V3_of m (outs m hH) c (Pipeline.arrRef spec1 1) (by decide)).trans (congrFun (V2_outs m hH c) _)).symm)
  | ⟨2, _⟩ => by
    show (dat1 (adm m 1) (Vr2 m hH.h0) hH.h1 c).arrAt 2 (cfg1 (adm m 1)).N
      = Function.update (Gen.V2 m (outs m hH) c) (Proc.devRef .tc main_v43) (outs m hH 3 main_v43 c) (Proc.devRef .tc main_v43)
    rw [Function.update_self, outs_v43]
    rfl

/-- Every buffer that is no window's array is left as found. -/
private theorem exitRest1 (c : Dev nD) (b : Ref sig .tc) (hb : b ∉ Finset.univ.image (Pipeline.arrRef spec1)) :
    Gen.V3 m (outs m hH) c b = Vr2 m hH.h0 c b :=
  (Gen.V3_of m (outs m hH) c b fun h => hb (by
    rw [List.mem_singleton] at h; subst h
    exact Finset.mem_image.mpr ⟨2, Finset.mem_univ _, rfl⟩)).trans (congrFun (V2_outs m hH c) _)

set_option backward.isDefEq.respectTransparency.types false in
/-- REGION 1 over the thread state. -/
def reg1 : Pipeline.RegionSeg (pcfgs (F := F)) (adm m) (pdats m hH) () defs₀ 𝒱₀ L lv 1 where
  win := (launch1 (F := F)).win.to₀
  block_pos := (launch1 (F := F)).block_pos
  stage_whole := (launch1 (F := F)).stage_whole
  K := Fin 1
  osem := osem1
  ho := ownSemFacts1
  hbody c := (body_obligation1 (F := F) (adm m 1) (Vr2 m hH.h0) hH.h1 c).loose
  hwaits := Pipeline.hwaits_of_owed_zero _ _ _ _ L lv 1 fun _ _ => rfl
  pre c := iprop(StableHlo.held (c : Thread nD τ) (Pipeline.ucRefs τ sig) (Gen.V2 m (outs m hH) c) ∗ Rr c)
  post c := iprop(StableHlo.held (c : Thread nD τ) (Pipeline.ucRefs τ sig) (Gen.V3 m (outs m hH) c) ∗ Rr c)
  X c := iprop(hbPt c hbM (hb1 (Vr2 m hH.h0) c) ∗ semVal ((c : Thread nD τ), SemLoc.dma 9) 0)
  Y c := iprop(hbPt c hbM (hb1 (Vr2 m hH.h0) c) ∗ owns (c : Thread nD τ) tblM1 fullShare (tbl1 (Vr2 m hH.h0) c))
  Z c := iprop((∃ r, prngReg c r) ∗ bigSep (Pipeline.restRefsP sig pre1 spec1 \ H1) fun b => ((c : Thread nD τ).loc b) ↦{fullShare} Vr2 m hH.h0 c b)
  hentry c := by
    have hsplit := Pipeline.arrays_of_unscopedBufs (p := 1) (pcfgs (F := F)) (adm m) (pdats m hH) (launch1 (F := F)).win (launch1 (F := F)).arr_whole c
      ((pdats m hH 1 c).share_full fun _ => rfl) (Vr2 m hH.h0 c) fun _ => rfl
    rw [Pipeline.unscopedBufs_held] at hsplit
    rw [ownSems0_1_eq, V2_outs m hH c]
    iintro ⟨⟨Hub, Hp, HO⟩, Hos, -⟩
    ihave H := hsplit $$ Hub
    icases H with ⟨Ha, Hrest⟩
    ihave H' := (Entails.of_eq (rest1_split m hH c)) $$ Hrest
    icases H' with ⟨Htbl, Hhb, HR⟩
    imodintro
    isplitl [Ha]; · iexact Ha
    isplitl [Htbl]; · iexact Htbl
    isplitl [HO]
    · unfold Pipeline.Dat.owesAt Pipeline.owesWithin
      icases HO with ⟨%W, HO⟩; iexists W; isplitr; · ipureintro; exact fun _ _ => Or.inl trivial
      iexact HO
    isplitl [Hhb Hos]
    · isplitl [Hhb]; · iexact Hhb
      iexact Hos
    isplitl [Hp]; · iexact Hp
    iexact HR
  hin c := by
    show iprop((hbPt c hbM (hb1 (Vr2 m hH.h0) c) ∗ semVal ((c : Thread nD τ), SemLoc.dma 9) 0)
        ∗ Pipeline.prefHeld pre1 c (fun _ => fullShare) (adm m 1).1
        ∗ Pipeline.scopedRest (Ix := Unit) (Name := ℕ) (U := Pipeline.UD sig nD τ) (Lvl := ℕ) (Val := Elt F) spec1 c)
      ⊢ Φ1 (adm m 1) (Vr2 m hH.h0) c 0
    rw [scopedRest1_eq, prefHeld1_eq m hH c]
    unfold Φ1
    rw [show scr1 (Vr2 m hH.h0) c ((0 : Fin ((cfg1 (adm m 1)).N + 1)).val) = iprop(∃ d, owns (c : Thread nD τ) scA1 fullShare d) from rfl]
    simp only [owns_whole (c : Thread nD τ) cc1_scratch0, owns_whole (c : Thread nD τ) cc1_scratch1]
    unfold rest1
    iintro ⟨⟨Hhb, Hsem⟩, Htbl, R1, R2, R3, R4, R5, R6, HA, HB, Hrest⟩
    isplitl [Htbl]; · iexact Htbl
    isplitl [Hhb]; · iexact Hhb
    isplitl [Hsem]; · iexact Hsem
    isplitl [HA]; · iexact HA
    isplitl [HB]; · iexact HB
    isplitl [R1]; · iexact R1
    isplitl [R2]; · iexact R2
    isplitl [R3]; · iexact R3
    isplitl [R4]; · iexact R4
    isplitl [R5]; · iexact R5
    isplitl [R6]; · iexact R6
    iexact Hrest
  hout c := by
    show Φ1 (adm m 1) (Vr2 m hH.h0) c (Fin.last (cfg1 (adm m 1)).N)
      ⊢ iprop((hbPt c hbM (hb1 (Vr2 m hH.h0) c) ∗ owns (c : Thread nD τ) tblM1 fullShare (tbl1 (Vr2 m hH.h0) c))
        ∗ Pipeline.ownSems0 (Ix := Unit) (Name := ℕ) (U := Pipeline.UD sig nD τ) (Lvl := ℕ) (Val := Elt F) (τ := τ) osem1 c
        ∗ Pipeline.scopedRest (Ix := Unit) (Name := ℕ) (U := Pipeline.UD sig nD τ) (Lvl := ℕ) (Val := Elt F) spec1 c)
    rw [scopedRest1_eq, ownSems0_1_eq]
    unfold Φ1
    rw [show scr1 (Vr2 m hH.h0) c (Fin.last (cfg1 (adm m 1)).N).val = owns (c : Thread nD τ) scA1 fullShare (attr1 (Vr2 m hH.h0) c) from rfl]
    simp only [owns_whole (c : Thread nD τ) cc1_scratch0, owns_whole (c : Thread nD τ) cc1_scratch1]
    unfold rest1
    iintro ⟨Htbl, Hhb, Hsem, HA, HB, R1, R2, R3, R4, R5, R6, Hrest⟩
    isplitl [Hhb Htbl]
    · isplitl [Hhb]; · iexact Hhb
      iexact Htbl
    isplitl [Hsem]; · iexact Hsem
    isplitl [R1]; · iexact R1
    isplitl [R2]; · iexact R2
    isplitl [R3]; · iexact R3
    isplitl [R4]; · iexact R4
    isplitl [R5]; · iexact R5
    isplitl [R6]; · iexact R6
    isplitl [HA]; · iexists _; iexact HA
    isplitl [HB]; · iexact HB
    iexact Hrest
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hH) ((pdats m hH 1 c).share_full fun _ => rfl)
      (Vr2 m hH.h0 c) (fun b => Gen.V3 m (outs m hH) c b) ((pdats m hH 1 c).arrAt · (cfg1 (adm m 1)).N) (exitArr1 m hH c) (exitRest1 m hH c)
    rw [Pipeline.unscopedBufs_held] at hjoin
    iintro ⟨Ha, HO, ⟨Hhb, Htbl⟩, Hp, HR⟩
    ihave Hrest := (Entails.of_eq (rest1_split m hH c).symm) $$ [Htbl Hhb HR]
    · rw [prefHeld1_eq m hH c]
      isplitl [Htbl]; · iexact Htbl
      isplitl [Hhb]; · iexact Hhb
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread states the region is entered from and left at, as the launch states them. -/
theorem reg1_pre (c : Dev nD) :
    (reg1 m hH).pre c = iprop(StableHlo.held (c : Thread nD τ) (Pipeline.ucRefs τ sig) (Gen.V2 m (outs m hH) c) ∗ Rr c) := by unfold reg1; rfl
theorem reg1_post (c : Dev nD) :
    (reg1 m hH).post c = iprop(StableHlo.held (c : Thread nD τ) (Pipeline.ucRefs τ sig) (Gen.V3 m (outs m hH) c) ∗ Rr c) := by unfold reg1; rfl

end Cert.Kernel.Hand

end
-- ==== Proof.K.Reg2.lean ====
import proofs.«403142_j86199993631438_1_alg».proof.Proof.K.PDats
import proofs.«403142_j86199993631438_1_alg».proof.Proof.K.LaunchKit
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The third region as a segment of the program

The third kernel has no semaphore of its own and no prefetched table. It is entered with every unscoped buffer at the
contents the second region left, beside the generator register at some state and the core owing nothing. Its four arrays
are split out of the unscoped buffers; the register goes into the invariant and comes back; every other unscoped buffer
bypasses the region. At the exit the three input arrays are as entered, the output array holds the blocks the pipeline
wrote, folded over the grid, and the rest is as it was: the unscoped buffers at the next boundary's contents. -/

variable (m : (ℓ : Loc nD τ sig) → Buf (Elt F) ℓ) (hH : IdsOk m)

/-- The output window's array is the third region's output buffer. -/
theorem arrRef2_3 : Pipeline.arrRef spec2 (3 : Fin 4) = main_v44 := rfl

/-- An input array at the exit: never written back, so what the region found, and the output's update leaves it alone. -/
theorem hF2_in (c : Dev nD) (w : Fin 4) (hin : (cfg2.win w).isOut = false) (hne : Pipeline.arrRef spec2 w ∉ ([main_v44] : List (Ref sig .tc))) :
    (dat2 (Vr3 m hH) c).arrAt w cfg2.N = Gen.V4 m (outs m hH) c (Pipeline.arrRef spec2 w) := by
  rw [(dat2 (Vr3 m hH) c).arrAt_in w hin cfg2.N, dat2_A, Gen.V4_of m (outs m hH) c _ hne, V3_outs m hH c]

/-- At the exit each array holds what the next boundary's contents say: an input what it held at entry; the output the
    pipeline's fold of its blocks, which is what the update puts there. -/
theorem hF2 (c : Dev nD) : ∀ w : Fin 4, (dat2 (Vr3 m hH) c).arrAt w cfg2.N = Gen.V4 m (outs m hH) c (Pipeline.arrRef spec2 w)
  | ⟨0, _⟩ => hF2_in m hH c 0 rfl (by decide)
  | ⟨1, _⟩ => hF2_in m hH c 1 rfl (by decide)
  | ⟨2, _⟩ => hF2_in m hH c 2 rfl (by decide)
  | ⟨3, _⟩ => by
    show (dat2 (Vr3 m hH) c).arrAt 3 cfg2.N = Gen.V4 m (outs m hH) c main_v44
    unfold Gen.V4
    rw [Function.update_self, outs_v44 m hH 4 c]
    rfl

/-- Off the region's arrays the next boundary's contents are the entry contents: the update is at the output buffer only. -/
theorem hrest2 (c : Dev nD) : ∀ b : Ref sig .tc, b ∉ Finset.univ.image (Pipeline.arrRef spec2) → Gen.V4 m (outs m hH) c b = Vr3 m hH c b := by
  intro b hb
  have hne : b ∉ ([main_v44] : List (Ref sig .tc)) := fun hmem =>
    hb (Finset.mem_image.mpr ⟨(3 : Fin 4), Finset.mem_univ _, arrRef2_3.trans (List.mem_singleton.mp hmem).symm⟩)
  rw [Gen.V4_of m (outs m hH) c b hne, V3_outs m hH c]

set_option backward.isDefEq.respectTransparency.types false in
/-- THE THIRD REGION over the thread state: entered from every unscoped buffer at the second region's exit contents,
    left at those contents updated at the output buffer. The four arrays are split out of the unscoped buffers at entry
    and rejoined at the exit contents; the generator register goes into the invariant and comes back; the core owes
    nothing throughout; the kernel has no semaphore of its own and no prefetched table. -/
def reg2 : Pipeline.RegionSeg (pcfgs (F := F)) (adm m) (pdats m hH) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (Vr3 m hH) c).loose
  hwaits := Pipeline.hwaits_of_owed_zero _ _ _ _ L lv 2 fun _ _ => rfl
  pre c := iprop(StableHlo.held (c : Thread nD τ) (Pipeline.ucRefs τ sig) (Gen.V3 m (outs m hH) c) ∗ Rr c)
  post c := iprop(StableHlo.held (c : Thread nD τ) (Pipeline.ucRefs τ sig) (Gen.V4 m (outs m hH) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (Vr3 m hH c)
  hentry c := by
    rw [Pipeline.ownSems0_none, V3_outs m hH c]
    have hsplit := Pipeline.arrays_of_unscopedBufs (p := 2) (pcfgs (F := F)) (adm m) (pdats m hH) (launch2 (F := F)).win (launch2 (F := F)).arr_whole c
      ((pdats m hH 2 c).share_full fun _ => rfl) (Vr3 m hH c) fun w => dat2_A (Vr3 m hH) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 2 c).Φ 0 = (Pipeline.ΦA spec2 c : sProp 𝕄) from rfl]; unfold Pipeline.ΦA
    iintro ⟨Hp, -, Hr⟩
    isplitl [Hr]; · iexact Hr
    iexact Hp
  hout c := by
    rw [Pipeline.ownSems0_none, show (pdats m hH 2 c).Φ (Fin.last _) = (Pipeline.ΦA spec2 c : sProp 𝕄) from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hH) ((pdats m hH 2 c).share_full fun _ => rfl)
      (Vr3 m hH c) (fun b => Gen.V4 m (outs m hH) c b) ((pdats m hH 2 c).arrAt · cfg2.N) (hF2 m hH c) (hrest2 m hH c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the third region is entered from, -/
theorem reg2_pre (c : Dev nD) : (reg2 m hH).pre c = iprop(StableHlo.held (c : Thread nD τ) (Pipeline.ucRefs τ sig) (Gen.V3 m (outs m hH) c) ∗ Rr c) := rfl
/-- and the one it leaves. -/
theorem reg2_post (c : Dev nD) : (reg2 m hH).post c = iprop(StableHlo.held (c : Thread nD τ) (Pipeline.ucRefs τ sig) (Gen.V4 m (outs m hH) c) ∗ Rr c) := rfl

end Cert.Kernel.Hand

end
-- ==== Proof.K.HypsOfPre.lean ====
import proofs.«403142_j86199993631438_1_alg».proof.Proof.K.Common
import proofs.«403142_j86199993631438_1_alg».proof.Pre_finite_inputs
import Idealize.ShloMosaic.Lib.ReduceAll
import Idealize.ShloMosaic.Lib.StableHlo.Predicate

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## From the precondition to the in-range facts the gathering bodies assume

The precondition is a conjunction of four scalar bits; the last two say that every word of the two class-id tables is,
read as a signed 32-bit integer, at least 0 and below 6000. A word in that signed range is below 6000 unsigned, so the
row it names is a row of the 6000-row table, and the one-row window at it lies inside the table. -/

/-- The rank-0 shape has one index. -/
instance subsingleton_scalar_idx : Subsingleton Cert.Pre_finite_inputs.S_.Idx := ⟨fun a b => funext fun d => d.elim0⟩

/-- A word that is at least 0 and below 6000 as a signed integer is below 6000 as an unsigned one. -/
theorem toNat_lt_of_signed (w : BitVec 32) (h0 : IntOp.cmpi .sge w 0#32 = 1#1) (h1 : IntOp.cmpi .slt w 6000#32 = 1#1) :
    w.toNat < 6000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e6 : (6000#32 : BitVec 32).toInt = 6000 := by decide
  rw [e0] at h0
  rw [e6] at h1
  have h32 := w.isLt
  rw [BitVec.toInt_eq_toNat_cond] at h0 h1
  split at h0 <;> omega

/-- THE PRECONDITION DECODED: every word of both class-id tables is below 6000. -/
theorem words_in_range [Cert.Pre_finite_inputs.Facts] (a0 : FVec F Cert.Pre_finite_inputs.S6000x1024 .f32) (a1 : FVec F Cert.Pre_finite_inputs.S1x15 .f32) (a2 : IVec Cert.Pre_finite_inputs.S14x64 32) (a3 : IVec Cert.Pre_finite_inputs.S1200 32) (a4 : IVec Cert.Pre_finite_inputs.S4800 32)
    (h : Cert.Pre_finite_inputs.fn (F := F) a0 a1 a2 a3 a4 = fun _ => 1#1) :
    (∀ y, (a3 y).toNat < 6000) ∧ (∀ y, (a4 y).toNat < 6000) := by
  have e := congrFun h (fun a => a.elim0)
  dsimp only [Cert.Pre_finite_inputs.fn, Cert.Pre_finite_inputs.fn_part1] at e
  obtain ⟨h123, h4⟩ := IntOp.andi_eq_one.1 e
  obtain ⟨-, h3⟩ := IntOp.andi_eq_one.1 h123
  have k3 := Host.reduce_andi_all _ _ _ _ _ h3
  have k4 := Host.reduce_andi_all _ _ _ _ _ h4
  refine ⟨fun y => ?_, fun y => ?_⟩
  · obtain ⟨p, q⟩ := IntOp.andi_eq_one.1 (k3 y)
    exact toNat_lt_of_signed _ p q
  · obtain ⟨p, q⟩ := IntOp.andi_eq_one.1 (k4 y)
    exact toNat_lt_of_signed _ p q

/-- The row the word names, as the body reads it: the 32-bit word itself. -/
theorem indexCast_toNat (w : BitVec 32) : (Scalar.indexCast w).toNat = w.toNat := rfl

/-- A word below 6000 names a row of the table: the one-row window at it lies inside the [6000, 1024] table. -/
theorem row_inside (w : BitVec 32) (hw : w.toNat < 6000) (a : Fin 2) :
    (![(Scalar.indexCast w).toNat, 0] : Fin 2 → Nat) a + S1x1024.size a ≤ S6000x1024.size a := by
  rw [indexCast_toNat]
  fin_cases a <;> simp [S1x1024, S6000x1024] <;> omega

/-- Every word of the first class-id table, read through any one-word rectangle, names a row of the table. -/
theorem rowOk0_of_lt (x1 : Vec F S1200 .i32) (h : ∀ y, (x1 y).toNat < 6000) :
    RowOk0 (F := F) (Memref.whole main_arg3) (Memref.isWhole_whole _) x1 := by
  intro o ho a
  rw [View.readAt_apply, Memref.IsWhole.read_unread]
  exact row_inside _ (h _) a

/-- Every word of the second class-id table likewise. -/
theorem rowOk1_of_lt (x1 : Vec F S4800 .i32) (h : ∀ y, (x1 y).toNat < 6000) :
    RowOk1 (F := F) (Memref.whole main_arg4) (Memref.isWhole_whole _) x1 := by
  intro o ho a
  rw [View.readAt_apply, Memref.IsWhole.read_unread]
  exact row_inside _ (h _) a

end Cert.Kernel.Hand

end
-- ==== Proof.K.Frames.lean ====
import proofs.«403142_j86199993631438_1_alg».proof.Proof.K.Reg0
import proofs.«403142_j86199993631438_1_alg».proof.Proof.K.Reg1
import proofs.«403142_j86199993631438_1_alg».proof.Proof.K.Reg2
import proofs.«403142_j86199993631438_1_alg».proof.Proof.K.HypsOfPre
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The frame

Under the precondition every class id names a row of the attribute table, at the contents each gathering region finds
the id arrays (no host operation and no earlier region writes them); so the three regions' records exist and the
program's conditional frame applies: the program runs to the end and its argument arrays are unchanged. -/

variable (m : (ℓ : Loc nD τ sig) → Buf (Elt F) ℓ) (ρ : Dev nD → PrngReg)

/-- From the precondition at the launch memory: both id arrays name rows, where the regions read them. -/
theorem idsOk_of_pre [Cert.Pre_finite_inputs.Facts]
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    IdsOk m := by
  have h0 : Ids0 m := fun c => rowOk0_of_lt _ (fun y => by
    show ((Gen.V1 m c main_arg3 : Vec F S1200 .i32) y).toNat < 6000
    rw [Gen.V1_of m c main_arg3 (by decide)]
    exact (words_in_range _ _ _ _ _ (h c)).1 y)
  refine ⟨h0, fun c => rowOk1_of_lt _ (fun y => ?_)⟩
  show ((Gen.V2 m (outsA m h0) c main_arg4 : Vec F S4800 .i32) y).toNat < 6000
  rw [Gen.V2_of m (outsA m h0) c main_arg4 (by decide), Gen.V1_of m c main_arg4 (by decide)]
  exact (words_in_range _ _ _ _ _ (h c)).2 y

/-- Every weakly fair execution terminates, nothing faults, the argument arrays end as launched. -/
theorem frame (hH : IdsOk m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_kit m ρ (outs m hH) (adm m) (pdats m hH) (reg0 m hH) (fun c => by rw [reg0_pre]) (fun c => by rw [reg0_post])
    (reg1 m hH) (fun c => by rw [reg1_pre]) (fun c => by rw [reg1_post])
    (reg2 m hH) (fun c => by rw [reg2_pre]) (fun c => by rw [reg2_post])

end Cert.Kernel.Hand

end
-- ==== Proof.Common.lean ====
import proofs.«403142_j86199993631438_1_alg».proof.Proof.Gen.KernelIdeal.Launch
import proofs.«403142_j86199993631438_1_alg».proof.Proof.Gen.KernelIdeal.Skeleton
import proofs.«403142_j86199993631438_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Regions
import proofs.«403142_j86199993631438_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the three bodies and the regions are stated over

The two gathering kernels copy the whole attribute table from HBM into a scratch at the first grid point only, and at
every point read forty class ids from the prefetched table, fetch the rows they name from that scratch and embed them.
Everything here is stated for any float instance. -/

/-- The gathering body's one branch: "this is the first grid point" (the table copy runs there). -/
abbrev cond0 (i : grid0.Coords) : Prop := (Scalar.cmpi .ne (Scalar.extui (Scalar.cmpi .eq (BitVec.ofNat 32 (i 0).val) 0#32)) 0#32) = 1#1
abbrev cond1 (i : grid1.Coords) : Prop := (Scalar.cmpi .ne (Scalar.extui (Scalar.cmpi .eq (BitVec.ofNat 32 (i 0).val) 0#32)) 0#32) = 1#1

/-- The branch is taken exactly at point 0. -/
theorem hcond0 : ∀ t : Fin grid0.N, cond0 (grid0.coords t) ↔ t.val = 0 :=
  (by decide +kernel : ∀ t : Fin grid0.N, cond0 (grid0.coords t) ↔ t.val = 0)
theorem hcond1 : ∀ t : Fin grid1.N, cond1 (grid1.coords t) ↔ t.val = 0 :=
  (by decide +kernel : ∀ t : Fin grid1.N, cond1 (grid1.coords t) ↔ t.val = 0)

/-- A memref's buffer on core `c`: its contents type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
/-- The attribute table, left in HBM: the operand both gathering kernels copy from. -/
abbrev hbM : Memref sig .tc .hbm S6000x1024 .f32 := Memref.whole main_arg0
/-- What the copy delivers: the HBM array's contents, element for element. -/
abbrev delivered (c : Dev nD) (fh : HbBuf (F := F) c hbM) : Vec F S6000x1024 .f32 := ReadAs.same.apply (View.read (Elt F) hbM.view fh)

/-- Every word of the class-id table, read through any one-word rectangle, names a row of the 6000-row table: what the
    forty in-range side conditions of a gathering body ask, at once. -/
abbrev RowOk0 (arg1 : Memref sig .tc .smem S1200 .i32) (harg1 : arg1.IsWhole) (x1 : Vec F S1200 .i32) : Prop :=
  ∀ (o : Fin 1 → Nat) (ho : ∀ a, o a + S1.size a ≤ S1200.size a) (a : Fin 2),
    (![(Scalar.indexCast (arg1.view.readAt (Elt F) (Rect.unit (s := S1200) o S1.size ho).toLoadRect (harg1.unread x1) (Shape.Idx.first (numel1_S1.symm ▸ Nat.one_pos)))).toNat, 0] : Fin 2 → Nat) a + S1x1024.size a ≤ S6000x1024.size a
abbrev RowOk1 (arg1 : Memref sig .tc .smem S4800 .i32) (harg1 : arg1.IsWhole) (x1 : Vec F S4800 .i32) : Prop :=
  ∀ (o : Fin 1 → Nat) (ho : ∀ a, o a + S1.size a ≤ S4800.size a) (a : Fin 2),
    (![(Scalar.indexCast (arg1.view.readAt (Elt F) (Rect.unit (s := S4800) o S1.size ho).toLoadRect (harg1.unread x1) (Shape.Idx.first (numel1_S1.symm ▸ Nat.one_pos)))).toNat, 0] : Fin 2 → Nat) a + S1x1024.size a ≤ S6000x1024.size a

end Cert.KernelIdeal.Hand

end
-- ==== Proof.Body0.lean ====
import proofs.«403142_j86199993631438_1_alg».proof.Proof.Common
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering kernel's body, run once per case

The body has one branch. At the first grid point it copies the attribute table from HBM into its big scratch and waits
for the copy (case A); at every other point the scratch still holds the table (case B). Either way it then reads forty
class ids from the prefetched table, copies the forty rows they name into the small scratch, reads that scratch back
whole with the mask and the overlay, and stores the embedded, normalised and transposed block into the output window.
Each run is stated for any memrefs and any contents; the pieces the output buffer ends with are what the run finds. -/

set_option maxHeartbeats 4000000 in
/-- Case A (the first point): the big scratch at anything, the copy's semaphore at zero, the HBM table at `fh`; after the
    body the big scratch holds what the copy delivered. -/
noncomputable def runA (c : Dev nD) (i : grid0.Coords) (hc : cond0 i)
    (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole)
    (x1 : Vec F S1200 .i32) (hrow : RowOk0 arg1 harg1 x1)
    (x3 : Vec F S16x1024 .f32) (x4 : Vec F S16x1024 .f32) (fh : HbBuf (F := F) c hbM) :
    { L : List (View.Piece (Elt F) S1024x640 .f32) //
      ∀ (W : Waits sig Unit) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ semVal ((c : Thread nD τ), SemLoc.dma 4) 0 ∗ hbPt c hbM fh ∗ owes (c : Thread nD τ) 0 W
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare (delivered c fh) ∗ (∃ d, owns (c : Thread nD τ) arg7 fullShare d)
                ∗ semVal ((c : Thread nD τ), SemLoc.dma 4) 0 ∗ hbPt c hbM fh ∗ (∃ W', owes (c : Thread nD τ) 0 W')) -∗ K ⟨⟩))
          ⊢ wp frame (wpE (defs₀ (F := F)) Variants.none c none) Set.univ (cc0__embed_kernel_gather i arg1 harg1 hbM (Memref.isWhole_whole _) arg3 harg3 arg4 harg4 arg5 harg5 arg6 harg6 arg7 harg7 cc0_scratch2) K } := by
  refine ⟨?_, fun W K => ?run⟩
  case run =>
    simp only [cc0__embed_kernel_gather_eq_skeleton]; unfold cc0__embed_kernel_gather_skel
    unfold owns
    iintro ⟨⟨%f1, %hf1, H1⟩, ⟨%f3, %hf3, H3⟩, ⟨%f4, %hf4, H4⟩, ⟨%d5, %f5, -, H5⟩, ⟨%d6, %f6, -, H6⟩, ⟨%d7, %f7, -, H7⟩, Hq, Hh, HW, Hk⟩
    obtain rfl := harg1.eq_unread hf1; obtain rfl := harg3.eq_unread hf3; obtain rfl := harg4.eq_unread hf4
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; swap; · iexact H6
      ipureintro
      exact View.read_writes_whole _ _ _
    isplitl [H7]
    · iexists _, _; isplitr; swap; · iexact H7
      ipureintro; rfl
    isplitl [Hq]; · iexact Hq
    isplitl [Hh]; · iexact Hh
    iexists _; iexact HW

set_option maxHeartbeats 4000000 in
/-- Case B (every later point): the big scratch holds the table `x6` and keeps it. -/
noncomputable def runB (c : Dev nD) (i : grid0.Coords) (hc : ¬ cond0 i)
    (arg1 : Memref sig .tc .smem S1200 .i32) (harg1 : arg1.IsWhole) (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_)
    (x1 : Vec F S1200 .i32) (hrow : RowOk0 arg1 harg1 x1)
    (x3 : Vec F S16x1024 .f32) (x4 : Vec F S16x1024 .f32) (x6 : Vec F S6000x1024 .f32) :
    { L : List (View.Piece (Elt F) S1024x640 .f32) //
      ∀ (E : Set ℕ) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ owns (c : Thread nD τ) arg6 fullShare x6 ∗ (∃ d, owns (c : Thread nD τ) arg7 fullShare d)
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare x6 ∗ (∃ d, owns (c : Thread nD τ) arg7 fullShare d)) -∗ K ⟨⟩))
          ⊢ wp frame (wpE (defs₀ (F := F)) Variants.none c none) E (cc0__embed_kernel_gather i arg1 harg1 arg2 harg2 arg3 harg3 arg4 harg4 arg5 harg5 arg6 harg6 arg7 harg7 arg8) K } := by
  refine ⟨?_, fun E K => ?run⟩
  case run =>
    simp only [cc0__embed_kernel_gather_eq_skeleton]; unfold cc0__embed_kernel_gather_skel
    unfold owns
    iintro ⟨⟨%f1, %hf1, H1⟩, ⟨%f3, %hf3, H3⟩, ⟨%f4, %hf4, H4⟩, ⟨%d5, %f5, -, H5⟩, ⟨%f6, %hf6, H6⟩, ⟨%d7, %f7, -, H7⟩, Hk⟩
    obtain rfl := harg1.eq_unread hf1; obtain rfl := harg3.eq_unread hf3; obtain rfl := harg4.eq_unread hf4; obtain rfl := harg6.eq_unread hf6
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _, _; isplitr; swap; · iexact H7
    ipureintro; rfl

end Cert.KernelIdeal.Hand

end
-- ==== Proof.Dat0.lean ====
import proofs.«403142_j86199993631438_1_alg».proof.Proof.Body0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering region: proof data

The region is entered with its arrays at `V` (the mask, the overlay, the output), the class-id table and the HBM attribute
table at `V` too; `a` is the table contents the configuration is pinned at. Between points the invariant holds the id
table, the HBM table, the copy's semaphore at zero, the big scratch — at anything before the first point, at what the
copy delivered after it —, the small scratch at anything, and the other regions' scoped buffers. -/

variable (a : (pcfg0 (F := F)).Adm)
variable (V : (c : Dev nD) → (b : Ref sig .tc) → Buf (Elt F) ((c : Thread nD τ).loc b))

/-- The class-id table as the region finds it. -/
abbrev tbl0 (c : Dev nD) : Vec F S1200 .i32 := V c main_arg3
/-- The HBM attribute table as the region finds it, and what the copy of it delivers. -/
abbrev hb0 (c : Dev nD) : HbBuf (F := F) c hbM := V c main_arg0
abbrev attr0 (c : Dev nD) : Vec F S6000x1024 .f32 := delivered c (hb0 V c)

/-- The body's memref arguments, as the pipeline passes them at point `t`. -/
abbrev tblM0 : Memref sig .tc .smem S1200 .i32 := Memref.whole main_arg3
abbrev ms0_0 (t : Fin (cfg0 a).N) : Memref sig .tc .vmem S16x1024 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S16x1024 .f32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S1024x640 .f32 := spec0_2.stage ((cfg0 a).slots t 2)
abbrev hs0_2 (t : Fin (cfg0 a).N) : (ms0_2 a t).IsWhole := hstage0_2 (((cfg0 a).slots t 2).cast nbuf0_2)
abbrev scA0 : Memref sig .tc .vmem S6000x1024 .f32 := Memref.whole cc0_scratch0
abbrev scB0 : Memref sig .tc .vmem S40x1024 .f32 := Memref.whole cc0_scratch1

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- One staging buffer of the output window, through which its contents are stated. -/
abbrev VO0 : View sig .tc .vmem S1024x640 .f32 := (Memref.whole cc0_stg2_0 : Memref sig .tc .vmem S1024x640 .f32).view

/-- What the first point leaves in the output block: its pieces read back over junk. -/
def out0A (c : Dev nD) (i : grid0.Coords) (hc : cond0 i) (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S1200 .i32) (hrow : RowOk0 arg1 harg1 x1)
    (x3 x4 : Vec F S16x1024 .f32) (fh : HbBuf (F := F) c hbM) : Vec F S1024x640 .f32 :=
  VO0.read (Elt F) (VO0.writes (Elt F) VO0.junk (runA c i hc arg1 harg1 arg3 harg3 arg4 harg4 arg5 harg5 arg6 harg6 arg7 harg7 x1 hrow x3 x4 fh).1)

/-- The first point's pieces tile the output block (one whole-block store). -/
theorem cover0A (c : Dev nD) (i : grid0.Coords) (hc : cond0 i) (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S1200 .i32) (hrow : RowOk0 arg1 harg1 x1)
    (x3 x4 : Vec F S16x1024 .f32) (fh : HbBuf (F := F) c hbM) (y : S1024x640.Idx) :
    ∃ pc ∈ (runA c i hc arg1 harg1 arg3 harg3 arg4 harg4 arg5 harg5 arg6 harg6 arg7 harg7 x1 hrow x3 x4 fh).1, y ∈ pc.1.set :=
  View.cover_of_tiledL _ S1024x640.size (by sl_kernel_rfl) y

/-- What a later point leaves in the output block. -/
def out0B (c : Dev nD) (i : grid0.Coords) (hc : ¬ cond0 i) (arg1 : Memref sig .tc .smem S1200 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S1200 .i32) (hrow : RowOk0 arg1 harg1 x1)
    (x3 x4 : Vec F S16x1024 .f32) (x6 : Vec F S6000x1024 .f32) : Vec F S1024x640 .f32 :=
  VO0.read (Elt F) (VO0.writes (Elt F) VO0.junk (runB c i hc arg1 harg1 arg2 harg2 arg3 harg3 arg4 harg4 arg5 harg5 arg6 harg6 arg7 harg7 arg8 x1 hrow x3 x4 x6).1)

theorem cover0B (c : Dev nD) (i : grid0.Coords) (hc : ¬ cond0 i) (arg1 : Memref sig .tc .smem S1200 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S1200 .i32) (hrow : RowOk0 arg1 harg1 x1)
    (x3 x4 : Vec F S16x1024 .f32) (x6 : Vec F S6000x1024 .f32) (y : S1024x640.Idx) :
    ∃ pc ∈ (runB c i hc arg1 harg1 arg2 harg2 arg3 harg3 arg4 harg4 arg5 harg5 arg6 harg6 arg7 harg7 arg8 x1 hrow x3 x4 x6).1, y ∈ pc.1.set :=
  View.cover_of_tiledL _ S1024x640.size (by sl_kernel_rfl) y

/-- What the output block holds after the body at point `t`: the first point's case or the later points'. -/
def out0At (hH : ∀ c, RowOk0 (F := F) tblM0 (Memref.isWhole_whole _) (tbl0 V c)) (c : Dev nD) (t : Fin (cfg0 a).N) : Vec F S1024x640 .f32 :=
  if h : t.val = 0 then
    out0A c (grid0.coords t) ((hcond0 t).mpr h) tblM0 (Memref.isWhole_whole _) (ms0_0 a t) (hs0_0 a t) (ms0_1 a t) (hs0_1 a t) (ms0_2 a t) (hs0_2 a t)
      scA0 (Memref.isWhole_whole _) scB0 (Memref.isWhole_whole _) (tbl0 V c) (hH c) (iblk0 a V c 0 t) (iblk0 a V c 1 t) (hb0 V c)
  else
    out0B c (grid0.coords t) (fun hc => h ((hcond0 t).mp hc)) tblM0 (Memref.isWhole_whole _) hbM (Memref.isWhole_whole _) (ms0_0 a t) (hs0_0 a t) (ms0_1 a t) (hs0_1 a t) (ms0_2 a t) (hs0_2 a t)
      scA0 (Memref.isWhole_whole _) scB0 (Memref.isWhole_whole _) cc0_scratch2 (tbl0 V c) (hH c) (iblk0 a V c 0 t) (iblk0 a V c 1 t) (attr0 V c)

/-- The scoped buffers of the other two regions, at anything: what this region carries untouched. -/
def rest0 (c : Dev nD) : sProp 𝕄 :=
  iprop((∃ f, (c : Thread nD τ).loc cc1_stg0_0 ↦{fullShare} f) ∗ (∃ f, (c : Thread nD τ).loc cc1_stg1_0 ↦{fullShare} f)
    ∗ (∃ f, (c : Thread nD τ).loc cc1_stg2_0 ↦{fullShare} f) ∗ (∃ f, (c : Thread nD τ).loc cc1_stg2_1 ↦{fullShare} f)
    ∗ (∃ f, (c : Thread nD τ).loc cc1_scratch0 ↦{fullShare} f) ∗ (∃ f, (c : Thread nD τ).loc cc1_scratch1 ↦{fullShare} f)
    ∗ (∃ f, (c : Thread nD τ).loc cc2_stg0_0 ↦{fullShare} f) ∗ (∃ f, (c : Thread nD τ).loc cc2_stg0_1 ↦{fullShare} f)
    ∗ (∃ f, (c : Thread nD τ).loc cc2_stg1_0 ↦{fullShare} f) ∗ (∃ f, (c : Thread nD τ).loc cc2_stg2_0 ↦{fullShare} f)
    ∗ (∃ f, (c : Thread nD τ).loc cc2_stg3_0 ↦{fullShare} f) ∗ ∃ f, (c : Thread nD τ).loc cc2_stg3_1 ↦{fullShare} f)

/-- The big scratch before point `n`: at anything before the first, at the delivered table afterwards. -/
def scr0 (c : Dev nD) : ℕ → sProp 𝕄
  | 0 => iprop(∃ d, owns (c : Thread nD τ) scA0 fullShare d)
  | _ + 1 => owns (c : Thread nD τ) scA0 fullShare (attr0 V c)

/-- The invariant before point `t`. -/
def Φ0 (c : Dev nD) (t : Fin ((cfg0 a).N + 1)) : sProp 𝕄 :=
  iprop(owns (c : Thread nD τ) tblM0 fullShare (tbl0 V c) ∗ hbPt c hbM (hb0 V c) ∗ semVal ((c : Thread nD τ), SemLoc.dma 4) 0
    ∗ scr0 V c t.val ∗ (∃ d, owns (c : Thread nD τ) scB0 fullShare d) ∗ rest0 c)

/-- The proof data on core `c`. -/
def dat0 (hH : ∀ c, RowOk0 (F := F) tblM0 (Memref.isWhole_whole _) (tbl0 V c)) (c : Dev nD) :
    Dat τ (Elt F) Unit ℕ (Pipeline.UD sig nD τ) ℕ (cfg0 a) c where
  A w := V c (Pipeline.arrRef spec0 w)
  after w t := match w with
    | ⟨0, _⟩ => iblk0 a V c 0 t
    | ⟨1, _⟩ => iblk0 a V c 1 t
    | ⟨2, _⟩ => out0At a V hH c t
  Φ t := Φ0 a V c t
  q _ := fullShare
  owed _ := 0

end Cert.KernelIdeal.Hand

end
-- ==== Proof.Obl0.lean ====
import proofs.«403142_j86199993631438_1_alg».proof.Proof.Dat0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering region: the body obligation

At every point the inputs' staging buffers hold the mask and the overlay (fetched once, kept since); the case is decided
by whether the point is the first; the run of that case applies, and what it leaves is the next point's invariant. -/

variable (a : (pcfg0 (F := F)).Adm)
variable (V : (c : Dev nD) → (b : Ref sig .tc) → Buf (Elt F) ((c : Thread nD τ).loc b))
variable (hH : ∀ c, RowOk0 (F := F) tblM0 (Memref.isWhole_whole _) (tbl0 V c))

theorem dat0_A (c : Dev nD) (w : Fin (cfg0 a).W) : (dat0 a V hH c).A w = V c (Pipeline.arrRef spec0 w) := by dsimp only [dat0]
theorem after0_0 (c : Dev nD) (t : Fin (cfg0 a).N) : (dat0 a V hH c).after 0 t = iblk0 a V c 0 t := by dsimp only [dat0]; rfl
theorem after0_1 (c : Dev nD) (t : Fin (cfg0 a).N) : (dat0 a V hH c).after 1 t = iblk0 a V c 1 t := by dsimp only [dat0]; rfl
theorem after0_2 (c : Dev nD) (t : Fin (cfg0 a).N) : (dat0 a V hH c).after 2 t = out0At a V hH c t := by dsimp only [dat0]; rfl

/-- The mask's staging buffer holds the mask at every point, fetched there or not. -/
theorem before0_0 (c : Dev nD) (t : Fin (cfg0 a).N) (d) : (dat0 a V hH c).before 0 t d = iblk0 a V c 0 t :=
  ((dat0 a V hH c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
/-- The overlay's likewise. -/
theorem before0_1 (c : Dev nD) (t : Fin (cfg0 a).N) (d) : (dat0 a V hH c).before 1 t d = iblk0 a V c 1 t :=
  ((dat0 a V hH c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)

/-- What the body is called with at point `t`, the windows one by one, -/
def bodyPre0 (c : Dev nD) (t : Fin (cfg0 a).N) : sProp 𝕄 :=
  iprop((dat0 a V hH c).Φ t.castSucc ∗ (dat0 a V hH c).owesAt () t.castSucc
    ∗ (∃ d, owns (c : Thread nD τ) (ms0_0 a t) fullShare ((dat0 a V hH c).before 0 t d))
    ∗ (∃ d, owns (c : Thread nD τ) (ms0_1 a t) fullShare ((dat0 a V hH c).before 1 t d))
    ∗ (∃ d, owns (c : Thread nD τ) (ms0_2 a t) fullShare ((dat0 a V hH c).before 2 t d)))
/-- and what it returns. -/
def bodyPost0 (c : Dev nD) (t : Fin (cfg0 a).N) : sProp 𝕄 :=
  iprop((dat0 a V hH c).Φ t.succ ∗ (dat0 a V hH c).owesAt () t.succ
    ∗ owns (c : Thread nD τ) (ms0_0 a t) fullShare ((dat0 a V hH c).after 0 t)
    ∗ owns (c : Thread nD τ) (ms0_1 a t) fullShare ((dat0 a V hH c).after 1 t)
    ∗ owns (c : Thread nD τ) (ms0_2 a t) fullShare ((dat0 a V hH c).after 2 t))

set_option maxHeartbeats 1600000 in
theorem sound_body0 (c : Dev nD) (t : Fin (cfg0 a).N) :
    bodyPre0 a V hH c t ⊢ wp frame (wpE (defs₀ (F := F)) Variants.none c none) Set.univ
      (cc0__embed_kernel_gather (grid0.coords t) tblM0 (Memref.isWhole_whole _) hbM (Memref.isWhole_whole _) (ms0_0 a t) (hs0_0 a t) (ms0_1 a t) (hs0_1 a t) (ms0_2 a t) (hs0_2 a t) scA0 (Memref.isWhole_whole _) scB0 (Memref.isWhole_whole _) cc0_scratch2) (fun _ => bodyPost0 a V hH c t) := by
  unfold bodyPre0 bodyPost0
  simp only [before0_0, before0_1]
  rw [after0_0, after0_1, after0_2]
  rw [show (dat0 a V hH c).Φ t.castSucc = Φ0 a V c t.castSucc from rfl, show (dat0 a V hH c).Φ t.succ = Φ0 a V c t.succ from rfl]
  unfold Φ0 Dat.owesAt Pipeline.owesWithin
  rw [show (dat0 a V hH c).owed t.castSucc = 0 from rfl, show (dat0 a V hH c).owed t.succ = 0 from rfl]
  have hs' : scr0 V c t.succ.val = owns (c : Thread nD τ) scA0 fullShare (attr0 V c) := by rw [Fin.val_succ]; rfl
  rw [hs']
  by_cases h : t.val = 0
  · have hs : scr0 V c t.castSucc.val = iprop(∃ d, owns (c : Thread nD τ) scA0 fullShare d) := by rw [Fin.coe_castSucc, h]; rfl
    rw [hs]
    iintro ⟨⟨Ht, Hh, Hq, Hs, Hb, Hr⟩, ⟨%W, %hW, HO⟩, ⟨%d0, H0⟩, ⟨%d1, H1⟩, ⟨%d2, H2⟩⟩
    iapply ((runA c (grid0.coords t) ((hcond0 t).mpr h) tblM0 (Memref.isWhole_whole _) (ms0_0 a t) (hs0_0 a t) (ms0_1 a t) (hs0_1 a t) (ms0_2 a t) (hs0_2 a t)
      scA0 (Memref.isWhole_whole _) scB0 (Memref.isWhole_whole _) (tbl0 V c) (hH c) (iblk0 a V c 0 t) (iblk0 a V c 1 t) (hb0 V c)).2 W _)
    isplitl [Ht]; · iexact Ht
    isplitl [H0]; · iexact H0
    isplitl [H1]; · iexact H1
    isplitl [H2]; · iexists _; iexact H2
    isplitl [Hs]; · iexact Hs
    isplitl [Hb]; · iexact Hb
    isplitl [Hq]; · iexact Hq
    isplitl [Hh]; · iexact Hh
    isplitl [HO]; · iexact HO
    iintro ⟨Ht, H0, H1, ⟨%f, H2⟩, Hs, Hb, Hq, Hh, ⟨%W', HO⟩⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]
    · iexists W'; isplitr; · ipureintro; exact fun _ _ => Or.inl trivial
      iexact HO
    isplitl [H0]; · iexact H0
    isplitl [H1]; · iexact H1
    unfold owns; iexists _; isplitr
    swap; · iexact H2
    ipureintro
    unfold out0At; rw [dif_pos h]
    exact View.read_writes_of_cover _ _ _ _ _ (cover0A c _ _ _ _ _ _ _ _ _ _ _ _ _ _ _ _ _ _ _)
  · obtain ⟨n, hn⟩ : ∃ n, t.val = n + 1 := Nat.exists_eq_succ_of_ne_zero h
    have hs : scr0 V c t.castSucc.val = owns (c : Thread nD τ) scA0 fullShare (attr0 V c) := by rw [Fin.coe_castSucc, hn]; rfl
    rw [hs]
    iintro ⟨⟨Ht, Hh, Hq, Hs, Hb, Hr⟩, HO, ⟨%d0, H0⟩, ⟨%d1, H1⟩, ⟨%d2, H2⟩⟩
    iapply ((runB c (grid0.coords t) (fun hc => h ((hcond0 t).mp hc)) tblM0 (Memref.isWhole_whole _) hbM (Memref.isWhole_whole _) (ms0_0 a t) (hs0_0 a t) (ms0_1 a t) (hs0_1 a t) (ms0_2 a t) (hs0_2 a t) scA0 (Memref.isWhole_whole _) scB0 (Memref.isWhole_whole _) cc0_scratch2 (tbl0 V c) (hH c) (iblk0 a V c 0 t) (iblk0 a V c 1 t) (attr0 V c)).2 Set.univ _)
    isplitl [Ht]; · iexact Ht
    isplitl [H0]; · iexact H0
    isplitl [H1]; · iexact H1
    isplitl [H2]; · iexists _; iexact H2
    isplitl [Hs]; · iexact Hs
    isplitl [Hb]; · iexact Hb
    iintro ⟨Ht, H0, H1, ⟨%f, H2⟩, Hs, Hb⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]; · iexact HO
    isplitl [H0]; · iexact H0
    isplitl [H1]; · iexact H1
    unfold owns; iexists _; isplitr
    swap; · iexact H2
    ipureintro
    unfold out0At; rw [dif_neg h]
    exact View.read_writes_of_cover _ _ _ _ _ (cover0B c _ _ _ _ _ _ _ _ _ _ _ _ _ _ _ _ _ _ _ _ _ _)

/-- The library's body obligation, at every point. -/
theorem body_obligation0 (c : Dev nD) : BodyObligation (dat0 (F := F) a V hH c) (defs₀ (F := F)) Variants.none () Set.univ := fun t => by
  rw [bigSep_W0, bigSep_W0]
  exact sound_body0 a V hH c t

end Cert.KernelIdeal.Hand

end
-- ==== Proof.Body1.lean ====
import proofs.«403142_j86199993631438_1_alg».proof.Proof.Common
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering kernel's body, run once per case

The body has one branch. At the first grid point it copies the attribute table from HBM into its big scratch and waits
for the copy (case A); at every other point the scratch still holds the table (case B). Either way it then reads forty
class ids from the prefetched table, copies the forty rows they name into the small scratch, reads that scratch back
whole with the mask and the overlay, and stores the embedded, normalised and transposed block into the output window.
Each run is stated for any memrefs and any contents; the pieces the output buffer ends with are what the run finds. -/

set_option maxHeartbeats 4000000 in
/-- Case A (the first point): the big scratch at anything, the copy's semaphore at zero, the HBM table at `fh`; after the
    body the big scratch holds what the copy delivered. -/
noncomputable def runA1 (c : Dev nD) (i : grid1.Coords) (hc : cond1 i)
    (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole)
    (x1 : Vec F S4800 .i32) (hrow : RowOk1 arg1 harg1 x1)
    (x3 : Vec F S16x1024 .f32) (x4 : Vec F S16x1024 .f32) (fh : HbBuf (F := F) c hbM) :
    { L : List (View.Piece (Elt F) S1024x640 .f32) //
      ∀ (W : Waits sig Unit) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ semVal ((c : Thread nD τ), SemLoc.dma 9) 0 ∗ hbPt c hbM fh ∗ owes (c : Thread nD τ) 0 W
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare (delivered c fh) ∗ (∃ d, owns (c : Thread nD τ) arg7 fullShare d)
                ∗ semVal ((c : Thread nD τ), SemLoc.dma 9) 0 ∗ hbPt c hbM fh ∗ (∃ W', owes (c : Thread nD τ) 0 W')) -∗ K ⟨⟩))
          ⊢ wp frame (wpE (defs₀ (F := F)) Variants.none c none) Set.univ (cc1__embed_kernel_gather i arg1 harg1 hbM (Memref.isWhole_whole _) arg3 harg3 arg4 harg4 arg5 harg5 arg6 harg6 arg7 harg7 cc1_scratch2) K } := by
  refine ⟨?_, fun W K => ?run⟩
  case run =>
    simp only [cc1__embed_kernel_gather_eq_skeleton]; unfold cc1__embed_kernel_gather_skel
    unfold owns
    iintro ⟨⟨%f1, %hf1, H1⟩, ⟨%f3, %hf3, H3⟩, ⟨%f4, %hf4, H4⟩, ⟨%d5, %f5, -, H5⟩, ⟨%d6, %f6, -, H6⟩, ⟨%d7, %f7, -, H7⟩, Hq, Hh, HW, Hk⟩
    obtain rfl := harg1.eq_unread hf1; obtain rfl := harg3.eq_unread hf3; obtain rfl := harg4.eq_unread hf4
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; swap; · iexact H6
      ipureintro
      exact View.read_writes_whole _ _ _
    isplitl [H7]
    · iexists _, _; isplitr; swap; · iexact H7
      ipureintro; rfl
    isplitl [Hq]; · iexact Hq
    isplitl [Hh]; · iexact Hh
    iexists _; iexact HW

set_option maxHeartbeats 4000000 in
/-- Case B (every later point): the big scratch holds the table `x6` and keeps it. -/
noncomputable def runB1 (c : Dev nD) (i : grid1.Coords) (hc : ¬ cond1 i)
    (arg1 : Memref sig .tc .smem S4800 .i32) (harg1 : arg1.IsWhole) (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_)
    (x1 : Vec F S4800 .i32) (hrow : RowOk1 arg1 harg1 x1)
    (x3 : Vec F S16x1024 .f32) (x4 : Vec F S16x1024 .f32) (x6 : Vec F S6000x1024 .f32) :
    { L : List (View.Piece (Elt F) S1024x640 .f32) //
      ∀ (E : Set ℕ) (K : PUnit → sProp 𝕄),
        iprop(owns (c : Thread nD τ) arg1 fullShare x1 ∗ owns (c : Thread nD τ) arg3 fullShare x3 ∗ owns (c : Thread nD τ) arg4 fullShare x4
            ∗ (∃ d, owns (c : Thread nD τ) arg5 fullShare d) ∗ owns (c : Thread nD τ) arg6 fullShare x6 ∗ (∃ d, owns (c : Thread nD τ) arg7 fullShare d)
            ∗ (iprop(owns (c : Thread nD τ) arg1 fullShare x1 ∗ owns (c : Thread nD τ) arg3 fullShare x3 ∗ owns (c : Thread nD τ) arg4 fullShare x4
                ∗ (∃ f, arg5.view.loc (c : Thread nD τ) ↦[arg5.view.set]{fullShare} arg5.view.writes (Elt F) f L)
                ∗ owns (c : Thread nD τ) arg6 fullShare x6 ∗ (∃ d, owns (c : Thread nD τ) arg7 fullShare d)) -∗ K ⟨⟩))
          ⊢ wp frame (wpE (defs₀ (F := F)) Variants.none c none) E (cc1__embed_kernel_gather i arg1 harg1 arg2 harg2 arg3 harg3 arg4 harg4 arg5 harg5 arg6 harg6 arg7 harg7 arg8) K } := by
  refine ⟨?_, fun E K => ?run⟩
  case run =>
    simp only [cc1__embed_kernel_gather_eq_skeleton]; unfold cc1__embed_kernel_gather_skel
    unfold owns
    iintro ⟨⟨%f1, %hf1, H1⟩, ⟨%f3, %hf3, H3⟩, ⟨%f4, %hf4, H4⟩, ⟨%d5, %f5, -, H5⟩, ⟨%f6, %hf6, H6⟩, ⟨%d7, %f7, -, H7⟩, Hk⟩
    obtain rfl := harg1.eq_unread hf1; obtain rfl := harg3.eq_unread hf3; obtain rfl := harg4.eq_unread hf4; obtain rfl := harg6.eq_unread hf6
    sl_exec (disch := first | sl_exact hc | exact hrow _ _)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _, _; isplitr; swap; · iexact H7
    ipureintro; rfl

end Cert.KernelIdeal.Hand

end
-- ==== Proof.Dat1.lean ====
import proofs.«403142_j86199993631438_1_alg».proof.Proof.Body1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering region: proof data

The region is entered with its arrays at `V` (the mask, the overlay, the output), the class-id table and the HBM attribute
table at `V` too; `a` is the table contents the configuration is pinned at. Between points the invariant holds the id
table, the HBM table, the copy's semaphore at zero, the big scratch — at anything before the first point, at what the
copy delivered after it —, the small scratch at anything, and the other regions' scoped buffers. -/

variable (a : (pcfg1 (F := F)).Adm)
variable (V : (c : Dev nD) → (b : Ref sig .tc) → Buf (Elt F) ((c : Thread nD τ).loc b))

/-- The class-id table as the region finds it. -/
abbrev tbl1 (c : Dev nD) : Vec F S4800 .i32 := V c main_arg4
/-- The HBM attribute table as the region finds it, and what the copy of it delivers. -/
abbrev hb1 (c : Dev nD) : HbBuf (F := F) c hbM := V c main_arg0
abbrev attr1 (c : Dev nD) : Vec F S6000x1024 .f32 := delivered c (hb1 V c)

/-- The body's memref arguments, as the pipeline passes them at point `t`. -/
abbrev tblM1 : Memref sig .tc .smem S4800 .i32 := Memref.whole main_arg4
abbrev ms1_0 (t : Fin (cfg1 a).N) : Memref sig .tc .vmem S16x1024 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S16x1024 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1024x640 .f32 := spec1_2.stage ((cfg1 a).slots t 2)
abbrev hs1_2 (t : Fin (cfg1 a).N) : (ms1_2 a t).IsWhole := hstage1_2 (((cfg1 a).slots t 2).cast nbuf1_2)
abbrev scA1 : Memref sig .tc .vmem S6000x1024 .f32 := Memref.whole cc1_scratch0
abbrev scB1 : Memref sig .tc .vmem S40x1024 .f32 := Memref.whole cc1_scratch1

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- One staging buffer of the output window, through which its contents are stated. -/
abbrev VO1 : View sig .tc .vmem S1024x640 .f32 := (Memref.whole cc1_stg2_0 : Memref sig .tc .vmem S1024x640 .f32).view

/-- What the first point leaves in the output block: its pieces read back over junk. -/
def out1A (c : Dev nD) (i : grid1.Coords) (hc : cond1 i) (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S4800 .i32) (hrow : RowOk1 arg1 harg1 x1)
    (x3 x4 : Vec F S16x1024 .f32) (fh : HbBuf (F := F) c hbM) : Vec F S1024x640 .f32 :=
  VO1.read (Elt F) (VO1.writes (Elt F) VO1.junk (runA1 c i hc arg1 harg1 arg3 harg3 arg4 harg4 arg5 harg5 arg6 harg6 arg7 harg7 x1 hrow x3 x4 fh).1)

/-- The first point's pieces tile the output block (one whole-block store). -/
theorem cover1A (c : Dev nD) (i : grid1.Coords) (hc : cond1 i) (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S4800 .i32) (hrow : RowOk1 arg1 harg1 x1)
    (x3 x4 : Vec F S16x1024 .f32) (fh : HbBuf (F := F) c hbM) (y : S1024x640.Idx) :
    ∃ pc ∈ (runA1 c i hc arg1 harg1 arg3 harg3 arg4 harg4 arg5 harg5 arg6 harg6 arg7 harg7 x1 hrow x3 x4 fh).1, y ∈ pc.1.set :=
  View.cover_of_tiledL _ S1024x640.size (by sl_kernel_rfl) y

/-- What a later point leaves in the output block. -/
def out1B (c : Dev nD) (i : grid1.Coords) (hc : ¬ cond1 i) (arg1 : Memref sig .tc .smem S4800 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S4800 .i32) (hrow : RowOk1 arg1 harg1 x1)
    (x3 x4 : Vec F S16x1024 .f32) (x6 : Vec F S6000x1024 .f32) : Vec F S1024x640 .f32 :=
  VO1.read (Elt F) (VO1.writes (Elt F) VO1.junk (runB1 c i hc arg1 harg1 arg2 harg2 arg3 harg3 arg4 harg4 arg5 harg5 arg6 harg6 arg7 harg7 arg8 x1 hrow x3 x4 x6).1)

theorem cover1B (c : Dev nD) (i : grid1.Coords) (hc : ¬ cond1 i) (arg1 : Memref sig .tc .smem S4800 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S4800 .i32) (hrow : RowOk1 arg1 harg1 x1)
    (x3 x4 : Vec F S16x1024 .f32) (x6 : Vec F S6000x1024 .f32) (y : S1024x640.Idx) :
    ∃ pc ∈ (runB1 c i hc arg1 harg1 arg2 harg2 arg3 harg3 arg4 harg4 arg5 harg5 arg6 harg6 arg7 harg7 arg8 x1 hrow x3 x4 x6).1, y ∈ pc.1.set :=
  View.cover_of_tiledL _ S1024x640.size (by sl_kernel_rfl) y

/-- What the output block holds after the body at point `t`: the first point's case or the later points'. -/
def out1At (hH : ∀ c, RowOk1 (F := F) tblM1 (Memref.isWhole_whole _) (tbl1 V c)) (c : Dev nD) (t : Fin (cfg1 a).N) : Vec F S1024x640 .f32 :=
  if h : t.val = 0 then
    out1A c (grid1.coords t) ((hcond1 t).mpr h) tblM1 (Memref.isWhole_whole _) (ms1_0 a t) (hs1_0 a t) (ms1_1 a t) (hs1_1 a t) (ms1_2 a t) (hs1_2 a t)
      scA1 (Memref.isWhole_whole _) scB1 (Memref.isWhole_whole _) (tbl1 V c) (hH c) (iblk1 a V c 0 t) (iblk1 a V c 1 t) (hb1 V c)
  else
    out1B c (grid1.coords t) (fun hc => h ((hcond1 t).mp hc)) tblM1 (Memref.isWhole_whole _) hbM (Memref.isWhole_whole _) (ms1_0 a t) (hs1_0 a t) (ms1_1 a t) (hs1_1 a t) (ms1_2 a t) (hs1_2 a t)
      scA1 (Memref.isWhole_whole _) scB1 (Memref.isWhole_whole _) cc1_scratch2 (tbl1 V c) (hH c) (iblk1 a V c 0 t) (iblk1 a V c 1 t) (attr1 V c)

/-- The scoped buffers of the other two regions, at anything: what this region carries untouched. -/
def rest1 (c : Dev nD) : sProp 𝕄 :=
  iprop((∃ f, (c : Thread nD τ).loc cc0_stg0_0 ↦{fullShare} f) ∗ (∃ f, (c : Thread nD τ).loc cc0_stg1_0 ↦{fullShare} f)
    ∗ (∃ f, (c : Thread nD τ).loc cc0_stg2_0 ↦{fullShare} f) ∗ (∃ f, (c : Thread nD τ).loc cc0_stg2_1 ↦{fullShare} f)
    ∗ (∃ f, (c : Thread nD τ).loc cc0_scratch0 ↦{fullShare} f) ∗ (∃ f, (c : Thread nD τ).loc cc0_scratch1 ↦{fullShare} f)
    ∗ (∃ f, (c : Thread nD τ).loc cc2_stg0_0 ↦{fullShare} f) ∗ (∃ f, (c : Thread nD τ).loc cc2_stg0_1 ↦{fullShare} f)
    ∗ (∃ f, (c : Thread nD τ).loc cc2_stg1_0 ↦{fullShare} f) ∗ (∃ f, (c : Thread nD τ).loc cc2_stg2_0 ↦{fullShare} f)
    ∗ (∃ f, (c : Thread nD τ).loc cc2_stg3_0 ↦{fullShare} f) ∗ ∃ f, (c : Thread nD τ).loc cc2_stg3_1 ↦{fullShare} f)

/-- The big scratch before point `n`: at anything before the first, at the delivered table afterwards. -/
def scr1 (c : Dev nD) : ℕ → sProp 𝕄
  | 0 => iprop(∃ d, owns (c : Thread nD τ) scA1 fullShare d)
  | _ + 1 => owns (c : Thread nD τ) scA1 fullShare (attr1 V c)

/-- The invariant before point `t`. -/
def Φ1 (c : Dev nD) (t : Fin ((cfg1 a).N + 1)) : sProp 𝕄 :=
  iprop(owns (c : Thread nD τ) tblM1 fullShare (tbl1 V c) ∗ hbPt c hbM (hb1 V c) ∗ semVal ((c : Thread nD τ), SemLoc.dma 9) 0
    ∗ scr1 V c t.val ∗ (∃ d, owns (c : Thread nD τ) scB1 fullShare d) ∗ rest1 c)

/-- The proof data on core `c`. -/
def dat1 (hH : ∀ c, RowOk1 (F := F) tblM1 (Memref.isWhole_whole _) (tbl1 V c)) (c : Dev nD) :
    Dat τ (Elt F) Unit ℕ (Pipeline.UD sig nD τ) ℕ (cfg1 a) c where
  A w := V c (Pipeline.arrRef spec1 w)
  after w t := match w with
    | ⟨0, _⟩ => iblk1 a V c 0 t
    | ⟨1, _⟩ => iblk1 a V c 1 t
    | ⟨2, _⟩ => out1At a V hH c t
  Φ t := Φ1 a V c t
  q _ := fullShare
  owed _ := 0

end Cert.KernelIdeal.Hand

end
-- ==== Proof.Obl1.lean ====
import proofs.«403142_j86199993631438_1_alg».proof.Proof.Dat1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering region: the body obligation

At every point the inputs' staging buffers hold the mask and the overlay (fetched once, kept since); the case is decided
by whether the point is the first; the run of that case applies, and what it leaves is the next point's invariant. -/

variable (a : (pcfg1 (F := F)).Adm)
variable (V : (c : Dev nD) → (b : Ref sig .tc) → Buf (Elt F) ((c : Thread nD τ).loc b))
variable (hH : ∀ c, RowOk1 (F := F) tblM1 (Memref.isWhole_whole _) (tbl1 V c))

theorem dat1_A (c : Dev nD) (w : Fin (cfg1 a).W) : (dat1 a V hH c).A w = V c (Pipeline.arrRef spec1 w) := by dsimp only [dat1]
theorem after1_0 (c : Dev nD) (t : Fin (cfg1 a).N) : (dat1 a V hH c).after 0 t = iblk1 a V c 0 t := by dsimp only [dat1]; rfl
theorem after1_1 (c : Dev nD) (t : Fin (cfg1 a).N) : (dat1 a V hH c).after 1 t = iblk1 a V c 1 t := by dsimp only [dat1]; rfl
theorem after1_2 (c : Dev nD) (t : Fin (cfg1 a).N) : (dat1 a V hH c).after 2 t = out1At a V hH c t := by dsimp only [dat1]; rfl

/-- The mask's staging buffer holds the mask at every point, fetched there or not. -/
theorem before1_0 (c : Dev nD) (t : Fin (cfg1 a).N) (d) : (dat1 a V hH c).before 0 t d = iblk1 a V c 0 t :=
  ((dat1 a V hH c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
/-- The overlay's likewise. -/
theorem before1_1 (c : Dev nD) (t : Fin (cfg1 a).N) (d) : (dat1 a V hH c).before 1 t d = iblk1 a V c 1 t :=
  ((dat1 a V hH c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)

/-- What the body is called with at point `t`, the windows one by one, -/
def bodyPre1 (c : Dev nD) (t : Fin (cfg1 a).N) : sProp 𝕄 :=
  iprop((dat1 a V hH c).Φ t.castSucc ∗ (dat1 a V hH c).owesAt () t.castSucc
    ∗ (∃ d, owns (c : Thread nD τ) (ms1_0 a t) fullShare ((dat1 a V hH c).before 0 t d))
    ∗ (∃ d, owns (c : Thread nD τ) (ms1_1 a t) fullShare ((dat1 a V hH c).before 1 t d))
    ∗ (∃ d, owns (c : Thread nD τ) (ms1_2 a t) fullShare ((dat1 a V hH c).before 2 t d)))
/-- and what it returns. -/
def bodyPost1 (c : Dev nD) (t : Fin (cfg1 a).N) : sProp 𝕄 :=
  iprop((dat1 a V hH c).Φ t.succ ∗ (dat1 a V hH c).owesAt () t.succ
    ∗ owns (c : Thread nD τ) (ms1_0 a t) fullShare ((dat1 a V hH c).after 0 t)
    ∗ owns (c : Thread nD τ) (ms1_1 a t) fullShare ((dat1 a V hH c).after 1 t)
    ∗ owns (c : Thread nD τ) (ms1_2 a t) fullShare ((dat1 a V hH c).after 2 t))

set_option maxHeartbeats 1600000 in
theorem sound_body1 (c : Dev nD) (t : Fin (cfg1 a).N) :
    bodyPre1 a V hH c t ⊢ wp frame (wpE (defs₀ (F := F)) Variants.none c none) Set.univ
      (cc1__embed_kernel_gather (grid1.coords t) tblM1 (Memref.isWhole_whole _) hbM (Memref.isWhole_whole _) (ms1_0 a t) (hs1_0 a t) (ms1_1 a t) (hs1_1 a t) (ms1_2 a t) (hs1_2 a t) scA1 (Memref.isWhole_whole _) scB1 (Memref.isWhole_whole _) cc1_scratch2) (fun _ => bodyPost1 a V hH c t) := by
  unfold bodyPre1 bodyPost1
  simp only [before1_0, before1_1]
  rw [after1_0, after1_1, after1_2]
  rw [show (dat1 a V hH c).Φ t.castSucc = Φ1 a V c t.castSucc from rfl, show (dat1 a V hH c).Φ t.succ = Φ1 a V c t.succ from rfl]
  unfold Φ1 Dat.owesAt Pipeline.owesWithin
  rw [show (dat1 a V hH c).owed t.castSucc = 0 from rfl, show (dat1 a V hH c).owed t.succ = 0 from rfl]
  have hs' : scr1 V c t.succ.val = owns (c : Thread nD τ) scA1 fullShare (attr1 V c) := by rw [Fin.val_succ]; rfl
  rw [hs']
  by_cases h : t.val = 0
  · have hs : scr1 V c t.castSucc.val = iprop(∃ d, owns (c : Thread nD τ) scA1 fullShare d) := by rw [Fin.coe_castSucc, h]; rfl
    rw [hs]
    iintro ⟨⟨Ht, Hh, Hq, Hs, Hb, Hr⟩, ⟨%W, %hW, HO⟩, ⟨%d0, H0⟩, ⟨%d1, H1⟩, ⟨%d2, H2⟩⟩
    iapply ((runA1 c (grid1.coords t) ((hcond1 t).mpr h) tblM1 (Memref.isWhole_whole _) (ms1_0 a t) (hs1_0 a t) (ms1_1 a t) (hs1_1 a t) (ms1_2 a t) (hs1_2 a t)
      scA1 (Memref.isWhole_whole _) scB1 (Memref.isWhole_whole _) (tbl1 V c) (hH c) (iblk1 a V c 0 t) (iblk1 a V c 1 t) (hb1 V c)).2 W _)
    isplitl [Ht]; · iexact Ht
    isplitl [H0]; · iexact H0
    isplitl [H1]; · iexact H1
    isplitl [H2]; · iexists _; iexact H2
    isplitl [Hs]; · iexact Hs
    isplitl [Hb]; · iexact Hb
    isplitl [Hq]; · iexact Hq
    isplitl [Hh]; · iexact Hh
    isplitl [HO]; · iexact HO
    iintro ⟨Ht, H0, H1, ⟨%f, H2⟩, Hs, Hb, Hq, Hh, ⟨%W', HO⟩⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]
    · iexists W'; isplitr; · ipureintro; exact fun _ _ => Or.inl trivial
      iexact HO
    isplitl [H0]; · iexact H0
    isplitl [H1]; · iexact H1
    unfold owns; iexists _; isplitr
    swap; · iexact H2
    ipureintro
    unfold out1At; rw [dif_pos h]
    exact View.read_writes_of_cover _ _ _ _ _ (cover1A c _ _ _ _ _ _ _ _ _ _ _ _ _ _ _ _ _ _ _)
  · obtain ⟨n, hn⟩ : ∃ n, t.val = n + 1 := Nat.exists_eq_succ_of_ne_zero h
    have hs : scr1 V c t.castSucc.val = owns (c : Thread nD τ) scA1 fullShare (attr1 V c) := by rw [Fin.coe_castSucc, hn]; rfl
    rw [hs]
    iintro ⟨⟨Ht, Hh, Hq, Hs, Hb, Hr⟩, HO, ⟨%d0, H0⟩, ⟨%d1, H1⟩, ⟨%d2, H2⟩⟩
    iapply ((runB1 c (grid1.coords t) (fun hc => h ((hcond1 t).mp hc)) tblM1 (Memref.isWhole_whole _) hbM (Memref.isWhole_whole _) (ms1_0 a t) (hs1_0 a t) (ms1_1 a t) (hs1_1 a t) (ms1_2 a t) (hs1_2 a t) scA1 (Memref.isWhole_whole _) scB1 (Memref.isWhole_whole _) cc1_scratch2 (tbl1 V c) (hH c) (iblk1 a V c 0 t) (iblk1 a V c 1 t) (attr1 V c)).2 Set.univ _)
    isplitl [Ht]; · iexact Ht
    isplitl [H0]; · iexact H0
    isplitl [H1]; · iexact H1
    isplitl [H2]; · iexists _; iexact H2
    isplitl [Hs]; · iexact Hs
    isplitl [Hb]; · iexact Hb
    iintro ⟨Ht, H0, H1, ⟨%f, H2⟩, Hs, Hb⟩
    isplitl [Ht Hh Hq Hs Hb Hr]
    · isplitl [Ht]; · iexact Ht
      isplitl [Hh]; · iexact Hh
      isplitl [Hq]; · iexact Hq
      isplitl [Hs]; · iexact Hs
      isplitl [Hb]; · iexact Hb
      iexact Hr
    isplitl [HO]; · iexact HO
    isplitl [H0]; · iexact H0
    isplitl [H1]; · iexact H1
    unfold owns; iexists _; isplitr
    swap; · iexact H2
    ipureintro
    unfold out1At; rw [dif_neg h]
    exact View.read_writes_of_cover _ _ _ _ _ (cover1B c _ _ _ _ _ _ _ _ _ _ _ _ _ _ _ _ _ _ _ _ _ _)

/-- The library's body obligation, at every point. -/
theorem body_obligation1 (c : Dev nD) : BodyObligation (dat1 (F := F) a V hH c) (defs₀ (F := F)) Variants.none () Set.univ := fun t => by
  rw [bigSep_W1, bigSep_W1]
  exact sound_body1 a V hH c t

end Cert.KernelIdeal.Hand

end
-- ==== Proof.Dat2.lean ====
import proofs.«403142_j86199993631438_1_alg».proof.Proof.Common
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The third kernel's body, its proof data and its body obligation

The body reads its three input blocks whole (a block of the attribute table, the mask, the overlay), reads the output
block, and stores one whole block: the embedded, normalised and transposed rows. -/

/-- Window `w`'s block at point `t`, read off its array as the region finds it. -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

set_option maxHeartbeats 4000000 in
/-- The body run once, on any whole memrefs: the inputs at `x0`, `x1`, `x2` and the output at anything; afterwards the
    inputs are as they were and the output buffer is its old contents overwritten by the pieces the run finds. -/
noncomputable def run2 (c : Dev nD) (i : grid2.Coords) (arg1 : Memref sig .tc .vmem S120x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1920 .f32) (harg4 : arg4.IsWhole)
    (x0 : Vec F S120x1024 .f32) (x1 x2 : Vec F S16x1024 .f32) :
    { L : List (View.Piece (Elt F) S1024x1920 .f32) // ∀ (E : Set ℕ) (K : PUnit → sProp 𝕄), iprop(owns c arg1 fullShare x0 ∗ owns c arg2 fullShare x1 ∗ owns c arg3 fullShare x2 ∗ (∃ d, owns c arg4 fullShare d) ∗ (iprop(owns c arg1 fullShare x0 ∗ owns c arg2 fullShare x1 ∗ owns c arg3 fullShare x2 ∗ (∃ f, arg4.view.loc (c : Thread nD τ) ↦[arg4.view.set]{fullShare} arg4.view.writes (Elt F) f L)) -∗ K ⟨⟩)) ⊢ wp frame (wpE (defs₀ (F := F)) Variants.none c none) E (cc2__embed_kernel_contig i arg1 harg1 arg2 harg2 arg3 harg3 arg4 harg4) K } := by
  refine ⟨?_, fun E K => ?run⟩
  case run =>
    simp only [cc2__embed_kernel_contig_eq_skeleton]; unfold cc2__embed_kernel_contig_skel
    unfold owns
    iintro ⟨⟨%f1, %hf1, H1⟩, ⟨%f2, %hf2, H2⟩, ⟨%f3, %hf3, H3⟩, ⟨%d4, %f4, -, H4⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

/-- What the body leaves in the output block: the payload, in closed form. -/
def out2 (x0 : Vec F S120x1024 .f32) (x1 x2 : Vec F S16x1024 .f32) : Vec F S1024x1920 .f32 := k2_pay1 x0 x1 x2

/-- The two-axis zero offsets, as the constant function. -/
theorem zeros2' : (![0, 0] : Fin 2 → ℕ) = fun _ => 0 := by
  funext a; fin_cases a <;> rfl

/-- A load through a whole memref's full rectangle at zero offsets, the memref held at the contents that read `X`,
    reads `X`. -/
theorem readAt_full_unread {sp : Space} {S : Shape} {e : EltTy} {m : Memref sig .tc sp S e} (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  subst ho
  rw [View.readAt_eq_ld, h.read_unread]
  funext x
  show X ((Rect.whole S).emb x) = X x
  rw [Rect.emb_whole_apply]

/-- One store through the full rectangle at zero offsets reads back, over any buffer, as its payload. -/
theorem read_writes_full {sp : Space} {S : Shape} {e : EltTy} (v : View sig .tc sp S e) (f : v.ty.Contents (Elt F))
    {off : Fin S.rank → Nat} (ho : off = fun _ => 0) (inb : ∀ a, off a + S.size a ≤ S.size a) (w : S.Idx → Elt F e) :
    v.read (Elt F) (v.writes (Elt F) f [(⟨Rect.unit off S.size inb, w⟩ : View.Piece (Elt F) S e)]) = w := by
  subst ho
  exact View.read_writes_whole v f w

/-- The run's pieces — the one whole-block store — read back over any buffer as the closed form. -/
theorem run2_read (c : Dev nD) (i : grid2.Coords) (arg1 : Memref sig .tc .vmem S120x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1920 .f32) (harg4 : arg4.IsWhole)
    (x0 : Vec F S120x1024 .f32) (x1 x2 : Vec F S16x1024 .f32) (f : arg4.view.ty.Contents (Elt F)) :
    arg4.view.read (Elt F) (arg4.view.writes (Elt F) f (run2 c i arg1 harg1 arg2 harg2 arg3 harg3 arg4 harg4 x0 x1 x2).1) = out2 x0 x1 x2 := by
  unfold run2
  refine (read_writes_full (S := S1024x1920) arg4.view f zeros2' inb_S1024x1920_S1024x1920_0_0 _).trans ?_
  unfold out2
  rw [readAt_full_unread (S := S120x1024) harg1 x0 zeros2' inb_S120x1024_S120x1024_0_0,
    readAt_full_unread (S := S16x1024) harg2 x1 zeros2' inb_S16x1024_S16x1024_0_0,
    readAt_full_unread (S := S16x1024) harg3 x2 zeros2' inb_S16x1024_S16x1024_0_0]

/-! ## The proof data -/

/-- The proof data of the third pipeline on core `c`, over the region-entry contents `V`: the arrays as the region
    finds them; after the body at point `t` each input's buffer at its block and the output's at the closed form of
    the three input blocks; the invariant the scoped rest and the generator register, untouched; nothing owed; full
    shares. -/
def dat2 (V : (c : Dev nD) → (b : Ref sig .tc) → Buf (Elt F) ((c : Thread nD τ).loc b)) (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA (U := Pipeline.UD sig nD τ) spec2 c
  q _ := fullShare
  owed _ := 0

/-- The proof data's arrays are the region-entry contents. -/
theorem dat2_A (V : (c : Dev nD) → (b : Ref sig .tc) → Buf (Elt F) ((c : Thread nD τ).loc b)) (c : Dev nD) (w : Fin cfg2.W) : (dat2 V c).A w = V c (Pipeline.arrRef spec2 w) := by
  dsimp only [dat2]

/-- What the body leaves, window by window. -/
theorem after2_0 (V : (c : Dev nD) → (b : Ref sig .tc) → Buf (Elt F) ((c : Thread nD τ).loc b)) (c : Dev nD) (t : Fin cfg2.N) : (dat2 V c).after 0 t = iblk2 V c 0 t := by dsimp only [dat2]
theorem after2_1 (V : (c : Dev nD) → (b : Ref sig .tc) → Buf (Elt F) ((c : Thread nD τ).loc b)) (c : Dev nD) (t : Fin cfg2.N) : (dat2 V c).after 1 t = iblk2 V c 1 t := by dsimp only [dat2]
theorem after2_2 (V : (c : Dev nD) → (b : Ref sig .tc) → Buf (Elt F) ((c : Thread nD τ).loc b)) (c : Dev nD) (t : Fin cfg2.N) : (dat2 V c).after 2 t = iblk2 V c 2 t := by dsimp only [dat2]
theorem after2_3 (V : (c : Dev nD) → (b : Ref sig .tc) → Buf (Elt F) ((c : Thread nD τ).loc b)) (c : Dev nD) (t : Fin cfg2.N) : (dat2 V c).after 3 t = out2 (iblk2 V c 0 t) (iblk2 V c 1 t) (iblk2 V c 2 t) := by dsimp only [dat2]

/-- Each input's current staging buffer holds its block at every point, fetched there or not: unfetched, the block
    index has not moved, and the body left the block in place. -/
theorem before2_0 (V : (c : Dev nD) → (b : Ref sig .tc) → Buf (Elt F) ((c : Thread nD τ).loc b)) (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [dat2_A]; try rfl) t d).trans
    (by unfold Dat.fetched Dat.blockOf iblk2; rw [dat2_A]; try rfl)
theorem before2_1 (V : (c : Dev nD) → (b : Ref sig .tc) → Buf (Elt F) ((c : Thread nD τ).loc b)) (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [dat2_A]; try rfl) t d).trans
    (by unfold Dat.fetched Dat.blockOf iblk2; rw [dat2_A]; try rfl)
theorem before2_2 (V : (c : Dev nD) → (b : Ref sig .tc) → Buf (Elt F) ((c : Thread nD τ).loc b)) (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [dat2_A]; try rfl) t d).trans
    (by unfold Dat.fetched Dat.blockOf iblk2; rw [dat2_A]; try rfl)

/-! ## The body obligation, at a generic point -/

/-- What the body is called with at point `t`, the windows one by one, -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' memrefs hold their blocks, so the run applies; the invariant and the core's
    `owes` pass through unread; the output's pieces read back as the closed form. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply ((run2 c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%f, H3⟩⟩
  isplitl [HΦ]; · iexact HΦ
  isplitl [Ho]; · iexact Ho
  isplitl [H0]; · iexact H0
  isplitl [H1]; · iexact H1
  isplitl [H2]; · iexact H2
  unfold owns
  iexists _; isplitr
  swap; · iexact H3
  ipureintro
  exact run2_read c _ _ _ _ _ _ _ _ _ _ _ _ f

/-- The library's body obligation, at every point. -/
theorem body_obligation2 (V : (c : Dev nD) → (b : Ref sig .tc) → Buf (Elt F) ((c : Thread nD τ).loc b)) (c : Dev nD) : BodyObligation (dat2 (F := F) V c) (defs₀ (F := F)) Variants.none () Set.univ := fun t => by
  rw [bigSep_W2, bigSep_W2]
  exact sound_body2 V c t

end Cert.KernelIdeal.Hand

end
-- ==== Proof.PDats.lean ====
import proofs.«403142_j86199993631438_1_alg».proof.Proof.Obl0
import proofs.«403142_j86199993631438_1_alg».proof.Proof.Obl1
import proofs.«403142_j86199993631438_1_alg».proof.Proof.Dat2
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The three regions' proof data as one family

Region 0 is entered with the buffers as the host operations left them; region 1 with region 0's output array added;
region 2 with region 1's. What each region leaves in its output array is what the pipeline library computes from that
region's proof data (its blocks folded over the grid). -/

variable (m : (ℓ : Loc nD τ sig) → Buf (Elt F) ℓ)

/-- The tables the two gathering pipelines are pinned at: the class-id arrays as launched (one device). -/
def adm : (p : Fin 3) → (pcfgs (F := F) p).Adm
  | ⟨0, _⟩ => ⟨fun | ⟨0, _⟩ => m (((0 : Dev nD) : Thread nD τ).loc main_arg3), trivial⟩
  | ⟨1, _⟩ => ⟨fun | ⟨0, _⟩ => m (((0 : Dev nD) : Thread nD τ).loc main_arg4), trivial⟩
  | ⟨2, _⟩ => cfg2.toPCfg_adm

/-- Region 0's entry contents, read at the TensorCore's references. -/
abbrev Vr1 : (c : Dev nD) → (b : Ref sig .tc) → Buf (Elt F) ((c : Thread nD τ).loc b) := fun c b => Gen.V1 m c b

/-- What region 0 assumes of the class ids, at the contents it finds them. -/
abbrev Ids0 : Prop := ∀ c, RowOk0 (F := F) tblM0 (Memref.isWhole_whole _) (tbl0 (Vr1 m) c)

section
variable (h0 : Ids0 m)

/-- What region 0 leaves in its output array. -/
def o0 (c : Dev nD) : Buf (Elt F) ((c : Thread nD τ).loc main_v42) := (dat0 (adm m 0) (Vr1 m) h0 c).arrAt 2 (cfg0 (adm m 0)).N
def outsA : Gen.Outs (F := F) := fun _ r c => if h : r = main_v42 then h ▸ o0 m h0 c else m ((c : Thread nD τ).loc r)
/-- Region 1's entry contents. -/
abbrev Vr2 : (c : Dev nD) → (b : Ref sig .tc) → Buf (Elt F) ((c : Thread nD τ).loc b) := fun c b => Gen.V2 m (outsA m h0) c b
/-- What region 1 assumes of its class ids. -/
abbrev Ids1 : Prop := ∀ c, RowOk1 (F := F) tblM1 (Memref.isWhole_whole _) (tbl1 (Vr2 m h0) c)
end

/-- Both gathering regions' class ids name rows of the table. -/
structure IdsOk : Prop where
  h0 : Ids0 m
  h1 : Ids1 m h0

variable (hH : IdsOk m)

/-- What region 1 leaves in its output array. -/
def o1 (c : Dev nD) : Buf (Elt F) ((c : Thread nD τ).loc main_v43) := (dat1 (adm m 1) (Vr2 m hH.h0) hH.h1 c).arrAt 2 (cfg1 (adm m 1)).N
def outsB : Gen.Outs (F := F) := fun _ r c =>
  if h : r = main_v42 then h ▸ o0 m hH.h0 c else if h : r = main_v43 then h ▸ o1 m hH c else m ((c : Thread nD τ).loc r)
/-- Region 2's entry contents. -/
abbrev Vr3 : (c : Dev nD) → (b : Ref sig .tc) → Buf (Elt F) ((c : Thread nD τ).loc b) := fun c b => Gen.V3 m (outsB m hH) c b
/-- What region 2 leaves in its output array. -/
def o2 (c : Dev nD) : Buf (Elt F) ((c : Thread nD τ).loc main_v44) := (dat2 (Vr3 m hH) c).arrAt 3 cfg2.N
/-- What the three regions leave, as the unknowns the conditional frame is stated over. -/
def outs : Gen.Outs (F := F) := fun _ r c =>
  if h : r = main_v42 then h ▸ o0 m hH.h0 c else if h : r = main_v43 then h ▸ o1 m hH c
  else if h : r = main_v44 then h ▸ o2 m hH c else m ((c : Thread nD τ).loc r)

theorem outs_v42 (J : ℕ) (c : Dev nD) : outs m hH J main_v42 c = o0 m hH.h0 c := by unfold outs; rw [dif_pos rfl]
theorem outs_v43 (J : ℕ) (c : Dev nD) : outs m hH J main_v43 c = o1 m hH c := by
  unfold outs; rw [dif_neg (by decide), dif_pos rfl]
theorem outs_v44 (J : ℕ) (c : Dev nD) : outs m hH J main_v44 c = o2 m hH c := by
  unfold outs; rw [dif_neg (by decide), dif_neg (by decide), dif_pos rfl]
theorem outsA_v42 (J : ℕ) (c : Dev nD) : outsA m hH.h0 J main_v42 c = o0 m hH.h0 c := by unfold outsA; rw [dif_pos rfl]
theorem outsB_v42 (J : ℕ) (c : Dev nD) : outsB m hH J main_v42 c = o0 m hH.h0 c := by unfold outsB; rw [dif_pos rfl]
theorem outsB_v43 (J : ℕ) (c : Dev nD) : outsB m hH J main_v43 c = o1 m hH c := by
  unfold outsB; rw [dif_neg (by decide), dif_pos rfl]

/-- The valuations the conditional frame is stated over are the regions' entry contents. -/
theorem V2_outs (c : Dev nD) : Gen.V2 m (outs m hH) c = Gen.V2 m (outsA m hH.h0) c := by
  unfold Gen.V2; rw [outs_v42 m hH, outsA_v42 m hH]
theorem V3_outs (c : Dev nD) : Gen.V3 m (outs m hH) c = Gen.V3 m (outsB m hH) c := by
  unfold Gen.V3 Gen.V2; rw [outs_v42 m hH, outs_v43 m hH, outsB_v42 m hH, outsB_v43 m hH]
theorem V2_outsB (c : Dev nD) : Gen.V2 m (outsB m hH) c = Gen.V2 m (outsA m hH.h0) c := by
  unfold Gen.V2; rw [outsB_v42 m hH, outsA_v42 m hH]

/-- Every pipeline's proof data, each at its region's entry contents: a literal match, so that the pinned
    configuration at a numeral reduces to the printed one. -/
def pdats : (p : Fin 3) → (c : Dev nD) → Dat τ (Elt F) Unit ℕ (Pipeline.UD sig nD τ) ℕ (Pipeline.pin (pcfgs (F := F)) (adm m) p) c
  | ⟨0, _⟩ => fun c => dat0 (adm m 0) (Vr1 m) hH.h0 c
  | ⟨1, _⟩ => fun c => dat1 (adm m 1) (Vr2 m hH.h0) hH.h1 c
  | ⟨2, _⟩ => fun c => dat2 (Vr3 m hH) c

end Cert.KernelIdeal.Hand

end
-- ==== Proof.LaunchKit.lean ====
import proofs.«403142_j86199993631438_1_alg».proof.Proof.Common
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch of the three-region program, with everything that does not depend on the regions fixed

The program's conditional frame holds for any user algebra, level assignment, launch dues and rest states. Here they are
chosen once: no core owes another anything (no level is assigned, nothing is due at launch), the launch element is the
pipeline library's beside no counter, and between two items a core holds, beside its unscoped buffers, its generator
register at some state and the fact that it owes nothing. What remains to give is, per region, its segment record entered
from and left at these thread states. -/

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers between items: the generator register at some state and the core owing nothing. -/
abbrev Rr (c : Dev nD) : sProp 𝕄 := iprop((∃ r, prngReg c r) ∗ ∃ W, owes (c : Thread nD τ) (0 : CellTallies nD τ sig Unit) W)
/-- The same rest at each of the four boundaries between items. -/
abbrev Er : Fin 4 → Dev nD → sProp 𝕄 := fun _ c => Rr c

/-- The launch element: the pipeline library's at the staging cells and the pipelines' transfers; no counter. -/
abbrev u₀ (a : (p : Fin 3) → (pcfgs (F := F) p).Adm) : Pipeline.UD sig nD τ :=
  (initOf (Pipeline.cells (Pipeline.pin (pcfgs (F := F)) a) (cellOf_inj a)) (Pipeline.launchToks (Pipeline.pin (pcfgs (F := F)) a) (cellOf_inj a)), 1)

/-- The launch element gives the library its half; the other half and the ghost resources are nothing. -/
theorem hu₀ (a : (p : Fin 3) → (pcfgs (F := F) p).Adm) :
    (ownU (u₀ a) : sProp 𝕄) ⊢ |={Set.univ}=> iprop(BI.own ((embL : Emb (URounds (GSem nD τ sig) Unit) 𝕄) (initOf (Pipeline.cells (Pipeline.pin (pcfgs (F := F)) a) (cellOf_inj a)) (Pipeline.launchToks (Pipeline.pin (pcfgs (F := F)) a) (cellOf_inj a)))) ∗ bigSep Finset.univ fun _ : Dev nD => (iprop(emp) : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals each core makes the rest at the first boundary: the register at its launch state, nothing owed. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (Er (F := F) 0) : sProp 𝕄) := by
  refine Pipeline.initEach L lv fun c => ?_
  iintro ⟨⟨-, HO, -, Hp, -⟩, -⟩
  imodintro
  isplitl [Hp]; · iexists _; iexact Hp
  iexists ∅; iexact HO

/-- The rest at the last boundary says the core owes nothing. -/
theorem hE3 (c : Dev nD) : Er (F := F) 3 c ⊢ (iprop(∃ W, owes (c : Thread nD τ) (0 : CellTallies nD τ sig Unit) W) : sProp 𝕄) := by
  iintro ⟨-, HO⟩; iexact HO

/-- THE FRAME, GIVEN THE REGIONS' RECORDS over the fixed algebra and rest: every weakly fair execution of @main from memory
    `m` with zero counters terminates and every final memory holds each argument as launched. -/
theorem frame_kit (m : (ℓ : Loc nD τ sig) → Buf (Elt F) ℓ) (ρ : Dev nD → PrngReg) (outs : Gen.Outs (F := F)) (a : (p : Fin 3) → (pcfgs (F := F) p).Adm)
    (pdats : (p : Fin 3) → (c : Dev nD) → Dat τ (Elt F) Unit ℕ (Pipeline.UD sig nD τ) ℕ (Pipeline.pin (pcfgs (F := F)) a p) c)
    (R0 : Pipeline.RegionSeg (pcfgs (F := F)) a pdats () defs₀ 𝒱₀ L lv 0)
    (hpre0 : ∀ c : Dev nD, iprop(StableHlo.held (c : Thread nD τ) (Pipeline.ucRefs τ sig) (Gen.V1 m c) ∗ Rr c) ⊢ R0.pre c)
    (hpost0 : ∀ c : Dev nD, R0.post c ⊢ iprop(StableHlo.held (c : Thread nD τ) (Pipeline.ucRefs τ sig) (Gen.V2 m outs c) ∗ Rr c))
    (R1 : Pipeline.RegionSeg (pcfgs (F := F)) a pdats () defs₀ 𝒱₀ L lv 1)
    (hpre1 : ∀ c : Dev nD, iprop(StableHlo.held (c : Thread nD τ) (Pipeline.ucRefs τ sig) (Gen.V2 m outs c) ∗ Rr c) ⊢ R1.pre c)
    (hpost1 : ∀ c : Dev nD, R1.post c ⊢ iprop(StableHlo.held (c : Thread nD τ) (Pipeline.ucRefs τ sig) (Gen.V3 m outs c) ∗ Rr c))
    (R2 : Pipeline.RegionSeg (pcfgs (F := F)) a pdats () defs₀ 𝒱₀ L lv 2)
    (hpre2 : ∀ c : Dev nD, iprop(StableHlo.held (c : Thread nD τ) (Pipeline.ucRefs τ sig) (Gen.V3 m outs c) ∗ Rr c) ⊢ R2.pre c)
    (hpost2 : ∀ c : Dev nD, R2.post c ⊢ iprop(StableHlo.held (c : Thread nD τ) (Pipeline.ucRefs τ sig) (Gen.V4 m outs c) ∗ Rr c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond (F := F) m (EP := embL) (ι := ()) (𝒱₀ := 𝒱₀) (L := L) (lv := lv) (hL := fun _ _ => rfl) ρ outs a pdats
    (O₀ := 0) (G := fun _ => iprop(emp)) (u₀ := u₀ a) (hu₀ := hu₀ a) (E := Er) (hE0 := hE0 ρ) (hE3 := hE3)
    R0 hpre0 hpost0 R1 hpre1 hpost1 R2 hpre2 hpost2

end Cert.KernelIdeal.Hand

end
-- ==== Proof.Reg0.lean ====
import proofs.«403142_j86199993631438_1_alg».proof.Proof.PDats
import proofs.«403142_j86199993631438_1_alg».proof.Proof.LaunchKit
import Idealize.ShloMosaic.Lib.Pipeline.RegionsLoop
import proofs.«403142_j86199993631438_1_alg».proof.Proof.Obl0
import proofs.«403142_j86199993631438_1_alg».proof.Proof.Obl1
import proofs.«403142_j86199993631438_1_alg».proof.Proof.Dat2
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first gathering region as a segment

The region is entered with every unscoped buffer held at the contents the host operations left, beside the generator
register and the core owing nothing. Its three windows' arrays go to the pipeline; the class-id table goes in as the
prefetched table; the HBM attribute table and the copy's semaphore go into the invariant; everything else bypasses the
region. At the end the output array holds what the pipeline computed and every other buffer what it held. -/

variable (m : (ℓ : Loc nD τ sig) → Buf (Elt F) ℓ) (hH : IdsOk m)

/-- The copy's one DMA semaphore. -/
abbrev osem0 : Fin 1 → SemLoc sig := fun _ => SemLoc.dma 4

theorem ownSemFacts0 : Pipeline.OwnSemFacts spec0 osem0 := by decide

/-- The copy's cell at zero is all of the kernel's own cells at zero. -/
theorem ownSems0_0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0) := by
  rw [Pipeline.ownSems0_eq_of_list c osem0 [0] (by decide) (by decide)]; rfl

/-- The HBM attribute table, among the references that are neither a window's array nor the prefetched table. -/
def H0 : Finset (Ref sig .tc) := {main_arg0}
theorem H0_sub : H0 ⊆ Pipeline.restRefsP sig pre0 spec0 := by decide

/-- The class-id table the configuration is pinned at is the table as the region finds it (one device; no host
    operation writes it). -/
theorem admTbl0_eq (c : Dev nD) : (adm m 0).1 = fun k => Vr1 m c (pre0.ref k) := by
  obtain rfl : c = 0 := Subsingleton.elim _ _
  funext k
  match k with
  | ⟨0, _⟩ => exact (Gen.V1_of m 0 main_arg3 (by decide)).symm

/-- Holding the prefetched table at the pinned contents is owning the class-id table at what the region finds. -/
theorem prefHeld0_eq (c : Dev nD) :
    (Pipeline.prefHeld pre0 c (fun _ => fullShare) (adm m 0).1 : sProp 𝕄) = owns (c : Thread nD τ) tblM0 fullShare (tbl0 (Vr1 m) c) := by
  rw [admTbl0_eq m c, owns_whole]
  unfold Pipeline.prefHeld
  rw [show (Finset.univ : Finset (Fin pre0.K)) = {0} from rfl, BI.bigSep_singleton]
  rfl

/-- The unscoped buffers that are no window's array: the class-id table, the HBM attribute table, and the others. -/
theorem rest0_split (c : Dev nD) :
    (Pipeline.unscopedRest (Ix := Unit) (Name := ℕ) (U := Pipeline.UD sig nD τ) (Lvl := ℕ) spec0 c (Vr1 m c) : sProp 𝕄)
      = iprop(Pipeline.prefHeld pre0 c (fun _ => fullShare) (adm m 0).1 ∗ hbPt c hbM (hb0 (Vr1 m) c)
          ∗ bigSep (Pipeline.restRefsP sig pre0 spec0 \ H0) fun b => ((c : Thread nD τ).loc b) ↦{fullShare} Vr1 m c b) := by
  rw [Pipeline.unscopedRest_split preFacts0 c (Vr1 m c), admTbl0_eq m c]
  unfold Pipeline.unscopedRestP
  rw [BI.bigSep_sdiff_split H0_sub]
  unfold H0
  rw [BI.bigSep_singleton]
  rfl

/-- What the region leaves in each window's array is what the exit valuation holds there. -/
private theorem exitArr0 (c : Dev nD) : ∀ w : Fin 3,
    (pdats m hH 0 c).arrAt w (cfg0 (adm m 0)).N = Gen.V2 m (outs m hH) c (Pipeline.arrRef spec0 w)
  | ⟨0, _⟩ => ((dat0 (adm m 0) (Vr1 m) hH.h0 c).arrAt_in 0 rfl _).trans
      ((dat0_A (adm m 0) (Vr1 m) hH.h0 c 0).trans (Gen.V2_of m (outs m hH) c (Pipeline.arrRef spec0 0) (by decide)).symm)
  | ⟨1, _⟩ => ((dat0 (adm m 0) (Vr1 m) hH.h0 c).arrAt_in 1 rfl _).trans
      ((dat0_A (adm m 0) (Vr1 m) hH.h0 c 1).trans (Gen.V2_of m (outs m hH) c (Pipeline.arrRef spec0 1) (by decide)).symm)
  | ⟨2, _⟩ => by
    show (dat0 (adm m 0) (Vr1 m) hH.h0 c).arrAt 2 (cfg0 (adm m 0)).N
      = Function.update (Gen.V1 m c) (Proc.devRef .tc main_v42) (outs m hH 2 main_v42 c) (Proc.devRef .tc main_v42)
    rw [Function.update_self, outs_v42]
    rfl

/-- Every buffer that is no window's array is left as found. -/
private theorem exitRest0 (c : Dev nD) (b : Ref sig .tc) (hb : b ∉ Finset.univ.image (Pipeline.arrRef spec0)) :
    Gen.V2 m (outs m hH) c b = Vr1 m c b :=
  Gen.V2_of m (outs m hH) c b fun h => hb (by
    rw [List.mem_singleton] at h; subst h
    exact Finset.mem_image.mpr ⟨2, Finset.mem_univ _, rfl⟩)

set_option backward.isDefEq.respectTransparency.types false in
/-- REGION 0 over the thread state. -/
def reg0 : Pipeline.RegionSeg (pcfgs (F := F)) (adm m) (pdats m hH) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (F := F) (adm m 0) (Vr1 m) hH.h0 c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m hH) c) ∗ Rr c)
  X c := iprop(hbPt c hbM (hb0 (Vr1 m) c) ∗ semVal ((c : Thread nD τ), SemLoc.dma 4) 0)
  Y c := iprop(hbPt c hbM (hb0 (Vr1 m) c) ∗ owns (c : Thread nD τ) tblM0 fullShare (tbl0 (Vr1 m) c))
  Z c := iprop((∃ r, prngReg c r) ∗ bigSep (Pipeline.restRefsP sig pre0 spec0 \ H0) fun b => ((c : Thread nD τ).loc b) ↦{fullShare} Vr1 m c b)
  hentry c := by
    have hsplit := Pipeline.arrays_of_unscopedBufs (p := 0) (pcfgs (F := F)) (adm m) (pdats m hH) (launch0 (F := F)).win (launch0 (F := F)).arr_whole c
      ((pdats m hH 0 c).share_full fun _ => rfl) (Vr1 m c) fun _ => rfl
    rw [Pipeline.unscopedBufs_held] at hsplit
    rw [ownSems0_0_eq]
    iintro ⟨⟨Hub, Hp, HO⟩, Hos, -⟩
    ihave H := hsplit $$ Hub
    icases H with ⟨Ha, Hrest⟩
    ihave H' := (Entails.of_eq (rest0_split m c)) $$ Hrest
    icases H' with ⟨Htbl, Hhb, HR⟩
    imodintro
    isplitl [Ha]; · iexact Ha
    isplitl [Htbl]; · iexact Htbl
    isplitl [HO]
    · unfold Pipeline.Dat.owesAt Pipeline.owesWithin
      icases HO with ⟨%W, HO⟩; iexists W; isplitr; · ipureintro; exact fun _ _ => Or.inl trivial
      iexact HO
    isplitl [Hhb Hos]
    · isplitl [Hhb]; · iexact Hhb
      iexact Hos
    isplitl [Hp]; · iexact Hp
    iexact HR
  hin c := by
    show iprop((hbPt c hbM (hb0 (Vr1 m) c) ∗ semVal ((c : Thread nD τ), SemLoc.dma 4) 0)
        ∗ Pipeline.prefHeld pre0 c (fun _ => fullShare) (adm m 0).1
        ∗ Pipeline.scopedRest (Ix := Unit) (Name := ℕ) (U := Pipeline.UD sig nD τ) (Lvl := ℕ) (Val := Elt F) spec0 c)
      ⊢ Φ0 (adm m 0) (Vr1 m) c 0
    rw [scopedRest0_eq, prefHeld0_eq]
    unfold Φ0
    rw [show scr0 (Vr1 m) c ((0 : Fin ((cfg0 (adm m 0)).N + 1)).val) = iprop(∃ d, owns (c : Thread nD τ) scA0 fullShare d) from rfl]
    simp only [owns_whole (c : Thread nD τ) cc0_scratch0, owns_whole (c : Thread nD τ) cc0_scratch1]
    unfold rest0
    iintro ⟨⟨Hhb, Hsem⟩, Htbl, HA, HB, Hrest⟩
    isplitl [Htbl]; · iexact Htbl
    isplitl [Hhb]; · iexact Hhb
    isplitl [Hsem]; · iexact Hsem
    isplitl [HA]; · iexact HA
    isplitl [HB]; · iexact HB
    iexact Hrest
  hout c := by
    show Φ0 (adm m 0) (Vr1 m) c (Fin.last (cfg0 (adm m 0)).N)
      ⊢ iprop((hbPt c hbM (hb0 (Vr1 m) c) ∗ owns (c : Thread nD τ) tblM0 fullShare (tbl0 (Vr1 m) c))
        ∗ Pipeline.ownSems0 (Ix := Unit) (Name := ℕ) (U := Pipeline.UD sig nD τ) (Lvl := ℕ) (Val := Elt F) (τ := τ) osem0 c
        ∗ Pipeline.scopedRest (Ix := Unit) (Name := ℕ) (U := Pipeline.UD sig nD τ) (Lvl := ℕ) (Val := Elt F) spec0 c)
    rw [scopedRest0_eq, ownSems0_0_eq]
    unfold Φ0
    rw [show scr0 (Vr1 m) c (Fin.last (cfg0 (adm m 0)).N).val = owns (c : Thread nD τ) scA0 fullShare (attr0 (Vr1 m) c) from rfl]
    simp only [owns_whole (c : Thread nD τ) cc0_scratch0, owns_whole (c : Thread nD τ) cc0_scratch1]
    unfold rest0
    iintro ⟨Htbl, Hhb, Hsem, HA, HB, Hrest⟩
    isplitl [Hhb Htbl]
    · isplitl [Hhb]; · iexact Hhb
      iexact Htbl
    isplitl [Hsem]; · iexact Hsem
    isplitl [HA]; · iexists _; iexact HA
    isplitl [HB]; · iexact HB
    iexact Hrest
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hH) ((pdats m hH 0 c).share_full fun _ => rfl)
      (Vr1 m c) (fun b => Gen.V2 m (outs m hH) c b) ((pdats m hH 0 c).arrAt · (cfg0 (adm m 0)).N) (exitArr0 m hH c) (exitRest0 m hH c)
    rw [Pipeline.unscopedBufs_held] at hjoin
    iintro ⟨Ha, HO, ⟨Hhb, Htbl⟩, Hp, HR⟩
    ihave Hrest := (Entails.of_eq (rest0_split m c).symm) $$ [Htbl Hhb HR]
    · rw [prefHeld0_eq]
      isplitl [Htbl]; · iexact Htbl
      isplitl [Hhb]; · iexact Hhb
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread states the region is entered from and left at, as the launch states them. -/
theorem reg0_pre (c : Dev nD) :
    (reg0 m hH).pre c = iprop(StableHlo.held (c : Thread nD τ) (Pipeline.ucRefs τ sig) (Gen.V1 m c) ∗ Rr c) := by unfold reg0; rfl
theorem reg0_post (c : Dev nD) :
    (reg0 m hH).post c = iprop(StableHlo.held (c : Thread nD τ) (Pipeline.ucRefs τ sig) (Gen.V2 m (outs m hH) c) ∗ Rr c) := by unfold reg0; rfl

end Cert.KernelIdeal.Hand

end
-- ==== Proof.Reg1.lean ====
import proofs.«403142_j86199993631438_1_alg».proof.Proof.PDats
import proofs.«403142_j86199993631438_1_alg».proof.Proof.LaunchKit
import Idealize.ShloMosaic.Lib.Pipeline.RegionsLoop
import proofs.«403142_j86199993631438_1_alg».proof.Proof.Obl1
import proofs.«403142_j86199993631438_1_alg».proof.Proof.Obl1
import proofs.«403142_j86199993631438_1_alg».proof.Proof.Dat2
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second gathering region as a segment

The region is entered with every unscoped buffer held at the contents the first region left, beside the generator
register and the core owing nothing. Its three windows' arrays go to the pipeline; the class-id table goes in as the
prefetched table; the HBM attribute table and the copy's semaphore go into the invariant; everything else bypasses the
region. At the end the output array holds what the pipeline computed and every other buffer what it held. -/

variable (m : (ℓ : Loc nD τ sig) → Buf (Elt F) ℓ) (hH : IdsOk m)

/-- The copy's one DMA semaphore. -/
abbrev osem1 : Fin 1 → SemLoc sig := fun _ => SemLoc.dma 9

theorem ownSemFacts1 : Pipeline.OwnSemFacts spec1 osem1 := by decide

/-- The copy's cell at zero is all of the kernel's own cells at zero. -/
theorem ownSems0_1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 9) 0) := by
  rw [Pipeline.ownSems0_eq_of_list c osem1 [0] (by decide) (by decide)]; rfl

/-- The HBM attribute table, among the references that are neither a window's array nor the prefetched table. -/
def H1 : Finset (Ref sig .tc) := {main_arg0}
theorem H1_sub : H1 ⊆ Pipeline.restRefsP sig pre1 spec1 := by decide

/-- The class-id table the configuration is pinned at is the table as the region finds it (one device; neither a
    host operation nor the first region writes it). -/
theorem admTbl1_eq (c : Dev nD) : (adm m 1).1 = fun k => Vr2 m hH.h0 c (pre1.ref k) := by
  obtain rfl : c = 0 := Subsingleton.elim _ _
  funext k
  match k with
  | ⟨0, _⟩ => exact ((Gen.V2_of m (outsA m hH.h0) 0 main_arg4 (by decide)).trans (Gen.V1_of m 0 main_arg4 (by decide))).symm

/-- Holding the prefetched table at the pinned contents is owning the class-id table at what the region finds. -/
theorem prefHeld1_eq (c : Dev nD) :
    (Pipeline.prefHeld pre1 c (fun _ => fullShare) (adm m 1).1 : sProp 𝕄) = owns (c : Thread nD τ) tblM1 fullShare (tbl1 (Vr2 m hH.h0) c) := by
  rw [admTbl1_eq m hH c, owns_whole]
  unfold Pipeline.prefHeld
  rw [show (Finset.univ : Finset (Fin pre1.K)) = {0} from rfl, BI.bigSep_singleton]
  rfl

/-- The unscoped buffers that are no window's array: the class-id table, the HBM attribute table, and the others. -/
theorem rest1_split (c : Dev nD) :
    (Pipeline.unscopedRest (Ix := Unit) (Name := ℕ) (U := Pipeline.UD sig nD τ) (Lvl := ℕ) spec1 c (Vr2 m hH.h0 c) : sProp 𝕄)
      = iprop(Pipeline.prefHeld pre1 c (fun _ => fullShare) (adm m 1).1 ∗ hbPt c hbM (hb1 (Vr2 m hH.h0) c)
          ∗ bigSep (Pipeline.restRefsP sig pre1 spec1 \ H1) fun b => ((c : Thread nD τ).loc b) ↦{fullShare} Vr2 m hH.h0 c b) := by
  rw [Pipeline.unscopedRest_split preFacts1 c (Vr2 m hH.h0 c), admTbl1_eq m hH c]
  unfold Pipeline.unscopedRestP
  rw [BI.bigSep_sdiff_split H1_sub]
  unfold H1
  rw [BI.bigSep_singleton]
  rfl

/-- What the region leaves in each window's array is what the exit valuation holds there. -/
private theorem exitArr1 (c : Dev nD) : ∀ w : Fin 3,
    (pdats m hH 1 c).arrAt w (cfg1 (adm m 1)).N = Gen.V3 m (outs m hH) c (Pipeline.arrRef spec1 w)
  | ⟨0, _⟩ => ((dat1 (adm m 1) (Vr2 m hH.h0) hH.h1 c).arrAt_in 0 rfl _).trans
      ((dat1_A (adm m 1) (Vr2 m hH.h0) hH.h1 c 0).trans ((Gen.V3_of m (outs m hH) c (Pipeline.arrRef spec1 0) (by decide)).trans (congrFun (V2_outs m hH c) _)).symm)
  | ⟨1, _⟩ => ((dat1 (adm m 1) (Vr2 m hH.h0) hH.h1 c).arrAt_in 1 rfl _).trans
      ((dat1_A (adm m 1) (Vr2 m hH.h0) hH.h1 c 1).trans ((Gen.V3_of m (outs m hH) c (Pipeline.arrRef spec1 1) (by decide)).trans (congrFun (V2_outs m hH c) _)).symm)
  | ⟨2, _⟩ => by
    show (dat1 (adm m 1) (Vr2 m hH.h0) hH.h1 c).arrAt 2 (cfg1 (adm m 1)).N
      = Function.update (Gen.V2 m (outs m hH) c) (Proc.devRef .tc main_v43) (outs m hH 3 main_v43 c) (Proc.devRef .tc main_v43)
    rw [Function.update_self, outs_v43]
    rfl

/-- Every buffer that is no window's array is left as found. -/
private theorem exitRest1 (c : Dev nD) (b : Ref sig .tc) (hb : b ∉ Finset.univ.image (Pipeline.arrRef spec1)) :
    Gen.V3 m (outs m hH) c b = Vr2 m hH.h0 c b :=
  (Gen.V3_of m (outs m hH) c b fun h => hb (by
    rw [List.mem_singleton] at h; subst h
    exact Finset.mem_image.mpr ⟨2, Finset.mem_univ _, rfl⟩)).trans (congrFun (V2_outs m hH c) _)

set_option backward.isDefEq.respectTransparency.types false in
/-- REGION 1 over the thread state. -/
def reg1 : Pipeline.RegionSeg (pcfgs (F := F)) (adm m) (pdats m hH) () defs₀ 𝒱₀ L lv 1 where
  win := (launch1 (F := F)).win.to₀
  block_pos := (launch1 (F := F)).block_pos
  stage_whole := (launch1 (F := F)).stage_whole
  K := Fin 1
  osem := osem1
  ho := ownSemFacts1
  hbody c := (body_obligation1 (F := F) (adm m 1) (Vr2 m hH.h0) hH.h1 c).loose
  hwaits := Pipeline.hwaits_of_owed_zero _ _ _ _ L lv 1 fun _ _ => rfl
  pre c := iprop(StableHlo.held (c : Thread nD τ) (Pipeline.ucRefs τ sig) (Gen.V2 m (outs m hH) c) ∗ Rr c)
  post c := iprop(StableHlo.held (c : Thread nD τ) (Pipeline.ucRefs τ sig) (Gen.V3 m (outs m hH) c) ∗ Rr c)
  X c := iprop(hbPt c hbM (hb1 (Vr2 m hH.h0) c) ∗ semVal ((c : Thread nD τ), SemLoc.dma 9) 0)
  Y c := iprop(hbPt c hbM (hb1 (Vr2 m hH.h0) c) ∗ owns (c : Thread nD τ) tblM1 fullShare (tbl1 (Vr2 m hH.h0) c))
  Z c := iprop((∃ r, prngReg c r) ∗ bigSep (Pipeline.restRefsP sig pre1 spec1 \ H1) fun b => ((c : Thread nD τ).loc b) ↦{fullShare} Vr2 m hH.h0 c b)
  hentry c := by
    have hsplit := Pipeline.arrays_of_unscopedBufs (p := 1) (pcfgs (F := F)) (adm m) (pdats m hH) (launch1 (F := F)).win (launch1 (F := F)).arr_whole c
      ((pdats m hH 1 c).share_full fun _ => rfl) (Vr2 m hH.h0 c) fun _ => rfl
    rw [Pipeline.unscopedBufs_held] at hsplit
    rw [ownSems0_1_eq, V2_outs m hH c]
    iintro ⟨⟨Hub, Hp, HO⟩, Hos, -⟩
    ihave H := hsplit $$ Hub
    icases H with ⟨Ha, Hrest⟩
    ihave H' := (Entails.of_eq (rest1_split m hH c)) $$ Hrest
    icases H' with ⟨Htbl, Hhb, HR⟩
    imodintro
    isplitl [Ha]; · iexact Ha
    isplitl [Htbl]; · iexact Htbl
    isplitl [HO]
    · unfold Pipeline.Dat.owesAt Pipeline.owesWithin
      icases HO with ⟨%W, HO⟩; iexists W; isplitr; · ipureintro; exact fun _ _ => Or.inl trivial
      iexact HO
    isplitl [Hhb Hos]
    · isplitl [Hhb]; · iexact Hhb
      iexact Hos
    isplitl [Hp]; · iexact Hp
    iexact HR
  hin c := by
    show iprop((hbPt c hbM (hb1 (Vr2 m hH.h0) c) ∗ semVal ((c : Thread nD τ), SemLoc.dma 9) 0)
        ∗ Pipeline.prefHeld pre1 c (fun _ => fullShare) (adm m 1).1
        ∗ Pipeline.scopedRest (Ix := Unit) (Name := ℕ) (U := Pipeline.UD sig nD τ) (Lvl := ℕ) (Val := Elt F) spec1 c)
      ⊢ Φ1 (adm m 1) (Vr2 m hH.h0) c 0
    rw [scopedRest1_eq, prefHeld1_eq m hH c]
    unfold Φ1
    rw [show scr1 (Vr2 m hH.h0) c ((0 : Fin ((cfg1 (adm m 1)).N + 1)).val) = iprop(∃ d, owns (c : Thread nD τ) scA1 fullShare d) from rfl]
    simp only [owns_whole (c : Thread nD τ) cc1_scratch0, owns_whole (c : Thread nD τ) cc1_scratch1]
    unfold rest1
    iintro ⟨⟨Hhb, Hsem⟩, Htbl, R1, R2, R3, R4, R5, R6, HA, HB, Hrest⟩
    isplitl [Htbl]; · iexact Htbl
    isplitl [Hhb]; · iexact Hhb
    isplitl [Hsem]; · iexact Hsem
    isplitl [HA]; · iexact HA
    isplitl [HB]; · iexact HB
    isplitl [R1]; · iexact R1
    isplitl [R2]; · iexact R2
    isplitl [R3]; · iexact R3
    isplitl [R4]; · iexact R4
    isplitl [R5]; · iexact R5
    isplitl [R6]; · iexact R6
    iexact Hrest
  hout c := by
    show Φ1 (adm m 1) (Vr2 m hH.h0) c (Fin.last (cfg1 (adm m 1)).N)
      ⊢ iprop((hbPt c hbM (hb1 (Vr2 m hH.h0) c) ∗ owns (c : Thread nD τ) tblM1 fullShare (tbl1 (Vr2 m hH.h0) c))
        ∗ Pipeline.ownSems0 (Ix := Unit) (Name := ℕ) (U := Pipeline.UD sig nD τ) (Lvl := ℕ) (Val := Elt F) (τ := τ) osem1 c
        ∗ Pipeline.scopedRest (Ix := Unit) (Name := ℕ) (U := Pipeline.UD sig nD τ) (Lvl := ℕ) (Val := Elt F) spec1 c)
    rw [scopedRest1_eq, ownSems0_1_eq]
    unfold Φ1
    rw [show scr1 (Vr2 m hH.h0) c (Fin.last (cfg1 (adm m 1)).N).val = owns (c : Thread nD τ) scA1 fullShare (attr1 (Vr2 m hH.h0) c) from rfl]
    simp only [owns_whole (c : Thread nD τ) cc1_scratch0, owns_whole (c : Thread nD τ) cc1_scratch1]
    unfold rest1
    iintro ⟨Htbl, Hhb, Hsem, HA, HB, R1, R2, R3, R4, R5, R6, Hrest⟩
    isplitl [Hhb Htbl]
    · isplitl [Hhb]; · iexact Hhb
      iexact Htbl
    isplitl [Hsem]; · iexact Hsem
    isplitl [R1]; · iexact R1
    isplitl [R2]; · iexact R2
    isplitl [R3]; · iexact R3
    isplitl [R4]; · iexact R4
    isplitl [R5]; · iexact R5
    isplitl [R6]; · iexact R6
    isplitl [HA]; · iexists _; iexact HA
    isplitl [HB]; · iexact HB
    iexact Hrest
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hH) ((pdats m hH 1 c).share_full fun _ => rfl)
      (Vr2 m hH.h0 c) (fun b => Gen.V3 m (outs m hH) c b) ((pdats m hH 1 c).arrAt · (cfg1 (adm m 1)).N) (exitArr1 m hH c) (exitRest1 m hH c)
    rw [Pipeline.unscopedBufs_held] at hjoin
    iintro ⟨Ha, HO, ⟨Hhb, Htbl⟩, Hp, HR⟩
    ihave Hrest := (Entails.of_eq (rest1_split m hH c).symm) $$ [Htbl Hhb HR]
    · rw [prefHeld1_eq m hH c]
      isplitl [Htbl]; · iexact Htbl
      isplitl [Hhb]; · iexact Hhb
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The thread states the region is entered from and left at, as the launch states them. -/
theorem reg1_pre (c : Dev nD) :
    (reg1 m hH).pre c = iprop(StableHlo.held (c : Thread nD τ) (Pipeline.ucRefs τ sig) (Gen.V2 m (outs m hH) c) ∗ Rr c) := by unfold reg1; rfl
theorem reg1_post (c : Dev nD) :
    (reg1 m hH).post c = iprop(StableHlo.held (c : Thread nD τ) (Pipeline.ucRefs τ sig) (Gen.V3 m (outs m hH) c) ∗ Rr c) := by unfold reg1; rfl

end Cert.KernelIdeal.Hand

end
-- ==== Proof.Reg2.lean ====
import proofs.«403142_j86199993631438_1_alg».proof.Proof.PDats
import proofs.«403142_j86199993631438_1_alg».proof.Proof.LaunchKit
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The third region as a segment of the program

The third kernel has no semaphore of its own and no prefetched table. It is entered with every unscoped buffer at the
contents the second region left, beside the generator register at some state and the core owing nothing. Its four arrays
are split out of the unscoped buffers; the register goes into the invariant and comes back; every other unscoped buffer
bypasses the region. At the exit the three input arrays are as entered, the output array holds the blocks the pipeline
wrote, folded over the grid, and the rest is as it was: the unscoped buffers at the next boundary's contents. -/

variable (m : (ℓ : Loc nD τ sig) → Buf (Elt F) ℓ) (hH : IdsOk m)

/-- The output window's array is the third region's output buffer. -/
theorem arrRef2_3 : Pipeline.arrRef spec2 (3 : Fin 4) = main_v44 := rfl

/-- An input array at the exit: never written back, so what the region found, and the output's update leaves it alone. -/
theorem hF2_in (c : Dev nD) (w : Fin 4) (hin : (cfg2.win w).isOut = false) (hne : Pipeline.arrRef spec2 w ∉ ([main_v44] : List (Ref sig .tc))) :
    (dat2 (Vr3 m hH) c).arrAt w cfg2.N = Gen.V4 m (outs m hH) c (Pipeline.arrRef spec2 w) := by
  rw [(dat2 (Vr3 m hH) c).arrAt_in w hin cfg2.N, dat2_A, Gen.V4_of m (outs m hH) c _ hne, V3_outs m hH c]

/-- At the exit each array holds what the next boundary's contents say: an input what it held at entry; the output the
    pipeline's fold of its blocks, which is what the update puts there. -/
theorem hF2 (c : Dev nD) : ∀ w : Fin 4, (dat2 (Vr3 m hH) c).arrAt w cfg2.N = Gen.V4 m (outs m hH) c (Pipeline.arrRef spec2 w)
  | ⟨0, _⟩ => hF2_in m hH c 0 rfl (by decide)
  | ⟨1, _⟩ => hF2_in m hH c 1 rfl (by decide)
  | ⟨2, _⟩ => hF2_in m hH c 2 rfl (by decide)
  | ⟨3, _⟩ => by
    show (dat2 (Vr3 m hH) c).arrAt 3 cfg2.N = Gen.V4 m (outs m hH) c main_v44
    unfold Gen.V4
    rw [Function.update_self, outs_v44 m hH 4 c]
    rfl

/-- Off the region's arrays the next boundary's contents are the entry contents: the update is at the output buffer only. -/
theorem hrest2 (c : Dev nD) : ∀ b : Ref sig .tc, b ∉ Finset.univ.image (Pipeline.arrRef spec2) → Gen.V4 m (outs m hH) c b = Vr3 m hH c b := by
  intro b hb
  have hne : b ∉ ([main_v44] : List (Ref sig .tc)) := fun hmem =>
    hb (Finset.mem_image.mpr ⟨(3 : Fin 4), Finset.mem_univ _, arrRef2_3.trans (List.mem_singleton.mp hmem).symm⟩)
  rw [Gen.V4_of m (outs m hH) c b hne, V3_outs m hH c]

set_option backward.isDefEq.respectTransparency.types false in
/-- THE THIRD REGION over the thread state: entered from every unscoped buffer at the second region's exit contents,
    left at those contents updated at the output buffer. The four arrays are split out of the unscoped buffers at entry
    and rejoined at the exit contents; the generator register goes into the invariant and comes back; the core owes
    nothing throughout; the kernel has no semaphore of its own and no prefetched table. -/
def reg2 : Pipeline.RegionSeg (pcfgs (F := F)) (adm m) (pdats m hH) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (Vr3 m hH) c).loose
  hwaits := Pipeline.hwaits_of_owed_zero _ _ _ _ L lv 2 fun _ _ => rfl
  pre c := iprop(StableHlo.held (c : Thread nD τ) (Pipeline.ucRefs τ sig) (Gen.V3 m (outs m hH) c) ∗ Rr c)
  post c := iprop(StableHlo.held (c : Thread nD τ) (Pipeline.ucRefs τ sig) (Gen.V4 m (outs m hH) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (Vr3 m hH c)
  hentry c := by
    rw [Pipeline.ownSems0_none, V3_outs m hH c]
    have hsplit := Pipeline.arrays_of_unscopedBufs (p := 2) (pcfgs (F := F)) (adm m) (pdats m hH) (launch2 (F := F)).win (launch2 (F := F)).arr_whole c
      ((pdats m hH 2 c).share_full fun _ => rfl) (Vr3 m hH c) fun w => dat2_A (Vr3 m hH) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 2 c).Φ 0 = (Pipeline.ΦA spec2 c : sProp 𝕄) from rfl]; unfold Pipeline.ΦA
    iintro ⟨Hp, -, Hr⟩
    isplitl [Hr]; · iexact Hr
    iexact Hp
  hout c := by
    rw [Pipeline.ownSems0_none, show (pdats m hH 2 c).Φ (Fin.last _) = (Pipeline.ΦA spec2 c : sProp 𝕄) from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hH) ((pdats m hH 2 c).share_full fun _ => rfl)
      (Vr3 m hH c) (fun b => Gen.V4 m (outs m hH) c b) ((pdats m hH 2 c).arrAt · cfg2.N) (hF2 m hH c) (hrest2 m hH c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the third region is entered from, -/
theorem reg2_pre (c : Dev nD) : (reg2 m hH).pre c = iprop(StableHlo.held (c : Thread nD τ) (Pipeline.ucRefs τ sig) (Gen.V3 m (outs m hH) c) ∗ Rr c) := rfl
/-- and the one it leaves. -/
theorem reg2_post (c : Dev nD) : (reg2 m hH).post c = iprop(StableHlo.held (c : Thread nD τ) (Pipeline.ucRefs τ sig) (Gen.V4 m (outs m hH) c) ∗ Rr c) := rfl

end Cert.KernelIdeal.Hand

end
-- ==== Proof.HypsOfPre.lean ====
import proofs.«403142_j86199993631438_1_alg».proof.Proof.Common
import proofs.«403142_j86199993631438_1_alg».proof.Pre_finite_inputs
import Idealize.ShloMosaic.Lib.ReduceAll
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## From the precondition to the in-range facts the gathering bodies assume

The precondition is a conjunction of four scalar bits; the last two say that every word of the two class-id tables is,
read as a signed 32-bit integer, at least 0 and below 6000. A word in that signed range is below 6000 unsigned, so the
row it names is a row of the 6000-row table, and the one-row window at it lies inside the table. -/

/-- The rank-0 shape has one index. -/
instance subsingleton_scalar_idx : Subsingleton Cert.Pre_finite_inputs.S_.Idx := ⟨fun a b => funext fun d => d.elim0⟩

/-- A word that is at least 0 and below 6000 as a signed integer is below 6000 as an unsigned one. -/
theorem toNat_lt_of_signed (w : BitVec 32) (h0 : IntOp.cmpi .sge w 0#32 = 1#1) (h1 : IntOp.cmpi .slt w 6000#32 = 1#1) :
    w.toNat < 6000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e6 : (6000#32 : BitVec 32).toInt = 6000 := by decide
  rw [e0] at h0
  rw [e6] at h1
  have h32 := w.isLt
  rw [BitVec.toInt_eq_toNat_cond] at h0 h1
  split at h0 <;> omega

/-- THE PRECONDITION DECODED: every word of both class-id tables is below 6000. -/
theorem words_in_range [Cert.Pre_finite_inputs.Facts] (a0 : FVec F Cert.Pre_finite_inputs.S6000x1024 .f32) (a1 : FVec F Cert.Pre_finite_inputs.S1x15 .f32) (a2 : IVec Cert.Pre_finite_inputs.S14x64 32) (a3 : IVec Cert.Pre_finite_inputs.S1200 32) (a4 : IVec Cert.Pre_finite_inputs.S4800 32)
    (h : Cert.Pre_finite_inputs.fn (F := F) a0 a1 a2 a3 a4 = fun _ => 1#1) :
    (∀ y, (a3 y).toNat < 6000) ∧ (∀ y, (a4 y).toNat < 6000) := by
  have e := congrFun h (fun a => a.elim0)
  dsimp only [Cert.Pre_finite_inputs.fn, Cert.Pre_finite_inputs.fn_part1] at e
  obtain ⟨h123, h4⟩ := IntOp.andi_eq_one.1 e
  obtain ⟨-, h3⟩ := IntOp.andi_eq_one.1 h123
  have k3 := Host.reduce_andi_all _ _ _ _ _ h3
  have k4 := Host.reduce_andi_all _ _ _ _ _ h4
  refine ⟨fun y => ?_, fun y => ?_⟩
  · obtain ⟨p, q⟩ := IntOp.andi_eq_one.1 (k3 y)
    exact toNat_lt_of_signed _ p q
  · obtain ⟨p, q⟩ := IntOp.andi_eq_one.1 (k4 y)
    exact toNat_lt_of_signed _ p q

/-- The row the word names, as the body reads it: the 32-bit word itself. -/
theorem indexCast_toNat (w : BitVec 32) : (Scalar.indexCast w).toNat = w.toNat := rfl

/-- A word below 6000 names a row of the table: the one-row window at it lies inside the [6000, 1024] table. -/
theorem row_inside (w : BitVec 32) (hw : w.toNat < 6000) (a : Fin 2) :
    (![(Scalar.indexCast w).toNat, 0] : Fin 2 → Nat) a + S1x1024.size a ≤ S6000x1024.size a := by
  rw [indexCast_toNat]
  fin_cases a <;> simp [S1x1024, S6000x1024] <;> omega

/-- Every word of the first class-id table, read through any one-word rectangle, names a row of the table. -/
theorem rowOk0_of_lt (x1 : Vec F S1200 .i32) (h : ∀ y, (x1 y).toNat < 6000) :
    RowOk0 (F := F) (Memref.whole main_arg3) (Memref.isWhole_whole _) x1 := by
  intro o ho a
  rw [View.readAt_apply, Memref.IsWhole.read_unread]
  exact row_inside _ (h _) a

/-- Every word of the second class-id table likewise. -/
theorem rowOk1_of_lt (x1 : Vec F S4800 .i32) (h : ∀ y, (x1 y).toNat < 6000) :
    RowOk1 (F := F) (Memref.whole main_arg4) (Memref.isWhole_whole _) x1 := by
  intro o ho a
  rw [View.readAt_apply, Memref.IsWhole.read_unread]
  exact row_inside _ (h _) a

end Cert.KernelIdeal.Hand

end
-- ==== Proof.Frames.lean ====
import proofs.«403142_j86199993631438_1_alg».proof.Proof.Reg0
import proofs.«403142_j86199993631438_1_alg».proof.Proof.Reg1
import proofs.«403142_j86199993631438_1_alg».proof.Proof.Reg2
import proofs.«403142_j86199993631438_1_alg».proof.Proof.HypsOfPre
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The frame

Under the precondition every class id names a row of the attribute table, at the contents each gathering region finds
the id arrays (no host operation and no earlier region writes them); so the three regions' records exist and the
program's conditional frame applies: the program runs to the end and its argument arrays are unchanged. -/

variable (m : (ℓ : Loc nD τ sig) → Buf (Elt F) ℓ) (ρ : Dev nD → PrngReg)

/-- From the precondition at the launch memory: both id arrays name rows, where the regions read them. -/
theorem idsOk_of_pre [Cert.Pre_finite_inputs.Facts]
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    IdsOk m := by
  have h0 : Ids0 m := fun c => rowOk0_of_lt _ (fun y => by
    show ((Gen.V1 m c main_arg3 : Vec F S1200 .i32) y).toNat < 6000
    rw [Gen.V1_of m c main_arg3 (by decide)]
    exact (words_in_range _ _ _ _ _ (h c)).1 y)
  refine ⟨h0, fun c => rowOk1_of_lt _ (fun y => ?_)⟩
  show ((Gen.V2 m (outsA m h0) c main_arg4 : Vec F S4800 .i32) y).toNat < 6000
  rw [Gen.V2_of m (outsA m h0) c main_arg4 (by decide), Gen.V1_of m c main_arg4 (by decide)]
  exact (words_in_range _ _ _ _ _ (h c)).2 y

/-- Every weakly fair execution terminates, nothing faults, the argument arrays end as launched. -/
theorem frame (hH : IdsOk m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_kit m ρ (outs m hH) (adm m) (pdats m hH) (reg0 m hH) (fun c => by rw [reg0_pre]) (fun c => by rw [reg0_post])
    (reg1 m hH) (fun c => by rw [reg1_pre]) (fun c => by rw [reg1_post])
    (reg2 m hH) (fun c => by rw [reg2_pre]) (fun c => by rw [reg2_post])

end Cert.KernelIdeal.Hand

end
-- ==== Proof.LaunchKitV.lean ====
import proofs.«403142_j86199993631438_1_alg».proof.Proof.LaunchKit
import proofs.«403142_j86199993631438_1_alg».proof.Proof.RegionsV
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch with the results named

The same instantiation as the frame's, of the conditional frame whose conclusion also reads the three result arrays off
the last valuation. -/

/-- THE FRAME WITH THE RESULTS, GIVEN THE REGIONS' RECORDS over the fixed algebra and rest: every weakly fair execution of
    @main from memory `m` with zero counters terminates, and every final memory holds each of the three result arrays at
    what the last valuation gives it and each argument as launched. -/
theorem results_kit (m : (ℓ : Loc nD τ sig) → Buf (Elt F) ℓ) (ρ : Dev nD → PrngReg) (outs : Gen.Outs (F := F)) (a : (p : Fin 3) → (pcfgs (F := F) p).Adm)
    (pdats : (p : Fin 3) → (c : Dev nD) → Dat τ (Elt F) Unit ℕ (Pipeline.UD sig nD τ) ℕ (Pipeline.pin (pcfgs (F := F)) a p) c)
    (R0 : Pipeline.RegionSeg (pcfgs (F := F)) a pdats () defs₀ 𝒱₀ L lv 0)
    (hpre0 : ∀ c : Dev nD, iprop(StableHlo.held (c : Thread nD τ) (Pipeline.ucRefs τ sig) (Gen.V1 m c) ∗ Rr c) ⊢ R0.pre c)
    (hpost0 : ∀ c : Dev nD, R0.post c ⊢ iprop(StableHlo.held (c : Thread nD τ) (Pipeline.ucRefs τ sig) (Gen.V2 m outs c) ∗ Rr c))
    (R1 : Pipeline.RegionSeg (pcfgs (F := F)) a pdats () defs₀ 𝒱₀ L lv 1)
    (hpre1 : ∀ c : Dev nD, iprop(StableHlo.held (c : Thread nD τ) (Pipeline.ucRefs τ sig) (Gen.V2 m outs c) ∗ Rr c) ⊢ R1.pre c)
    (hpost1 : ∀ c : Dev nD, R1.post c ⊢ iprop(StableHlo.held (c : Thread nD τ) (Pipeline.ucRefs τ sig) (Gen.V3 m outs c) ∗ Rr c))
    (R2 : Pipeline.RegionSeg (pcfgs (F := F)) a pdats () defs₀ 𝒱₀ L lv 2)
    (hpre2 : ∀ c : Dev nD, iprop(StableHlo.held (c : Thread nD τ) (Pipeline.ucRefs τ sig) (Gen.V3 m outs c) ∗ Rr c) ⊢ R2.pre c)
    (hpost2 : ∀ c : Dev nD, R2.post c ⊢ iprop(StableHlo.held (c : Thread nD τ) (Pipeline.ucRefs τ sig) (Gen.V4 m outs c) ∗ Rr c)) :
    θ_run defs (onTc (τ := τ) (main (F := F))) ⟨m, fun _ => 0, ρ⟩ (fun r => ∀ c : Dev nD,
      r.2.mem ((c.tc : Thread nD τ).loc main_v42) = Gen.V4 m outs c main_v42
      ∧ r.2.mem ((c.tc : Thread nD τ).loc main_v43) = Gen.V4 m outs c main_v43
      ∧ r.2.mem ((c.tc : Thread nD τ).loc main_v44) = Gen.V4 m outs c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  GenV.frame_cond_results (F := F) m (EP := embL) (ι := ()) (𝒱₀ := 𝒱₀) (L := L) (lv := lv) (hL := fun _ _ => rfl) ρ outs a pdats
    (O₀ := 0) (G := fun _ => iprop(emp)) (u₀ := u₀ a) (hu₀ := hu₀ a) (E := Er) (hE0 := hE0 ρ) (hE3 := hE3)
    R0 hpre0 hpost0 R1 hpre1 hpost1 R2 hpre2 hpost2

end Cert.KernelIdeal.Hand

end
-- ==== Proof.Spec.lean ====
/-
  The mathematics both programs compute, with no program in sight.

  Every class has an attribute row `a : Fin 1024 → EReal`. The embedding replicates it over sixteen offset rows; on offset
  row `r` the columns a group names (the mask `mk r k = 1`) are overwritten by that group's scalar (the overlay `ov r k`),
  the other columns keep `a k`: `blend`. Each of the sixteen rows is then divided by its Euclidean norm, the norm clamped
  below at the word `eps`: `nrm`. An output array holds, at row `k` and column `16·j + r`, entry `k` of offset row `r` of
  the class the column's block `j` names: `entry`.
-/
import Idealize.ShloMosaic.PureOps.Ideal
import Idealize.ShloMosaic.Lib.ValueIdx

noncomputable section

namespace Cert.Spec

open Idealize.ShloMosaic

/-- The word `1.0`, as the extended real it denotes. -/
abbrev one : EReal := Ideal.ofBits .f32 0x3F800000#32
/-- The lower clamp of the norm (the f32 nearest to 1e-12), the same word in both programs. -/
abbrev eps : EReal := Ideal.ofBits .f32 0x2B8CBCCC#32

/-- An attribute entry `a` under the overlay: `mk · ov + (1 − mk) · a`. Where the mask is `1` this is `ov`, where it is
    `0` it is `a`. -/
def blend (mk ov a : EReal) : EReal := mk * ov + (one - mk) * a

/-- A row of 1024 entries divided by its Euclidean norm, the norm clamped below at `eps`. -/
def nrm (v : Fin 1024 → EReal) (k : Fin 1024) : EReal :=
  Ideal.div (v k) (max (Ideal.sqrt (∑ j : Fin 1024, v j * v j)) eps)

/-- Offset row `r` of the class whose attribute row is `a`, before normalisation. -/
def row (mk ov : Fin 16 → Fin 1024 → EReal) (a : Fin 1024 → EReal) (r : Fin 16) : Fin 1024 → EReal :=
  fun k => blend (mk r k) (ov r k) (a k)

/-- Entry `k` of the normalised offset row `r` of the class whose attribute row is `a`. -/
def entry (mk ov : Fin 16 → Fin 1024 → EReal) (a : Fin 1024 → EReal) (r : Fin 16) (k : Fin 1024) : EReal :=
  nrm (row mk ov a r) k

end Cert.Spec

end
-- ==== Proof.Pay.lean ====
/-
  The value the kernel stores, read at one index.

  Each of the three stored blocks is one pure term: the mask times the overlay plus (1 − mask) times the gathered
  attribute row, replicated over the sixteen offset rows; each of the `16·J` rows so obtained is divided by its Euclidean
  norm clamped below; the `[J, 16, 1024]` array is then flattened to `[16·J, 1024]` and transposed. So entry
  `(k, 16·j + r)` of the block is entry `k` of the normalised offset row `r` of gathered row `j`.
-/
import proofs.«403142_j86199993631438_1_alg».proof.Proof.Gen.KernelIdeal.Skeleton
import proofs.«403142_j86199993631438_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic ValueIdx Cert.KernelIdeal Cert.KernelIdeal.Gen

/-! ## Layout operations at an index given by coordinates -/

section Layout
variable {α : Type}

/-- An array cast to its own shape reads the same entry. -/
theorem shapeCast_same_apply {s : Shape} (x : s.Idx → α) (h : s.ShapeCasts s) (i : s.Idx) : shapeCast s x h i = x i :=
  shapeCast_apply x h i i rfl

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[m, a, b]` array flattened to `[n, b]` (`n = m · a`) reads, at row `a · p + q`, the operand at `(p, q, ·)`. -/
theorem shapeCast_mab_nb_apply {m a b n : ℕ} (x : (⟨3, ![m, a, b]⟩ : Shape).Idx → α)
    (h : (⟨3, ![m, a, b]⟩ : Shape).ShapeCasts ⟨2, ![n, b]⟩) (p : Fin m) (q : Fin a) (c : Fin b) (i : Fin n)
    (hi : i.val = a * p.val + q.val) :
    shapeCast ⟨2, ![n, b]⟩ x h (ix2 i c) = x (ix3 p q c) :=
  shapeCast_apply x h _ _ (by
    rw [Shape.rowMajor_val_three, Shape.rowMajor_val_two]
    show (p.val * a + q.val) * b + c.val = i.val * b + c.val
    rw [hi, Nat.mul_comm a p.val])

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-- The square root of a vector, entry by entry. -/
theorem sqrt_apply {s : Shape} {φ : FTy} (a : FVec Ideal s φ) (i : s.Idx) : sqrt a i = Ideal.sqrt (a i) := rfl

/-- A sum over the last axis of a rank-3 array, read at `(p, q)`: the sum of the entries `(p, q, ·)`. -/
theorem multiReduction_add_axis2_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32) (hacc : acc = FKind.add.neutral .f32 hφ)
    (p : Fin a) (q : Fin b) :
    multiReduction .add [2] ⟨2, ![a, b]⟩ src acc h hφ hacc (ix2 p q) = ∑ r : Fin c, src (ix3 p q r) := by
  refine (Ideal.multiReduction_add_single src acc h hφ hacc (ix2 p q)).trans ?_
  refine Finset.sum_congr rfl fun r _ => congrArg src ?_
  funext d
  apply Fin.ext
  match d with
  | ⟨0, _⟩ => rfl
  | ⟨1, _⟩ => rfl
  | ⟨2, _⟩ => rfl

/-! ## The stored blocks at an index -/

/-- Entry `(k, 16·j + r)` of the first gathered block: entry `k` of the normalised offset row `r` of gathered row `j`. -/
theorem pay0_apply (g : Vec Ideal S40x1024 .f32) (mk ov : Vec Ideal S16x1024 .f32) (k : Fin 1024) (j : Fin 40) (r : Fin 16) :
    k0_pay2 (F := Ideal) g mk ov (ix2 k ⟨16 * j.val + r.val, by omega⟩)
      = Cert.Spec.entry (fun r' k' => mk (ix2 r' k')) (fun r' k' => ov (ix2 r' k')) (fun k' => g (ix2 j k')) r k := by
  unfold k0_pay2
  dsimp only
  -- the transpose and the flattening: entry (k, 16·j + r) of the block is entry (j, r, k) of the quotient
  refine (transpose_ix2_apply _ _ _ _).trans ?_
  refine (shapeCast_mab_nb_apply _ _ j r k _ rfl).trans ?_
  -- the quotient, the clamp, the root and the keepdims column at (j, r, k)
  simp only [divf_apply, broadcastTo_ab1_abc_apply, maximumf_apply, sqrt_apply, shapeCast_ab_ab1_apply, broadcast_apply,
    mulf_apply, addf_apply, subf_apply, broadcastTo_1bc_abc_apply, broadcastTo_a1c_abc_apply,
    shapeCast_ab_1ab_apply, shapeCast_ab_a1b_apply, shapeCast_same_apply]
  -- the lane sum at (j, r): the sum over the 1024 entries of the row
  refine (congrArg (fun t => Ideal.div _ (max (Ideal.sqrt t) _)) (multiReduction_add_axis2_apply _ _ _ _ _ j r)).trans ?_
  -- the blended row at (j, r, ·) under the sum
  simp only [mulf_apply, addf_apply, subf_apply, broadcastTo_1bc_abc_apply, broadcastTo_a1c_abc_apply, broadcast_apply,
    shapeCast_ab_1ab_apply, shapeCast_ab_a1b_apply, shapeCast_same_apply]
  rfl

/-- The same at any index `i` of the block: its column `i 1` is `16 · (i 1 / 16) + i 1 % 16`. -/
theorem pay0_apply' (g : Vec Ideal S40x1024 .f32) (mk ov : Vec Ideal S16x1024 .f32) (i : S1024x640.Idx) :
    k0_pay2 (F := Ideal) g mk ov i
      = Cert.Spec.entry (fun r' k' => mk (ix2 r' k')) (fun r' k' => ov (ix2 r' k'))
          (fun k' => g (ix2 (⟨(i 1).val / 16, by have := idx2_lt1 i; omega⟩ : Fin 40) k'))
          (⟨(i 1).val % 16, Nat.mod_lt _ (by decide)⟩ : Fin 16) (i 0) := by
  have h1 : (i 1).val < 640 := idx2_lt1 i
  have key := pay0_apply g mk ov (i 0) (⟨(i 1).val / 16, by omega⟩ : Fin 40) (⟨(i 1).val % 16, Nat.mod_lt _ (by decide)⟩ : Fin 16)
  have hi : (ix2 (i 0) (⟨16 * ((i 1).val / 16) + (i 1).val % 16, by omega⟩ : Fin 640) : S1024x640.Idx) = i := by
    refine Eq.trans ?_ (eq_ix2 i).symm
    exact congrArg (ix2 (i 0)) (Fin.ext (by show 16 * ((i 1).val / 16) + (i 1).val % 16 = (i 1).val; omega))
  exact (congrArg (k0_pay2 (F := Ideal) g mk ov) hi).symm.trans key

/-- Entry `(k, 16·j + r)` of the later gathered blocks: the same term. -/
theorem pay1_apply (g : Vec Ideal S40x1024 .f32) (mk ov : Vec Ideal S16x1024 .f32) (k : Fin 1024) (j : Fin 40) (r : Fin 16) :
    k1_pay2 (F := Ideal) g mk ov (ix2 k ⟨16 * j.val + r.val, by omega⟩)
      = Cert.Spec.entry (fun r' k' => mk (ix2 r' k')) (fun r' k' => ov (ix2 r' k')) (fun k' => g (ix2 j k')) r k := by
  unfold k1_pay2
  dsimp only
  -- the transpose and the flattening: entry (k, 16·j + r) of the block is entry (j, r, k) of the quotient
  refine (transpose_ix2_apply _ _ _ _).trans ?_
  refine (shapeCast_mab_nb_apply _ _ j r k _ rfl).trans ?_
  -- the quotient, the clamp, the root and the keepdims column at (j, r, k)
  simp only [divf_apply, broadcastTo_ab1_abc_apply, maximumf_apply, sqrt_apply, shapeCast_ab_ab1_apply, broadcast_apply,
    mulf_apply, addf_apply, subf_apply, broadcastTo_1bc_abc_apply, broadcastTo_a1c_abc_apply,
    shapeCast_ab_1ab_apply, shapeCast_ab_a1b_apply, shapeCast_same_apply]
  -- the lane sum at (j, r): the sum over the 1024 entries of the row
  refine (congrArg (fun t => Ideal.div _ (max (Ideal.sqrt t) _)) (multiReduction_add_axis2_apply _ _ _ _ _ j r)).trans ?_
  -- the blended row at (j, r, ·) under the sum
  simp only [mulf_apply, addf_apply, subf_apply, broadcastTo_1bc_abc_apply, broadcastTo_a1c_abc_apply, broadcast_apply,
    shapeCast_ab_1ab_apply, shapeCast_ab_a1b_apply, shapeCast_same_apply]
  rfl

/-- The same at any index `i` of the block: its column `i 1` is `16 · (i 1 / 16) + i 1 % 16`. -/
theorem pay1_apply' (g : Vec Ideal S40x1024 .f32) (mk ov : Vec Ideal S16x1024 .f32) (i : S1024x640.Idx) :
    k1_pay2 (F := Ideal) g mk ov i
      = Cert.Spec.entry (fun r' k' => mk (ix2 r' k')) (fun r' k' => ov (ix2 r' k'))
          (fun k' => g (ix2 (⟨(i 1).val / 16, by have := idx2_lt1 i; omega⟩ : Fin 40) k'))
          (⟨(i 1).val % 16, Nat.mod_lt _ (by decide)⟩ : Fin 16) (i 0) := by
  have h1 : (i 1).val < 640 := idx2_lt1 i
  have key := pay1_apply g mk ov (i 0) (⟨(i 1).val / 16, by omega⟩ : Fin 40) (⟨(i 1).val % 16, Nat.mod_lt _ (by decide)⟩ : Fin 16)
  have hi : (ix2 (i 0) (⟨16 * ((i 1).val / 16) + (i 1).val % 16, by omega⟩ : Fin 640) : S1024x640.Idx) = i := by
    refine Eq.trans ?_ (eq_ix2 i).symm
    exact congrArg (ix2 (i 0)) (Fin.ext (by show 16 * ((i 1).val / 16) + (i 1).val % 16 = (i 1).val; omega))
  exact (congrArg (k1_pay2 (F := Ideal) g mk ov) hi).symm.trans key

/-- Entry `(k, 16·j + r)` of a contiguous block of 120 rows. -/
theorem pay2_apply (g : Vec Ideal S120x1024 .f32) (mk ov : Vec Ideal S16x1024 .f32) (k : Fin 1024) (j : Fin 120) (r : Fin 16) :
    k2_pay1 (F := Ideal) g mk ov (ix2 k ⟨16 * j.val + r.val, by omega⟩)
      = Cert.Spec.entry (fun r' k' => mk (ix2 r' k')) (fun r' k' => ov (ix2 r' k')) (fun k' => g (ix2 j k')) r k := by
  unfold k2_pay1
  dsimp only
  -- the transpose and the flattening: entry (k, 16·j + r) of the block is entry (j, r, k) of the quotient
  refine (transpose_ix2_apply _ _ _ _).trans ?_
  refine (shapeCast_mab_nb_apply _ _ j r k _ rfl).trans ?_
  -- the quotient, the clamp, the root and the keepdims column at (j, r, k)
  simp only [divf_apply, broadcastTo_ab1_abc_apply, maximumf_apply, sqrt_apply, shapeCast_ab_ab1_apply, broadcast_apply,
    mulf_apply, addf_apply, subf_apply, broadcastTo_1bc_abc_apply, broadcastTo_a1c_abc_apply,
    shapeCast_ab_1ab_apply, shapeCast_ab_a1b_apply, shapeCast_same_apply]
  -- the lane sum at (j, r): the sum over the 1024 entries of the row
  refine (congrArg (fun t => Ideal.div _ (max (Ideal.sqrt t) _)) (multiReduction_add_axis2_apply _ _ _ _ _ j r)).trans ?_
  -- the blended row at (j, r, ·) under the sum
  simp only [mulf_apply, addf_apply, subf_apply, broadcastTo_1bc_abc_apply, broadcastTo_a1c_abc_apply, broadcast_apply,
    shapeCast_ab_1ab_apply, shapeCast_ab_a1b_apply, shapeCast_same_apply]
  rfl

/-- The same at any index `i` of the block: its column `i 1` is `16 · (i 1 / 16) + i 1 % 16`. -/
theorem pay2_apply' (g : Vec Ideal S120x1024 .f32) (mk ov : Vec Ideal S16x1024 .f32) (i : S1024x1920.Idx) :
    k2_pay1 (F := Ideal) g mk ov i
      = Cert.Spec.entry (fun r' k' => mk (ix2 r' k')) (fun r' k' => ov (ix2 r' k'))
          (fun k' => g (ix2 (⟨(i 1).val / 16, by have := idx2_lt1 i; omega⟩ : Fin 120) k'))
          (⟨(i 1).val % 16, Nat.mod_lt _ (by decide)⟩ : Fin 16) (i 0) := by
  have h1 : (i 1).val < 1920 := idx2_lt1 i
  have key := pay2_apply g mk ov (i 0) (⟨(i 1).val / 16, by omega⟩ : Fin 120) (⟨(i 1).val % 16, Nat.mod_lt _ (by decide)⟩ : Fin 16)
  have hi : (ix2 (i 0) (⟨16 * ((i 1).val / 16) + (i 1).val % 16, by omega⟩ : Fin 1920) : S1024x1920.Idx) = i := by
    refine Eq.trans ?_ (eq_ix2 i).symm
    exact congrArg (ix2 (i 0)) (Fin.ext (by show 16 * ((i 1).val / 16) + (i 1).val % 16 = (i 1).val; omega))
  exact (congrArg (k2_pay1 (F := Ideal) g mk ov) hi).symm.trans key

end Cert.KernelIdeal.Pay

end
-- ==== Proof.OutVal0.lean ====
import proofs.«403142_j86199993631438_1_alg».proof.Proof.Dat0
import proofs.«403142_j86199993631438_1_alg».proof.Proof.Pay
import Idealize.ShloMosaic.Lib.Pipeline.FrameBody
import Idealize.ShloMosaic.Lib.Ring
import Idealize.ShloMosaic.Lib.Tactic

set_option maxRecDepth 16384

noncomputable section

/-!
  What the first gathering region leaves in its output block at each grid point, as a value.

  At point `t` the body reads forty class ids (words `40·t … 40·t + 39` of the id table), copies the forty attribute rows
  they name into a small scratch, and stores the embedded, normalised and transposed block computed from that scratch, the
  mask and the overlay. So the output block after point `t` is the stored term over the gathered rows `gath0`, and
  entry `(k, 16·j + r)` of it is entry `k` of the normalised offset row `r` of the row that id `40·t + j` names.
-/
namespace Cert.KernelIdeal.OutVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The forty gathered rows as one function -/

/-- Word `40·n + J` of the id table: the offset the body computes in 32-bit arithmetic is the natural number. -/
theorem wordOff_eq (n J : ℕ) (hn : n < 30) (hJ : J < 40) :
    (Scalar.indexCast (Scalar.addi (Scalar.muli (BitVec.ofNat 32 n) 40#32) (BitVec.ofNat 32 J))).toNat = 40 * n + J := by
  simp [Scalar.indexCast, Scalar.addi, Scalar.muli, IntOp.addi, IntOp.muli, BitVec.toNat_add, BitVec.toNat_mul, BitVec.toNat_ofNat]
  omega

/-- A row cast to a vector and back is the row. -/
theorem shapeCast_1a_a_1a_apply {α : Type} {a : ℕ} (v : (⟨2, ![1, a]⟩ : Shape).Idx → α)
    (h1 : (⟨2, ![1, a]⟩ : Shape).ShapeCasts ⟨1, ![a]⟩) (h2 : (⟨1, ![a]⟩ : Shape).ShapeCasts ⟨2, ![1, a]⟩)
    (y : (⟨2, ![1, a]⟩ : Shape).Idx) :
    shapeCast ⟨2, ![1, a]⟩ (shapeCast ⟨1, ![a]⟩ v h1) h2 y = v y := by
  obtain ⟨u, i, rfl⟩ : ∃ (u : Fin 1) (i : Fin a), y = ix2 u i := ⟨y 0, y 1, eq_ix2 y⟩
  have hu : u = 0 := Fin.ext (by omega)
  subst hu
  exact (shapeCast_a_1a_apply _ h2 0 i).trans (shapeCast_1a_a_apply v h1 i)

/-- The index of word `40·n + p` of the id table. -/
def wordIdx (n : ℕ) (hn : n < 30) (p : Fin 40) : S1200.Idx := ValueIdx.ix1 (⟨40 * n + p.val, by omega⟩ : Fin 1200)

/-- The rows point `n` gathers: row `p` is the row of the table `x6` that word `40·n + p` of the id table `x1` names
    (the `min` only makes the row index total: the ids name rows of the table). -/
def gathRows (x1 : Vec F S1200 .i32) (x6 : Vec F S6000x1024 .f32) (n : ℕ) (hn : n < 30) : Vec F S40x1024 .f32 :=
  fun y => x6 (ix2 (⟨min (Scalar.indexCast (x1 (wordIdx n hn (y 0)))).toNat 5999, by omega⟩ : Fin 6000) (y 1))

/-- One row store's payload, at its local index, is `gathRows` at the index under it. -/
theorem row_piece (i : grid0.Coords) (J : ℕ) (hJ : J < 40)
    (arg1 : Memref sig .tc .smem S1200 .i32) (harg1 : arg1.IsWhole)
    (arg6 : Memref sig .tc .vmem S6000x1024 .f32)
    (x1 : Vec F S1200 .i32) (x6 : Vec F S6000x1024 .f32)
    (f6 : BufTy.Contents (Elt F) arg6.view.ty) (hread : View.read (Elt F) arg6.view f6 = x6)
    (inbJ : ∀ a, (![J, 0] : Fin 2 → ℕ) a + (![1, 1024] : Fin 2 → ℕ) a ≤ S40x1024.size a)
    (inb1 : ∀ a, (![(Scalar.indexCast (Scalar.addi (Scalar.muli (BitVec.ofNat 32 (i 0).val) 40#32) (BitVec.ofNat 32 J))).toNat] : Fin 1 → ℕ) a
      + (![1] : Fin 1 → ℕ) a ≤ S1200.size a)
    (hf : 0 < (Rect.unit (s := S1200) ![(Scalar.indexCast (Scalar.addi (Scalar.muli (BitVec.ofNat 32 (i 0).val) 40#32) (BitVec.ofNat 32 J))).toNat]
      ![1] inb1).toLoadRect.shape.numel)
    (inb6 : ∀ a, (![(Scalar.indexCast (View.readAt (Elt F) arg1.view
        (Rect.unit (s := S1200) ![(Scalar.indexCast (Scalar.addi (Scalar.muli (BitVec.ofNat 32 (i 0).val) 40#32) (BitVec.ofNat 32 J))).toNat]
          ![1] inb1).toLoadRect (harg1.unread x1) (Shape.Idx.first hf))).toNat, 0] : Fin 2 → ℕ) a
      + (![1, 1024] : Fin 2 → ℕ) a ≤ S6000x1024.size a)
    (hs1 : S1x1024.ShapeCasts S1024) (hs2 : S1024.ShapeCasts S1x1024)
    (x : (Rect.unit (s := S40x1024) ![J, 0] ![1, 1024] inbJ).shape.Idx) :
    shapeCast S1x1024 (shapeCast S1024 (View.readAt (Elt F) arg6.view
        (Rect.unit (s := S6000x1024) ![(Scalar.indexCast (View.readAt (Elt F) arg1.view
          (Rect.unit (s := S1200) ![(Scalar.indexCast (Scalar.addi (Scalar.muli (BitVec.ofNat 32 (i 0).val) 40#32) (BitVec.ofNat 32 J))).toNat]
            ![1] inb1).toLoadRect (harg1.unread x1) (Shape.Idx.first hf))).toNat, 0] ![1, 1024] inb6).toLoadRect f6) hs1) hs2 x
      = gathRows x1 x6 (i 0).val (i 0).isLt ((Rect.unit (s := S40x1024) ![J, 0] ![1, 1024] inbJ).emb x) := by
  refine (shapeCast_1a_a_1a_apply _ hs1 hs2 x).trans ?_
  rw [View.readAt_apply, hread]
  unfold gathRows
  have hx0 : (x 0).val = 0 := by have h : (x 0).val < 1 := (x 0).isLt; omega
  -- the id word the row is fetched by is word `40·n + J` of the table
  have hw : View.readAt (Elt F) arg1.view
        (Rect.unit (s := S1200) ![(Scalar.indexCast (Scalar.addi (Scalar.muli (BitVec.ofNat 32 (i 0).val) 40#32) (BitVec.ofNat 32 J))).toNat]
          ![1] inb1).toLoadRect (harg1.unread x1) (Shape.Idx.first hf)
      = x1 (wordIdx (i 0).val (i 0).isLt ((Rect.unit (s := S40x1024) ![J, 0] ![1, 1024] inbJ).emb x 0)) := by
    rw [View.readAt_apply, harg1.read_unread]
    refine congrArg x1 ?_
    funext b; apply Fin.ext
    fin_cases b
    show (Scalar.indexCast (Scalar.addi (Scalar.muli (BitVec.ofNat 32 (i 0).val) 40#32) (BitVec.ofNat 32 J))).toNat + 1 * 0
      = 40 * (i 0).val + (J + 1 * (x 0).val)
    rw [wordOff_eq _ _ (i 0).isLt hJ, hx0]
    omega
  refine congrArg x6 ?_
  funext a; apply Fin.ext
  fin_cases a
  · -- the row: the word itself, which names a row of the table
    show _ + 1 * (x 0).val = min _ 5999
    rw [← hw, hx0, Nat.mul_zero, Nat.add_zero]
    exact (Nat.min_eq_left (Nat.le_of_lt_succ (inb6 0))).symm
  · rfl

/-- The whole-shape rectangle's offsets are zero. -/
theorem zero2 : (![0, 0] : Fin 2 → ℕ) = fun _ => 0 := by funext a; fin_cases a <;> rfl

/-- The forty row stores of a later point read back whole: the gathered rows. -/
theorem v364B_eq (c : Dev nD) (i : grid0.Coords) (arg1 : Memref sig .tc .smem S1200 .i32) (harg1 : arg1.IsWhole)
    (arg6 : Memref sig .tc .vmem S6000x1024 .f32) (harg6 : arg6.IsWhole)
    (arg7 : Memref sig .tc .vmem S40x1024 .f32) (x1 : Vec F S1200 .i32) (hrow : RowOk0 arg1 harg1 x1)
    (x6 : Vec F S6000x1024 .f32) :
    runB.sl.v364 c i arg1 harg1 arg6 harg6 arg7 x1 hrow x6 = gathRows x1 x6 (i 0).val (i 0).isLt := by
  unfold runB.sl.v364
  have hcov : ∀ y, ∃ p ∈ runB.sl.H7_40 c i arg1 harg1 arg6 harg6 x1 hrow x6, y ∈ p.1.set :=
    View.cover_of_tiledL _ S1x1024.size (by sl_kernel_rfl)
  rw [View.readCov_eq_canon_ld _ _ _ hcov, View.ld_unit_zero (S := S40x1024) zero2]
  funext y
  refine View.canon_apply_of_pieces (gathRows x1 x6 (i 0).val (i 0).isLt) _ ?_ y (hcov y)
  unfold runB.sl.H7_40
  sl_unfold_words
  simp only [k0_pay1]
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => nomatch hp⟩
  all_goals
    intro x
    exact row_piece i _ (by omega) arg1 harg1 arg6 x1 x6 _ (harg6.read_unread x6) _ _ _ _ _ _ x

/-- What a later point leaves in the output block: the stored term over the gathered rows, the mask and the overlay. -/
theorem out0B_eq (c : Dev nD) (i : grid0.Coords) (hc : ¬ cond0 i) (arg1 : Memref sig .tc .smem S1200 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S1200 .i32) (hrow : RowOk0 arg1 harg1 x1)
    (x3 x4 : Vec F S16x1024 .f32) (x6 : Vec F S6000x1024 .f32) :
    out0B c i hc arg1 harg1 arg2 harg2 arg3 harg3 arg4 harg4 arg5 harg5 arg6 harg6 arg7 harg7 arg8 x1 hrow x3 x4 x6
      = k0_pay2 (gathRows x1 x6 (i 0).val (i 0).isLt) x3 x4 := by
  unfold out0B
  rw [View.read_writes_eq_canon _ _ _ (cover0B c i hc arg1 harg1 arg2 harg2 arg3 harg3 arg4 harg4 arg5 harg5 arg6 harg6 arg7 harg7 arg8 x1 hrow x3 x4 x6)]
  unfold runB
  dsimp only
  rw [View.canon_unit_zero (S := S1024x640) zero2]
  simp only [View.readAt_eq_ld, Memref.IsWhole.read_unread, View.ld_unit_zero (S := S16x1024) zero2]
  rw [v364B_eq]

/-- The forty row stores of the first point read back whole: the gathered rows, from the table the copy delivered. -/
theorem v364A_eq (c : Dev nD) (i : grid0.Coords) (arg1 : Memref sig .tc .smem S1200 .i32) (harg1 : arg1.IsWhole)
    (arg6 : Memref sig .tc .vmem S6000x1024 .f32)
    (arg7 : Memref sig .tc .vmem S40x1024 .f32) (x1 : Vec F S1200 .i32) (hrow : RowOk0 arg1 harg1 x1)
    (fh : HbBuf (F := F) c hbM) :
    runA.sl.v364 c i arg1 harg1 arg6 arg7 x1 hrow fh = gathRows x1 (delivered c fh) (i 0).val (i 0).isLt := by
  unfold runA.sl.v364
  have hcov : ∀ y, ∃ p ∈ runA.sl.H7_40 c i arg1 harg1 arg6 x1 hrow fh, y ∈ p.1.set :=
    View.cover_of_tiledL _ S1x1024.size (by sl_kernel_rfl)
  rw [View.readCov_eq_canon_ld _ _ _ hcov, View.ld_unit_zero (S := S40x1024) zero2]
  funext y
  refine View.canon_apply_of_pieces (gathRows x1 (delivered c fh) (i 0).val (i 0).isLt) _ ?_ y (hcov y)
  unfold runA.sl.H7_40
  sl_unfold_words
  simp only [k0_pay1]
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => nomatch hp⟩
  all_goals
    intro x
    exact row_piece i _ (by omega) arg1 harg1 arg6 x1 (delivered c fh) _ (View.read_writes_whole _ _ _) _ _ _ _ _ _ x

/-- What the first point leaves in the output block: the same term, the rows gathered from what the copy delivered. -/
theorem out0A_eq (c : Dev nD) (i : grid0.Coords) (hc : cond0 i) (arg1 : Memref sig .tc .smem S1200 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S1200 .i32) (hrow : RowOk0 arg1 harg1 x1)
    (x3 x4 : Vec F S16x1024 .f32) (fh : HbBuf (F := F) c hbM) :
    out0A c i hc arg1 harg1 arg3 harg3 arg4 harg4 arg5 harg5 arg6 harg6 arg7 harg7 x1 hrow x3 x4 fh
      = k0_pay2 (gathRows x1 (delivered c fh) (i 0).val (i 0).isLt) x3 x4 := by
  unfold out0A
  rw [View.read_writes_eq_canon _ _ _ (cover0A c i hc arg1 harg1 arg3 harg3 arg4 harg4 arg5 harg5 arg6 harg6 arg7 harg7 x1 hrow x3 x4 fh)]
  unfold runA
  dsimp only
  rw [View.canon_unit_zero (S := S1024x640) zero2]
  simp only [View.readAt_eq_ld, Memref.IsWhole.read_unread, View.ld_unit_zero (S := S16x1024) zero2]
  rw [v364A_eq]

/-! ## The output block after a point -/

theorem gathRows_congr (x1 : Vec F S1200 .i32) (x6 : Vec F S6000x1024 .f32) {n n' : ℕ} (h : n = n') (hn : n < 30) (hn' : n' < 30) :
    gathRows x1 x6 n hn = gathRows x1 x6 n' hn' := by subst h; rfl

/-- The one grid coordinate of point `t` is `t`. -/
theorem coords0_val : ∀ t : Fin grid0.N, ((grid0.coords t) 0).val = t.val := by decide +kernel

section Point
variable (a : (pcfg0 (F := F)).Adm)
variable (V : (c : Dev nD) → (b : Ref sig .tc) → Buf (Elt F) ((c : Thread nD τ).loc b))
variable (hH : ∀ c, RowOk0 (F := F) tblM0 (Memref.isWhole_whole _) (tbl0 V c))

/-- The rows point `t` gathers: row `p` is the row of the attribute table that class id `40·t + p` names (the `min`
    only makes the row index total: under the precondition every id names a row). -/
def gath0 (c : Dev nD) (t : Fin 30) : Vec F S40x1024 .f32 :=
  fun y => attr0 V c (ix2 (⟨min (Scalar.indexCast (tbl0 V c (ValueIdx.ix1 (⟨40 * t.val + (y 0).val,
    by have := idx2_lt0 y; omega⟩ : Fin 1200)))).toNat 5999, by omega⟩ : Fin 6000) (y 1))

theorem gath0_eq (c : Dev nD) (t : Fin 30) : gath0 V c t = gathRows (tbl0 V c) (attr0 V c) t.val t.isLt := rfl

/-- After point `t` the output block is the stored term over the gathered rows and the point's mask and overlay blocks. -/
theorem out0At_eq (c : Dev nD) (t : Fin (cfg0 a).N) :
    out0At a V hH c t = k0_pay2 (gath0 V c t) (iblk0 a V c 0 t) (iblk0 a V c 1 t) := by
  unfold out0At
  split
  · rename_i h
    refine (out0A_eq c (grid0.coords t) ((hcond0 t).mpr h) tblM0 (Memref.isWhole_whole _) (ms0_0 a t) (hs0_0 a t) (ms0_1 a t) (hs0_1 a t)
      (ms0_2 a t) (hs0_2 a t) scA0 (Memref.isWhole_whole _) scB0 (Memref.isWhole_whole _) (tbl0 V c) (hH c) (iblk0 a V c 0 t) (iblk0 a V c 1 t)
      (hb0 V c)).trans ?_
    exact congrArg (fun g => k0_pay2 g (iblk0 a V c 0 t) (iblk0 a V c 1 t))
      (gathRows_congr (tbl0 V c) (attr0 V c) (coords0_val t) ((grid0.coords t) 0).isLt t.isLt)
  · rename_i h
    refine (out0B_eq c (grid0.coords t) (fun hc => h ((hcond0 t).mp hc)) tblM0 (Memref.isWhole_whole _) hbM (Memref.isWhole_whole _)
      (ms0_0 a t) (hs0_0 a t) (ms0_1 a t) (hs0_1 a t) (ms0_2 a t) (hs0_2 a t) scA0 (Memref.isWhole_whole _) scB0 (Memref.isWhole_whole _)
      cc0_scratch2 (tbl0 V c) (hH c) (iblk0 a V c 0 t) (iblk0 a V c 1 t) (attr0 V c)).trans ?_
    exact congrArg (fun g => k0_pay2 g (iblk0 a V c 0 t) (iblk0 a V c 1 t))
      (gathRows_congr (tbl0 V c) (attr0 V c) (coords0_val t) ((grid0.coords t) 0).isLt t.isLt)

end Point

/-! ## The output block after a point, at an index (the ideal instance) -/

section Apply
variable (a : (pcfg0 (F := Ideal)).Adm)
variable (V : (c : Dev nD) → (b : Ref sig .tc) → Buf (Elt Ideal) ((c : Thread nD τ).loc b))
variable (hH : ∀ c, RowOk0 (F := Ideal) tblM0 (Memref.isWhole_whole _) (tbl0 V c))

/-- The mask block and the overlay block of point `t`, at their literal type. -/
abbrev mk0 (c : Dev nD) (t : Fin (cfg0 a).N) : Vec Ideal S16x1024 .f32 := iblk0 a V c 0 t
abbrev ov0 (c : Dev nD) (t : Fin (cfg0 a).N) : Vec Ideal S16x1024 .f32 := iblk0 a V c 1 t

/-- Entry `i` of the output block after point `t`: entry `i 0` of the normalised offset row `i 1 % 16` of the row that class id
    `40·t + i 1 / 16` names. -/
theorem out0At_apply (c : Dev nD) (t : Fin (cfg0 a).N) (i : S1024x640.Idx) :
    out0At a V hH c t i
      = Cert.Spec.entry (fun r' k' => mk0 a V c t (ix2 r' k')) (fun r' k' => ov0 a V c t (ix2 r' k'))
          (fun k' => gath0 V c t (ix2 (⟨(i 1).val / 16, by have := idx2_lt1 i; omega⟩ : Fin 40) k'))
          (⟨(i 1).val % 16, Nat.mod_lt _ (by decide)⟩ : Fin 16) (i 0) :=
  (congrFun (out0At_eq a V hH c t) i).trans (Pay.pay0_apply' (gath0 V c t) (mk0 a V c t) (ov0 a V c t) i)

end Apply

end Cert.KernelIdeal.OutVal

end
-- ==== Proof.FinalVal0.lean ====
import proofs.«403142_j86199993631438_1_alg».proof.Proof.Obl0
import proofs.«403142_j86199993631438_1_alg».proof.Proof.OutVal0
import proofs.«403142_j86199993631438_1_alg».proof.Proof.Pay
import Idealize.ShloMosaic.Lib.Pipeline.Value
import Idealize.ShloMosaic.Lib.ValueIdx

set_option maxRecDepth 16384

noncomputable section

namespace Cert.KernelIdeal.FinalVal0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand ValueIdx

variable (a : (pcfg0 (F := Ideal)).Adm)
variable (V : (c : Dev nD) → (b : Ref sig .tc) → Buf (Elt Ideal) ((c : Thread nD τ).loc b))
variable (hH : ∀ c, RowOk0 (F := Ideal) tblM0 (Memref.isWhole_whole _) (tbl0 V c))

/-! ## The first gathering kernel's output array, as one function of the arrays the region finds

The output array has 1024 rows; the grid points write back blocks of 640 columns, point `t` the columns
`640·t … 640·t + 639`, computed from the forty attribute rows the class ids at positions `40·t … 40·t + 39` of the id
table name, the mask and the overlay. Column `q = 16·p + r` belongs to position `p` of the id table and offset row `r`;
since `640 = 16 · 40`, inside block `t` the position of column `y` is `40·t + y / 16` and its offset row `y % 16`. -/

/-- The whole output array: at row `k` and column `q`, entry `k` of the normalised offset row `q % 16` of the class the
    id table names at position `q / 16` (an id past the table's last row reads the last row). -/
def classEntries (c : Dev nD) : S1024x19200.Idx → EReal := fun i =>
  Cert.Spec.entry (fun r' k' => (V c main_v25 : S16x1024.Idx → EReal) (ix2 r' k')) (fun r' k' => (V c main_v41 : S16x1024.Idx → EReal) (ix2 r' k'))
    (fun k' => Hand.attr0 V c (ix2 ⟨min (Scalar.indexCast (Hand.tbl0 V c (ValueIdx.ix1 ⟨(i 1).val / 16, by have := idx2_lt1 i; omega⟩))).toNat 5999, by omega⟩ k'))
    ⟨(i 1).val % 16, Nat.mod_lt _ (by decide)⟩ (i 0)

/-- Two entries agree when their mask, overlay, attribute row, offset row and column agree. -/
theorem entry_congr {mk mk' ov ov' : Fin 16 → Fin 1024 → EReal} {g g' : Fin 1024 → EReal} {r r' : Fin 16} {k k' : Fin 1024}
    (h1 : mk = mk') (h2 : ov = ov') (h3 : g = g') (h4 : r = r') (h5 : k = k') :
    Cert.Spec.entry mk ov g r k = Cert.Spec.entry mk' ov' g' r' k' := by
  subst h1 h2 h3 h4 h5; rfl

/-- The printed index maps, decided once over the grid (none reads the id table): the output's blocks move along the
    columns, and the mask and the overlay stay whole. -/
theorem block_indices (t : Fin (cfg0 a).N) : ((cfg0 a).win 2).index t (0 : Fin 2) = 0 ∧ ((cfg0 a).win 2).index t (1 : Fin 2) = t.val
    ∧ ((cfg0 a).win 0).index t (0 : Fin 2) = 0 ∧ ((cfg0 a).win 0).index t (1 : Fin 2) = 0
    ∧ ((cfg0 a).win 1).index t (0 : Fin 2) = 0 ∧ ((cfg0 a).win 1).index t (1 : Fin 2) = 0 :=
  (by decide +kernel : ∀ t : Fin grid0.N, cc0_transform_3 (grid0.coords t) (0 : Fin 2) = 0 ∧ cc0_transform_3 (grid0.coords t) (1 : Fin 2) = t.val
    ∧ cc0_transform_1 (grid0.coords t) (0 : Fin 2) = 0 ∧ cc0_transform_1 (grid0.coords t) (1 : Fin 2) = 0
    ∧ cc0_transform_2 (grid0.coords t) (0 : Fin 2) = 0 ∧ cc0_transform_2 (grid0.coords t) (1 : Fin 2) = 0) t

/-- The output window is written back at every point, at any contents of the id table (its index map reads none). -/
theorem out_flushed : ∀ t : Fin (cfg0 a).N, ((cfg0 a).win 2).flush t = true :=
  (by decide +kernel : ∀ t : Fin grid0.N, Pipeline.Window.flushOf grid0 true cc0_transform_3 t = true)

/-- An index of the array is in point `t`'s block iff each coordinate is in the block's range on its axis. -/
theorem mem_block (t : Fin (cfg0 a).N) (i : S1024x19200.Idx) :
    i ∈ (((cfg0 a).win 2).blk t).view.set ↔ ∀ b : Fin 2, ((cfg0 a).win 2).index t b * S1024x640.size b ≤ (i b).val ∧ (i b).val < ((cfg0 a).win 2).index t b * S1024x640.size b + S1024x640.size b := by
  have hset : (((cfg0 a).win 2).blk t).view.set = (((cfg0 a).win 2).rect t).set :=
    View.set_slice_whole main_v42 (((cfg0 a).win 2).rect t)
  exact (Iff.of_eq (congrArg (fun s => i ∈ s) hset)).trans Rect.mem_set_unit

/-- The blocks tile the array: column `q` lies in the block of point `q / 640`. -/
theorem blocks_cover (i : S1024x19200.Idx) : ∃ t : Fin (cfg0 a).N, ((cfg0 a).win 2).flush t = true ∧ i ∈ (((cfg0 a).win 2).blk t).view.set := by
  have hi0 : (i 0).val < 1024 := idx2_lt0 i
  have hi1 := idx2_lt1 i
  have hlt : (i 1).val / 640 < (cfg0 a).N := lt_of_lt_of_eq (by omega) N_0.symm
  have ht : (⟨(i 1).val / 640, hlt⟩ : Fin (cfg0 a).N).val = (i 1).val / 640 := rfl
  obtain ⟨e20, e21, -⟩ := block_indices a ⟨(i 1).val / 640, hlt⟩
  refine ⟨⟨(i 1).val / 640, hlt⟩, out_flushed a _, ?_⟩
  rw [mem_block]
  intro b
  match b with
  | ⟨0, _⟩ => show ((cfg0 a).win 2).index ⟨(i 1).val / 640, hlt⟩ (0 : Fin 2) * 1024 ≤ (i 0).val ∧ (i 0).val < ((cfg0 a).win 2).index ⟨(i 1).val / 640, hlt⟩ (0 : Fin 2) * 1024 + 1024; omega
  | ⟨1, _⟩ => show ((cfg0 a).win 2).index ⟨(i 1).val / 640, hlt⟩ (1 : Fin 2) * 640 ≤ (i 1).val ∧ (i 1).val < ((cfg0 a).win 2).index ⟨(i 1).val / 640, hlt⟩ (1 : Fin 2) * 640 + 640; omega

/-- The output block after point `t`, at `y`, is the whole-array function at any array index `q` whose row is `y`'s
    and whose column is `y`'s moved `640·t` further. -/
theorem entries_at (c : Dev nD) (t : Fin (cfg0 a).N) (y : S1024x640.Idx) (q : S1024x19200.Idx)
    (hrow : (q 0).val = (y 0).val) (hcol : (q 1).val = 640 * t.val + (y 1).val) :
    out0At a V hH c t y = classEntries V c q := by
  obtain ⟨e20, e21, e00, e01, e10, e11⟩ := block_indices a t
  refine (OutVal.out0At_apply a V hH c t y).trans ?_
  unfold classEntries OutVal.gath0
  have hy0 : (y 0).val < 1024 := idx2_lt0 y
  have hy1 : (y 1).val < 640 := idx2_lt1 y
  -- the mask and the overlay blocks are the whole arrays
  have hmask : ∀ j : S16x1024.Idx, iblk0 a V c 0 t j = (V c main_v25 : S16x1024.Idx → EReal) j := by
    intro j
    show (V c main_v25 : S16x1024.Idx → EReal) ((((cfg0 a).win 0).blk t).view.emb j) = (V c main_v25 : S16x1024.Idx → EReal) j
    refine congrArg _ ?_
    funext b; apply Fin.ext
    match b with
    | ⟨0, _⟩ => show ((cfg0 a).win 0).index t (0 : Fin 2) * 16 + 1 * (j 0).val = (j 0).val; omega
    | ⟨1, _⟩ => show ((cfg0 a).win 0).index t (1 : Fin 2) * 1024 + 1 * (j 1).val = (j 1).val; omega
  have hover : ∀ j : S16x1024.Idx, iblk0 a V c 1 t j = (V c main_v41 : S16x1024.Idx → EReal) j := by
    intro j
    show (V c main_v41 : S16x1024.Idx → EReal) ((((cfg0 a).win 1).blk t).view.emb j) = (V c main_v41 : S16x1024.Idx → EReal) j
    refine congrArg _ ?_
    funext b; apply Fin.ext
    match b with
    | ⟨0, _⟩ => show ((cfg0 a).win 1).index t (0 : Fin 2) * 16 + 1 * (j 0).val = (j 0).val; omega
    | ⟨1, _⟩ => show ((cfg0 a).win 1).index t (1 : Fin 2) * 1024 + 1 * (j 1).val = (j 1).val; omega
  refine entry_congr ?_ ?_ ?_ ?_ ?_
  · funext r' k'; exact hmask _
  · funext r' k'; exact hover _
  · funext k'
    refine congrArg (fun n => Hand.attr0 V c (ix2 n k')) (Fin.ext ?_)
    refine congrArg (fun p => min (Scalar.indexCast (Hand.tbl0 V c (ValueIdx.ix1 p))).toNat 5999) (Fin.ext ?_)
    show 40 * t.val + (y 1).val / 16 = (q 1).val / 16
    rw [hcol]; omega
  · apply Fin.ext
    show (y 1).val % 16 = (q 1).val % 16
    rw [hcol]; omega
  · apply Fin.ext
    exact hrow.symm

/-- What point `t` writes back is block `t` of the whole-array function. -/
theorem flushed_eq (c : Dev nD) (t : Fin (cfg0 a).N) :
    (dat0 (F := Ideal) a V hH c).flushed 2 t = (((cfg0 a).win 2).blk t).view.read (Elt Ideal) (classEntries V c) := by
  show ((cfg0 a).win 2).cut (grid0.coords t) ((dat0 a V hH c).after 2 t) = _
  rw [after0_2]
  obtain ⟨e20, e21, -⟩ := block_indices a t
  refine funext fun (y : S1024x640.Idx) => ?_
  show out0At a V hH c t y = classEntries V c ((((cfg0 a).win 2).blk t).view.emb y)
  -- the output block's own placement: row as it is, column 640·t further
  refine entries_at a V hH c t y _ ?_ ?_
  · show ((cfg0 a).win 2).index t (0 : Fin 2) * 1024 + 1 * (y 0).val = (y 0).val; omega
  · show ((cfg0 a).win 2).index t (1 : Fin 2) * 640 + 1 * (y 1).val = 640 * t.val + (y 1).val; omega
/-- The output array after the region: at row `k` and column `q`, entry `k` of the normalised offset row `q % 16` of
    the class the id table names at position `q / 16`, over the mask, the overlay, the id table and the attribute
    table as the region finds them. -/
theorem final0 (c : Dev nD) : (Hand.dat0 (F := Ideal) a V hH c).arrAt 2 (cfg0 a).N = fun i : S1024x19200.Idx =>
    Cert.Spec.entry (fun r' k' => (V c main_v25 : S16x1024.Idx → EReal) (ix2 r' k')) (fun r' k' => (V c main_v41 : S16x1024.Idx → EReal) (ix2 r' k'))
      (fun k' => Hand.attr0 V c (ix2 ⟨min (Scalar.indexCast (Hand.tbl0 V c (ValueIdx.ix1 ⟨(i 1).val / 16, by have := idx2_lt1 i; omega⟩))).toNat 5999, by omega⟩ k'))
      ⟨(i 1).val % 16, Nat.mod_lt _ (by decide)⟩ (i 0) :=
  (Hand.dat0 (F := Ideal) a V hH c).arrAt_eq_of_cover 2 (classEntries V c) (fun t _ => flushed_eq a V hH c t) (blocks_cover a)

end Cert.KernelIdeal.FinalVal0

end
-- ==== Proof.OutVal1.lean ====
import proofs.«403142_j86199993631438_1_alg».proof.Proof.Dat1
import proofs.«403142_j86199993631438_1_alg».proof.Proof.Pay
import Idealize.ShloMosaic.Lib.Pipeline.FrameBody
import Idealize.ShloMosaic.Lib.Ring
import Idealize.ShloMosaic.Lib.Tactic

set_option maxRecDepth 16384

noncomputable section

/-!
  What the second gathering region leaves in its output block at each grid point, as a value.

  At point `t` the body reads forty class ids (words `40·t … 40·t + 39` of the id table), copies the forty attribute rows
  they name into a small scratch, and stores the embedded, normalised and transposed block computed from that scratch, the
  mask and the overlay. So the output block after point `t` is the stored term over the gathered rows `gath1`, and
  entry `(k, 16·j + r)` of it is entry `k` of the normalised offset row `r` of the row that id `40·t + j` names.
-/
namespace Cert.KernelIdeal.OutVal1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The forty gathered rows as one function -/

/-- Word `40·n + J` of the id table: the offset the body computes in 32-bit arithmetic is the natural number. -/
theorem wordOff_eq (n J : ℕ) (hn : n < 120) (hJ : J < 40) :
    (Scalar.indexCast (Scalar.addi (Scalar.muli (BitVec.ofNat 32 n) 40#32) (BitVec.ofNat 32 J))).toNat = 40 * n + J := by
  simp [Scalar.indexCast, Scalar.addi, Scalar.muli, IntOp.addi, IntOp.muli, BitVec.toNat_add, BitVec.toNat_mul, BitVec.toNat_ofNat]
  omega

/-- A row cast to a vector and back is the row. -/
theorem shapeCast_1a_a_1a_apply {α : Type} {a : ℕ} (v : (⟨2, ![1, a]⟩ : Shape).Idx → α)
    (h1 : (⟨2, ![1, a]⟩ : Shape).ShapeCasts ⟨1, ![a]⟩) (h2 : (⟨1, ![a]⟩ : Shape).ShapeCasts ⟨2, ![1, a]⟩)
    (y : (⟨2, ![1, a]⟩ : Shape).Idx) :
    shapeCast ⟨2, ![1, a]⟩ (shapeCast ⟨1, ![a]⟩ v h1) h2 y = v y := by
  obtain ⟨u, i, rfl⟩ : ∃ (u : Fin 1) (i : Fin a), y = ix2 u i := ⟨y 0, y 1, eq_ix2 y⟩
  have hu : u = 0 := Fin.ext (by omega)
  subst hu
  exact (shapeCast_a_1a_apply _ h2 0 i).trans (shapeCast_1a_a_apply v h1 i)

/-- The index of word `40·n + p` of the id table. -/
def wordIdx (n : ℕ) (hn : n < 120) (p : Fin 40) : S4800.Idx := ValueIdx.ix1 (⟨40 * n + p.val, by omega⟩ : Fin 4800)

/-- The rows point `n` gathers: row `p` is the row of the table `x6` that word `40·n + p` of the id table `x1` names
    (the `min` only makes the row index total: the ids name rows of the table). -/
def gathRows (x1 : Vec F S4800 .i32) (x6 : Vec F S6000x1024 .f32) (n : ℕ) (hn : n < 120) : Vec F S40x1024 .f32 :=
  fun y => x6 (ix2 (⟨min (Scalar.indexCast (x1 (wordIdx n hn (y 0)))).toNat 5999, by omega⟩ : Fin 6000) (y 1))

/-- One row store's payload, at its local index, is `gathRows` at the index under it. -/
theorem row_piece (i : grid1.Coords) (J : ℕ) (hJ : J < 40)
    (arg1 : Memref sig .tc .smem S4800 .i32) (harg1 : arg1.IsWhole)
    (arg6 : Memref sig .tc .vmem S6000x1024 .f32)
    (x1 : Vec F S4800 .i32) (x6 : Vec F S6000x1024 .f32)
    (f6 : BufTy.Contents (Elt F) arg6.view.ty) (hread : View.read (Elt F) arg6.view f6 = x6)
    (inbJ : ∀ a, (![J, 0] : Fin 2 → ℕ) a + (![1, 1024] : Fin 2 → ℕ) a ≤ S40x1024.size a)
    (inb1 : ∀ a, (![(Scalar.indexCast (Scalar.addi (Scalar.muli (BitVec.ofNat 32 (i 0).val) 40#32) (BitVec.ofNat 32 J))).toNat] : Fin 1 → ℕ) a
      + (![1] : Fin 1 → ℕ) a ≤ S4800.size a)
    (hf : 0 < (Rect.unit (s := S4800) ![(Scalar.indexCast (Scalar.addi (Scalar.muli (BitVec.ofNat 32 (i 0).val) 40#32) (BitVec.ofNat 32 J))).toNat]
      ![1] inb1).toLoadRect.shape.numel)
    (inb6 : ∀ a, (![(Scalar.indexCast (View.readAt (Elt F) arg1.view
        (Rect.unit (s := S4800) ![(Scalar.indexCast (Scalar.addi (Scalar.muli (BitVec.ofNat 32 (i 0).val) 40#32) (BitVec.ofNat 32 J))).toNat]
          ![1] inb1).toLoadRect (harg1.unread x1) (Shape.Idx.first hf))).toNat, 0] : Fin 2 → ℕ) a
      + (![1, 1024] : Fin 2 → ℕ) a ≤ S6000x1024.size a)
    (hs1 : S1x1024.ShapeCasts S1024) (hs2 : S1024.ShapeCasts S1x1024)
    (x : (Rect.unit (s := S40x1024) ![J, 0] ![1, 1024] inbJ).shape.Idx) :
    shapeCast S1x1024 (shapeCast S1024 (View.readAt (Elt F) arg6.view
        (Rect.unit (s := S6000x1024) ![(Scalar.indexCast (View.readAt (Elt F) arg1.view
          (Rect.unit (s := S4800) ![(Scalar.indexCast (Scalar.addi (Scalar.muli (BitVec.ofNat 32 (i 0).val) 40#32) (BitVec.ofNat 32 J))).toNat]
            ![1] inb1).toLoadRect (harg1.unread x1) (Shape.Idx.first hf))).toNat, 0] ![1, 1024] inb6).toLoadRect f6) hs1) hs2 x
      = gathRows x1 x6 (i 0).val (i 0).isLt ((Rect.unit (s := S40x1024) ![J, 0] ![1, 1024] inbJ).emb x) := by
  refine (shapeCast_1a_a_1a_apply _ hs1 hs2 x).trans ?_
  rw [View.readAt_apply, hread]
  unfold gathRows
  have hx0 : (x 0).val = 0 := by have h : (x 0).val < 1 := (x 0).isLt; omega
  -- the id word the row is fetched by is word `40·n + J` of the table
  have hw : View.readAt (Elt F) arg1.view
        (Rect.unit (s := S4800) ![(Scalar.indexCast (Scalar.addi (Scalar.muli (BitVec.ofNat 32 (i 0).val) 40#32) (BitVec.ofNat 32 J))).toNat]
          ![1] inb1).toLoadRect (harg1.unread x1) (Shape.Idx.first hf)
      = x1 (wordIdx (i 0).val (i 0).isLt ((Rect.unit (s := S40x1024) ![J, 0] ![1, 1024] inbJ).emb x 0)) := by
    rw [View.readAt_apply, harg1.read_unread]
    refine congrArg x1 ?_
    funext b; apply Fin.ext
    fin_cases b
    show (Scalar.indexCast (Scalar.addi (Scalar.muli (BitVec.ofNat 32 (i 0).val) 40#32) (BitVec.ofNat 32 J))).toNat + 1 * 0
      = 40 * (i 0).val + (J + 1 * (x 0).val)
    rw [wordOff_eq _ _ (i 0).isLt hJ, hx0]
    omega
  refine congrArg x6 ?_
  funext a; apply Fin.ext
  fin_cases a
  · -- the row: the word itself, which names a row of the table
    show _ + 1 * (x 0).val = min _ 5999
    rw [← hw, hx0, Nat.mul_zero, Nat.add_zero]
    exact (Nat.min_eq_left (Nat.le_of_lt_succ (inb6 0))).symm
  · rfl

/-- The whole-shape rectangle's offsets are zero. -/
theorem zero2 : (![0, 0] : Fin 2 → ℕ) = fun _ => 0 := by funext a; fin_cases a <;> rfl

/-- The forty row stores of a later point read back whole: the gathered rows. -/
theorem v364B_eq (c : Dev nD) (i : grid1.Coords) (arg1 : Memref sig .tc .smem S4800 .i32) (harg1 : arg1.IsWhole)
    (arg6 : Memref sig .tc .vmem S6000x1024 .f32) (harg6 : arg6.IsWhole)
    (arg7 : Memref sig .tc .vmem S40x1024 .f32) (x1 : Vec F S4800 .i32) (hrow : RowOk1 arg1 harg1 x1)
    (x6 : Vec F S6000x1024 .f32) :
    runB1.sl.v364 c i arg1 harg1 arg6 harg6 arg7 x1 hrow x6 = gathRows x1 x6 (i 0).val (i 0).isLt := by
  unfold runB1.sl.v364
  have hcov : ∀ y, ∃ p ∈ runB1.sl.H7_40 c i arg1 harg1 arg6 harg6 x1 hrow x6, y ∈ p.1.set :=
    View.cover_of_tiledL _ S1x1024.size (by sl_kernel_rfl)
  rw [View.readCov_eq_canon_ld _ _ _ hcov, View.ld_unit_zero (S := S40x1024) zero2]
  funext y
  refine View.canon_apply_of_pieces (gathRows x1 x6 (i 0).val (i 0).isLt) _ ?_ y (hcov y)
  unfold runB1.sl.H7_40
  sl_unfold_words
  simp only [k1_pay1]
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => nomatch hp⟩
  all_goals
    intro x
    exact row_piece i _ (by omega) arg1 harg1 arg6 x1 x6 _ (harg6.read_unread x6) _ _ _ _ _ _ x

/-- What a later point leaves in the output block: the stored term over the gathered rows, the mask and the overlay. -/
theorem out1B_eq (c : Dev nD) (i : grid1.Coords) (hc : ¬ cond1 i) (arg1 : Memref sig .tc .smem S4800 .i32) (harg1 : arg1.IsWhole)
    (arg2 : Memref sig .tc .hbm S6000x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (arg8 : DmaSems sig S_) (x1 : Vec F S4800 .i32) (hrow : RowOk1 arg1 harg1 x1)
    (x3 x4 : Vec F S16x1024 .f32) (x6 : Vec F S6000x1024 .f32) :
    out1B c i hc arg1 harg1 arg2 harg2 arg3 harg3 arg4 harg4 arg5 harg5 arg6 harg6 arg7 harg7 arg8 x1 hrow x3 x4 x6
      = k1_pay2 (gathRows x1 x6 (i 0).val (i 0).isLt) x3 x4 := by
  unfold out1B
  rw [View.read_writes_eq_canon _ _ _ (cover1B c i hc arg1 harg1 arg2 harg2 arg3 harg3 arg4 harg4 arg5 harg5 arg6 harg6 arg7 harg7 arg8 x1 hrow x3 x4 x6)]
  unfold runB1
  dsimp only
  rw [View.canon_unit_zero (S := S1024x640) zero2]
  simp only [View.readAt_eq_ld, Memref.IsWhole.read_unread, View.ld_unit_zero (S := S16x1024) zero2]
  rw [v364B_eq]

/-- The forty row stores of the first point read back whole: the gathered rows, from the table the copy delivered. -/
theorem v364A_eq (c : Dev nD) (i : grid1.Coords) (arg1 : Memref sig .tc .smem S4800 .i32) (harg1 : arg1.IsWhole)
    (arg6 : Memref sig .tc .vmem S6000x1024 .f32)
    (arg7 : Memref sig .tc .vmem S40x1024 .f32) (x1 : Vec F S4800 .i32) (hrow : RowOk1 arg1 harg1 x1)
    (fh : HbBuf (F := F) c hbM) :
    runA1.sl.v364 c i arg1 harg1 arg6 arg7 x1 hrow fh = gathRows x1 (delivered c fh) (i 0).val (i 0).isLt := by
  unfold runA1.sl.v364
  have hcov : ∀ y, ∃ p ∈ runA1.sl.H7_40 c i arg1 harg1 arg6 x1 hrow fh, y ∈ p.1.set :=
    View.cover_of_tiledL _ S1x1024.size (by sl_kernel_rfl)
  rw [View.readCov_eq_canon_ld _ _ _ hcov, View.ld_unit_zero (S := S40x1024) zero2]
  funext y
  refine View.canon_apply_of_pieces (gathRows x1 (delivered c fh) (i 0).val (i 0).isLt) _ ?_ y (hcov y)
  unfold runA1.sl.H7_40
  sl_unfold_words
  simp only [k1_pay1]
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => nomatch hp⟩
  all_goals
    intro x
    exact row_piece i _ (by omega) arg1 harg1 arg6 x1 (delivered c fh) _ (View.read_writes_whole _ _ _) _ _ _ _ _ _ x

/-- What the first point leaves in the output block: the same term, the rows gathered from what the copy delivered. -/
theorem out1A_eq (c : Dev nD) (i : grid1.Coords) (hc : cond1 i) (arg1 : Memref sig .tc .smem S4800 .i32) (harg1 : arg1.IsWhole)
    (arg3 : Memref sig .tc .vmem S16x1024 .f32) (harg3 : arg3.IsWhole) (arg4 : Memref sig .tc .vmem S16x1024 .f32) (harg4 : arg4.IsWhole)
    (arg5 : Memref sig .tc .vmem S1024x640 .f32) (harg5 : arg5.IsWhole) (arg6 : Memref sig .tc .vmem S6000x1024 .f32) (harg6 : arg6.IsWhole)
    (arg7 : Memref sig .tc .vmem S40x1024 .f32) (harg7 : arg7.IsWhole) (x1 : Vec F S4800 .i32) (hrow : RowOk1 arg1 harg1 x1)
    (x3 x4 : Vec F S16x1024 .f32) (fh : HbBuf (F := F) c hbM) :
    out1A c i hc arg1 harg1 arg3 harg3 arg4 harg4 arg5 harg5 arg6 harg6 arg7 harg7 x1 hrow x3 x4 fh
      = k1_pay2 (gathRows x1 (delivered c fh) (i 0).val (i 0).isLt) x3 x4 := by
  unfold out1A
  rw [View.read_writes_eq_canon _ _ _ (cover1A c i hc arg1 harg1 arg3 harg3 arg4 harg4 arg5 harg5 arg6 harg6 arg7 harg7 x1 hrow x3 x4 fh)]
  unfold runA1
  dsimp only
  rw [View.canon_unit_zero (S := S1024x640) zero2]
  simp only [View.readAt_eq_ld, Memref.IsWhole.read_unread, View.ld_unit_zero (S := S16x1024) zero2]
  rw [v364A_eq]

/-! ## The output block after a point -/

theorem gathRows_congr (x1 : Vec F S4800 .i32) (x6 : Vec F S6000x1024 .f32) {n n' : ℕ} (h : n = n') (hn : n < 120) (hn' : n' < 120) :
    gathRows x1 x6 n hn = gathRows x1 x6 n' hn' := by subst h; rfl

/-- The one grid coordinate of point `t` is `t`. -/
theorem coords1_val : ∀ t : Fin grid1.N, ((grid1.coords t) 0).val = t.val := by decide +kernel

section Point
variable (a : (pcfg1 (F := F)).Adm)
variable (V : (c : Dev nD) → (b : Ref sig .tc) → Buf (Elt F) ((c : Thread nD τ).loc b))
variable (hH : ∀ c, RowOk1 (F := F) tblM1 (Memref.isWhole_whole _) (tbl1 V c))

/-- The rows point `t` gathers: row `p` is the row of the attribute table that class id `40·t + p` names (the `min`
    only makes the row index total: under the precondition every id names a row). -/
def gath1 (c : Dev nD) (t : Fin 120) : Vec F S40x1024 .f32 :=
  fun y => attr1 V c (ix2 (⟨min (Scalar.indexCast (tbl1 V c (ValueIdx.ix1 (⟨40 * t.val + (y 0).val,
    by have := idx2_lt0 y; omega⟩ : Fin 4800)))).toNat 5999, by omega⟩ : Fin 6000) (y 1))

theorem gath1_eq (c : Dev nD) (t : Fin 120) : gath1 V c t = gathRows (tbl1 V c) (attr1 V c) t.val t.isLt := rfl

/-- After point `t` the output block is the stored term over the gathered rows and the point's mask and overlay blocks. -/
theorem out1At_eq (c : Dev nD) (t : Fin (cfg1 a).N) :
    out1At a V hH c t = k1_pay2 (gath1 V c t) (iblk1 a V c 0 t) (iblk1 a V c 1 t) := by
  unfold out1At
  split
  · rename_i h
    refine (out1A_eq c (grid1.coords t) ((hcond1 t).mpr h) tblM1 (Memref.isWhole_whole _) (ms1_0 a t) (hs1_0 a t) (ms1_1 a t) (hs1_1 a t)
      (ms1_2 a t) (hs1_2 a t) scA1 (Memref.isWhole_whole _) scB1 (Memref.isWhole_whole _) (tbl1 V c) (hH c) (iblk1 a V c 0 t) (iblk1 a V c 1 t)
      (hb1 V c)).trans ?_
    exact congrArg (fun g => k1_pay2 g (iblk1 a V c 0 t) (iblk1 a V c 1 t))
      (gathRows_congr (tbl1 V c) (attr1 V c) (coords1_val t) ((grid1.coords t) 0).isLt t.isLt)
  · rename_i h
    refine (out1B_eq c (grid1.coords t) (fun hc => h ((hcond1 t).mp hc)) tblM1 (Memref.isWhole_whole _) hbM (Memref.isWhole_whole _)
      (ms1_0 a t) (hs1_0 a t) (ms1_1 a t) (hs1_1 a t) (ms1_2 a t) (hs1_2 a t) scA1 (Memref.isWhole_whole _) scB1 (Memref.isWhole_whole _)
      cc1_scratch2 (tbl1 V c) (hH c) (iblk1 a V c 0 t) (iblk1 a V c 1 t) (attr1 V c)).trans ?_
    exact congrArg (fun g => k1_pay2 g (iblk1 a V c 0 t) (iblk1 a V c 1 t))
      (gathRows_congr (tbl1 V c) (attr1 V c) (coords1_val t) ((grid1.coords t) 0).isLt t.isLt)

end Point

/-! ## The output block after a point, at an index (the ideal instance) -/

section Apply
variable (a : (pcfg1 (F := Ideal)).Adm)
variable (V : (c : Dev nD) → (b : Ref sig .tc) → Buf (Elt Ideal) ((c : Thread nD τ).loc b))
variable (hH : ∀ c, RowOk1 (F := Ideal) tblM1 (Memref.isWhole_whole _) (tbl1 V c))

/-- The mask block and the overlay block of point `t`, at their literal type. -/
abbrev mk1 (c : Dev nD) (t : Fin (cfg1 a).N) : Vec Ideal S16x1024 .f32 := iblk1 a V c 0 t
abbrev ov1 (c : Dev nD) (t : Fin (cfg1 a).N) : Vec Ideal S16x1024 .f32 := iblk1 a V c 1 t

/-- Entry `i` of the output block after point `t`: entry `i 0` of the normalised offset row `i 1 % 16` of the row that class id
    `40·t + i 1 / 16` names. -/
theorem out1At_apply (c : Dev nD) (t : Fin (cfg1 a).N) (i : S1024x640.Idx) :
    out1At a V hH c t i
      = Cert.Spec.entry (fun r' k' => mk1 a V c t (ix2 r' k')) (fun r' k' => ov1 a V c t (ix2 r' k'))
          (fun k' => gath1 V c t (ix2 (⟨(i 1).val / 16, by have := idx2_lt1 i; omega⟩ : Fin 40) k'))
          (⟨(i 1).val % 16, Nat.mod_lt _ (by decide)⟩ : Fin 16) (i 0) :=
  (congrFun (out1At_eq a V hH c t) i).trans (Pay.pay1_apply' (gath1 V c t) (mk1 a V c t) (ov1 a V c t) i)

end Apply

end Cert.KernelIdeal.OutVal1

end
-- ==== Proof.FinalVal1.lean ====
import proofs.«403142_j86199993631438_1_alg».proof.Proof.Obl1
import proofs.«403142_j86199993631438_1_alg».proof.Proof.OutVal1
import proofs.«403142_j86199993631438_1_alg».proof.Proof.Pay
import Idealize.ShloMosaic.Lib.Pipeline.Value
import Idealize.ShloMosaic.Lib.ValueIdx

set_option maxRecDepth 16384

noncomputable section

namespace Cert.KernelIdeal.FinalVal1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand ValueIdx

variable (a : (pcfg1 (F := Ideal)).Adm)
variable (V : (c : Dev nD) → (b : Ref sig .tc) → Buf (Elt Ideal) ((c : Thread nD τ).loc b))
variable (hH : ∀ c, RowOk1 (F := Ideal) tblM1 (Memref.isWhole_whole _) (tbl1 V c))

/-! ## The second gathering kernel's output array, as one function of the arrays the region finds

The output array has 1024 rows; the grid points write back blocks of 640 columns, point `t` the columns
`640·t … 640·t + 639`, computed from the forty attribute rows the class ids at positions `40·t … 40·t + 39` of the id
table name, the mask and the overlay. Column `q = 16·p + r` belongs to position `p` of the id table and offset row `r`;
since `640 = 16 · 40`, inside block `t` the position of column `y` is `40·t + y / 16` and its offset row `y % 16`. -/

/-- The whole output array: at row `k` and column `q`, entry `k` of the normalised offset row `q % 16` of the class the
    id table names at position `q / 16` (an id past the table's last row reads the last row). -/
def classEntries (c : Dev nD) : S1024x76800.Idx → EReal := fun i =>
  Cert.Spec.entry (fun r' k' => (V c main_v25 : S16x1024.Idx → EReal) (ix2 r' k')) (fun r' k' => (V c main_v41 : S16x1024.Idx → EReal) (ix2 r' k'))
    (fun k' => Hand.attr1 V c (ix2 ⟨min (Scalar.indexCast (Hand.tbl1 V c (ValueIdx.ix1 ⟨(i 1).val / 16, by have := idx2_lt1 i; omega⟩))).toNat 5999, by omega⟩ k'))
    ⟨(i 1).val % 16, Nat.mod_lt _ (by decide)⟩ (i 0)

/-- Two entries agree when their mask, overlay, attribute row, offset row and column agree. -/
theorem entry_congr {mk mk' ov ov' : Fin 16 → Fin 1024 → EReal} {g g' : Fin 1024 → EReal} {r r' : Fin 16} {k k' : Fin 1024}
    (h1 : mk = mk') (h2 : ov = ov') (h3 : g = g') (h4 : r = r') (h5 : k = k') :
    Cert.Spec.entry mk ov g r k = Cert.Spec.entry mk' ov' g' r' k' := by
  subst h1 h2 h3 h4 h5; rfl

/-- The printed index maps, decided once over the grid (none reads the id table): the output's blocks move along the
    columns, and the mask and the overlay stay whole. -/
theorem block_indices (t : Fin (cfg1 a).N) : ((cfg1 a).win 2).index t (0 : Fin 2) = 0 ∧ ((cfg1 a).win 2).index t (1 : Fin 2) = t.val
    ∧ ((cfg1 a).win 0).index t (0 : Fin 2) = 0 ∧ ((cfg1 a).win 0).index t (1 : Fin 2) = 0
    ∧ ((cfg1 a).win 1).index t (0 : Fin 2) = 0 ∧ ((cfg1 a).win 1).index t (1 : Fin 2) = 0 :=
  (by decide +kernel : ∀ t : Fin grid1.N, cc1_transform_3 (grid1.coords t) (0 : Fin 2) = 0 ∧ cc1_transform_3 (grid1.coords t) (1 : Fin 2) = t.val
    ∧ cc1_transform_1 (grid1.coords t) (0 : Fin 2) = 0 ∧ cc1_transform_1 (grid1.coords t) (1 : Fin 2) = 0
    ∧ cc1_transform_2 (grid1.coords t) (0 : Fin 2) = 0 ∧ cc1_transform_2 (grid1.coords t) (1 : Fin 2) = 0) t

/-- The output window is written back at every point, at any contents of the id table (its index map reads none). -/
theorem out_flushed : ∀ t : Fin (cfg1 a).N, ((cfg1 a).win 2).flush t = true :=
  (by decide +kernel : ∀ t : Fin grid1.N, Pipeline.Window.flushOf grid1 true cc1_transform_3 t = true)

/-- An index of the array is in point `t`'s block iff each coordinate is in the block's range on its axis. -/
theorem mem_block (t : Fin (cfg1 a).N) (i : S1024x76800.Idx) :
    i ∈ (((cfg1 a).win 2).blk t).view.set ↔ ∀ b : Fin 2, ((cfg1 a).win 2).index t b * S1024x640.size b ≤ (i b).val ∧ (i b).val < ((cfg1 a).win 2).index t b * S1024x640.size b + S1024x640.size b := by
  have hset : (((cfg1 a).win 2).blk t).view.set = (((cfg1 a).win 2).rect t).set :=
    View.set_slice_whole main_v43 (((cfg1 a).win 2).rect t)
  exact (Iff.of_eq (congrArg (fun s => i ∈ s) hset)).trans Rect.mem_set_unit

/-- The blocks tile the array: column `q` lies in the block of point `q / 640`. -/
theorem blocks_cover (i : S1024x76800.Idx) : ∃ t : Fin (cfg1 a).N, ((cfg1 a).win 2).flush t = true ∧ i ∈ (((cfg1 a).win 2).blk t).view.set := by
  have hi0 : (i 0).val < 1024 := idx2_lt0 i
  have hi1 := idx2_lt1 i
  have hlt : (i 1).val / 640 < (cfg1 a).N := lt_of_lt_of_eq (by omega) N_1.symm
  have ht : (⟨(i 1).val / 640, hlt⟩ : Fin (cfg1 a).N).val = (i 1).val / 640 := rfl
  obtain ⟨e20, e21, -⟩ := block_indices a ⟨(i 1).val / 640, hlt⟩
  refine ⟨⟨(i 1).val / 640, hlt⟩, out_flushed a _, ?_⟩
  rw [mem_block]
  intro b
  match b with
  | ⟨0, _⟩ => show ((cfg1 a).win 2).index ⟨(i 1).val / 640, hlt⟩ (0 : Fin 2) * 1024 ≤ (i 0).val ∧ (i 0).val < ((cfg1 a).win 2).index ⟨(i 1).val / 640, hlt⟩ (0 : Fin 2) * 1024 + 1024; omega
  | ⟨1, _⟩ => show ((cfg1 a).win 2).index ⟨(i 1).val / 640, hlt⟩ (1 : Fin 2) * 640 ≤ (i 1).val ∧ (i 1).val < ((cfg1 a).win 2).index ⟨(i 1).val / 640, hlt⟩ (1 : Fin 2) * 640 + 640; omega

/-- The output block after point `t`, at `y`, is the whole-array function at any array index `q` whose row is `y`'s
    and whose column is `y`'s moved `640·t` further. -/
theorem entries_at (c : Dev nD) (t : Fin (cfg1 a).N) (y : S1024x640.Idx) (q : S1024x76800.Idx)
    (hrow : (q 0).val = (y 0).val) (hcol : (q 1).val = 640 * t.val + (y 1).val) :
    out1At a V hH c t y = classEntries V c q := by
  obtain ⟨e20, e21, e00, e01, e10, e11⟩ := block_indices a t
  refine (OutVal1.out1At_apply a V hH c t y).trans ?_
  unfold classEntries OutVal1.gath1
  have hy0 : (y 0).val < 1024 := idx2_lt0 y
  have hy1 : (y 1).val < 640 := idx2_lt1 y
  -- the mask and the overlay blocks are the whole arrays
  have hmask : ∀ j : S16x1024.Idx, iblk1 a V c 0 t j = (V c main_v25 : S16x1024.Idx → EReal) j := by
    intro j
    show (V c main_v25 : S16x1024.Idx → EReal) ((((cfg1 a).win 0).blk t).view.emb j) = (V c main_v25 : S16x1024.Idx → EReal) j
    refine congrArg _ ?_
    funext b; apply Fin.ext
    match b with
    | ⟨0, _⟩ => show ((cfg1 a).win 0).index t (0 : Fin 2) * 16 + 1 * (j 0).val = (j 0).val; omega
    | ⟨1, _⟩ => show ((cfg1 a).win 0).index t (1 : Fin 2) * 1024 + 1 * (j 1).val = (j 1).val; omega
  have hover : ∀ j : S16x1024.Idx, iblk1 a V c 1 t j = (V c main_v41 : S16x1024.Idx → EReal) j := by
    intro j
    show (V c main_v41 : S16x1024.Idx → EReal) ((((cfg1 a).win 1).blk t).view.emb j) = (V c main_v41 : S16x1024.Idx → EReal) j
    refine congrArg _ ?_
    funext b; apply Fin.ext
    match b with
    | ⟨0, _⟩ => show ((cfg1 a).win 1).index t (0 : Fin 2) * 16 + 1 * (j 0).val = (j 0).val; omega
    | ⟨1, _⟩ => show ((cfg1 a).win 1).index t (1 : Fin 2) * 1024 + 1 * (j 1).val = (j 1).val; omega
  refine entry_congr ?_ ?_ ?_ ?_ ?_
  · funext r' k'; exact hmask _
  · funext r' k'; exact hover _
  · funext k'
    refine congrArg (fun n => Hand.attr1 V c (ix2 n k')) (Fin.ext ?_)
    refine congrArg (fun p => min (Scalar.indexCast (Hand.tbl1 V c (ValueIdx.ix1 p))).toNat 5999) (Fin.ext ?_)
    show 40 * t.val + (y 1).val / 16 = (q 1).val / 16
    rw [hcol]; omega
  · apply Fin.ext
    show (y 1).val % 16 = (q 1).val % 16
    rw [hcol]; omega
  · apply Fin.ext
    exact hrow.symm

/-- What point `t` writes back is block `t` of the whole-array function. -/
theorem flushed_eq (c : Dev nD) (t : Fin (cfg1 a).N) :
    (dat1 (F := Ideal) a V hH c).flushed 2 t = (((cfg1 a).win 2).blk t).view.read (Elt Ideal) (classEntries V c) := by
  show ((cfg1 a).win 2).cut (grid1.coords t) ((dat1 a V hH c).after 2 t) = _
  rw [after1_2]
  obtain ⟨e20, e21, -⟩ := block_indices a t
  refine funext fun (y : S1024x640.Idx) => ?_
  show out1At a V hH c t y = classEntries V c ((((cfg1 a).win 2).blk t).view.emb y)
  -- the output block's own placement: row as it is, column 640·t further
  refine entries_at a V hH c t y _ ?_ ?_
  · show ((cfg1 a).win 2).index t (0 : Fin 2) * 1024 + 1 * (y 0).val = (y 0).val; omega
  · show ((cfg1 a).win 2).index t (1 : Fin 2) * 640 + 1 * (y 1).val = 640 * t.val + (y 1).val; omega
/-- The output array after the region: at row `k` and column `q`, entry `k` of the normalised offset row `q % 16` of
    the class the id table names at position `q / 16`, over the mask, the overlay, the id table and the attribute
    table as the region finds them. -/
theorem final1 (c : Dev nD) : (Hand.dat1 (F := Ideal) a V hH c).arrAt 2 (cfg1 a).N = fun i : S1024x76800.Idx =>
    Cert.Spec.entry (fun r' k' => (V c main_v25 : S16x1024.Idx → EReal) (ix2 r' k')) (fun r' k' => (V c main_v41 : S16x1024.Idx → EReal) (ix2 r' k'))
      (fun k' => Hand.attr1 V c (ix2 ⟨min (Scalar.indexCast (Hand.tbl1 V c (ValueIdx.ix1 ⟨(i 1).val / 16, by have := idx2_lt1 i; omega⟩))).toNat 5999, by omega⟩ k'))
      ⟨(i 1).val % 16, Nat.mod_lt _ (by decide)⟩ (i 0) :=
  (Hand.dat1 (F := Ideal) a V hH c).arrAt_eq_of_cover 2 (classEntries V c) (fun t _ => flushed_eq a V hH c t) (blocks_cover a)

end Cert.KernelIdeal.FinalVal1

end
-- ==== Proof.FinalVal2.lean ====
import proofs.«403142_j86199993631438_1_alg».proof.Proof.Dat2
import proofs.«403142_j86199993631438_1_alg».proof.Proof.Pay
import Idealize.ShloMosaic.Lib.Pipeline.Value
import Idealize.ShloMosaic.Lib.ValueIdx

set_option maxRecDepth 16384

noncomputable section

namespace Cert.KernelIdeal.FinalVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand ValueIdx

variable (V : (c : Dev nD) → (b : Ref sig .tc) → Buf (Elt Ideal) ((c : Thread nD τ).loc b))

/-! ## The third kernel's output array, as one function of the arrays the region finds

The output array has 1024 rows and 96000 columns. The fifty grid points write back fifty blocks of 1920 columns, point
`t` the columns `1920·t … 1920·t + 1919`, computed from rows `120·t … 120·t + 119` of the attribute table, the mask and
the overlay. Column `q = 16·n + r` belongs to class `n` and offset row `r`; since `1920 = 16 · 120`, inside block `t` the
class of column `y` is `120·t + y / 16` and its offset row `y % 16`. -/

/-- The whole output array: at row `k` and column `q`, entry `k` of the normalised offset row `q % 16` of class `q / 16`. -/
def classEntries (c : Dev nD) : S1024x96000.Idx → EReal := fun i =>
  Cert.Spec.entry (fun r' k' => (V c main_v25 : S16x1024.Idx → EReal) (ix2 r' k')) (fun r' k' => (V c main_v41 : S16x1024.Idx → EReal) (ix2 r' k'))
    (fun k' => (V c main_arg0 : S6000x1024.Idx → EReal) (ix2 ⟨(i 1).val / 16, by have := idx2_lt1 i; omega⟩ k')) ⟨(i 1).val % 16, Nat.mod_lt _ (by decide)⟩ (i 0)

/-- Two entries agree when their mask, overlay, attribute row, offset row and column agree. -/
theorem entry_congr {mk mk' ov ov' : Fin 16 → Fin 1024 → EReal} {a a' : Fin 1024 → EReal} {r r' : Fin 16} {k k' : Fin 1024}
    (h1 : mk = mk') (h2 : ov = ov') (h3 : a = a') (h4 : r = r') (h5 : k = k') :
    Cert.Spec.entry mk ov a r k = Cert.Spec.entry mk' ov' a' r' k' := by
  subst h1 h2 h3 h4 h5; rfl

/-- The printed index maps, decided once over the fifty points: the output's blocks move along the columns, the
    attribute table's along the rows, and the mask and the overlay stay whole. -/
theorem block_indices : ∀ t : Fin cfg2.N, win2_3.index t (0 : Fin 2) = 0 ∧ win2_3.index t (1 : Fin 2) = t.val
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point `t` writes back is block `t` of the whole-array function. -/
theorem flushed_eq (c : Dev nD) (t : Fin cfg2.N) :
    (dat2 (F := Ideal) V c).flushed 3 t = ((cfg2.win 3).blk t).view.read (Elt Ideal) (classEntries V c) := by
  show (cfg2.win 3).cut (grid2.coords t) ((dat2 V c).after 3 t) = _
  rw [after2_3]
  obtain ⟨e30, e31, e00, e01, e10, e11, e20, e21⟩ := block_indices t
  funext y
  show out2 (iblk2 V c 0 t) (iblk2 V c 1 t) (iblk2 V c 2 t) y = classEntries V c (((cfg2.win 3).blk t).view.emb y)
  unfold out2
  rw [Pay.pay2_apply']
  unfold classEntries
  have hy0 : (y 0).val < 1024 := (y 0).isLt
  have hy1 : (y 1).val < 1920 := (y 1).isLt
  have ht50 : t.val < 50 := lt_of_lt_of_eq t.isLt (N_2 : cfg2.N = 50)
  -- the output block's own placement: row as it is, column 1920·t further
  have hrow : ((((cfg2.win 3).blk t).view.emb y) 0).val = (y 0).val := by
    show win2_3.index t (0 : Fin 2) * 1024 + 1 * (y 0).val = (y 0).val; omega
  have hcol : ((((cfg2.win 3).blk t).view.emb y) 1).val = 1920 * t.val + (y 1).val := by
    show win2_3.index t (1 : Fin 2) * 1920 + 1 * (y 1).val = 1920 * t.val + (y 1).val; omega
  -- the mask and the overlay blocks are the whole arrays
  have hmask : ∀ j : S16x1024.Idx, iblk2 V c 1 t j = (V c main_v25 : S16x1024.Idx → EReal) j := by
    intro j
    show (V c main_v25 : S16x1024.Idx → EReal) (((cfg2.win 1).blk t).view.emb j) = (V c main_v25 : S16x1024.Idx → EReal) j
    refine congrArg _ ?_
    funext a; apply Fin.ext
    match a with
    | ⟨0, _⟩ => show win2_1.index t (0 : Fin 2) * 16 + 1 * (j 0).val = (j 0).val; omega
    | ⟨1, _⟩ => show win2_1.index t (1 : Fin 2) * 1024 + 1 * (j 1).val = (j 1).val; omega
  have hover : ∀ j : S16x1024.Idx, iblk2 V c 2 t j = (V c main_v41 : S16x1024.Idx → EReal) j := by
    intro j
    show (V c main_v41 : S16x1024.Idx → EReal) (((cfg2.win 2).blk t).view.emb j) = (V c main_v41 : S16x1024.Idx → EReal) j
    refine congrArg _ ?_
    funext a; apply Fin.ext
    match a with
    | ⟨0, _⟩ => show win2_2.index t (0 : Fin 2) * 16 + 1 * (j 0).val = (j 0).val; omega
    | ⟨1, _⟩ => show win2_2.index t (1 : Fin 2) * 1024 + 1 * (j 1).val = (j 1).val; omega
  -- the attribute block is rows 120·t … of the table
  have hattr : ∀ (n : Fin 120) (k' : Fin 1024), iblk2 V c 0 t (ix2 n k')
      = (V c main_arg0 : S6000x1024.Idx → EReal) (ix2 (⟨120 * t.val + n.val, by have := n.isLt; omega⟩ : Fin 6000) k') := by
    intro n k'
    show (V c main_arg0 : S6000x1024.Idx → EReal) (((cfg2.win 0).blk t).view.emb (ix2 n k')) = _
    refine congrArg _ ?_
    funext a; apply Fin.ext
    match a with
    | ⟨0, _⟩ => show win2_0.index t (0 : Fin 2) * 120 + 1 * n.val = 120 * t.val + n.val; omega
    | ⟨1, _⟩ => show win2_0.index t (1 : Fin 2) * 1024 + 1 * k'.val = k'.val; omega
  refine entry_congr ?_ ?_ ?_ ?_ ?_
  · funext r' k'; exact hmask _
  · funext r' k'; exact hover _
  · funext k'
    rw [hattr]
    refine congrArg _ (congrArg (fun n => ix2 n k') (Fin.ext ?_))
    show 120 * t.val + (y 1).val / 16 = ((((cfg2.win 3).blk t).view.emb y) 1).val / 16
    rw [hcol]; omega
  · apply Fin.ext
    show (y 1).val % 16 = ((((cfg2.win 3).blk t).view.emb y) 1).val % 16
    rw [hcol]; omega
  · apply Fin.ext
    exact hrow.symm

/-- An index of the array is in point `t`'s block iff each coordinate is in the block's range on its axis. -/
theorem mem_block (t : Fin cfg2.N) (i : S1024x96000.Idx) :
    i ∈ ((cfg2.win 3).blk t).view.set ↔ ∀ a : Fin 2, win2_3.index t a * S1024x1920.size a ≤ (i a).val ∧ (i a).val < win2_3.index t a * S1024x1920.size a + S1024x1920.size a := by
  show i ∈ ((View.whole main_v44).slice (win2_3.rect t)).set ↔ _
  rw [View.set_slice_whole, Rect.mem_set_unit]
  exact Iff.rfl

/-- The fifty blocks tile the array: column `q` lies in the block of point `q / 1920`. -/
theorem blocks_cover (i : S1024x96000.Idx) : ∃ t : Fin cfg2.N, (cfg2.win 3).flush t = true ∧ i ∈ ((cfg2.win 3).blk t).view.set := by
  have hi0 : (i 0).val < 1024 := idx2_lt0 i
  have hi1 : (i 1).val < 96000 := idx2_lt1 i
  have hN : cfg2.N = 50 := N_2
  have hlt : (i 1).val / 1920 < cfg2.N := by rw [hN]; omega
  have ht : (⟨(i 1).val / 1920, hlt⟩ : Fin cfg2.N).val = (i 1).val / 1920 := rfl
  obtain ⟨e30, e31, -⟩ := block_indices ⟨(i 1).val / 1920, hlt⟩
  refine ⟨⟨(i 1).val / 1920, hlt⟩, flush2_3 _, ?_⟩
  rw [mem_block]
  intro a
  match a with
  | ⟨0, _⟩ => show win2_3.index ⟨(i 1).val / 1920, hlt⟩ (0 : Fin 2) * 1024 ≤ (i 0).val ∧ (i 0).val < win2_3.index ⟨(i 1).val / 1920, hlt⟩ (0 : Fin 2) * 1024 + 1024; omega
  | ⟨1, _⟩ => show win2_3.index ⟨(i 1).val / 1920, hlt⟩ (1 : Fin 2) * 1920 ≤ (i 1).val ∧ (i 1).val < win2_3.index ⟨(i 1).val / 1920, hlt⟩ (1 : Fin 2) * 1920 + 1920; omega

/-- The output array after the region: at row `k` and column `q`, entry `k` of the normalised offset row `q % 16` of
    class `q / 16`, over the mask, the overlay and the attribute table as the region finds them. -/
theorem final2 (c : Dev nD) : (Hand.dat2 (F := Ideal) V c).arrAt 3 cfg2.N = fun i : S1024x96000.Idx =>
    Cert.Spec.entry (fun r' k' => (V c main_v25 : S16x1024.Idx → EReal) (ix2 r' k')) (fun r' k' => (V c main_v41 : S16x1024.Idx → EReal) (ix2 r' k'))
      (fun k' => (V c main_arg0 : S6000x1024.Idx → EReal) (ix2 ⟨(i 1).val / 16, by have := idx2_lt1 i; omega⟩ k')) ⟨(i 1).val % 16, Nat.mod_lt _ (by decide)⟩ (i 0) :=
  (Hand.dat2 (F := Ideal) V c).arrAt_eq_of_cover 3 (classEntries V c) (fun t _ => flushed_eq V c t) (blocks_cover)

end Cert.KernelIdeal.FinalVal

end
-- ==== Proof.Target.lean ====
/-
  The three results as functions of the argument arrays' contents: what both programs are shown to compute.

  `A` is the attribute table, `mk` and `ov` the sixteen-row mask and overlay, `ids` a class-id array. Column `q` of a
  result belongs to class position `q / 16` and offset row `q % 16`; its entry in row `k` is entry `k` of that offset row
  of the class, embedded and normalised (`Spec.entry`). A selected result reads the class through the id array (an id
  in range names its row; the `min` only makes the row index total), the whole-table result takes class `q / 16` itself.
-/
import proofs.«403142_j86199993631438_1_alg».proof.Proof.Spec

noncomputable section

namespace Cert.Target

open Idealize.ShloMosaic ValueIdx

/-- The row an id names, made total. -/
def rowOf (w : BitVec 32) : Fin 6000 := ⟨min w.toNat 5999, by omega⟩

/-- An id in range names the row of its value. -/
theorem rowOf_val (w : BitVec 32) (h : w.toNat < 6000) : (rowOf w).val = w.toNat := by
  unfold rowOf; simp only []; omega

/-- The result selected by the 1200 unseen-class ids. -/
def sel0 (A : (⟨2, ![6000, 1024]⟩ : Shape).Idx → EReal) (mk ov : (⟨2, ![16, 1024]⟩ : Shape).Idx → EReal)
    (ids : (⟨1, ![1200]⟩ : Shape).Idx → BitVec 32) : (⟨2, ![1024, 19200]⟩ : Shape).Idx → EReal :=
  fun i => Cert.Spec.entry (fun r k => mk (ix2 r k)) (fun r k => ov (ix2 r k))
    (fun k => A (ix2 (rowOf (ids (ix1 ⟨(i 1).val / 16, by have := idx2_lt1 i; omega⟩))) k))
    ⟨(i 1).val % 16, Nat.mod_lt _ (by decide)⟩ (i 0)

/-- The result selected by the 4800 seen-class ids. -/
def sel1 (A : (⟨2, ![6000, 1024]⟩ : Shape).Idx → EReal) (mk ov : (⟨2, ![16, 1024]⟩ : Shape).Idx → EReal)
    (ids : (⟨1, ![4800]⟩ : Shape).Idx → BitVec 32) : (⟨2, ![1024, 76800]⟩ : Shape).Idx → EReal :=
  fun i => Cert.Spec.entry (fun r k => mk (ix2 r k)) (fun r k => ov (ix2 r k))
    (fun k => A (ix2 (rowOf (ids (ix1 ⟨(i 1).val / 16, by have := idx2_lt1 i; omega⟩))) k))
    ⟨(i 1).val % 16, Nat.mod_lt _ (by decide)⟩ (i 0)

/-- The result over all 6000 classes in order. -/
def all2 (A : (⟨2, ![6000, 1024]⟩ : Shape).Idx → EReal) (mk ov : (⟨2, ![16, 1024]⟩ : Shape).Idx → EReal) :
    (⟨2, ![1024, 96000]⟩ : Shape).Idx → EReal :=
  fun i => Cert.Spec.entry (fun r k => mk (ix2 r k)) (fun r k => ov (ix2 r k))
    (fun k => A (ix2 ⟨(i 1).val / 16, by have := idx2_lt1 i; omega⟩ k))
    ⟨(i 1).val % 16, Nat.mod_lt _ (by decide)⟩ (i 0)

end Cert.Target

end
-- ==== Proof.KernelValue.lean ====
import proofs.«403142_j86199993631438_1_alg».proof.Proof.PDats
import proofs.«403142_j86199993631438_1_alg».proof.Proof.FinalVal0
import proofs.«403142_j86199993631438_1_alg».proof.Proof.FinalVal1
import proofs.«403142_j86199993631438_1_alg».proof.Proof.FinalVal2
import proofs.«403142_j86199993631438_1_alg».proof.Proof.Target
import proofs.«403142_j86199993631438_1_alg».proof.Proof.HypsOfPre
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The three output arrays as functions of the launch memory

Each region's output array is the corresponding target function of the attribute table and the class ids as launched
and of the mask and overlay arrays the host operations left: nothing between the host operations and a region writes
the arrays that region reads. -/

variable (m : (ℓ : Loc nD τ sig) → Buf (Elt Ideal) ℓ) (hH : IdsOk m)

/-- The attribute table reaches the third region as launched, the mask and the overlay as the host operations left them. -/
theorem Vr3_arg0 (c : Dev nD) : Vr3 m hH c main_arg0 = m ((c : Thread nD τ).loc main_arg0) :=
  (Gen.V3_of m (outsB m hH) c main_arg0 (by decide)).trans <| (Gen.V2_of m (outsB m hH) c main_arg0 (by decide)).trans <|
    (Gen.V1_of m c main_arg0 (by decide)).trans rfl
theorem Vr3_v25 (c : Dev nD) : Vr3 m hH c main_v25 = Gen.V1 m c main_v25 :=
  (Gen.V3_of m (outsB m hH) c main_v25 (by decide)).trans (Gen.V2_of m (outsB m hH) c main_v25 (by decide))
theorem Vr3_v41 (c : Dev nD) : Vr3 m hH c main_v41 = Gen.V1 m c main_v41 :=
  (Gen.V3_of m (outsB m hH) c main_v41 (by decide)).trans (Gen.V2_of m (outsB m hH) c main_v41 (by decide))

/-- The third region's output array: the result over all classes in order. -/
theorem o2_eq (c : Dev nD) :
    o2 m hH c = Cert.Target.all2 (m ((c : Thread nD τ).loc main_arg0)) (Gen.V1 m c main_v25) (Gen.V1 m c main_v41) := by
  unfold o2
  rw [FinalVal.final2 (Vr3 m hH) c, Vr3_arg0 m hH c, Vr3_v25 m hH c, Vr3_v41 m hH c]
  rfl

/-- The attribute table and the class ids reach the first region as launched. -/
theorem attr0_Vr1 (c : Dev nD) : (attr0 (Vr1 m) c : S6000x1024.Idx → EReal) = m ((c : Thread nD τ).loc main_arg0) :=
  (Gen.V1_of m c main_arg0 (by decide)).trans rfl
theorem tbl0_Vr1 (c : Dev nD) : (tbl0 (Vr1 m) c : S1200.Idx → BitVec 32) = m ((c : Thread nD τ).loc main_arg3) :=
  (Gen.V1_of m c main_arg3 (by decide)).trans rfl

/-- The first region's output array: the result selected by the first id array. -/
theorem o0_eq (c : Dev nD) :
    o0 m hH.h0 c = Cert.Target.sel0 (m ((c : Thread nD τ).loc main_arg0)) (Gen.V1 m c main_v25) (Gen.V1 m c main_v41)
      (m ((c : Thread nD τ).loc main_arg3)) := by
  unfold o0
  rw [FinalVal0.final0 (adm m 0) (Vr1 m) hH.h0 c]
  unfold Cert.Target.sel0
  funext i
  refine FinalVal.entry_congr rfl rfl ?_ rfl rfl
  funext k'
  refine (congrFun (attr0_Vr1 m c) _).trans ?_
  exact congrArg (fun w => (m ((c : Thread nD τ).loc main_arg0) : S6000x1024.Idx → EReal) (ix2 (Cert.Target.rowOf w) k'))
    (congrFun (tbl0_Vr1 m c) _)

/-- The attribute table and the second id array reach the second region as launched, the mask and the overlay as the host
    operations left them. -/
theorem attr1_Vr2 (c : Dev nD) : (attr1 (Vr2 m hH.h0) c : S6000x1024.Idx → EReal) = m ((c : Thread nD τ).loc main_arg0) :=
  (Gen.V2_of m (outsA m hH.h0) c main_arg0 (by decide)).trans <| (Gen.V1_of m c main_arg0 (by decide)).trans rfl
theorem tbl1_Vr2 (c : Dev nD) : (tbl1 (Vr2 m hH.h0) c : S4800.Idx → BitVec 32) = m ((c : Thread nD τ).loc main_arg4) :=
  (Gen.V2_of m (outsA m hH.h0) c main_arg4 (by decide)).trans <| (Gen.V1_of m c main_arg4 (by decide)).trans rfl
theorem Vr2_v25 (c : Dev nD) : Vr2 m hH.h0 c main_v25 = Gen.V1 m c main_v25 := Gen.V2_of m (outsA m hH.h0) c main_v25 (by decide)
theorem Vr2_v41 (c : Dev nD) : Vr2 m hH.h0 c main_v41 = Gen.V1 m c main_v41 := Gen.V2_of m (outsA m hH.h0) c main_v41 (by decide)

/-- The second region's output array: the result selected by the second id array. -/
theorem o1_eq (c : Dev nD) :
    o1 m hH c = Cert.Target.sel1 (m ((c : Thread nD τ).loc main_arg0)) (Gen.V1 m c main_v25) (Gen.V1 m c main_v41)
      (m ((c : Thread nD τ).loc main_arg4)) := by
  unfold o1
  rw [FinalVal1.final1 (adm m 1) (Vr2 m hH.h0) hH.h1 c]
  unfold Cert.Target.sel1
  funext i
  refine FinalVal.entry_congr ?_ ?_ ?_ rfl rfl
  · funext r' k'; exact congrFun (Vr2_v25 m hH c) _
  · funext r' k'; exact congrFun (Vr2_v41 m hH c) _
  funext k'
  refine (congrFun (attr1_Vr2 m hH c) _).trans ?_
  exact congrArg (fun w => (m ((c : Thread nD τ).loc main_arg0) : S6000x1024.Idx → EReal) (ix2 (Cert.Target.rowOf w) k'))
    (congrFun (tbl1_Vr2 m hH c) _)

end Cert.KernelIdeal.Hand

end
-- ==== Proof.KernelRun.lean ====
import proofs.«403142_j86199993631438_1_alg».proof.Proof.Frames
import proofs.«403142_j86199993631438_1_alg».proof.Proof.LaunchKitV
import proofs.«403142_j86199993631438_1_alg».proof.Proof.KernelValue
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-! ## The idealized kernel's run with its results named

The last valuation of the conditional frame holds, at each result array, what the region that writes it left there (no
later item writes it); each of those is the target function of the launch memory's arguments and of the mask and
overlay arrays the host operations left. -/

variable (m : (ℓ : Loc nD τ sig) → Buf (Elt Ideal) ℓ) (ρ : Dev nD → PrngReg) (hH : IdsOk m)

theorem V4_v42 (c : Dev nD) : Gen.V4 m (outs m hH) c main_v42 = o0 m hH.h0 c := by
  rw [Gen.V4_of m (outs m hH) c main_v42 (by decide), Gen.V3_of m (outs m hH) c main_v42 (by decide)]
  unfold Gen.V2; rw [Function.update_self, outs_v42]
theorem V4_v43 (c : Dev nD) : Gen.V4 m (outs m hH) c main_v43 = o1 m hH c := by
  rw [Gen.V4_of m (outs m hH) c main_v43 (by decide)]
  unfold Gen.V3; rw [Function.update_self, outs_v43]
theorem V4_v44 (c : Dev nD) : Gen.V4 m (outs m hH) c main_v44 = o2 m hH c := by
  unfold Gen.V4; rw [Function.update_self, outs_v44]

/-- Every weakly fair execution of the idealized kernel terminates with the three results at the target functions and
    the arguments unchanged. -/
theorem kernel_run (hH : IdsOk m) :
    θ_run defs (onTc (τ := τ) (main (F := Ideal))) ⟨m, fun _ => 0, ρ⟩ (fun r => ∀ c : Dev nD,
      r.2.mem ((c.tc : Thread nD τ).loc main_v42) = Cert.Target.sel0 (m ((c.tc : Thread nD τ).loc main_arg0)) (Gen.V1 m c main_v25) (Gen.V1 m c main_v41) (m ((c.tc : Thread nD τ).loc main_arg3))
      ∧ r.2.mem ((c.tc : Thread nD τ).loc main_v43) = Cert.Target.sel1 (m ((c.tc : Thread nD τ).loc main_arg0)) (Gen.V1 m c main_v25) (Gen.V1 m c main_v41) (m ((c.tc : Thread nD τ).loc main_arg4))
      ∧ r.2.mem ((c.tc : Thread nD τ).loc main_v44) = Cert.Target.all2 (m ((c.tc : Thread nD τ).loc main_arg0)) (Gen.V1 m c main_v25) (Gen.V1 m c main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).1.trans (V4_v42 m hH c)).trans (o0_eq m hH c),
        ((h c).2.1.trans (V4_v43 m hH c)).trans (o1_eq m hH c),
        ((h c).2.2.1.trans (V4_v44 m hH c)).trans (o2_eq m hH c),
        (h c).2.2.2⟩)
    (results_kit m ρ (outs m hH) (adm m) (pdats m hH) (reg0 m hH) (fun c => by rw [reg0_pre]) (fun c => by rw [reg0_post])
    (reg1 m hH) (fun c => by rw [reg1_pre]) (fun c => by rw [reg1_post])
    (reg2 m hH) (fun c => by rw [reg2_pre]) (fun c => by rw [reg2_post]))

end Cert.KernelIdeal.Hand

end
-- ==== Proof.LibScatterSet.lean ====
import Idealize.ShloMosaic.PureOps

/-!
# Scatter with the "set" combiner, read at one operand index

`Host.scatter d f x idx upd` is the left fold, over the update indices in row-major order, of
the step that replaces the accumulator's element at the update's result index `i` by
`f (r i) (upd j)` (and leaves the accumulator alone when the update falls outside the operand).

For the combiner `f = fun _ b => b` (the update overwrites the element) the value of the result
at one operand index `i'` is:

* the operand's element `x i'`, when no update lands on `i'` (this holds for every `f`);
* the common value `v`, when at least one update lands on `i'` and every update landing on
  `i'` carries `v` — repeated result indices are harmless when the repeated writes agree.
-/

namespace Idealize.ShloMosaic.ScatterSet
open Idealize.ShloMosaic

/-- Left fold of a pointwise-update step over an arbitrary list `L` of update labels, with
    `tgt n` the (optional) position that update `n` writes. The step is known only through two
    properties: an update with no target leaves the accumulator alone, and an update with target
    `i` leaves every position `k ≠ i` alone. If no label of `L` targets position `i'`, the fold
    leaves the accumulator's element at `i'` unchanged. -/
private theorem foldl_step_of_no_hit {ι I α : Type}
    (tgt : ι → Option I) (step : (I → α) → ι → (I → α))
    (hnone : ∀ r n, tgt n = none → step r n = r)
    (hother : ∀ r n i k, tgt n = some i → k ≠ i → step r n k = r k)
    (i' : I) (L : List ι) :
    ∀ r : I → α, (∀ n ∈ L, tgt n ≠ some i') → L.foldl step r i' = r i' := by
  induction L with
  | nil => intro r _; rfl
  | cons n L ih =>
    intro r h
    rw [List.foldl_cons, ih _ (fun m hm => h m (List.mem_cons_of_mem _ hm))]
    have hn : tgt n ≠ some i' := h n (List.mem_cons_self ..)
    cases htn : tgt n with
    | none => rw [hnone r n htn]
    | some i =>
      have hne : i' ≠ i := fun e => hn (by rw [htn, e])
      exact hother r n i i' htn hne

/-- Left fold of an overwriting pointwise-update step over an arbitrary list `L` of update labels,
    with `tgt n` the (optional) position update `n` writes and `val n` the value it carries. The
    step is known through three properties: no target, no change; target `i`, position `i`
    becomes `val n`; target `i`, every position `k ≠ i` is unchanged. If every label of `L`
    that targets `i'` carries the value `v`, and either the accumulator already holds `v` at `i'`
    or some label of `L` targets `i'`, then the fold holds `v` at `i'`. -/
private theorem foldl_set_of_hits_agree {ι I α : Type}
    (tgt : ι → Option I) (val : ι → α) (step : (I → α) → ι → (I → α))
    (hnone : ∀ r n, tgt n = none → step r n = r)
    (hsame : ∀ r n i, tgt n = some i → step r n i = val n)
    (hother : ∀ r n i k, tgt n = some i → k ≠ i → step r n k = r k)
    (i' : I) (v : α) (L : List ι) :
    ∀ r : I → α, (∀ n ∈ L, tgt n = some i' → val n = v) →
      (r i' = v ∨ ∃ n ∈ L, tgt n = some i') → L.foldl step r i' = v := by
  induction L with
  | nil =>
    intro r _ h
    rcases h with h | ⟨n, hn, _⟩
    · exact h
    · cases hn
  | cons n L ih =>
    intro r hall h
    rw [List.foldl_cons]
    refine ih _ (fun m hm => hall m (List.mem_cons_of_mem _ hm)) ?_
    by_cases htn : tgt n = some i'
    · left
      rw [hsame r n i' htn]
      exact hall n (List.mem_cons_self ..) htn
    · rcases h with h | ⟨m, hm, hmt⟩
      · left
        cases htn' : tgt n with
        | none => rw [hnone r n htn']; exact h
        | some i =>
          have hne : i' ≠ i := fun e => htn (by rw [htn', e])
          rw [hother r n i i' htn' hne]; exact h
      · right
        rcases List.mem_cons.1 hm with rfl | hm'
        · exact absurd hmt htn
        · exact ⟨m, hm', hmt⟩

/-- **Scatter, no update lands on `i'`.** If no update index `j` has result index `i'` (each
    update lands elsewhere or is dropped as out of bounds), then the scatter's result at `i'` is
    the operand's element `x i'`. Stated for the overwriting combiner; the fold argument does not
    depend on the combiner. -/
theorem scatter_set_of_no_hit {α : Type} {s si u : Shape} {w : Nat}
    (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  unfold Host.scatter
  refine foldl_step_of_no_hit (fun n => d.resultIdx? (u.rowMajor.symm n) idx) _ ?_ ?_ i'
    (List.finRange u.numel) x (fun n _ => h (u.rowMajor.symm n))
  · intro r n hn
    simp only [hn]
  · intro r n i k hn hk
    simp only [hn, if_neg hk]

/-- **Scatter with the overwriting combiner, all hits on `i'` agree.** If at least one update
    index has result index `i'`, and every update index whose result index is `i'` carries the
    same value `v`, then the result of the scatter at `i'` is `v` — whatever the order of the
    repeated writes, since they all write `v`. -/
theorem scatter_set_of_hits_agree {α : Type} {s si u : Shape} {w : Nat}
    (d : ScatterDims s si u) (x : s.Idx → α) (idx : IVec si w) (upd : u.Idx → α) (i' : s.Idx)
    (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_set_of_hits_agree (fun n => d.resultIdx? (u.rowMajor.symm n) idx)
    (fun n => upd (u.rowMajor.symm n)) _ ?_ ?_ ?_ i' v (List.finRange u.numel) x
    (fun n _ => hall (u.rowMajor.symm n)) (Or.inr ?_)
  · intro r n hn
    simp only [hn]
  · intro r n i hn
    simp only [hn, if_true]
  · intro r n i k hn hk
    simp only [hn, if_neg hk]
  · obtain ⟨j, hj⟩ := hex
    exact ⟨u.rowMajor j, List.mem_finRange _, by simpa using hj⟩

end Idealize.ShloMosaic.ScatterSet
-- ==== Proof.MaskOverlay.lean ====
/-
  One scatter against a masked blend of two scatters.

  The reference overwrites, in every class row `n` of a [6000,16,1024] array `x`, the entries `(r, c)` that some update
  `(k, g)` names — `r` the first component of the index vector `idx[k,g,·]`, `c` the second — by `vals[k,g]`. The kernel
  scatters, with the same index tensor, into two [16,1024] arrays of zeros: the constant `1` (the mask) and `vals` (the
  overlay), and blends `mask · overlay + (1 − mask) · x`. An update lands on `(r, c)` in one scatter exactly when it does
  in the other (out-of-range index vectors are dropped by both, repeated ones repeat in both), so the two agree at every
  index as soon as the updates landing on one `(r, c)` carry one value: here the row component of `idx[k,g,·]` is `k + 2`,
  so two updates with the same row have the same `k`, and `vals[k,g]` depends on `k` alone.
-/
import proofs.«403142_j86199993631438_1_alg».proof.KernelIdeal
import proofs.«403142_j86199993631438_1_alg».proof.ReferenceIdeal
import proofs.«403142_j86199993631438_1_alg».proof.Proof.LibScatterSet
import proofs.«403142_j86199993631438_1_alg».proof.Proof.Spec
import Idealize.ShloMosaic.Lib.ValueIdx
import Idealize.ShloMosaic.PureOps.Ideal.Laws

noncomputable section

namespace Cert.MaskOverlay

open Idealize.ShloMosaic ValueIdx

/-! ## The result index of a scatter, in general -/

/-- Update index `j` lands on operand index `i` exactly when, on every operand axis, the window's start plus the window
    coordinate is that axis' coordinate of `i` (as integers: a sum that is negative or beyond the axis is no coordinate
    of any `i`, and the update is dropped). -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := Option.some.inj e
      rw [← e']
      simp only
      exact (Int.toNat_of_nonneg (h a).1).symm
    · intro H
      congr 1
      funext a
      apply Fin.ext
      simp only
      rw [H a, Int.toNat_natCast]
  · constructor
    · intro e; cases e
    · intro H
      exfalso
      apply h
      intro a
      rw [H a]
      exact ⟨Int.natCast_nonneg _, by exact_mod_cast (i a).isLt⟩

/-- A statement about the three axes of a rank-3 shape is the conjunction of its three instances. -/
theorem forall_fin_three {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

variable [Cert.KernelIdeal.Facts] [Cert.ReferenceIdeal.Facts]

/-- The kernel's dimension numbers: scalar updates `[14,64]` into `[16,1024]`, both operand axes inserted, the index
    vector `idx[k,g,·]` of length two naming (row, column). -/
abbrev dk := Cert.KernelIdeal.scatter_S16x1024_S14x64x2_S14x64_n_01_01_2
/-- The reference's dimension numbers: updates `[6000,14,64]` into `[6000,16,1024]`, update axis 0 a window over the
    whole class axis, operand axes 1 and 2 inserted, the index vector `idx[k,g,·]` naming (row, column). -/
abbrev dr := Cert.ReferenceIdeal.scatter_S6000x16x1024_S14x64x2_S6000x14x64_0_12_12_2

/-! ## The kernel's scatter: where update `(k, g)` lands -/

/-- Update `(k, g)` reads component `c` of its index vector at `idx[k, g, c]`. -/
theorem dk_siIdx (k : Fin 14) (g : Fin 64) (c : Fin 2) :
    dk.siIdx (ix2 k g) c = ix3 k g c := by
  funext b
  match b with
  | ⟨0, _⟩ => rfl
  | ⟨1, _⟩ => rfl
  | ⟨2, _⟩ => rfl

/-- On the row axis the window of update `(k, g)` starts at `idx[k, g, 0]`, read signed. -/
theorem dk_start0 (k : Fin 14) (g : Fin 64) (idx : IVec Cert.KernelIdeal.S14x64x2 32) :
    dk.start (ix2 k g) idx 0 = (idx (ix3 k g 0)).toInt := by
  unfold ScatterDims.start
  have h0 : (0 : Fin Cert.KernelIdeal.S16x1024.rank) ∈ dk.scatterDimsToOperandDims := by
    show (0 : Fin 2) ∈ [(0 : Fin 2), 1]; decide
  rw [dif_pos h0]
  exact congrArg (fun i => (idx i).toInt) (dk_siIdx k g 0)

/-- On the column axis the window of update `(k, g)` starts at `idx[k, g, 1]`, read signed. -/
theorem dk_start1 (k : Fin 14) (g : Fin 64) (idx : IVec Cert.KernelIdeal.S14x64x2 32) :
    dk.start (ix2 k g) idx 1 = (idx (ix3 k g 1)).toInt := by
  unfold ScatterDims.start
  have h1 : (1 : Fin Cert.KernelIdeal.S16x1024.rank) ∈ dk.scatterDimsToOperandDims := by
    show (1 : Fin 2) ∈ [(0 : Fin 2), 1]; decide
  rw [dif_pos h1]
  exact congrArg (fun i => (idx i).toInt) (dk_siIdx k g 1)

/-- Both operand axes are inserted: the window is one element, its coordinate `0` on each axis. -/
theorem dk_window (j : Cert.KernelIdeal.S14x64.Idx) (a : Fin 2) : dk.window j a = 0 := by
  unfold ScatterDims.window
  rw [dif_neg]
  show a ∉ (⟨2, ![16, 1024]⟩ : Shape).kept [(0 : Fin 2), 1]
  revert a; decide

/-- The kernel's update `(k, g)` lands on `(r, c)` exactly when its index vector is `(r, c)`, as integers. -/
theorem dk_resultIdx?_iff (idx : IVec Cert.KernelIdeal.S14x64x2 32) (k : Fin 14) (g : Fin 64) (r : Fin 16)
    (c : Fin 1024) :
    dk.resultIdx? (ix2 k g) idx = some (ix2 r c) ↔
      (idx (ix3 k g 0)).toInt = (r.val : Int) ∧ (idx (ix3 k g 1)).toInt = (c.val : Int) := by
  rw [resultIdx?_eq_some_iff, Fin.forall_fin_two, dk_start0, dk_start1, dk_window, dk_window]
  simp

/-! ## The reference's scatter: where update `(n', k, g)` lands -/

/-- Update `(n', k, g)` reads component `c` of its index vector at `idx[k, g, c]`: the class coordinate is a window
    coordinate and plays no part. -/
theorem dr_siIdx (n : Fin 6000) (k : Fin 14) (g : Fin 64) (c : Fin 2) :
    dr.siIdx (ix3 n k g) c = ix3 k g c := by
  funext b
  match b with
  | ⟨0, _⟩ => rfl
  | ⟨1, _⟩ => rfl
  | ⟨2, _⟩ => rfl

/-- The class axis is not a scattered axis: every window starts at `0` there. -/
theorem dr_start0 (j : Cert.ReferenceIdeal.S6000x14x64.Idx) (idx : IVec Cert.KernelIdeal.S14x64x2 32) :
    dr.start j idx 0 = 0 := by
  unfold ScatterDims.start
  have h0 : (0 : Fin Cert.ReferenceIdeal.S6000x16x1024.rank) ∉ dr.scatterDimsToOperandDims := by
    show (0 : Fin 3) ∉ [(1 : Fin 3), 2]; decide
  rw [dif_neg h0]

/-- On the row axis the window of update `(n', k, g)` starts at `idx[k, g, 0]`, read signed. -/
theorem dr_start1 (n : Fin 6000) (k : Fin 14) (g : Fin 64) (idx : IVec Cert.KernelIdeal.S14x64x2 32) :
    dr.start (ix3 n k g) idx 1 = (idx (ix3 k g 0)).toInt := by
  unfold ScatterDims.start
  have h1 : (1 : Fin Cert.ReferenceIdeal.S6000x16x1024.rank) ∈ dr.scatterDimsToOperandDims := by
    show (1 : Fin 3) ∈ [(1 : Fin 3), 2]; decide
  rw [dif_pos h1]
  exact congrArg (fun i => (idx i).toInt) (dr_siIdx n k g 0)

/-- On the column axis the window of update `(n', k, g)` starts at `idx[k, g, 1]`, read signed. -/
theorem dr_start2 (n : Fin 6000) (k : Fin 14) (g : Fin 64) (idx : IVec Cert.KernelIdeal.S14x64x2 32) :
    dr.start (ix3 n k g) idx 2 = (idx (ix3 k g 1)).toInt := by
  unfold ScatterDims.start
  have h2 : (2 : Fin Cert.ReferenceIdeal.S6000x16x1024.rank) ∈ dr.scatterDimsToOperandDims := by
    show (2 : Fin 3) ∈ [(1 : Fin 3), 2]; decide
  rw [dif_pos h2]
  exact congrArg (fun i => (idx i).toInt) (dr_siIdx n k g 1)

/-- On the class axis the window coordinate of update `(n', k, g)` is `n'`. -/
theorem dr_window0 (n : Fin 6000) (k : Fin 14) (g : Fin 64) : dr.window (ix3 n k g) 0 = n.val := by
  unfold ScatterDims.window
  have h0 : (0 : Fin Cert.ReferenceIdeal.S6000x16x1024.rank) ∈ dr.sKept := by
    show (0 : Fin 3) ∈ (⟨3, ![6000, 16, 1024]⟩ : Shape).kept [(1 : Fin 3), 2]; decide
  rw [dif_pos h0]
  rfl

/-- The row axis is inserted: window coordinate `0`. -/
theorem dr_window1 (j : Cert.ReferenceIdeal.S6000x14x64.Idx) : dr.window j 1 = 0 := by
  unfold ScatterDims.window
  rw [dif_neg]
  show (1 : Fin 3) ∉ (⟨3, ![6000, 16, 1024]⟩ : Shape).kept [(1 : Fin 3), 2]
  decide

/-- The column axis is inserted: window coordinate `0`. -/
theorem dr_window2 (j : Cert.ReferenceIdeal.S6000x14x64.Idx) : dr.window j 2 = 0 := by
  unfold ScatterDims.window
  rw [dif_neg]
  show (2 : Fin 3) ∉ (⟨3, ![6000, 16, 1024]⟩ : Shape).kept [(1 : Fin 3), 2]
  decide

/-- The reference's update `(n', k, g)` lands on `(n, r, c)` exactly when `n' = n` and its index vector is `(r, c)`,
    as integers: in every class row, the same updates land on the same `(r, c)` as in the kernel's scatter. -/
theorem dr_resultIdx?_iff (idx : IVec Cert.KernelIdeal.S14x64x2 32) (n' : Fin 6000) (k : Fin 14) (g : Fin 64)
    (n : Fin 6000) (r : Fin 16) (c : Fin 1024) :
    dr.resultIdx? (ix3 n' k g) idx = some (ix3 n r c) ↔
      n' = n ∧ (idx (ix3 k g 0)).toInt = (r.val : Int) ∧ (idx (ix3 k g 1)).toInt = (c.val : Int) := by
  rw [resultIdx?_eq_some_iff, forall_fin_three, dr_start0, dr_start1, dr_start2, dr_window0, dr_window1, dr_window2]
  simp [Fin.ext_iff]

/-! ## The blend at mask `1` and at mask `0` -/

/-- The word `1.0` denotes the extended real `1`: sign `+`, exponent field `127`, fraction `0`, so `2^23 · 2^(−23)`. -/
theorem one_eq : Cert.Spec.one = 1 := by
  simp [Cert.Spec.one, Ideal.ofBits, Ideal.ieee]
  rw [← EReal.coe_mul]
  norm_num

/-- Where the mask is `1` the blend is the overlay: `1 · ov + (1 − 1) · a = ov`, whatever `a` (even infinite: it is
    multiplied by `0`). -/
theorem blend_one (ov a : EReal) : Cert.Spec.blend Cert.Spec.one ov a = ov := by
  unfold Cert.Spec.blend
  rw [one_eq]
  have h : (1 : EReal) - 1 = 0 := by
    have : ((1 : ℝ) : EReal) - ((1 : ℝ) : EReal) = ((0 : ℝ) : EReal) := by
      rw [← EReal.coe_sub]; simp
    simpa using this
  rw [h, one_mul, zero_mul, add_zero]

/-- Where mask and overlay are `0` the blend is the entry: `0 · 0 + (1 − 0) · a = a`. -/
theorem blend_zero (a : EReal) : Cert.Spec.blend 0 0 a = a := by
  unfold Cert.Spec.blend
  rw [one_eq, zero_mul, sub_zero, one_mul, zero_add]

/-! ## The reference's scatter is the kernel's blend -/

/-- Let the index vector of update `(k, g)` have row component `k + 2`, and let `vals (k, g) = b k` depend on `k` alone.
    Then at every `(n, r, c)` the reference's scatter of `vals` (replicated over the class axis) into `x` is the blend
    `mask · overlay + (1 − mask) · x` of the kernel's two scatters into zeros (of the constant `1` and of `vals`).
    If some update lands on `(r, c)`, every update landing there has the same `k` (its row is `k + 2 = r`), hence the
    same value `b k`: mask `1`, overlay `b k`, reference `b k`. If none does, all three scatters keep their operand:
    mask `0`, overlay `0`, reference `x`. -/
theorem ref_scatter_eq_blend
    (idx : IVec Cert.KernelIdeal.S14x64x2 32) (vals : Cert.KernelIdeal.S14x64.Idx → EReal) (b : Fin 14 → EReal)
    (hrow : ∀ (k : Fin 14) (g : Fin 64), (idx (ix3 k g 0)).toInt = (k.val : Int) + 2)
    (hvals : ∀ (k : Fin 14) (g : Fin 64), vals (ix2 k g) = b k)
    (x : Cert.ReferenceIdeal.S6000x16x1024.Idx → EReal) (n : Fin 6000) (r : Fin 16) (c : Fin 1024) :
    Host.scatter Cert.ReferenceIdeal.scatter_S6000x16x1024_S14x64x2_S6000x14x64_0_12_12_2 (fun _ b => b) x idx
        (fun j => vals (ix2 (j 1) (j 2))) (ix3 n r c)
      = Cert.Spec.blend
          (Host.scatter Cert.KernelIdeal.scatter_S16x1024_S14x64x2_S14x64_n_01_01_2 (fun _ b => b)
            (fun _ => (0 : EReal)) idx (fun _ => Cert.Spec.one) (ix2 r c))
          (Host.scatter Cert.KernelIdeal.scatter_S16x1024_S14x64x2_S14x64_n_01_01_2 (fun _ b => b)
            (fun _ => (0 : EReal)) idx vals (ix2 r c))
          (x (ix3 n r c)) := by
  by_cases hex : ∃ (k : Fin 14) (g : Fin 64), dk.resultIdx? (ix2 k g) idx = some (ix2 r c)
  · obtain ⟨k₀, g₀, h₀⟩ := hex
    -- two updates landing on (r, c) have the same k: both rows are r
    have key : ∀ (k : Fin 14) (g : Fin 64), dk.resultIdx? (ix2 k g) idx = some (ix2 r c) → k = k₀ := by
      intro k g h
      have h1 := ((dk_resultIdx?_iff idx k g r c).1 h).1
      have h2 := ((dk_resultIdx?_iff idx k₀ g₀ r c).1 h₀).1
      rw [hrow] at h1 h2
      apply Fin.ext; omega
    have hm : Host.scatter dk (fun _ b => b) (fun _ => (0 : EReal)) idx (fun _ => Cert.Spec.one) (ix2 r c)
        = Cert.Spec.one :=
      ScatterSet.scatter_set_of_hits_agree dk _ idx _ (ix2 r c) _ ⟨ix2 k₀ g₀, h₀⟩ (fun _ _ => rfl)
    have ho : Host.scatter dk (fun _ b => b) (fun _ => (0 : EReal)) idx vals (ix2 r c) = b k₀ := by
      refine ScatterSet.scatter_set_of_hits_agree dk _ idx _ (ix2 r c) _ ⟨ix2 k₀ g₀, h₀⟩ ?_
      intro j hj
      obtain ⟨k, g, rfl⟩ : ∃ (k : Fin 14) (g : Fin 64), j = ix2 k g := ⟨j 0, j 1, eq_ix2 j⟩
      rw [hvals, key k g hj]
    have hr : Host.scatter dr (fun _ b => b) x idx (fun j => vals (ix2 (j 1) (j 2))) (ix3 n r c) = b k₀ := by
      refine ScatterSet.scatter_set_of_hits_agree dr _ idx _ (ix3 n r c) _ ⟨ix3 n k₀ g₀, ?_⟩ ?_
      · rw [dr_resultIdx?_iff]; exact ⟨rfl, (dk_resultIdx?_iff idx k₀ g₀ r c).1 h₀⟩
      · intro j hj
        obtain ⟨n', k, g, rfl⟩ : ∃ (n' : Fin 6000) (k : Fin 14) (g : Fin 64), j = ix3 n' k g :=
          ⟨j 0, j 1, j 2, eq_ix3 j⟩
        have hh := (dr_resultIdx?_iff idx n' k g n r c).1 hj
        show vals (ix2 k g) = b k₀
        rw [hvals, key k g ((dk_resultIdx?_iff idx k g r c).2 hh.2)]
    rw [hm, ho, hr, blend_one]
  · -- no update lands on (r, c), in either program
    have hnok : ∀ j : Cert.KernelIdeal.S14x64.Idx, dk.resultIdx? j idx ≠ some (ix2 r c) := by
      intro j hj
      obtain ⟨k, g, rfl⟩ : ∃ (k : Fin 14) (g : Fin 64), j = ix2 k g := ⟨j 0, j 1, eq_ix2 j⟩
      exact hex ⟨k, g, hj⟩
    have hnor : ∀ j : Cert.ReferenceIdeal.S6000x14x64.Idx, dr.resultIdx? j idx ≠ some (ix3 n r c) := by
      intro j hj
      obtain ⟨n', k, g, rfl⟩ : ∃ (n' : Fin 6000) (k : Fin 14) (g : Fin 64), j = ix3 n' k g :=
        ⟨j 0, j 1, j 2, eq_ix3 j⟩
      have hh := (dr_resultIdx?_iff idx n' k g n r c).1 hj
      exact hex ⟨k, g, (dk_resultIdx?_iff idx k g r c).2 hh.2⟩
    rw [ScatterSet.scatter_set_of_no_hit dk _ idx _ _ hnok, ScatterSet.scatter_set_of_no_hit dk _ idx _ _ hnok,
      ScatterSet.scatter_set_of_no_hit dr _ idx _ _ hnor]
    exact (blend_zero _).symm

end Cert.MaskOverlay

end
-- ==== Proof.HostK.lean ====
/-
  What the host leaves in the kernel calls' two operands, as functions of the program's arguments.

  Before its three kernel calls the program computes, from the group columns `g : i32[14, 64]` and the scalar row
  `b : f32[1, 15]`: the rows `k + 2` (`k < 14`), normalised as an index is ("negative counts from the end": `r + 16`
  where `r < 0`; never the case, the rows are `2 … 15`); the columns `g`, normalised likewise against `1024`; the INDEX
  TENSOR `[14, 64, 2]` whose vector at `(k, j)` is (row of group `k`, `j`-th column of group `k`); the MASK, the
  scatter of the constant `1` into a `[16, 1024]` array of zeros at that tensor; and — the index tensor computed a
  second time by the same operations — the OVERLAY, the scatter of `b[0, k]` (repeated along group `k`) into zeros.
  This file names the index tensor `idxT g` and the overlay's updates `valsT b`, proves that the two buffers hold the two
  scatters, that the index tensor's row component at `(k, j)` is `k + 2`, and that `valsT b` at `(k, j)` is `b[0, k]`.
-/
import proofs.«403142_j86199993631438_1_alg».proof.Proof.Gen.KernelIdeal.Regions
import proofs.«403142_j86199993631438_1_alg».proof.Proof.MaskOverlay
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.HostK

open Cert.KernelIdeal Cert.KernelIdeal.Gen
open Idealize.ShloMosaic Idealize.ShloMosaic.TcCoe ValueIdx
open Idealize.ShloMosaic.StableHlo

/-! ## The terms -/

/-- The rows the groups write: `2, 3, …, 15`, as a vector of fourteen words (`iota + 2`). -/
def rows14 : IVec S14 32 :=
  addi (broadcastInDim S14 ![] bcast_S_S14 (constantI S_ 32 2#32)) (iotaInDim S14 32 0)

/-- The same rows as a `[14, 1]` column. -/
def rowsCol : IVec S14x1 32 := broadcastInDim S14x1 ![0] bcast_S14_S14x1_0 rows14

/-- The rows after the "negative index counts from the end" normalisation: `r + 16` where `r < 0`, else `r`. -/
def rowsNorm : IVec S14x1 32 :=
  select (cmpi .slt rowsCol (broadcastInDim S14x1 ![] bcast_S_S14x1 (constantI S_ 32 0#32)))
    (addi rowsCol (broadcastInDim S14x1 ![] bcast_S_S14x1 (constantI S_ 32 16#32))) rowsCol

/-- The groups' columns after the same normalisation: `g + 1024` where `g < 0`, else `g`. -/
def colsNorm (g : IVec S14x64 32) : IVec S14x64 32 :=
  select (cmpi .slt g (broadcastInDim S14x64 ![] bcast_S_S14x64 (constantI S_ 32 0#32)))
    (addi g (broadcastInDim S14x64 ![] bcast_S_S14x64 (constantI S_ 32 1024#32))) g

/-- The index tensor `[14, 64, 2]`: at `(k, j, 0)` group `k`'s row, at `(k, j, 1)` its `j`-th column. -/
def idxT (g : IVec S14x64 32) : IVec S14x64x2 32 :=
  concatenate S14x64x2 2
    [⟨S14x64x1, broadcastInDim S14x64x1 ![0, 1] bcast_S14x64_S14x64x1_0_1
        (broadcastInDim S14x64 ![0, 1] bcast_S14x1_S14x64_0_1 rowsNorm)⟩,
     ⟨S14x64x1, broadcastInDim S14x64x1 ![0, 1] bcast_S14x64_S14x64x1_0_1 (colsNorm g)⟩]
    concatenates_S14x64x1_S14x64x1_S14x64x2_d2

/-- The overlay's updates `[14, 64]`: the first fourteen entries of the scalar row, each repeated along its group. -/
def valsT (b : FVec Ideal S1x15 .f32) : S14x64.Idx → EReal :=
  broadcastInDim S14x64 ![0, 1] bcast_S14x1_S14x64_0_1
    (broadcastInDim S14x1 ![0] bcast_S14_S14x1_0
      (shapeCast S14 (extractStridedSlice S1x14 ![0, 0] b slices_S1x15_S1x14_0_0) shapeCasts_S1x14_S14))

/-! ## The index tensor's row component -/

/-- For `k < 14` the word `2 + k` is not negative as a signed word, so the normalisation keeps it, and as an integer it
    is `k + 2` (fourteen cases, each by evaluation). -/
theorem rowsNorm_val : ∀ k : Fin 14,
    (Scalar.select (IntOp.cmpi .slt (IntOp.addi 2#32 (BitVec.ofNat 32 k.val)) 0#32)
      (IntOp.addi (IntOp.addi 2#32 (BitVec.ofNat 32 k.val)) 16#32)
      (IntOp.addi 2#32 (BitVec.ofNat 32 k.val))).toInt = (k.val : Int) + 2 := by
  decide

/-- The index vector at `(k, j)` has row component `k + 2`: coordinate `0` of the last axis falls in the first piece of
    the concatenation, which is the normalised row of group `k` whatever `j`. -/
theorem idxT_row (g : IVec S14x64 32) (k : Fin 14) (j : Fin 64) :
    (idxT g (ix3 k j 0)).toInt = (k.val : Int) + 2 := by
  have e : idxT g (ix3 k j 0) =
      Scalar.select (IntOp.cmpi .slt (IntOp.addi 2#32 (BitVec.ofNat 32 k.val)) 0#32)
        (IntOp.addi (IntOp.addi 2#32 (BitVec.ofNat 32 k.val)) 16#32)
        (IntOp.addi 2#32 (BitVec.ofNat 32 k.val)) := by
    unfold idxT
    refine (concatenate_pair_apply_left (t := S14x64x2) (s₁ := S14x64x1) (s₂ := S14x64x1) (2 : Fin 3) _ _
      concatenates_S14x64x1_S14x64x1_S14x64x2_d2 (ix3 k j 0) rfl (ix3 k j 0) (fun b => ?_)).trans ?_
    · match b with
      | ⟨0, _⟩ => rfl
      | ⟨1, _⟩ => rfl
      | ⟨2, _⟩ => rfl
    · rfl
  rw [e]
  exact rowsNorm_val k

/-! ## The overlay's updates -/

/-- The overlay's update at `(k, j)` is entry `(0, k)` of the scalar row: the two broadcasts read the vector at `k`, the
    reshape `[1, 14] → [14]` reads `(0, k)`, the slice `[0:1, 0:14]` reads the same position of the row. -/
theorem valsT_apply (b : FVec Ideal S1x15 .f32) (k : Fin 14) (j : Fin 64) :
    valsT b (ix2 k j) = b (ix2 0 ⟨k.val, by omega⟩) := by
  unfold valsT
  have e1 : ∀ v : S14.Idx → EReal,
      broadcastInDim S14x64 ![0, 1] bcast_S14x1_S14x64_0_1 (broadcastInDim S14x1 ![0] bcast_S14_S14x1_0 v) (ix2 k j)
        = v (ValueIdx.ix1 k) := by
    intro v
    show v _ = v _
    congr 1
    funext a
    match a with
    | ⟨0, _⟩ => rfl
  rw [e1]
  refine (shapeCast_1a_a_apply (a := 14) _ shapeCasts_S1x14_S14 k).trans ?_
  exact extractStridedSlice_apply (s := S1x15) (t := S1x14) ![0, 0] b slices_S1x15_S1x14_0_0 (ix2 0 k)
    (ix2 0 ⟨k.val, by omega⟩) (fun a => by
      match a with
      | ⟨0, _⟩ => rfl
      | ⟨1, _⟩ => show k.val = 0 + k.val; omega)

/-! ## The two scatters' constant operands -/

/-- The word `0.0` broadcast to `[16, 1024]` is the array of extended-real zeros. -/
theorem zeros_eq :
    broadcastInDim S16x1024 ![] bcast_S_S16x1024 (constant (F := Ideal) S_ .f32 0x00000000#32)
      = fun _ => (0 : EReal) := by
  funext i
  show Idealize.ShloMosaic.Ideal.ofBits .f32 0x00000000#32 = 0
  exact Idealize.ShloMosaic.Ideal.ofBits_zero_f32

/-- The word `1.0` broadcast to `[14, 64]` is the constant array `Spec.one`. -/
theorem ones_eq :
    broadcastInDim S14x64 ![] bcast_S_S14x64 (constant (F := Ideal) S_ .f32 0x3F800000#32)
      = fun _ => Cert.Spec.one := rfl

/-! ## What the two buffers hold after the host operations -/

variable (m : (ℓ : Loc nD τ sig) → Buf (Elt Ideal) ℓ) (c : Dev nD)

set_option maxHeartbeats 4000000 in
/-- The mask buffer after the host operations, operation by operation: the scatter of the broadcast `1.0` into the
    broadcast `0.0` at the index tensor of the launch's group columns. -/
theorem V1_mask_raw : (V1 m c main_v25 : S16x1024.Idx → EReal) =
    Host.scatter scatter_S16x1024_S14x64x2_S14x64_n_01_01_2 (fun _ b => b)
      (broadcastInDim S16x1024 ![] bcast_S_S16x1024 (constant (F := Ideal) S_ .f32 0x00000000#32))
      (idxT (m ((c : Thread nD τ).loc main_arg2)))
      (broadcastInDim S14x64 ![] bcast_S_S14x64 (constant (F := Ideal) S_ .f32 0x3F800000#32)) := by
  conv_lhs => dsimp only [Gen.V1, Gen.hostOps0]
  after_results
  rfl

set_option maxHeartbeats 4000000 in
/-- The overlay buffer after the host operations, operation by operation: the scatter of the repeated scalar row into
    the broadcast `0.0` at the index tensor, which the program computes a second time by the same operations. -/
theorem V1_overlay_raw : (V1 m c main_v41 : S16x1024.Idx → EReal) =
    Host.scatter scatter_S16x1024_S14x64x2_S14x64_n_01_01_2 (fun _ b => b)
      (broadcastInDim S16x1024 ![] bcast_S_S16x1024 (constant (F := Ideal) S_ .f32 0x00000000#32))
      (idxT (m ((c : Thread nD τ).loc main_arg2)))
      (valsT (m ((c : Thread nD τ).loc main_arg1))) := by
  conv_lhs => dsimp only [Gen.V1, Gen.hostOps0]
  after_results
  rfl

/-- **The mask.** After the host operations the mask buffer is the scatter of the constant `1` into zeros at the
    index tensor of the launch's group columns. -/
theorem V1_mask : (V1 m c main_v25 : S16x1024.Idx → EReal) =
    Host.scatter scatter_S16x1024_S14x64x2_S14x64_n_01_01_2 (fun _ b => b) (fun _ => (0 : EReal))
      (idxT (m ((c : Thread nD τ).loc main_arg2))) (fun _ => Cert.Spec.one) := by
  rw [V1_mask_raw, zeros_eq, ones_eq]

/-- **The overlay.** After the host operations the overlay buffer is the scatter of `valsT` of the launch's scalar row
    into zeros at the same index tensor. -/
theorem V1_overlay : (V1 m c main_v41 : S16x1024.Idx → EReal) =
    Host.scatter scatter_S16x1024_S14x64x2_S14x64_n_01_01_2 (fun _ b => b) (fun _ => (0 : EReal))
      (idxT (m ((c : Thread nD τ).loc main_arg2))) (valsT (m ((c : Thread nD τ).loc main_arg1))) := by
  rw [V1_overlay_raw, zeros_eq]

end Cert.KernelIdeal.HostK

end
-- ==== Proof.RefValue.lean ====
/-
  The reference program's three results, at the ideal instance, as the target functions of its arguments.

  The reference replicates the attribute table `[6000, 1024]` over sixteen offset rows, writes the groups' scalars over
  the columns the groups name (a scatter of `[6000, 14, 64]` updates whose class axis is a window axis: the embedded
  table `embed`), divides every row of 1024 entries by its Euclidean norm clamped below at `eps` (`normStage`), and
  returns three arrays: the rows `(ids[j], r)` an id array selects, once for each of two id arrays, and all rows
  `(n, r)`, each time as the columns `16·j + r` of a `[1024, ·]` array (a reshape and a transpose).

  Read at an index: a column `q` is row `(q / 16, q % 16)` of the selected rows (row-major arithmetic); a selected row
  `y` is the table's row `ids[y]` when the id is below `6000` (it is then not negative as a signed word, and clamping it
  into `[0, 5999]` changes nothing); the normalised table at `(n, r, k)` is the embedded entry over the clamped root of
  the row's sum of squares; and the embedded entry is the blend of the attribute entry `(n, k)` under the mask and the
  overlay at `(r, k)` — the two `[16, 1024]` scatters into zeros at the same index tensor. That is `Spec.entry`, and the
  three arrays are `Target.sel0`, `Target.sel1`, `Target.all2`.
-/
import proofs.«403142_j86199993631438_1_alg».proof.Proof.RefRun
import proofs.«403142_j86199993631438_1_alg».proof.Proof.HostK
import proofs.«403142_j86199993631438_1_alg».proof.Proof.MaskOverlay
import proofs.«403142_j86199993631438_1_alg».proof.Proof.Spec
import proofs.«403142_j86199993631438_1_alg».proof.Proof.Target
import Idealize.ShloMosaic.Lib.ValueIdx
import Idealize.ShloMosaic.Lib.Pipeline.Value
import Idealize.ShloMosaic.Lib.Affine
import Idealize.ShloMosaic.PureOps.Ideal.Laws

noncomputable section

namespace Cert.ReferenceIdeal.RefValue

open Idealize.ShloMosaic ValueIdx Cert.ReferenceIdeal Cert.ReferenceIdeal.Facts₀

variable [Cert.ReferenceIdeal.Facts] [Cert.KernelIdeal.Facts]

/-! ## The mask and the overlay, as functions of the group columns and the scalar row -/

/-- The mask `[16, 1024]`: `1` at the positions `(k + 2, g[k, j])` the groups name, `0` elsewhere. -/
abbrev maskOf (g : IVec S14x64 32) : (⟨2, ![16, 1024]⟩ : Shape).Idx → EReal :=
  Host.scatter Cert.KernelIdeal.scatter_S16x1024_S14x64x2_S14x64_n_01_01_2 (fun _ b => b) (fun _ => (0 : EReal))
    (Cert.KernelIdeal.HostK.idxT g) (fun _ => Cert.Spec.one)

/-- The overlay `[16, 1024]`: the scalar of group `k` at the positions the group names, `0` elsewhere. -/
abbrev ovOf (b : FVec Ideal S1x15 .f32) (g : IVec S14x64 32) : (⟨2, ![16, 1024]⟩ : Shape).Idx → EReal :=
  Host.scatter Cert.KernelIdeal.scatter_S16x1024_S14x64x2_S14x64_n_01_01_2 (fun _ b => b) (fun _ => (0 : EReal))
    (Cert.KernelIdeal.HostK.idxT g) (Cert.KernelIdeal.HostK.valsT b)

/-! ## The embedding: the attribute table replicated over sixteen rows, the groups' scalars written over it -/

/-- The embedded table `[6000, 16, 1024]`. -/
def embed (x0 : FVec Ideal S6000x1024 .f32) (x1 : FVec Ideal S1x15 .f32) (x2 : IVec S14x64 32) :
    FVec Ideal S6000x16x1024 .f32 :=
  Host.scatter scatter_S6000x16x1024_S14x64x2_S6000x14x64_0_12_12_2 (fun _ b => b)
    (broadcastInDim S6000x16x1024 ![0, 1, 2] bcast_S6000x1x1024_S6000x16x1024_0_1_2
      (broadcastInDim S6000x1x1024 ![0, 2] bcast_S6000x1024_S6000x1x1024_0_2 x0))
    (Cert.KernelIdeal.HostK.idxT x2)
    (broadcastInDim S6000x14x64 ![1, 2] bcast_S14x64_S6000x14x64_1_2 (Cert.KernelIdeal.HostK.valsT x1))

/-- The embedded table at `(n, r, k)` is the blend of the attribute entry `(n, k)` under the mask and the overlay at
    `(r, k)`. -/
theorem embed_apply (x0 : FVec Ideal S6000x1024 .f32) (x1 : FVec Ideal S1x15 .f32) (x2 : IVec S14x64 32)
    (n : Fin 6000) (r : Fin 16) (k : Fin 1024) :
    embed x0 x1 x2 (ix3 n r k)
      = Cert.Spec.blend (maskOf x2 (ix2 r k)) (ovOf x1 x2 (ix2 r k)) (x0 (ix2 n k)) := by
  unfold embed
  have e24 : broadcastInDim S6000x14x64 ![1, 2] bcast_S14x64_S6000x14x64_1_2 (Cert.KernelIdeal.HostK.valsT x1)
      = fun j => Cert.KernelIdeal.HostK.valsT x1 (ix2 (j 1) (j 2)) := by
    funext j
    exact broadcastInDim_apply _ bcast_S14x64_S6000x14x64_1_2 _ j (ix2 (j 1) (j 2)) (fun a => match a with
      | ⟨0, _⟩ => by show (j 1).val = if (14 : Nat) = 1 then 0 else (j 1).val; rw [if_neg (by decide)]
      | ⟨1, _⟩ => by show (j 2).val = if (64 : Nat) = 1 then 0 else (j 2).val; rw [if_neg (by decide)])
  rw [e24, Cert.MaskOverlay.ref_scatter_eq_blend (Cert.KernelIdeal.HostK.idxT x2) (Cert.KernelIdeal.HostK.valsT x1)
    (fun k => x1 (ix2 0 ⟨k.val, by omega⟩)) (Cert.KernelIdeal.HostK.idxT_row x2)
    (Cert.KernelIdeal.HostK.valsT_apply x1) _ n r k]
  congr 1
  rw [broadcastInDim_apply _ bcast_S6000x1x1024_S6000x16x1024_0_1_2 _ (ix3 n r k) (ix3 n 0 k) (fun a => match a with
    | ⟨0, _⟩ => by show n.val = if (6000 : Nat) = 1 then 0 else n.val; rw [if_neg (by decide)]
    | ⟨1, _⟩ => by show 0 = if (1 : Nat) = 1 then 0 else r.val; rw [if_pos rfl]
    | ⟨2, _⟩ => by show k.val = if (1024 : Nat) = 1 then 0 else k.val; rw [if_neg (by decide)])]
  exact broadcastInDim_apply _ bcast_S6000x1024_S6000x1x1024_0_2 _ (ix3 n 0 k) (ix2 n k) (fun a => match a with
    | ⟨0, _⟩ => by show n.val = if (6000 : Nat) = 1 then 0 else n.val; rw [if_neg (by decide)]
    | ⟨1, _⟩ => by show k.val = if (1024 : Nat) = 1 then 0 else k.val; rw [if_neg (by decide)])

/-! ## The normalisation -/

/-- The normalisation stage of the reference over an embedded table `M`: every row of 1024 entries divided by the
    square root of its sum of squares, the root clamped below at the word `eps`. -/
def normStage (M : FVec Ideal S6000x16x1024 .f32) : FVec Ideal S6000x16x1024 .f32 :=
  Host.divf M (broadcastInDim S6000x16x1024 ![0, 1, 2] bcast_S6000x16x1_S6000x16x1024_0_1_2
    (maximumf (Host.sqrt (broadcastInDim S6000x16x1 ![0, 1] bcast_S6000x16_S6000x16x1_0_1
        (Host.reduceAdd (mulf M M) (constant S_ .f32 0x00000000#32) reducesTo_S6000x16x1024_S6000x16_d2 h_S_)))
      (broadcastInDim S6000x16x1 ![] bcast_S_S6000x16x1 (constant S_ .f32 0x2B8CBCCC#32))))

/-- The stage read at `(n, r, k)`: entry `k` of row `(n, r)` over the clamped root of the row's sum of squares. -/
theorem normStage_apply (M : FVec Ideal S6000x16x1024 .f32) (n : Fin 6000) (r : Fin 16) (k : Fin 1024) :
    normStage M (ix3 n r k)
      = Ideal.div (M (ix3 n r k)) (max (Ideal.sqrt (∑ j : Fin 1024, M (ix3 n r j) * M (ix3 n r j))) Cert.Spec.eps) := by
  unfold normStage
  show Ideal.div (M (ix3 n r k)) _ = _
  congr 1
  rw [broadcastInDim_apply _ bcast_S6000x16x1_S6000x16x1024_0_1_2 _ (ix3 n r k) (ix3 n r 0) (fun a => match a with
    | ⟨0, _⟩ => by show n.val = if (6000 : Nat) = 1 then 0 else n.val; rw [if_neg (by decide)]
    | ⟨1, _⟩ => by show r.val = if (16 : Nat) = 1 then 0 else r.val; rw [if_neg (by decide)]
    | ⟨2, _⟩ => by show 0 = if (1 : Nat) = 1 then 0 else k.val; rw [if_pos rfl])]
  show max (Ideal.sqrt _) _ = _
  congr 1
  congr 1
  rw [broadcastInDim_apply _ bcast_S6000x16_S6000x16x1_0_1 _ (ix3 n r 0) (ix2 n r) (fun a => match a with
    | ⟨0, _⟩ => by show n.val = if (6000 : Nat) = 1 then 0 else n.val; rw [if_neg (by decide)]
    | ⟨1, _⟩ => by show r.val = if (16 : Nat) = 1 then 0 else r.val; rw [if_neg (by decide)])]
  simp only [Host.reduceAdd, Ideal.hostReduceAdd_def]
  rw [Ideal.hostReduceAdd_single reducesTo_S6000x16x1024_S6000x16_d2 (by decide)]
  show Ideal.ofBits .f32 0x00000000#32 + _ = _
  rw [Ideal.ofBits_zero_f32, zero_add]
  refine Finset.sum_congr rfl fun j _ => ?_
  show M _ * M _ = _
  have e : (Shape.Reduces.lift (s := S6000x16x1024) (t := S6000x16) (a := 2) (by decide) (ix2 n r) j) = ix3 n r j :=
    funext fun a => Fin.ext (by match a with | ⟨0, _⟩ => rfl | ⟨1, _⟩ => rfl | ⟨2, _⟩ => rfl)
  rw [e]
  rfl

/-- **The pure lemma.** If the table `M` is, entry by entry, the blend of an attribute table `A` under a mask and an
    overlay, its normalisation at `(n, r, k)` is entry `k` of the normalised offset row `r` of class `n`. -/
theorem normalised_entry (M : FVec Ideal S6000x16x1024 .f32) (mk ov : (⟨2, ![16, 1024]⟩ : Shape).Idx → EReal)
    (A : (⟨2, ![6000, 1024]⟩ : Shape).Idx → EReal)
    (hM : ∀ (n : Fin 6000) (r : Fin 16) (k : Fin 1024),
      M (ix3 n r k) = Cert.Spec.blend (mk (ix2 r k)) (ov (ix2 r k)) (A (ix2 n k)))
    (n : Fin 6000) (r : Fin 16) (k : Fin 1024) :
    normStage M (ix3 n r k)
      = Cert.Spec.entry (fun r k => mk (ix2 r k)) (fun r k => ov (ix2 r k)) (fun k => A (ix2 n k)) r k := by
  rw [normStage_apply]
  simp only [hM]
  rfl

/-- The normalised table `[6000, 16, 1024]` of the reference. -/
def table (x0 : FVec Ideal S6000x1024 .f32) (x1 : FVec Ideal S1x15 .f32) (x2 : IVec S14x64 32) :
    FVec Ideal S6000x16x1024 .f32 :=
  normStage (embed x0 x1 x2)

/-- The normalised table at `(n, r, k)` is entry `k` of the normalised offset row `r` of class `n`. -/
theorem table_apply (x0 : FVec Ideal S6000x1024 .f32) (x1 : FVec Ideal S1x15 .f32) (x2 : IVec S14x64 32)
    (n : Fin 6000) (r : Fin 16) (k : Fin 1024) :
    table x0 x1 x2 (ix3 n r k)
      = Cert.Spec.entry (fun r k => maskOf x2 (ix2 r k)) (fun r k => ovOf x1 x2 (ix2 r k))
          (fun k => x0 (ix2 n k)) r k :=
  normalised_entry _ _ _ _ (embed_apply x0 x1 x2) n r k

/-! ## Taking whole rows of the table by an id array -/

section Rows
variable {α : Type}

/-- The dimension numbers of "take whole rows along axis 0": operand `[6000, 16, 1024]`, start indices `[J, 1]`,
    result `[J, 16, 1024]`. -/
abbrev rowsDims (J : Nat)
    (wf : GatherDims.WF S6000x16x1024 ⟨2, ![J, 1]⟩ ⟨3, ![J, 16, 1024]⟩ [1, 2] [0] [] [0] [] 1 ![1, 16, 1024]) :
    GatherDims S6000x16x1024 ⟨2, ![J, 1]⟩ ⟨3, ![J, 16, 1024]⟩ where
  offsetDims := [1, 2]
  collapsedSliceDims := [0]
  operandBatchingDims := []
  startIndicesBatchingDims := []
  startIndexMap := [0]
  indexVectorDim := 1
  sliceSizes := ![1, 16, 1024]
  wf := wf

/-- The gather read at `(y, r, k)`: the operand at row `idx[y, 0]` (read signed, clamped into `[0, 5999]`), same `r`
    and `k`. -/
theorem gather_rows_apply {J w : Nat}
    (wf : GatherDims.WF S6000x16x1024 ⟨2, ![J, 1]⟩ ⟨3, ![J, 16, 1024]⟩ [1, 2] [0] [] [0] [] 1 ![1, 16, 1024])
    (x : S6000x16x1024.Idx → α) (idx : IVec ⟨2, ![J, 1]⟩ w) (y : Fin J) (r : Fin 16) (k : Fin 1024) :
    Host.gather (rowsDims J wf) x idx (ix3 y r k)
      = x (ix3 ⟨min (idx (ix2 y 0)).toInt.toNat 5999, by omega⟩ r k) := by
  unfold Host.gather
  congr 1
  funext a
  refine Fin.ext ?_
  match a with
  | ⟨0, _⟩ =>
    show (rowsDims J wf).start (ix3 y r k) idx 0 + (rowsDims J wf).batchCoord (ix3 y r k) 0
      + (rowsDims J wf).offCoord (ix3 y r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims J wf).startIndexMap from List.mem_singleton.mpr rfl)]
    have hsi : (rowsDims J wf).siIdx (ix3 y r k) ⟨List.idxOf (0 : Fin 3) (rowsDims J wf).startIndexMap,
        List.idxOf_lt_length_iff.2 (List.mem_singleton.mpr rfl)⟩ = ix2 y 0 := by
      funext b; refine Fin.ext ?_
      match b with
      | ⟨0, _⟩ => rfl
      | ⟨1, _⟩ => rfl
    rw [hsi]
    rfl
  | ⟨1, _⟩ =>
    show (rowsDims J wf).start (ix3 y r k) idx 1 + (rowsDims J wf).batchCoord (ix3 y r k) 1
      + (rowsDims J wf).offCoord (ix3 y r k) 1 = r.val
    rw [GatherDims.batchCoord_eq_zero _ _ _ List.not_mem_nil]
    unfold GatherDims.start
    rw [dif_neg (show (1 : Fin 3) ∉ (rowsDims J wf).startIndexMap from
      (by decide : (1 : Fin 3) ∉ ([0] : List (Fin 3))))]
    unfold GatherDims.offCoord
    rw [dif_pos (show (1 : Fin 3) ∈ (rowsDims J wf).sKept from
      (by decide : (1 : Fin 3) ∈ S6000x16x1024.kept ([0] ++ [])))]
    simp only [Nat.zero_add, Nat.add_zero]
    rfl
  | ⟨2, _⟩ =>
    show (rowsDims J wf).start (ix3 y r k) idx 2 + (rowsDims J wf).batchCoord (ix3 y r k) 2
      + (rowsDims J wf).offCoord (ix3 y r k) 2 = k.val
    rw [GatherDims.batchCoord_eq_zero _ _ _ List.not_mem_nil]
    unfold GatherDims.start
    rw [dif_neg (show (2 : Fin 3) ∉ (rowsDims J wf).startIndexMap from
      (by decide : (2 : Fin 3) ∉ ([0] : List (Fin 3))))]
    unfold GatherDims.offCoord
    rw [dif_pos (show (2 : Fin 3) ∈ (rowsDims J wf).sKept from
      (by decide : (2 : Fin 3) ∈ S6000x16x1024.kept ([0] ++ [])))]
    simp only [Nat.zero_add, Nat.add_zero]
    rfl

/-- An id after "a negative id counts from the end": an id below `6000` as a natural number is not negative as a signed
    word, so it is kept; and clamping it into `[0, 5999]` changes nothing. -/
theorem norm_id (w : BitVec 32) (h : w.toNat < 6000) :
    min (Scalar.select (IntOp.cmpi .slt w 0#32) (IntOp.addi w 6000#32) w).toInt.toNat 5999 = w.toNat := by
  have hi : w.toInt = (w.toNat : Int) := BitVec.toInt_eq_toNat_of_lt (by omega)
  have hs : IntOp.cmpi .slt w 0#32 = 0#1 := by
    refine eq_zero_of_ne_one (fun h1 => ?_)
    have h2 := IntOp.cmpi_slt.1 h1
    rw [hi] at h2
    have h0 : (0#32 : BitVec 32).toInt = 0 := by decide
    omega
  rw [hs, select_zero, hi]
  omega

/-- The id array as the gather reads it: normalised ("negative counts from the end" against `6000`) and given a
    trailing unit axis. -/
def normIds {J : Nat} (hb0 : S_.BroadcastsInDim ⟨1, ![J]⟩ (![] : Fin 0 → Fin 1))
    (hb1 : (⟨1, ![J]⟩ : Shape).BroadcastsInDim ⟨2, ![J, 1]⟩ (![0] : Fin 1 → Fin 2))
    (ids : IVec ⟨1, ![J]⟩ 32) : IVec ⟨2, ![J, 1]⟩ 32 :=
  broadcastInDim ⟨2, ![J, 1]⟩ ![0] hb1
    (select (cmpi .slt ids (broadcastInDim ⟨1, ![J]⟩ ![] hb0 (constantI S_ 32 0#32)))
      (addi ids (broadcastInDim ⟨1, ![J]⟩ ![] hb0 (constantI S_ 32 6000#32))) ids)

/-- Rows taken by an id array whose ids are all below `6000`: result row `y` is the table's row `ids[y]`. -/
theorem take_rows_apply {J : Nat}
    (wf : GatherDims.WF S6000x16x1024 ⟨2, ![J, 1]⟩ ⟨3, ![J, 16, 1024]⟩ [1, 2] [0] [] [0] [] 1 ![1, 16, 1024])
    (hb0 : S_.BroadcastsInDim ⟨1, ![J]⟩ (![] : Fin 0 → Fin 1))
    (hb1 : (⟨1, ![J]⟩ : Shape).BroadcastsInDim ⟨2, ![J, 1]⟩ (![0] : Fin 1 → Fin 2))
    (T : S6000x16x1024.Idx → α) (ids : IVec ⟨1, ![J]⟩ 32) (h : ∀ y, (ids y).toNat < 6000)
    (y : Fin J) (r : Fin 16) (k : Fin 1024) :
    Host.gather (rowsDims J wf) T (normIds hb0 hb1 ids) (ix3 y r k)
      = T (ix3 (Cert.Target.rowOf (ids (ValueIdx.ix1 y))) r k) := by
  rw [gather_rows_apply]
  have e : normIds hb0 hb1 ids (ix2 y 0)
      = Scalar.select (IntOp.cmpi .slt (ids (ValueIdx.ix1 y)) 0#32) (IntOp.addi (ids (ValueIdx.ix1 y)) 6000#32)
          (ids (ValueIdx.ix1 y)) := by
    unfold normIds
    rw [broadcastInDim_apply _ hb1 _ (ix2 y 0) (ValueIdx.ix1 y) (fun a => match a with
      | ⟨0, _⟩ => by
        show y.val = if J = 1 then 0 else y.val
        have := y.isLt
        split <;> omega)]
    show Scalar.select (IntOp.cmpi .slt (ids (ValueIdx.ix1 y)) _) (IntOp.addi (ids (ValueIdx.ix1 y)) _) _ = _
    rw [broadcastInDim_apply _ hb0 (constantI S_ 32 0#32) (ValueIdx.ix1 y) (fun a => a.elim0) (fun a => a.elim0),
      broadcastInDim_apply _ hb0 (constantI S_ 32 6000#32) (ValueIdx.ix1 y) (fun a => a.elim0) (fun a => a.elim0)]
    rfl
  congr 1
  funext a
  match a with
  | ⟨0, _⟩ =>
    refine Fin.ext ?_
    show min (normIds hb0 hb1 ids (ix2 y 0)).toInt.toNat 5999 = (Cert.Target.rowOf (ids (ValueIdx.ix1 y))).val
    rw [e, norm_id _ (h _), Cert.Target.rowOf_val _ (h _)]
  | ⟨1, _⟩ => rfl
  | ⟨2, _⟩ => rfl

end Rows

/-! ## The three results as pure terms of the arguments -/

/-- The result over all 6000 classes: the table's `96000` rows `(n, r)` as columns. -/
def out2 (x0 : FVec Ideal S6000x1024 .f32) (x1 : FVec Ideal S1x15 .f32) (x2 : IVec S14x64 32) :
    FVec Ideal S1024x96000 .f32 :=
  transpose S1024x96000 [1, 0] (shapeCast S96000x1024 (table x0 x1 x2) shapeCasts_S6000x16x1024_S96000x1024)
    transposes_S96000x1024_S1024x96000_1_0

/-- Column `q` of the whole-table result is offset row `q % 16` of class `q / 16`. -/
theorem out2_eq (x0 : FVec Ideal S6000x1024 .f32) (x1 : FVec Ideal S1x15 .f32) (x2 : IVec S14x64 32) :
    out2 x0 x1 x2 = Cert.Target.all2 x0 (maskOf x2) (ovOf x1 x2) := by
  funext i
  have h0 : (i 0).val < 1024 := idx2_lt0 i
  have h1 : (i 1).val < 96000 := idx2_lt1 i
  unfold out2
  rw [transpose_apply [1, 0] _ transposes_S96000x1024_S1024x96000_1_0 i (ix2 (i 1) (i 0)) (fun b => match b with
    | ⟨0, _⟩ => rfl
    | ⟨1, _⟩ => rfl)]
  rw [shapeCast_apply _ shapeCasts_S6000x16x1024_S96000x1024 (ix2 (i 1) (i 0))
    (ix3 ⟨(i 1).val / 16, by omega⟩ ⟨(i 1).val % 16, Nat.mod_lt _ (by decide)⟩ (i 0))
    (by rewrite [Shape.rowMajor_val_three, Shape.rowMajor_val_two]
        show ((i 1).val / 16 * 16 + (i 1).val % 16) * 1024 + (i 0).val = (i 1).val * 1024 + (i 0).val
        omega)]
  exact (table_apply x0 x1 x2 ⟨(i 1).val / 16, by omega⟩ ⟨(i 1).val % 16, Nat.mod_lt _ (by decide)⟩ (i 0)).trans rfl

/-- The result selected by the 1200 unseen-class ids: the rows of the table the ids name, as columns. -/
def out0 (x0 : FVec Ideal S6000x1024 .f32) (x1 : FVec Ideal S1x15 .f32) (x2 : IVec S14x64 32) (x3 : IVec S1200 32) :
    FVec Ideal S1024x19200 .f32 :=
  transpose S1024x19200 [1, 0]
    (shapeCast S19200x1024
      (Host.gather gather_S6000x16x1024_S1200x1_S1200x16x1024_12_0_n_n_0_1_1161024 (table x0 x1 x2)
        (normIds bcast_S_S1200 bcast_S1200_S1200x1_0 x3))
      shapeCasts_S1200x16x1024_S19200x1024)
    transposes_S19200x1024_S1024x19200_1_0

/-- Column `q` of the first selected result is offset row `q % 16` of the class id `q / 16` names. -/
theorem out0_eq (x0 : FVec Ideal S6000x1024 .f32) (x1 : FVec Ideal S1x15 .f32) (x2 : IVec S14x64 32)
    (x3 : IVec S1200 32) (h : ∀ y, (x3 y).toNat < 6000) :
    out0 x0 x1 x2 x3 = Cert.Target.sel0 x0 (maskOf x2) (ovOf x1 x2) x3 := by
  funext i
  have h0 : (i 0).val < 1024 := idx2_lt0 i
  have h1 : (i 1).val < 19200 := idx2_lt1 i
  unfold out0
  rw [transpose_apply [1, 0] _ transposes_S19200x1024_S1024x19200_1_0 i (ix2 (i 1) (i 0)) (fun b => match b with
    | ⟨0, _⟩ => rfl
    | ⟨1, _⟩ => rfl)]
  rw [shapeCast_apply _ shapeCasts_S1200x16x1024_S19200x1024 (ix2 (i 1) (i 0))
    (ix3 ⟨(i 1).val / 16, by omega⟩ ⟨(i 1).val % 16, Nat.mod_lt _ (by decide)⟩ (i 0))
    (by rewrite [Shape.rowMajor_val_three, Shape.rowMajor_val_two]
        show ((i 1).val / 16 * 16 + (i 1).val % 16) * 1024 + (i 0).val = (i 1).val * 1024 + (i 0).val
        omega)]
  refine (take_rows_apply gather_S6000x16x1024_S1200x1_S1200x16x1024_12_0_n_n_0_1_1161024_wf bcast_S_S1200
    bcast_S1200_S1200x1_0 (table x0 x1 x2) x3 h ⟨(i 1).val / 16, by omega⟩ ⟨(i 1).val % 16, Nat.mod_lt _ (by decide)⟩
    (i 0)).trans ?_
  exact (table_apply x0 x1 x2 _ ⟨(i 1).val % 16, Nat.mod_lt _ (by decide)⟩ (i 0)).trans rfl

/-- The result selected by the 4800 seen-class ids. -/
def out1 (x0 : FVec Ideal S6000x1024 .f32) (x1 : FVec Ideal S1x15 .f32) (x2 : IVec S14x64 32) (x4 : IVec S4800 32) :
    FVec Ideal S1024x76800 .f32 :=
  transpose S1024x76800 [1, 0]
    (shapeCast S76800x1024
      (Host.gather gather_S6000x16x1024_S4800x1_S4800x16x1024_12_0_n_n_0_1_1161024 (table x0 x1 x2)
        (normIds bcast_S_S4800 bcast_S4800_S4800x1_0 x4))
      shapeCasts_S4800x16x1024_S76800x1024)
    transposes_S76800x1024_S1024x76800_1_0

/-- Column `q` of the second selected result is offset row `q % 16` of the class id `q / 16` names. -/
theorem out1_eq (x0 : FVec Ideal S6000x1024 .f32) (x1 : FVec Ideal S1x15 .f32) (x2 : IVec S14x64 32)
    (x4 : IVec S4800 32) (h : ∀ y, (x4 y).toNat < 6000) :
    out1 x0 x1 x2 x4 = Cert.Target.sel1 x0 (maskOf x2) (ovOf x1 x2) x4 := by
  funext i
  have h0 : (i 0).val < 1024 := idx2_lt0 i
  have h1 : (i 1).val < 76800 := idx2_lt1 i
  unfold out1
  rw [transpose_apply [1, 0] _ transposes_S76800x1024_S1024x76800_1_0 i (ix2 (i 1) (i 0)) (fun b => match b with
    | ⟨0, _⟩ => rfl
    | ⟨1, _⟩ => rfl)]
  rw [shapeCast_apply _ shapeCasts_S4800x16x1024_S76800x1024 (ix2 (i 1) (i 0))
    (ix3 ⟨(i 1).val / 16, by omega⟩ ⟨(i 1).val % 16, Nat.mod_lt _ (by decide)⟩ (i 0))
    (by rewrite [Shape.rowMajor_val_three, Shape.rowMajor_val_two]
        show ((i 1).val / 16 * 16 + (i 1).val % 16) * 1024 + (i 0).val = (i 1).val * 1024 + (i 0).val
        omega)]
  refine (take_rows_apply gather_S6000x16x1024_S4800x1_S4800x16x1024_12_0_n_n_0_1_1161024_wf bcast_S_S4800
    bcast_S4800_S4800x1_0 (table x0 x1 x2) x4 h ⟨(i 1).val / 16, by omega⟩ ⟨(i 1).val % 16, Nat.mod_lt _ (by decide)⟩
    (i 0)).trans ?_
  exact (table_apply x0 x1 x2 _ ⟨(i 1).val % 16, Nat.mod_lt _ (by decide)⟩ (i 0)).trans rfl

/-! ## The reference's three results are the target functions of its arguments -/

section Results

open Idealize.ShloMosaic.TcCoe Idealize.SL.Sem

variable (m' : (ℓ : Loc nD τ sig) → Buf (Elt Ideal) ℓ) (c : Dev nD)

/-- The whole-table result of the reference's run is the target function `all2` of the launch's attribute table, mask
    and overlay. -/
theorem ref_v50 :
    Cert.ReferenceIdeal.ValueP.res_main_v50 m' c
      = Cert.Target.all2 (m' ((c.tc : Thread nD τ).loc main_arg0))
          (Host.scatter Cert.KernelIdeal.scatter_S16x1024_S14x64x2_S14x64_n_01_01_2 (fun _ b => b)
            (fun _ => (0 : EReal)) (Cert.KernelIdeal.HostK.idxT (m' ((c.tc : Thread nD τ).loc main_arg2)))
            (fun _ => Cert.Spec.one))
          (Host.scatter Cert.KernelIdeal.scatter_S16x1024_S14x64x2_S14x64_n_01_01_2 (fun _ b => b)
            (fun _ => (0 : EReal)) (Cert.KernelIdeal.HostK.idxT (m' ((c.tc : Thread nD τ).loc main_arg2)))
            (Cert.KernelIdeal.HostK.valsT (m' ((c.tc : Thread nD τ).loc main_arg1)))) := by
  refine Eq.trans ?_ (out2_eq (m' ((c.tc : Thread nD τ).loc main_arg0)) (m' ((c.tc : Thread nD τ).loc main_arg1))
    (m' ((c.tc : Thread nD τ).loc main_arg2)))
  unfold Cert.ReferenceIdeal.ValueP.res_main_v50
  rfl

/-- The first selected result of the reference's run is the target function `sel0`, when every id is below `6000`. -/
theorem ref_v39 (h : ∀ y, ((m' ((c.tc : Thread nD τ).loc main_arg3) : IVec S1200 32) y).toNat < 6000) :
    Cert.ReferenceIdeal.ValueP.res_main_v39 m' c
      = Cert.Target.sel0 (m' ((c.tc : Thread nD τ).loc main_arg0))
          (Host.scatter Cert.KernelIdeal.scatter_S16x1024_S14x64x2_S14x64_n_01_01_2 (fun _ b => b)
            (fun _ => (0 : EReal)) (Cert.KernelIdeal.HostK.idxT (m' ((c.tc : Thread nD τ).loc main_arg2)))
            (fun _ => Cert.Spec.one))
          (Host.scatter Cert.KernelIdeal.scatter_S16x1024_S14x64x2_S14x64_n_01_01_2 (fun _ b => b)
            (fun _ => (0 : EReal)) (Cert.KernelIdeal.HostK.idxT (m' ((c.tc : Thread nD τ).loc main_arg2)))
            (Cert.KernelIdeal.HostK.valsT (m' ((c.tc : Thread nD τ).loc main_arg1))))
          (m' ((c.tc : Thread nD τ).loc main_arg3)) := by
  refine Eq.trans ?_ (out0_eq (m' ((c.tc : Thread nD τ).loc main_arg0)) (m' ((c.tc : Thread nD τ).loc main_arg1))
    (m' ((c.tc : Thread nD τ).loc main_arg2)) (m' ((c.tc : Thread nD τ).loc main_arg3)) h)
  unfold Cert.ReferenceIdeal.ValueP.res_main_v39
  rfl

/-- The second selected result of the reference's run is the target function `sel1`, when every id is below `6000`. -/
theorem ref_v48 (h : ∀ y, ((m' ((c.tc : Thread nD τ).loc main_arg4) : IVec S4800 32) y).toNat < 6000) :
    Cert.ReferenceIdeal.ValueP.res_main_v48 m' c
      = Cert.Target.sel1 (m' ((c.tc : Thread nD τ).loc main_arg0))
          (Host.scatter Cert.KernelIdeal.scatter_S16x1024_S14x64x2_S14x64_n_01_01_2 (fun _ b => b)
            (fun _ => (0 : EReal)) (Cert.KernelIdeal.HostK.idxT (m' ((c.tc : Thread nD τ).loc main_arg2)))
            (fun _ => Cert.Spec.one))
          (Host.scatter Cert.KernelIdeal.scatter_S16x1024_S14x64x2_S14x64_n_01_01_2 (fun _ b => b)
            (fun _ => (0 : EReal)) (Cert.KernelIdeal.HostK.idxT (m' ((c.tc : Thread nD τ).loc main_arg2)))
            (Cert.KernelIdeal.HostK.valsT (m' ((c.tc : Thread nD τ).loc main_arg1))))
          (m' ((c.tc : Thread nD τ).loc main_arg4)) := by
  refine Eq.trans ?_ (out1_eq (m' ((c.tc : Thread nD τ).loc main_arg0)) (m' ((c.tc : Thread nD τ).loc main_arg1))
    (m' ((c.tc : Thread nD τ).loc main_arg2)) (m' ((c.tc : Thread nD τ).loc main_arg4)) h)
  unfold Cert.ReferenceIdeal.ValueP.res_main_v48
  rfl

end Results

end Cert.ReferenceIdeal.RefValue

end
-- ==== Proof.lean ====
/-
  The certificate of the three embedded, normalised and transposed class-attribute arrays.

  The kernel builds a sixteen-row mask and overlay on the host, then runs three pipelined regions: two gather the
  attribute rows that an id array names (the table copied once into a scratch, forty rows fetched per grid point), one
  walks all rows in order; each blends the overlay into the sixteen copies of a row, divides every copy by its clamped
  Euclidean norm and stores the transposed block. The reference scatters the overlay values into the replicated table,
  normalises, and gathers, reshapes and transposes. Over the extended reals both are, entry by entry, `Target.sel0`,
  `Target.sel1` and `Target.all2` of the arguments: the kernel side by the regions' runs (each output array the fold of
  its blocks, each block the body's arithmetic read at an index), the reference side by its run read one operation at a
  time, the two scatters joined by the fact that updates landing on one entry carry one value. The three frames: the
  kernel's, at either instance, from the three regions' segment records under the ids-in-range precondition; the
  reference's from its run. The kernel's idealization rewrote nothing.
-/
import proofs.«403142_j86199993631438_1_alg».proof.Defs
import proofs.«403142_j86199993631438_1_alg».proof.Proof.Gen.Kernel
import proofs.«403142_j86199993631438_1_alg».proof.Proof.Gen.KernelIdeal
import proofs.«403142_j86199993631438_1_alg».proof.Proof.Gen.ReferenceIdeal
import proofs.«403142_j86199993631438_1_alg».proof.Proof.Gen.Pre_finite_inputs
import proofs.«403142_j86199993631438_1_alg».proof.Proof.K.Frames
import proofs.«403142_j86199993631438_1_alg».proof.Proof.KernelRun
import proofs.«403142_j86199993631438_1_alg».proof.Proof.HostK
import proofs.«403142_j86199993631438_1_alg».proof.Proof.RefValue
import proofs.«403142_j86199993631438_1_alg».proof.Proof.RefRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ hpre =>
  Cert.Kernel.Hand.frame m ρ (Cert.Kernel.Hand.idsOk_of_pre m hpre)

/-- The idealized kernel runs and keeps its arguments. -/
theorem frame_ki : Cert.frame_KernelIdeal := fun m ρ hpre =>
  Cert.KernelIdeal.Hand.frame m ρ (Cert.KernelIdeal.Hand.idsOk_of_pre m hpre)

/-- The reference runs and keeps its arguments: its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote nothing. -/
theorem preserves : Cert.preserves_Kernel_KernelIdeal := trivial

/-- From memories agreeing on the arguments both idealized programs end with the three target functions of those
    arguments: the kernel's mask and overlay arrays are the two sixteen-row scatters the targets are written over, and
    under the precondition every class id names its own row on both sides. -/
theorem algebraic : Cert.algebraic_KernelIdeal_ReferenceIdeal := by
  intro m ρ m' ρ' hpre hagree
  have hH := Cert.KernelIdeal.Hand.idsOk_of_pre m hpre
  have hids := fun c => Cert.KernelIdeal.Hand.words_in_range (F := Ideal) _ _ _ _ _ (hpre c)
  refine ⟨fun c => Cert.Target.sel0 (m ((c.tc : Thread Cert.KernelIdeal.nD Cert.KernelIdeal.τ).loc Cert.KernelIdeal.main_arg0)) (Host.scatter Cert.KernelIdeal.scatter_S16x1024_S14x64x2_S14x64_n_01_01_2 (fun _ b => b) (fun _ => (0 : EReal)) (Cert.KernelIdeal.HostK.idxT (m ((c.tc : Thread Cert.KernelIdeal.nD Cert.KernelIdeal.τ).loc Cert.KernelIdeal.main_arg2))) (fun _ => Cert.Spec.one)) (Host.scatter Cert.KernelIdeal.scatter_S16x1024_S14x64x2_S14x64_n_01_01_2 (fun _ b => b) (fun _ => (0 : EReal)) (Cert.KernelIdeal.HostK.idxT (m ((c.tc : Thread Cert.KernelIdeal.nD Cert.KernelIdeal.τ).loc Cert.KernelIdeal.main_arg2))) (Cert.KernelIdeal.HostK.valsT (m ((c.tc : Thread Cert.KernelIdeal.nD Cert.KernelIdeal.τ).loc Cert.KernelIdeal.main_arg1)))) (m ((c.tc : Thread Cert.KernelIdeal.nD Cert.KernelIdeal.τ).loc Cert.KernelIdeal.main_arg3)),
    fun c => Cert.Target.sel1 (m ((c.tc : Thread Cert.KernelIdeal.nD Cert.KernelIdeal.τ).loc Cert.KernelIdeal.main_arg0)) (Host.scatter Cert.KernelIdeal.scatter_S16x1024_S14x64x2_S14x64_n_01_01_2 (fun _ b => b) (fun _ => (0 : EReal)) (Cert.KernelIdeal.HostK.idxT (m ((c.tc : Thread Cert.KernelIdeal.nD Cert.KernelIdeal.τ).loc Cert.KernelIdeal.main_arg2))) (fun _ => Cert.Spec.one)) (Host.scatter Cert.KernelIdeal.scatter_S16x1024_S14x64x2_S14x64_n_01_01_2 (fun _ b => b) (fun _ => (0 : EReal)) (Cert.KernelIdeal.HostK.idxT (m ((c.tc : Thread Cert.KernelIdeal.nD Cert.KernelIdeal.τ).loc Cert.KernelIdeal.main_arg2))) (Cert.KernelIdeal.HostK.valsT (m ((c.tc : Thread Cert.KernelIdeal.nD Cert.KernelIdeal.τ).loc Cert.KernelIdeal.main_arg1)))) (m ((c.tc : Thread Cert.KernelIdeal.nD Cert.KernelIdeal.τ).loc Cert.KernelIdeal.main_arg4)),
    fun c => Cert.Target.all2 (m ((c.tc : Thread Cert.KernelIdeal.nD Cert.KernelIdeal.τ).loc Cert.KernelIdeal.main_arg0)) (Host.scatter Cert.KernelIdeal.scatter_S16x1024_S14x64x2_S14x64_n_01_01_2 (fun _ b => b) (fun _ => (0 : EReal)) (Cert.KernelIdeal.HostK.idxT (m ((c.tc : Thread Cert.KernelIdeal.nD Cert.KernelIdeal.τ).loc Cert.KernelIdeal.main_arg2))) (fun _ => Cert.Spec.one)) (Host.scatter Cert.KernelIdeal.scatter_S16x1024_S14x64x2_S14x64_n_01_01_2 (fun _ b => b) (fun _ => (0 : EReal)) (Cert.KernelIdeal.HostK.idxT (m ((c.tc : Thread Cert.KernelIdeal.nD Cert.KernelIdeal.τ).loc Cert.KernelIdeal.main_arg2))) (Cert.KernelIdeal.HostK.valsT (m ((c.tc : Thread Cert.KernelIdeal.nD Cert.KernelIdeal.τ).loc Cert.KernelIdeal.main_arg1)))), ?_, ?_⟩
  · refine (θ_run Cert.KernelIdeal.defs _ _).mono (fun _ h c => ?_) (Cert.KernelIdeal.Hand.kernel_run m ρ hH)
    obtain ⟨h0, h1, h2, hr⟩ := h c
    rw [Cert.KernelIdeal.HostK.V1_mask m c, Cert.KernelIdeal.HostK.V1_overlay m c] at h0 h1 h2
    exact ⟨h0, h1, h2, hr⟩
  · refine (θ_run Cert.ReferenceIdeal.defs _ _).mono (fun _ h c => ?_) (Cert.ReferenceIdeal.ValueP.run (F := Ideal) m' ρ')
    obtain ⟨h0, h1, h2, hr⟩ := h c
    obtain ⟨e0, e1, e2, e3, e4⟩ := hagree c
    refine ⟨h0.trans ?_, h1.trans ?_, h2.trans ?_, hr⟩
    · rw [Cert.ReferenceIdeal.RefValue.ref_v39 m' c (by rw [e3]; exact (hids c).1), e0, e1, e2, e3]
    · rw [Cert.ReferenceIdeal.RefValue.ref_v48 m' c (by rw [e4]; exact (hids c).2), e0, e1, e2, e4]
    · rw [Cert.ReferenceIdeal.RefValue.ref_v50 m' c, e0, e1, e2]

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
